-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S320000x16 : Shape := ⟨2, ![320000, 16]⟩
abbrev S2x320000 : Shape := ⟨2, ![2, 320000]⟩
abbrev S20000 : Shape := ⟨1, ![20000]⟩
abbrev S80x300 : Shape := ⟨2, ![80, 300]⟩
abbrev S300 : Shape := ⟨1, ![300]⟩
abbrev S3x300x300 : Shape := ⟨3, ![3, 300, 300]⟩
abbrev S3x300 : Shape := ⟨2, ![3, 300]⟩
abbrev S364x300 : Shape := ⟨2, ![364, 300]⟩
abbrev S300x1 : Shape := ⟨2, ![300, 1]⟩
abbrev S1 : Shape := ⟨1, ![1]⟩
abbrev S_ : Shape := ⟨0, ![]⟩
abbrev S1x320000 : Shape := ⟨2, ![1, 320000]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S80x300 : S_.BroadcastsInDim S80x300 (![] : Fin 0 → Fin S80x300.rank)
  reducesTo_S80x300_S_d0_1 : S80x300.ReducesTo [0, 1] S_
  bcast_S_S300 : S_.BroadcastsInDim S300 (![] : Fin 0 → Fin S300.rank)
  reducesTo_S300_S_d0 : S300.ReducesTo [0] S_
  bcast_S_S3x300x300 : S_.BroadcastsInDim S3x300x300 (![] : Fin 0 → Fin S3x300x300.rank)
  reducesTo_S3x300x300_S_d0_1_2 : S3x300x300.ReducesTo [0, 1, 2] S_
  bcast_S_S3x300 : S_.BroadcastsInDim S3x300 (![] : Fin 0 → Fin S3x300.rank)
  reducesTo_S3x300_S_d0_1 : S3x300.ReducesTo [0, 1] S_
  bcast_S_S364x300 : S_.BroadcastsInDim S364x300 (![] : Fin 0 → Fin S364x300.rank)
  reducesTo_S364x300_S_d0_1 : S364x300.ReducesTo [0, 1] S_
  bcast_S_S300x1 : S_.BroadcastsInDim S300x1 (![] : Fin 0 → Fin S300x1.rank)
  reducesTo_S300x1_S_d0_1 : S300x1.ReducesTo [0, 1] S_
  bcast_S_S1 : S_.BroadcastsInDim S1 (![] : Fin 0 → Fin S1.rank)
  reducesTo_S1_S_d0 : S1.ReducesTo [0] S_
  slices_S2x320000_S1x320000_0_0 : S2x320000.Slices ![0, 0] S1x320000
  bcast_S_S1x320000 : S_.BroadcastsInDim S1x320000 (![] : Fin 0 → Fin S1x320000.rank)
  reducesTo_S1x320000_S_d0_1 : S1x320000.ReducesTo [0, 1] S_

variable [Facts]

def fn_part3 {F : FTy → Type} [FloatOps F] (main_arg2 : IVec S2x320000 32) (main_v48 : IVec S_ 1) (main_v49 : IVec S1x320000 32) (main_v50 : IVec S1x320000 32) : IVec S_ 1 :=
  let main_v51 : IVec S1x320000 1 := cmpi .sge main_v49 main_v50
  let main_c_19 : IVec S_ 1 := constantI S_ 1 1#1
  let main_v52 : IVec S_ 1 := (fun x v => Host.reduce IntOp.andi x v reducesTo_S1x320000_S_d0_1 h_S_) main_v51 main_c_19
  let main_v53 : IVec S_ 1 := andi main_v48 main_v52
  let main_v54 : IVec S1x320000 32 := (extractStridedSlice S1x320000 ![0, 0] · slices_S2x320000_S1x320000_0_0) main_arg2
  let main_c_20 : IVec S_ 32 := constantI S_ 32 20000#32
  let main_v55 : IVec S1x320000 32 := broadcastInDim S1x320000 ![] bcast_S_S1x320000 main_c_20
  let main_v56 : IVec S1x320000 1 := cmpi .slt main_v54 main_v55
  let main_c_21 : IVec S_ 1 := constantI S_ 1 1#1
  let main_v57 : IVec S_ 1 := (fun x v => Host.reduce IntOp.andi x v reducesTo_S1x320000_S_d0_1 h_S_) main_v56 main_c_21
  let main_v58 : IVec S_ 1 := andi main_v53 main_v57
  main_v58

def fn_part2 {F : FTy → Type} [FloatOps F] (main_arg2 : IVec S2x320000 32) (main_arg9 : FVec F S300 .f32) (main_arg10 : FVec F S300x1 .f32) (main_arg11 : FVec F S1 .f32) (main_v33 : IVec S_ 1) : IVec S_ 1 :=
  let main_v34 : FVec F S300 .f32 := Host.absf main_arg9
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S300x1 .f32 := Host.absf main_arg10
  let main_cst_14 : FVec F S_ .f32 := constant S_ .f32 0x7F800000#32
  let main_v40 : FVec F S300x1 .f32 := broadcastInDim S300x1 ![] bcast_S_S300x1 main_cst_14
  let main_v41 : IVec S300x1 1 := cmpf .olt main_v39 main_v40
  let main_c_15 : IVec S_ 1 := constantI S_ 1 1#1
  let main_v42 : IVec S_ 1 := (fun x v => Host.reduce IntOp.andi x v reducesTo_S300x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : IVec S1x320000 32 := (extractStridedSlice S1x320000 ![0, 0] · slices_S2x320000_S1x320000_0_0) main_arg2
  let main_c_18 : IVec S_ 32 := constantI S_ 32 4294947296#32
  let main_v50 : IVec S1x320000 32 := broadcastInDim S1x320000 ![] bcast_S_S1x320000 main_c_18
  fn_part3 (F := F) main_arg2 main_v48 main_v49 main_v50

def fn_part1 {F : FTy → Type} [FloatOps F] (main_arg2 : IVec S2x320000 32) (main_arg6 : FVec F S3x300x300 .f32) (main_arg7 : FVec F S3x300 .f32) (main_arg8 : FVec F S364x300 .f32) (main_arg9 : FVec F S300 .f32) (main_arg10 : FVec F S300x1 .f32) (main_arg11 : FVec F S1 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S3x300x300 .f32 := Host.absf main_arg6
  let main_cst_6 : FVec F S_ .f32 := constant S_ .f32 0x7F800000#32
  let main_v20 : FVec F S3x300x300 .f32 := broadcastInDim S3x300x300 ![] bcast_S_S3x300x300 main_cst_6
  let main_v21 : IVec S3x300x300 1 := cmpf .olt main_v19 main_v20
  let main_c_7 : IVec S_ 1 := constantI S_ 1 1#1
  let main_v22 : IVec S_ 1 := (fun x v => Host.reduce IntOp.andi x v reducesTo_S3x300x300_S_d0_1_2 h_S_) main_v21 main_c_7
  let main_v23 : IVec S_ 1 := andi main_v18 main_v22
  let main_v24 : FVec F S3x300 .f32 := Host.absf main_arg7
  let main_cst_8 : FVec F S_ .f32 := constant S_ .f32 0x7F800000#32
  let main_v25 : FVec F S3x300 .f32 := broadcastInDim S3x300 ![] bcast_S_S3x300 main_cst_8
  let main_v26 : IVec S3x300 1 := cmpf .olt main_v24 main_v25
  let main_c_9 : IVec S_ 1 := constantI S_ 1 1#1
  let main_v27 : IVec S_ 1 := (fun x v => Host.reduce IntOp.andi x v reducesTo_S3x300_S_d0_1 h_S_) main_v26 main_c_9
  let main_v28 : IVec S_ 1 := andi main_v23 main_v27
  let main_v29 : FVec F S364x300 .f32 := Host.absf main_arg8
  let main_cst_10 : FVec F S_ .f32 := constant S_ .f32 0x7F800000#32
  let main_v30 : FVec F S364x300 .f32 := broadcastInDim S364x300 ![] bcast_S_S364x300 main_cst_10
  let main_v31 : IVec S364x300 1 := cmpf .olt main_v29 main_v30
  let main_c_11 : IVec S_ 1 := constantI S_ 1 1#1
  let main_v32 : IVec S_ 1 := (fun x v => Host.reduce IntOp.andi x v reducesTo_S364x300_S_d0_1 h_S_) main_v31 main_c_11
  let main_v33 : IVec S_ 1 := andi main_v28 main_v32
  fn_part2 (F := F) main_arg2 main_arg9 main_arg10 main_arg11 main_v33

def fn {F : FTy → Type} [FloatOps F] (main_arg0 : FVec F S20000x64 .f32) (main_arg1 : FVec F S320000x16 .f32) (main_arg2 : IVec S2x320000 32) (main_arg3 : IVec S20000 32) (main_arg4 : FVec F S80x300 .f32) (main_arg5 : FVec F S300 .f32) (main_arg6 : FVec F S3x300x300 .f32) (main_arg7 : FVec F S3x300 .f32) (main_arg8 : FVec F S364x300 .f32) (main_arg9 : FVec F S300 .f32) (main_arg10 : FVec F S300x1 .f32) (main_arg11 : FVec F S1 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S320000x16 .f32 := Host.absf main_arg1
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S80x300 .f32 := Host.absf main_arg4
  let main_cst_2 : FVec F S_ .f32 := constant S_ .f32 0x7F800000#32
  let main_v10 : FVec F S80x300 .f32 := broadcastInDim S80x300 ![] bcast_S_S80x300 main_cst_2
  let main_v11 : IVec S80x300 1 := cmpf .olt main_v9 main_v10
  let main_c_3 : IVec S_ 1 := constantI S_ 1 1#1
  let main_v12 : IVec S_ 1 := (fun x v => Host.reduce IntOp.andi x v reducesTo_S80x300_S_d0_1 h_S_) main_v11 main_c_3
  let main_v13 : IVec S_ 1 := andi main_v8 main_v12
  let main_v14 : FVec F S300 .f32 := Host.absf main_arg5
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg2 main_arg6 main_arg7 main_arg8 main_arg9 main_arg10 main_arg11 main_v13 main_v16
-- ==== Kernel.lean ====
abbrev S20000x64 : Shape := ⟨2, ![20000, 64]⟩
abbrev S320000x16 : Shape := ⟨2, ![320000, 16]⟩
abbrev S2x320000 : Shape := ⟨2, ![2, 320000]⟩
abbrev S20000 : Shape := ⟨1, ![20000]⟩
abbrev S80x300 : Shape := ⟨2, ![80, 300]⟩
abbrev S300 : Shape := ⟨1, ![300]⟩
abbrev S3x300x300 : Shape := ⟨3, ![3, 300, 300]⟩
abbrev S3x300 : Shape := ⟨2, ![3, 300]⟩
abbrev S364x300 : Shape := ⟨2, ![364, 300]⟩
abbrev S300x1 : Shape := ⟨2, ![300, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x1 : Shape := ⟨2, ![1, 1]⟩
abbrev S320000x64 : Shape := ⟨2, ![320000, 64]⟩
abbrev S64x300 : Shape := ⟨2, ![64, 300]⟩
abbrev S16x300 : Shape := ⟨2, ![16, 300]⟩
abbrev S320000x300 : Shape := ⟨2, ![320000, 300]⟩
abbrev S3200x64 : Shape := ⟨2, ![3200, 64]⟩
abbrev S3200x16 : Shape := ⟨2, ![3200, 16]⟩
abbrev S3200x300 : Shape := ⟨2, ![3200, 300]⟩
abbrev S1x300 : Shape := ⟨2, ![1, 300]⟩
abbrev S20000x300 : Shape := ⟨2, ![20000, 300]⟩
abbrev S1x300x300 : Shape := ⟨3, ![1, 300, 300]⟩
abbrev S300x300 : Shape := ⟨2, ![300, 300]⟩
abbrev S1600x300 : Shape := ⟨2, ![1600, 300]⟩
abbrev S800x600 : Shape := ⟨2, ![800, 600]⟩
abbrev S800x300 : Shape := ⟨2, ![800, 300]⟩
abbrev S2000x64 : Shape := ⟨2, ![2000, 64]⟩
abbrev S2000x300 : Shape := ⟨2, ![2000, 300]⟩
abbrev S128x300 : Shape := ⟨2, ![128, 300]⟩
abbrev S20000x1 : Shape := ⟨2, ![20000, 1]⟩
abbrev S128x1 : Shape := ⟨2, ![128, 1]⟩
abbrev S128 : Shape := ⟨1, ![128]⟩

abbrev nBuf : Space → Nat
  | .hbm => 163
  | .vmem => 48
  | .smem => 0
  | _ => 0

abbrev hbmTy0_0 (i : Nat) : BufTy := match i % 128 with
  | 0 => ⟨S20000x64, .f32⟩
  | 1 => ⟨S320000x16, .f32⟩
  | 2 => ⟨S2x320000, .i32⟩
  | 3 => ⟨S20000, .i32⟩
  | 4 => ⟨S80x300, .f32⟩
  | 5 => ⟨S300, .f32⟩
  | 6 => ⟨S3x300x300, .f32⟩
  | 7 => ⟨S3x300, .f32⟩
  | 8 => ⟨S364x300, .f32⟩
  | 9 => ⟨S300, .f32⟩
  | 10 => ⟨S300x1, .f32⟩
  | 11 => ⟨S1, .f32⟩
  | 12 => ⟨S1x320000, .i32⟩
  | 13 => ⟨S320000, .i32⟩
  | 14 => ⟨S1x320000, .i32⟩
  | 15 => ⟨S320000, .i32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S1, .i32⟩
  | 25 => ⟨S_, .i32⟩
  | 26 => ⟨S320000x1, .i32⟩
  | 27 => ⟨S320000x1, .i1⟩
  | 28 => ⟨S1x1, .i32⟩
  | 29 => ⟨S320000x1, .i32⟩
  | 30 => ⟨S320000x1, .i1⟩
  | 31 => ⟨S320000x1, .i1⟩
  | 32 => ⟨S_, .i1⟩
  | 33 => ⟨S320000, .i1⟩
  | 34 => ⟨S320000x64, .f32⟩
  | 35 => ⟨S320000x64, .i1⟩
  | 36 => ⟨S_, .f32⟩
  | 37 => ⟨S320000x64, .f32⟩
  | 38 => ⟨S320000x64, .f32⟩
  | 39 => ⟨S320000x64, .bf16⟩
  | 40 => ⟨S320000x16, .bf16⟩
  | 41 => ⟨S64x300, .f32⟩
  | 42 => ⟨S16x300, .f32⟩
  | 43 => ⟨S320000x300, .bf16⟩
  | 44 => ⟨S320000x300, .f32⟩
  | 45 => ⟨S_, .f32⟩
  | 46 => ⟨S20000x300, .f32⟩
  | 47 => ⟨S320000x1, .i32⟩
  | 48 => ⟨S20000x300, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S1, .i32⟩
  | 58 => ⟨S_, .i32⟩
  | 59 => ⟨S320000x1, .i32⟩
  | 60 => ⟨S320000x1, .i1⟩
  | 61 => ⟨S1x1, .i32⟩
  | 62 => ⟨S320000x1, .i32⟩
  | 63 => ⟨S320000x1, .i1⟩
  | 64 => ⟨S320000x1, .i1⟩
  | 65 => ⟨S_, .i1⟩
  | 66 => ⟨S320000, .i1⟩
  | 67 => ⟨S320000x300, .f32⟩
  | 68 => ⟨S320000x300, .i1⟩
  | 69 => ⟨S_, .f32⟩
  | 70 => ⟨S320000x300, .f32⟩
  | 71 => ⟨S320000x300, .f32⟩
  | 72 => ⟨S320000x300, .bf16⟩
  | 73 => ⟨S1x300x300, .f32⟩
  | 74 => ⟨S300x300, .f32⟩
  | 75 => ⟨S1x300, .f32⟩
  | 76 => ⟨S300, .f32⟩
  | 77 => ⟨S320000x300, .bf16⟩
  | 78 => ⟨S320000x300, .f32⟩
  | 79 => ⟨S_, .f32⟩
  | 80 => ⟨S20000x300, .f32⟩
  | 81 => ⟨S320000x1, .i32⟩
  | 82 => ⟨S20000x300, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S1, .i32⟩
  | 92 => ⟨S_, .i32⟩
  | 93 => ⟨S320000x1, .i32⟩
  | 94 => ⟨S320000x1, .i1⟩
  | 95 => ⟨S1x1, .i32⟩
  | 96 => ⟨S320000x1, .i32⟩
  | 97 => ⟨S320000x1, .i1⟩
  | 98 => ⟨S320000x1, .i1⟩
  | 99 => ⟨S_, .i1⟩
  | 100 => ⟨S320000, .i1⟩
  | 101 => ⟨S320000x300, .f32⟩
  | 102 => ⟨S320000x300, .i1⟩
  | 103 => ⟨S_, .f32⟩
  | 104 => ⟨S320000x300, .f32⟩
  | 105 => ⟨S320000x300, .f32⟩
  | 106 => ⟨S320000x300, .bf16⟩
  | 107 => ⟨S1x300x300, .f32⟩
  | 108 => ⟨S300x300, .f32⟩
  | 109 => ⟨S1x300, .f32⟩
  | 110 => ⟨S300, .f32⟩
  | 111 => ⟨S320000x300, .bf16⟩
  | 112 => ⟨S320000x300, .f32⟩
  | 113 => ⟨S_, .f32⟩
  | 114 => ⟨S20000x300, .f32⟩
  | 115 => ⟨S320000x1, .i32⟩
  | 116 => ⟨S20000x300, .f32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S1, .i32⟩
  | 126 => ⟨S_, .i32⟩
  | 127 => ⟨S320000x1, .i32⟩
  | _ => ⟨S20000x64, .f32⟩

abbrev hbmTy0_1 (i : Nat) : BufTy := match i % 128 with
  | 0 => ⟨S320000x1, .i1⟩
  | 1 => ⟨S1x1, .i32⟩
  | 2 => ⟨S320000x1, .i32⟩
  | 3 => ⟨S320000x1, .i1⟩
  | 4 => ⟨S320000x1, .i1⟩
  | 5 => ⟨S_, .i1⟩
  | 6 => ⟨S320000, .i1⟩
  | 7 => ⟨S320000x300, .f32⟩
  | 8 => ⟨S320000x300, .i1⟩
  | 9 => ⟨S_, .f32⟩
  | 10 => ⟨S320000x300, .f32⟩
  | 11 => ⟨S320000x300, .f32⟩
  | 12 => ⟨S320000x300, .bf16⟩
  | 13 => ⟨S1x300x300, .f32⟩
  | 14 => ⟨S300x300, .f32⟩
  | 15 => ⟨S1x300, .f32⟩
  | 16 => ⟨S300, .f32⟩
  | 17 => ⟨S320000x300, .bf16⟩
  | 18 => ⟨S320000x300, .f32⟩
  | 19 => ⟨S_, .f32⟩
  | 20 => ⟨S20000x300, .f32⟩
  | 21 => ⟨S320000x1, .i32⟩
  | 22 => ⟨S20000x300, .f32⟩
  | 23 => ⟨S64x300, .f32⟩
  | 24 => ⟨S300x300, .f32⟩
  | 25 => ⟨S20000x300, .f32⟩
  | 26 => ⟨S_, .f32⟩
  | 27 => ⟨S128x300, .f32⟩
  | 28 => ⟨S20000x1, .i32⟩
  | 29 => ⟨S128x300, .f32⟩
  | 30 => ⟨S128x1, .f32⟩
  | 31 => ⟨S1x1, .f32⟩
  | 32 => ⟨S128x1, .f32⟩
  | 33 => ⟨S128x1, .f32⟩
  | 34 => ⟨S128, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | .local _ .vmem, ⟨0, _⟩ => ⟨S3200x64, .bf16⟩
  | .local _ .vmem, ⟨1, _⟩ => ⟨S3200x64, .bf16⟩
  | .local _ .vmem, ⟨2, _⟩ => ⟨S3200x16, .bf16⟩
  | .local _ .vmem, ⟨3, _⟩ => ⟨S3200x16, .bf16⟩
  | .local _ .vmem, ⟨4, _⟩ => ⟨S64x300, .f32⟩
  | .local _ .vmem, ⟨5, _⟩ => ⟨S16x300, .f32⟩
  | .local _ .vmem, ⟨6, _⟩ => ⟨S300, .f32⟩
  | .local _ .vmem, ⟨7, _⟩ => ⟨S3200x300, .bf16⟩
  | .local _ .vmem, ⟨8, _⟩ => ⟨S3200x300, .bf16⟩
  | .local _ .vmem, ⟨9, _⟩ => ⟨S1600x300, .bf16⟩
  | .local _ .vmem, ⟨10, _⟩ => ⟨S1600x300, .bf16⟩
  | .local _ .vmem, ⟨11, _⟩ => ⟨S1600x300, .bf16⟩
  | .local _ .vmem, ⟨12, _⟩ => ⟨S1600x300, .bf16⟩
  | .local _ .vmem, ⟨13, _⟩ => ⟨S1600x300, .bf16⟩
  | .local _ .vmem, ⟨14, _⟩ => ⟨S1600x300, .bf16⟩
  | .local _ .vmem, ⟨15, _⟩ => ⟨S300x300, .f32⟩
  | .local _ .vmem, ⟨16, _⟩ => ⟨S300, .f32⟩
  | .local _ .vmem, ⟨17, _⟩ => ⟨S1600x300, .bf16⟩
  | .local _ .vmem, ⟨18, _⟩ => ⟨S1600x300, .bf16⟩
  | .local _ .vmem, ⟨19, _⟩ => ⟨S1600x300, .bf16⟩
  | .local _ .vmem, ⟨20, _⟩ => ⟨S1600x300, .bf16⟩
  | .local _ .vmem, ⟨21, _⟩ => ⟨S1600x300, .bf16⟩
  | .local _ .vmem, ⟨22, _⟩ => ⟨S1600x300, .bf16⟩
  | .local _ .vmem, ⟨23, _⟩ => ⟨S1600x300, .bf16⟩
  | .local _ .vmem, ⟨24, _⟩ => ⟨S1600x300, .bf16⟩
  | .local _ .vmem, ⟨25, _⟩ => ⟨S300x300, .f32⟩
  | .local _ .vmem, ⟨26, _⟩ => ⟨S300, .f32⟩
  | .local _ .vmem, ⟨27, _⟩ => ⟨S1600x300, .bf16⟩
  | .local _ .vmem, ⟨28, _⟩ => ⟨S1600x300, .bf16⟩
  | .local _ .vmem, ⟨29, _⟩ => ⟨S1600x300, .bf16⟩
  | .local _ .vmem, ⟨30, _⟩ => ⟨S1600x300, .bf16⟩
  | .local _ .vmem, ⟨31, _⟩ => ⟨S1600x300, .bf16⟩
  | .local _ .vmem, ⟨32, _⟩ => ⟨S1600x300, .bf16⟩
  | .local _ .vmem, ⟨33, _⟩ => ⟨S1600x300, .bf16⟩
  | .local _ .vmem, ⟨34, _⟩ => ⟨S1600x300, .bf16⟩
  | .local _ .vmem, ⟨35, _⟩ => ⟨S300x300, .f32⟩
  | .local _ .vmem, ⟨36, _⟩ => ⟨S300, .f32⟩
  | .local _ .vmem, ⟨37, _⟩ => ⟨S1600x300, .bf16⟩
  | .local _ .vmem, ⟨38, _⟩ => ⟨S1600x300, .bf16⟩
  | .local _ .vmem, ⟨39, _⟩ => ⟨S2000x64, .f32⟩
  | .local _ .vmem, ⟨40, _⟩ => ⟨S2000x64, .f32⟩
  | .local _ .vmem, ⟨41, _⟩ => ⟨S2000x300, .f32⟩
  | .local _ .vmem, ⟨42, _⟩ => ⟨S2000x300, .f32⟩
  | .local _ .vmem, ⟨43, _⟩ => ⟨S64x300, .f32⟩
  | .local _ .vmem, ⟨44, _⟩ => ⟨S300x300, .f32⟩
  | .local _ .vmem, ⟨45, _⟩ => ⟨S300, .f32⟩
  | .local _ .vmem, ⟨46, _⟩ => ⟨S2000x300, .f32⟩
  | .local _ .vmem, ⟨47, _⟩ => ⟨S2000x300, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_0 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_cst_1 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_c_1 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_3 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_call3_cst : Ref sig .tc := ⟨.hbm, 137, rfl⟩
abbrev main_call3_v15 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_cst_2 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_cst_3 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem5_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x300 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1600x300 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1600x300 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1600x300 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S300x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1600x300 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1600x300 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1600x300 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1600x300 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S300x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S300 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1600x300 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1600x300 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1600x300 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1600x300 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S300x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1600x300 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x300 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S300x300 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S300 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x300 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x64_0 : S320000.BroadcastsInDim S320000x64 (![0] : Fin 1 → Fin S320000x64.rank)
  bcast_S_S320000x64 : S_.BroadcastsInDim S320000x64 (![] : Fin 0 → Fin S320000x64.rank)
  bitsLt_bf16_f32 : FTy.bits .bf16 < FTy.bits .f32
  slices_S80x300_S64x300_0_0 : S80x300.Slices ![0, 0] S64x300
  slices_S80x300_S16x300_64_0 : S80x300.Slices ![64, 0] S16x300
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S3200x16_S3200x16_0_0 : ∀ a, (![0, 0] : Fin 2 → Nat) a + S3200x16.size a ≤ S3200x16.size a
  h_S3200x16 : 0 < S3200x16.numel
  shapeCasts_S3200x16_S3200x16 : S3200x16.ShapeCasts S3200x16
  inb_S64x300_S64x300_0_0 : ∀ a, (![0, 0] : Fin 2 → Nat) a + S64x300.size a ≤ S64x300.size a
  h_S64x300 : 0 < S64x300.numel
  shapeCasts_S64x300_S64x300 : S64x300.ShapeCasts S64x300
  inb_S16x300_S16x300_0_0 : ∀ a, (![0, 0] : Fin 2 → Nat) a + S16x300.size a ≤ S16x300.size a
  h_S16x300 : 0 < S16x300.numel
  shapeCasts_S16x300_S16x300 : S16x300.ShapeCasts S16x300
  inb_S300_S300_0 : ∀ a, (![0] : Fin 1 → Nat) a + S300.size a ≤ S300.size a
  h_S300 : 0 < S300.numel
  shapeCasts_S300_S1x300 : S300.ShapeCasts S1x300
  broadcasts_S1x300_S3200x300 : S1x300.Broadcasts S3200x300
  inb_S3200x300_S3200x300_0_0 : ∀ a, (![0, 0] : Fin 2 → Nat) a + S3200x300.size a ≤ S3200x300.size a
  h_S3200x300 : 0 < S3200x300.numel
  packedbf16_S3200x300_S3200x300_0_0 : (Rect.unit (s := S3200x300) ![0, 0] S3200x300.size inb_S3200x300_S3200x300_0_0).PackedRows (EltTy.packing .bf16)
  bcast_S_S20000x300 : S_.BroadcastsInDim S20000x300 (![] : Fin 0 → Fin S20000x300.rank)
  bcast_S320000_S320000x300_0 : S320000.BroadcastsInDim S320000x300 (![0] : Fin 1 → Fin S320000x300.rank)
  bcast_S_S320000x300 : S_.BroadcastsInDim S320000x300 (![] : Fin 0 → Fin S320000x300.rank)
  slices_S3x300x300_S1x300x300_0_0_0 : S3x300x300.Slices ![0, 0, 0] S1x300x300
  shapeCasts_S1x300x300_S300x300 : S1x300x300.ShapeCasts S300x300
  slices_S3x300_S1x300_0_0 : S3x300.Slices ![0, 0] S1x300
  shapeCasts_S1x300_S300 : S1x300.ShapeCasts S300
  inb_S1600x300_S1600x300_0_0 : ∀ a, (![0, 0] : Fin 2 → Nat) a + S1600x300.size a ≤ S1600x300.size a
  h_S1600x300 : 0 < S1600x300.numel
  shapeCasts_S1600x300_S1600x300 : S1600x300.ShapeCasts S1600x300
  shapeCasts_S1600x300_S800x600 : S1600x300.ShapeCasts S800x600
  slices_S800x600_o0_300_S800x300 : S800x600.Slices ![0, 300] S800x300
  slices_S800x600_o0_0_S800x300 : S800x600.Slices ![0, 0] S800x300
  concatenates_S800x300_S800x300_S800x600_d1 : Shape.Concatenates [S800x300, S800x300] S800x600 1
  shapeCasts_S800x600_S1600x300 : S800x600.ShapeCasts S1600x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  shapeCasts_S300_S300 : S300.ShapeCasts S300
  broadcasts_S1x300_S1600x300 : S1x300.Broadcasts S1600x300
  packedbf16_S1600x300_S1600x300_0_0 : (Rect.unit (s := S1600x300) ![0, 0] S1600x300.size inb_S1600x300_S1600x300_0_0).PackedRows (EltTy.packing .bf16)
  slices_S3x300x300_S1x300x300_1_0_0 : S3x300x300.Slices ![1, 0, 0] S1x300x300
  slices_S3x300_S1x300_1_0 : S3x300.Slices ![1, 0] S1x300
  slices_S3x300x300_S1x300x300_2_0_0 : S3x300x300.Slices ![2, 0, 0] S1x300x300
  slices_S3x300_S1x300_2_0 : S3x300.Slices ![2, 0] S1x300
  slices_S364x300_S64x300_0_0 : S364x300.Slices ![0, 0] S64x300
  slices_S364x300_S300x300_64_0 : S364x300.Slices ![64, 0] S300x300
  inb_S2000x64_S2000x64_0_0 : ∀ a, (![0, 0] : Fin 2 → Nat) a + S2000x64.size a ≤ S2000x64.size a
  h_S2000x64 : 0 < S2000x64.numel
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  broadcasts_S1x300_S2000x300 : S1x300.Broadcasts S2000x300
  bcast_S_S128x300 : S_.BroadcastsInDim S128x300 (![] : Fin 0 → Fin S128x300.rank)
  bcast_S20000_S20000x1_0 : S20000.BroadcastsInDim S20000x1 (![0] : Fin 1 → Fin S20000x1.rank)
  bcast_S1x1_S128x1_0_1 : S1x1.BroadcastsInDim S128x1 (![0, 1] : Fin 2 → Fin S128x1.rank)
  shapeCasts_S128x1_S128 : S128x1.ShapeCasts S128
  gather_S20000x64_S320000x1_S320000x64_1_0_n_n_0_1_164_wf : GatherDims.WF S20000x64 S320000x1 S320000x64 [1] [0] [] [0] [] 1 ![1, 64]
  dot_S3200x64_S64x300_S3200x300_1_0_0_1_n_n_wf : DotDims.WF S3200x64 S64x300 S3200x300 [1] [0] [0] [1] [] []
  dot_S3200x16_S16x300_S3200x300_1_0_0_1_n_n_wf : DotDims.WF S3200x16 S16x300 S3200x300 [1] [0] [0] [1] [] []
  scatter_S20000x300_S320000x1_S320000x300_1_0_0_1_wf : ScatterDims.WF S20000x300 S320000x1 S320000x300 [1] [0] [0] 1
  gather_S20000x300_S320000x1_S320000x300_1_0_n_n_0_1_1300_wf : GatherDims.WF S20000x300 S320000x1 S320000x300 [1] [0] [] [0] [] 1 ![1, 300]
  dot_S1600x300_S300x300_S1600x300_1_0_0_1_n_n_wf : DotDims.WF S1600x300 S300x300 S1600x300 [1] [0] [0] [1] [] []
  dot_S2000x64_S64x300_S2000x300_1_0_0_1_n_n_wf : DotDims.WF S2000x64 S64x300 S2000x300 [1] [0] [0] [1] [] []
  dot_S2000x300_S300x300_S2000x300_1_0_0_1_n_n_wf : DotDims.WF S2000x300 S300x300 S2000x300 [1] [0] [0] [1] [] []
  scatter_S128x300_S20000x1_S20000x300_1_0_0_1_wf : ScatterDims.WF S128x300 S20000x1 S20000x300 [1] [0] [0] 1
  dot_S128x300_S300x1_S128x1_1_0_0_1_n_n_wf : DotDims.WF S128x300 S300x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S320000x64.size a
  hwx0_0 : ∀ i : grid0.Coords, EltTy.bits .bf16 = 32 ∨ (Rect.block (s := S320000x64) S3200x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x16.size a ≤ S320000x16.size a
  hwx0_1 : ∀ i : grid0.Coords, EltTy.bits .bf16 = 32 ∨ (Rect.block (s := S320000x16) S3200x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x300.size a ≤ S64x300.size a
  hwx0_2 : ∀ i : grid0.Coords, EltTy.bits .f32 = 32 ∨ (Rect.block (s := S64x300) S64x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x300.size a ≤ S16x300.size a
  hwx0_3 : ∀ i : grid0.Coords, EltTy.bits .f32 = 32 ∨ (Rect.block (s := S16x300) S16x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300.size a ≤ S300.size a
  hwx0_4 : ∀ i : grid0.Coords, EltTy.bits .f32 = 32 ∨ (Rect.block (s := S300) S300.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x300.size a ≤ S320000x300.size a
  hwx0_5 : ∀ i : grid0.Coords, EltTy.bits .bf16 = 32 ∨ (Rect.block (s := S320000x300) S3200x300.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1600x300.size a ≤ S320000x300.size a
  hwx1_0 : ∀ i : grid1.Coords, EltTy.bits .bf16 = 32 ∨ (Rect.block (s := S320000x300) S1600x300.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1600x300.size a ≤ S320000x300.size a
  hwx1_1 : ∀ i : grid1.Coords, EltTy.bits .bf16 = 32 ∨ (Rect.block (s := S320000x300) S1600x300.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1600x300.size a ≤ S320000x300.size a
  hwx1_2 : ∀ i : grid1.Coords, EltTy.bits .bf16 = 32 ∨ (Rect.block (s := S320000x300) S1600x300.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x300.size a ≤ S300x300.size a
  hwx1_3 : ∀ i : grid1.Coords, EltTy.bits .f32 = 32 ∨ (Rect.block (s := S300x300) S300x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S300.size a ≤ S300.size a
  hwx1_4 : ∀ i : grid1.Coords, EltTy.bits .f32 = 32 ∨ (Rect.block (s := S300) S300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1600x300.size a ≤ S320000x300.size a
  hwx1_5 : ∀ i : grid1.Coords, EltTy.bits .bf16 = 32 ∨ (Rect.block (s := S320000x300) S1600x300.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1600x300.size a ≤ S320000x300.size a
  hwx2_0 : ∀ i : grid2.Coords, EltTy.bits .bf16 = 32 ∨ (Rect.block (s := S320000x300) S1600x300.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1600x300.size a ≤ S320000x300.size a
  hwx2_1 : ∀ i : grid2.Coords, EltTy.bits .bf16 = 32 ∨ (Rect.block (s := S320000x300) S1600x300.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1600x300.size a ≤ S320000x300.size a
  hwx2_2 : ∀ i : grid2.Coords, EltTy.bits .bf16 = 32 ∨ (Rect.block (s := S320000x300) S1600x300.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S300x300.size a ≤ S300x300.size a
  hwx2_3 : ∀ i : grid2.Coords, EltTy.bits .f32 = 32 ∨ (Rect.block (s := S300x300) S300x300.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S300.size a ≤ S300.size a
  hwx2_4 : ∀ i : grid2.Coords, EltTy.bits .f32 = 32 ∨ (Rect.block (s := S300) S300.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1600x300.size a ≤ S320000x300.size a
  hwx2_5 : ∀ i : grid2.Coords, EltTy.bits .bf16 = 32 ∨ (Rect.block (s := S320000x300) S1600x300.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1600x300.size a ≤ S320000x300.size a
  hwx3_0 : ∀ i : grid3.Coords, EltTy.bits .bf16 = 32 ∨ (Rect.block (s := S320000x300) S1600x300.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1600x300.size a ≤ S320000x300.size a
  hwx3_1 : ∀ i : grid3.Coords, EltTy.bits .bf16 = 32 ∨ (Rect.block (s := S320000x300) S1600x300.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1600x300.size a ≤ S320000x300.size a
  hwx3_2 : ∀ i : grid3.Coords, EltTy.bits .bf16 = 32 ∨ (Rect.block (s := S320000x300) S1600x300.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x300.size a ≤ S300x300.size a
  hwx3_3 : ∀ i : grid3.Coords, EltTy.bits .f32 = 32 ∨ (Rect.block (s := S300x300) S300x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S300.size a ≤ S300.size a
  hwx3_4 : ∀ i : grid3.Coords, EltTy.bits .f32 = 32 ∨ (Rect.block (s := S300) S300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1600x300.size a ≤ S320000x300.size a
  hwx3_5 : ∀ i : grid3.Coords, EltTy.bits .bf16 = 32 ∨ (Rect.block (s := S320000x300) S1600x300.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S20000x64.size a
  hwx4_0 : ∀ i : grid4.Coords, EltTy.bits .f32 = 32 ∨ (Rect.block (s := S20000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x300.size a ≤ S20000x300.size a
  hwx4_1 : ∀ i : grid4.Coords, EltTy.bits .f32 = 32 ∨ (Rect.block (s := S20000x300) S2000x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x300.size a ≤ S64x300.size a
  hwx4_2 : ∀ i : grid4.Coords, EltTy.bits .f32 = 32 ∨ (Rect.block (s := S64x300) S64x300.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S300x300.size a ≤ S300x300.size a
  hwx4_3 : ∀ i : grid4.Coords, EltTy.bits .f32 = 32 ∨ (Rect.block (s := S300x300) S300x300.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S300.size a ≤ S300.size a
  hwx4_4 : ∀ i : grid4.Coords, EltTy.bits .f32 = 32 ∨ (Rect.block (s := S300) S300.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x300.size a ≤ S20000x300.size a
  hwx4_5 : ∀ i : grid4.Coords, EltTy.bits .f32 = 32 ∨ (Rect.block (s := S20000x300) S2000x300.size (cc4_transform_5 i) (hinb4_5 i)).WholeWords (EltTy.packing .f32)

variable [Facts₀]

def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def dot_S3200x64_S64x300_S3200x300_1_0_0_1_n_n : DotDims S3200x64 S64x300 S3200x300 where
  lhsContracting := [1]
  rhsContracting := [0]
  lhsNonContracting := [0]
  rhsNonContracting := [1]
  lhsBatch := []
  rhsBatch := []
  wf := dot_S3200x64_S64x300_S3200x300_1_0_0_1_n_n_wf
def dot_S3200x16_S16x300_S3200x300_1_0_0_1_n_n : DotDims S3200x16 S16x300 S3200x300 where
  lhsContracting := [1]
  rhsContracting := [0]
  lhsNonContracting := [0]
  rhsNonContracting := [1]
  lhsBatch := []
  rhsBatch := []
  wf := dot_S3200x16_S16x300_S3200x300_1_0_0_1_n_n_wf
def scatter_S20000x300_S320000x1_S320000x300_1_0_0_1 : ScatterDims S20000x300 S320000x1 S320000x300 where
  updateWindowDims := [1]
  insertedWindowDims := [0]
  scatterDimsToOperandDims := [0]
  indexVectorDim := 1
  wf := scatter_S20000x300_S320000x1_S320000x300_1_0_0_1_wf
def gather_S20000x300_S320000x1_S320000x300_1_0_n_n_0_1_1300 : GatherDims S20000x300 S320000x1 S320000x300 where
  offsetDims := [1]
  collapsedSliceDims := [0]
  operandBatchingDims := []
  startIndicesBatchingDims := []
  startIndexMap := [0]
  indexVectorDim := 1
  sliceSizes := ![1, 300]
  wf := gather_S20000x300_S320000x1_S320000x300_1_0_n_n_0_1_1300_wf
def dot_S1600x300_S300x300_S1600x300_1_0_0_1_n_n : DotDims S1600x300 S300x300 S1600x300 where
  lhsContracting := [1]
  rhsContracting := [0]
  lhsNonContracting := [0]
  rhsNonContracting := [1]
  lhsBatch := []
  rhsBatch := []
  wf := dot_S1600x300_S300x300_S1600x300_1_0_0_1_n_n_wf
def dot_S2000x64_S64x300_S2000x300_1_0_0_1_n_n : DotDims S2000x64 S64x300 S2000x300 where
  lhsContracting := [1]
  rhsContracting := [0]
  lhsNonContracting := [0]
  rhsNonContracting := [1]
  lhsBatch := []
  rhsBatch := []
  wf := dot_S2000x64_S64x300_S2000x300_1_0_0_1_n_n_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def scatter_S128x300_S20000x1_S20000x300_1_0_0_1 : ScatterDims S128x300 S20000x1 S20000x300 where
  updateWindowDims := [1]
  insertedWindowDims := [0]
  scatterDimsToOperandDims := [0]
  indexVectorDim := 1
  wf := scatter_S128x300_S20000x1_S20000x300_1_0_0_1_wf
def dot_S128x300_S300x1_S128x1_1_0_0_1_n_n : DotDims S128x300 S300x1 S128x1 where
  lhsContracting := [1]
  rhsContracting := [0]
  lhsNonContracting := [0]
  rhsNonContracting := [1]
  lhsBatch := []
  rhsBatch := []
  wf := dot_S128x300_S300x1_S128x1_1_0_0_1_n_n_wf

abbrev win0_0 : Pipeline.Window sig grid0 :=
  Pipeline.Window.ofSpec (Memref.whole main_v5) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3200x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S3200x300.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S1600x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1600x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1600x300.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S300x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1600x300.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S1600x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1600x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1600x300.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S300x300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S300.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1600x300.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v37) S1600x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1600x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1600x300.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S300x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S1600x300.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg0) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S2000x300.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S64x300.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S300x300.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S300.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v49) S2000x300.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S20000x64 : Shape := ⟨2, ![20000, 64]⟩
abbrev S320000x16 : Shape := ⟨2, ![320000, 16]⟩
abbrev S2x320000 : Shape := ⟨2, ![2, 320000]⟩
abbrev S20000 : Shape := ⟨1, ![20000]⟩
abbrev S80x300 : Shape := ⟨2, ![80, 300]⟩
abbrev S300 : Shape := ⟨1, ![300]⟩
abbrev S3x300x300 : Shape := ⟨3, ![3, 300, 300]⟩
abbrev S3x300 : Shape := ⟨2, ![3, 300]⟩
abbrev S364x300 : Shape := ⟨2, ![364, 300]⟩
abbrev S300x1 : Shape := ⟨2, ![300, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x64 : Shape := ⟨2, ![320000, 64]⟩
abbrev S320000x80 : Shape := ⟨2, ![320000, 80]⟩
abbrev S320000x300 : Shape := ⟨2, ![320000, 300]⟩
abbrev S1x300 : Shape := ⟨2, ![1, 300]⟩
abbrev S20000x300 : Shape := ⟨2, ![20000, 300]⟩
abbrev S160000x2x300 : Shape := ⟨3, ![160000, 2, 300]⟩
abbrev S1x300x300 : Shape := ⟨3, ![1, 300, 300]⟩
abbrev S300x300 : Shape := ⟨2, ![300, 300]⟩
abbrev S20000x364 : Shape := ⟨2, ![20000, 364]⟩
abbrev S128x300 : Shape := ⟨2, ![128, 300]⟩
abbrev S20000x1 : Shape := ⟨2, ![20000, 1]⟩
abbrev S128x1 : Shape := ⟨2, ![128, 1]⟩
abbrev S1x1 : Shape := ⟨2, ![1, 1]⟩
abbrev S128 : Shape := ⟨1, ![128]⟩

abbrev nBuf : Space → Nat
  | .hbm => 141
  | .vmem => 0
  | .smem => 0
  | _ => 0

abbrev hbmTy0_0 (i : Nat) : BufTy := match i % 128 with
  | 0 => ⟨S20000x64, .f32⟩
  | 1 => ⟨S320000x16, .f32⟩
  | 2 => ⟨S2x320000, .i32⟩
  | 3 => ⟨S20000, .i32⟩
  | 4 => ⟨S80x300, .f32⟩
  | 5 => ⟨S300, .f32⟩
  | 6 => ⟨S3x300x300, .f32⟩
  | 7 => ⟨S3x300, .f32⟩
  | 8 => ⟨S364x300, .f32⟩
  | 9 => ⟨S300, .f32⟩
  | 10 => ⟨S300x1, .f32⟩
  | 11 => ⟨S1, .f32⟩
  | 12 => ⟨S1x320000, .i32⟩
  | 13 => ⟨S320000, .i32⟩
  | 14 => ⟨S1x320000, .i32⟩
  | 15 => ⟨S320000, .i32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000x64, .f32⟩
  | 25 => ⟨S320000x80, .f32⟩
  | 26 => ⟨S320000x300, .f32⟩
  | 27 => ⟨S1x300, .f32⟩
  | 28 => ⟨S320000x300, .f32⟩
  | 29 => ⟨S320000x300, .f32⟩
  | 30 => ⟨S_, .f32⟩
  | 31 => ⟨S320000x300, .f32⟩
  | 32 => ⟨S320000x300, .f32⟩
  | 33 => ⟨S_, .f32⟩
  | 34 => ⟨S20000x300, .f32⟩
  | 35 => ⟨S320000x1, .i32⟩
  | 36 => ⟨S20000x300, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000x300, .f32⟩
  | 46 => ⟨S160000x2x300, .f32⟩
  | 47 => ⟨S160000x2x300, .f32⟩
  | 48 => ⟨S320000x300, .f32⟩
  | 49 => ⟨S320000x300, .f32⟩
  | 50 => ⟨S1x300x300, .f32⟩
  | 51 => ⟨S300x300, .f32⟩
  | 52 => ⟨S320000x300, .f32⟩
  | 53 => ⟨S1x300, .f32⟩
  | 54 => ⟨S300, .f32⟩
  | 55 => ⟨S1x300, .f32⟩
  | 56 => ⟨S320000x300, .f32⟩
  | 57 => ⟨S320000x300, .f32⟩
  | 58 => ⟨S320000x300, .f32⟩
  | 59 => ⟨S_, .f32⟩
  | 60 => ⟨S320000x300, .f32⟩
  | 61 => ⟨S320000x300, .f32⟩
  | 62 => ⟨S_, .f32⟩
  | 63 => ⟨S20000x300, .f32⟩
  | 64 => ⟨S320000x1, .i32⟩
  | 65 => ⟨S20000x300, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S320000x300, .f32⟩
  | 75 => ⟨S160000x2x300, .f32⟩
  | 76 => ⟨S160000x2x300, .f32⟩
  | 77 => ⟨S320000x300, .f32⟩
  | 78 => ⟨S320000x300, .f32⟩
  | 79 => ⟨S1x300x300, .f32⟩
  | 80 => ⟨S300x300, .f32⟩
  | 81 => ⟨S320000x300, .f32⟩
  | 82 => ⟨S1x300, .f32⟩
  | 83 => ⟨S300, .f32⟩
  | 84 => ⟨S1x300, .f32⟩
  | 85 => ⟨S320000x300, .f32⟩
  | 86 => ⟨S320000x300, .f32⟩
  | 87 => ⟨S320000x300, .f32⟩
  | 88 => ⟨S_, .f32⟩
  | 89 => ⟨S320000x300, .f32⟩
  | 90 => ⟨S320000x300, .f32⟩
  | 91 => ⟨S_, .f32⟩
  | 92 => ⟨S20000x300, .f32⟩
  | 93 => ⟨S320000x1, .i32⟩
  | 94 => ⟨S20000x300, .f32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S320000x300, .f32⟩
  | 104 => ⟨S160000x2x300, .f32⟩
  | 105 => ⟨S160000x2x300, .f32⟩
  | 106 => ⟨S320000x300, .f32⟩
  | 107 => ⟨S320000x300, .f32⟩
  | 108 => ⟨S1x300x300, .f32⟩
  | 109 => ⟨S300x300, .f32⟩
  | 110 => ⟨S320000x300, .f32⟩
  | 111 => ⟨S1x300, .f32⟩
  | 112 => ⟨S300, .f32⟩
  | 113 => ⟨S1x300, .f32⟩
  | 114 => ⟨S320000x300, .f32⟩
  | 115 => ⟨S320000x300, .f32⟩
  | 116 => ⟨S320000x300, .f32⟩
  | 117 => ⟨S_, .f32⟩
  | 118 => ⟨S320000x300, .f32⟩
  | 119 => ⟨S320000x300, .f32⟩
  | 120 => ⟨S_, .f32⟩
  | 121 => ⟨S20000x300, .f32⟩
  | 122 => ⟨S320000x1, .i32⟩
  | 123 => ⟨S20000x300, .f32⟩
  | 124 => ⟨S20000x364, .f32⟩
  | 125 => ⟨S20000x300, .f32⟩
  | 126 => ⟨S1x300, .f32⟩
  | 127 => ⟨S20000x300, .f32⟩
  | _ => ⟨S20000x64, .f32⟩

abbrev hbmTy0_1 (i : Nat) : BufTy := match i % 128 with
  | 0 => ⟨S20000x300, .f32⟩
  | 1 => ⟨S_, .f32⟩
  | 2 => ⟨S20000x300, .f32⟩
  | 3 => ⟨S20000x300, .f32⟩
  | 4 => ⟨S_, .f32⟩
  | 5 => ⟨S128x300, .f32⟩
  | 6 => ⟨S20000x1, .i32⟩
  | 7 => ⟨S128x300, .f32⟩
  | 8 => ⟨S128x1, .f32⟩
  | 9 => ⟨S1x1, .f32⟩
  | 10 => ⟨S128x1, .f32⟩
  | 11 => ⟨S128x1, .f32⟩
  | 12 => ⟨S128, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_cst : Ref sig .tc := ⟨.hbm, 59, rfl⟩
abbrev main_call1_v0 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_4 : Ref sig .tc := ⟨.hbm, 66, rfl⟩
abbrev main_v44 : Ref sig .tc := ⟨.hbm, 67, rfl⟩
abbrev main_v45 : Ref sig .tc := ⟨.hbm, 68, rfl⟩
abbrev main_c_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_v64 : Ref sig .tc := ⟨.hbm, 90, rfl⟩
abbrev main_cst_6 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_7 : Ref sig .tc := ⟨.hbm, 95, rfl⟩
abbrev main_v68 : Ref sig .tc := ⟨.hbm, 96, rfl⟩
abbrev main_v69 : Ref sig .tc := ⟨.hbm, 97, rfl⟩
abbrev main_c_8 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call3_cst : Ref sig .tc := ⟨.hbm, 117, rfl⟩
abbrev main_call3_v0 : Ref sig .tc := ⟨.hbm, 118, rfl⟩
abbrev main_v88 : Ref sig .tc := ⟨.hbm, 119, rfl⟩
abbrev main_cst_9 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_call4_cst : Ref sig .tc := ⟨.hbm, 129, rfl⟩
abbrev main_call4_v0 : Ref sig .tc := ⟨.hbm, 130, rfl⟩
abbrev main_v97 : Ref sig .tc := ⟨.hbm, 131, rfl⟩
abbrev main_cst_10 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x64_S320000x16_S320000x80_d1 : Shape.Concatenates [S320000x64, S320000x16] S320000x80 1
  bcast_S300_S1x300_1 : S300.BroadcastsInDim S1x300 (![1] : Fin 1 → Fin S1x300.rank)
  bcast_S1x300_S320000x300_0_1 : S1x300.BroadcastsInDim S320000x300 (![0, 1] : Fin 2 → Fin S320000x300.rank)
  bcast_S_S320000x300 : S_.BroadcastsInDim S320000x300 (![] : Fin 0 → Fin S320000x300.rank)
  bcast_S_S20000x300 : S_.BroadcastsInDim S20000x300 (![] : Fin 0 → Fin S20000x300.rank)
  shapeCasts_S320000x300_S160000x2x300 : S320000x300.ShapeCasts S160000x2x300
  shapeCasts_S160000x2x300_S320000x300 : S160000x2x300.ShapeCasts S320000x300
  slices_S3x300x300_S1x300x300_0_0_0 : S3x300x300.Slices ![0, 0, 0] S1x300x300
  shapeCasts_S1x300x300_S300x300 : S1x300x300.ShapeCasts S300x300
  slices_S3x300_S1x300_0_0 : S3x300.Slices ![0, 0] S1x300
  shapeCasts_S1x300_S300 : S1x300.ShapeCasts S300
  slices_S3x300x300_S1x300x300_1_0_0 : S3x300x300.Slices ![1, 0, 0] S1x300x300
  slices_S3x300_S1x300_1_0 : S3x300.Slices ![1, 0] S1x300
  slices_S3x300x300_S1x300x300_2_0_0 : S3x300x300.Slices ![2, 0, 0] S1x300x300
  slices_S3x300_S1x300_2_0 : S3x300.Slices ![2, 0] S1x300
  concatenates_S20000x64_S20000x300_S20000x364_d1 : Shape.Concatenates [S20000x64, S20000x300] S20000x364 1
  bcast_S1x300_S20000x300_0_1 : S1x300.BroadcastsInDim S20000x300 (![0, 1] : Fin 2 → Fin S20000x300.rank)
  bcast_S_S128x300 : S_.BroadcastsInDim S128x300 (![] : Fin 0 → Fin S128x300.rank)
  bcast_S20000_S20000x1_0 : S20000.BroadcastsInDim S20000x1 (![0] : Fin 1 → Fin S20000x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S20000x64_S320000x1_S320000x64_1_0_n_n_0_1_164_wf : GatherDims.WF S20000x64 S320000x1 S320000x64 [1] [0] [] [0] [] 1 ![1, 64]
  dot_S320000x80_S80x300_S320000x300_1_0_0_1_n_n_wf : DotDims.WF S320000x80 S80x300 S320000x300 [1] [0] [0] [1] [] []
  scatter_S20000x300_S320000x1_S320000x300_1_0_0_1_wf : ScatterDims.WF S20000x300 S320000x1 S320000x300 [1] [0] [0] 1
  gather_S20000x300_S320000x1_S320000x300_1_0_n_n_0_1_1300_wf : GatherDims.WF S20000x300 S320000x1 S320000x300 [1] [0] [] [0] [] 1 ![1, 300]
  dot_S320000x300_S300x300_S320000x300_1_0_0_1_n_n_wf : DotDims.WF S320000x300 S300x300 S320000x300 [1] [0] [0] [1] [] []
  dot_S20000x364_S364x300_S20000x300_1_0_0_1_n_n_wf : DotDims.WF S20000x364 S364x300 S20000x300 [1] [0] [0] [1] [] []
  scatter_S128x300_S20000x1_S20000x300_1_0_0_1_wf : ScatterDims.WF S128x300 S20000x1 S20000x300 [1] [0] [0] 1
  dot_S128x300_S300x1_S128x1_1_0_0_1_n_n_wf : DotDims.WF S128x300 S300x1 S128x1 [1] [0] [0] [1] [] []

variable [Facts₀]

def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def dot_S320000x80_S80x300_S320000x300_1_0_0_1_n_n : DotDims S320000x80 S80x300 S320000x300 where
  lhsContracting := [1]
  rhsContracting := [0]
  lhsNonContracting := [0]
  rhsNonContracting := [1]
  lhsBatch := []
  rhsBatch := []
  wf := dot_S320000x80_S80x300_S320000x300_1_0_0_1_n_n_wf
def scatter_S20000x300_S320000x1_S320000x300_1_0_0_1 : ScatterDims S20000x300 S320000x1 S320000x300 where
  updateWindowDims := [1]
  insertedWindowDims := [0]
  scatterDimsToOperandDims := [0]
  indexVectorDim := 1
  wf := scatter_S20000x300_S320000x1_S320000x300_1_0_0_1_wf
def gather_S20000x300_S320000x1_S320000x300_1_0_n_n_0_1_1300 : GatherDims S20000x300 S320000x1 S320000x300 where
  offsetDims := [1]
  collapsedSliceDims := [0]
  operandBatchingDims := []
  startIndicesBatchingDims := []
  startIndexMap := [0]
  indexVectorDim := 1
  sliceSizes := ![1, 300]
  wf := gather_S20000x300_S320000x1_S320000x300_1_0_n_n_0_1_1300_wf
def dot_S320000x300_S300x300_S320000x300_1_0_0_1_n_n : DotDims S320000x300 S300x300 S320000x300 where
  lhsContracting := [1]
  rhsContracting := [0]
  lhsNonContracting := [0]
  rhsNonContracting := [1]
  lhsBatch := []
  rhsBatch := []
  wf := dot_S320000x300_S300x300_S320000x300_1_0_0_1_n_n_wf
def dot_S20000x364_S364x300_S20000x300_1_0_0_1_n_n : DotDims S20000x364 S364x300 S20000x300 where
  lhsContracting := [1]
  rhsContracting := [0]
  lhsNonContracting := [0]
  rhsNonContracting := [1]
  lhsBatch := []
  rhsBatch := []
  wf := dot_S20000x364_S364x300_S20000x300_1_0_0_1_n_n_wf
def scatter_S128x300_S20000x1_S20000x300_1_0_0_1 : ScatterDims S128x300 S20000x1 S20000x300 where
  updateWindowDims := [1]
  insertedWindowDims := [0]
  scatterDimsToOperandDims := [0]
  indexVectorDim := 1
  wf := scatter_S128x300_S20000x1_S20000x300_1_0_0_1_wf
def dot_S128x300_S300x1_S128x1_1_0_0_1_n_n : DotDims S128x300 S300x1 S128x1 where
  lhsContracting := [1]
  rhsContracting := [0]
  lhsNonContracting := [0]
  rhsNonContracting := [1]
  lhsBatch := []
  rhsBatch := []
  wf := dot_S128x300_S300x1_S128x1_1_0_0_1_n_n_wf

class Facts : Prop extends Facts₀ where

variable [Facts]
-- ==== Proof.K.Region0.lean ====
/- Region 0 of @main (the edge-initialisation call): for ANY contents `V` of the core's buffers at the region's
   entry, what each window's block is at a grid point, what the body leaves in the output block (one store of the
   payload of the five input blocks), the body's triple, the proof data and the body obligation at every point.
   Every input window is read whole and left in place; the output window is overwritten whole at every point. -/
import proofs.«428334_j59700045414568_2_alg».proof.Proof.Gen.Kernel.Launch
import proofs.«428334_j59700045414568_2_alg».proof.Proof.Gen.Kernel.Skeleton
import proofs.«428334_j59700045414568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched the block index has not moved, and the body leaves the block in place. One statement per window: a
    window's block type is a literal shape only at a literal window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S3200x64 := Rect.unit (s := S3200x64) ![0, 0] S3200x64.size inb_S3200x64_S3200x64_0_0
abbrev r0_1 : Rect S3200x16 := Rect.unit (s := S3200x16) ![0, 0] S3200x16.size inb_S3200x16_S3200x16_0_0
abbrev r0_2 : Rect S64x300 := Rect.unit (s := S64x300) ![0, 0] S64x300.size inb_S64x300_S64x300_0_0
abbrev r0_3 : Rect S16x300 := Rect.unit (s := S16x300) ![0, 0] S16x300.size inb_S16x300_S16x300_0_0
abbrev r0_4 : Rect S300 := Rect.unit (s := S300) ![0] S300.size inb_S300_S300_0
abbrev r0_5 : Rect S3200x300 := Rect.unit (s := S3200x300) ![0, 0] S3200x300.size inb_S3200x300_S3200x300_0_0

/-- The output block after the body: its one store, of the payload of the five input blocks. -/
def out0_5 (x0 : Vec F S3200x64 .bf16) (x1 : Vec F S3200x16 .bf16) (x2 : Vec F S64x300 .f32) (x3 : Vec F S16x300 .f32) (x4 : Vec F S300 .f32) : Vec F S3200x300 .bf16 :=
  View.canon [⟨r0_5, k0_pay1 (View.ld x0 r0_0) (View.ld x1 r0_1) (View.ld x2 r0_2) (View.ld x3 r0_3) (View.ld x4 r0_4)⟩]

/-- The store covers the whole block. -/
theorem cover0_5 (p0 : Vec F S3200x300 .bf16) (y : S3200x300.Idx) :
    ∃ pc ∈ ([⟨r0_5, p0⟩] : List (View.Piece (Elt F) S3200x300 .bf16)), y ∈ pc.1.set :=
  View.cover_of_tiled [⟨r0_5, p0⟩] S3200x300.size (by rfl) y

set_option maxHeartbeats 1000000 in
/-- The body on whole staging buffers: the five inputs keep their contents, the output ends at `out0_5` of them. -/
theorem sound_kernel0 (c : Dev nD) (E : Set ℕ) (i : grid0.Coords)
    (arg1 : Memref sig .tc .vmem S3200x64 .bf16) (harg1 : arg1.IsWhole) (arg2 : Memref sig .tc .vmem S3200x16 .bf16) (harg2 : arg2.IsWhole)
    (arg3 : Memref sig .tc .vmem S64x300 .f32) (harg3 : arg3.IsWhole) (arg4 : Memref sig .tc .vmem S16x300 .f32) (harg4 : arg4.IsWhole)
    (arg5 : Memref sig .tc .vmem S300 .f32) (harg5 : arg5.IsWhole) (arg6 : Memref sig .tc .vmem S3200x300 .bf16) (harg6 : arg6.IsWhole)
    (x0 : Vec F S3200x64 .bf16) (x1 : Vec F S3200x16 .bf16) (x2 : Vec F S64x300 .f32) (x3 : Vec F S16x300 .f32) (x4 : Vec F S300 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__edge_init_kernel i arg1 harg1 arg2 harg2 arg3 harg3 arg4 harg4 arg5 harg5 arg6 harg6) K := by
  simp only [cc0__edge_init_kernel_eq_skeleton]; unfold cc0__edge_init_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`: the arrays as the region finds them; after the body each input's
    buffer at its block, the output's at `out0_5` of the input blocks; nothing owed. The shares `qq` of the input
    arrays are a parameter. -/
def dat0 (qq : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q := qq
  owed _ := 0

variable (qq : Fin cfg0.W → PosShare TreeShare)

theorem A_eq0 (c : Dev nD) (w : Fin cfg0.W) : (dat0 V qq c).A w = V c (Pipeline.arrRef spec0 w) := by
  dsimp only [dat0]

theorem after0_0 (c : Dev nD) (t : Fin cfg0.N) : (dat0 V qq c).after 0 t = iblk0 V c 0 t := by dsimp only [dat0]
theorem after0_1 (c : Dev nD) (t : Fin cfg0.N) : (dat0 V qq c).after 1 t = iblk0 V c 1 t := by dsimp only [dat0]
theorem after0_2 (c : Dev nD) (t : Fin cfg0.N) : (dat0 V qq c).after 2 t = iblk0 V c 2 t := by dsimp only [dat0]
theorem after0_3 (c : Dev nD) (t : Fin cfg0.N) : (dat0 V qq c).after 3 t = iblk0 V c 3 t := by dsimp only [dat0]
theorem after0_4 (c : Dev nD) (t : Fin cfg0.N) : (dat0 V qq c).after 4 t = iblk0 V c 4 t := by dsimp only [dat0]
theorem after0_5 (c : Dev nD) (t : Fin cfg0.N) : (dat0 V qq c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V qq c).before 0 t d = iblk0 V c 0 t :=
  before0_0_of V (dat0 V qq c) (A_eq0 V qq c 0) (after0_0 V qq c) t d
theorem before0_1 (c : Dev nD) (t : Fin cfg0.N) (d) : (dat0 V qq c).before 1 t d = iblk0 V c 1 t :=
  before0_1_of V (dat0 V qq c) (A_eq0 V qq c 1) (after0_1 V qq c) t d
theorem before0_2 (c : Dev nD) (t : Fin cfg0.N) (d) : (dat0 V qq c).before 2 t d = iblk0 V c 2 t :=
  before0_2_of V (dat0 V qq c) (A_eq0 V qq c 2) (after0_2 V qq c) t d
theorem before0_3 (c : Dev nD) (t : Fin cfg0.N) (d) : (dat0 V qq c).before 3 t d = iblk0 V c 3 t :=
  before0_3_of V (dat0 V qq c) (A_eq0 V qq c 3) (after0_3 V qq c) t d
theorem before0_4 (c : Dev nD) (t : Fin cfg0.N) (d) : (dat0 V qq c).before 4 t d = iblk0 V c 4 t :=
  before0_4_of V (dat0 V qq c) (A_eq0 V qq c 4) (after0_4 V qq c) t d

/-- What the body is called with at point `t`, the windows one by one, -/
def bodyPre0 (c : Dev nD) (t : Fin cfg0.N) : sProp 𝕄 :=
  iprop((dat0 V qq c).Φ t.castSucc ∗ (dat0 V qq c).owesAt () t.castSucc
    ∗ (∃ d, owns (c : Thread nD τ) (st0_0 t) fullShare ((dat0 V qq c).before 0 t d))
    ∗ (∃ d, owns (c : Thread nD τ) (st0_1 t) fullShare ((dat0 V qq c).before 1 t d))
    ∗ (∃ d, owns (c : Thread nD τ) (st0_2 t) fullShare ((dat0 V qq c).before 2 t d))
    ∗ (∃ d, owns (c : Thread nD τ) (st0_3 t) fullShare ((dat0 V qq c).before 3 t d))
    ∗ (∃ d, owns (c : Thread nD τ) (st0_4 t) fullShare ((dat0 V qq c).before 4 t d))
    ∗ (∃ d, owns (c : Thread nD τ) (st0_5 t) fullShare ((dat0 V qq c).before 5 t d)))

/-- and what it returns. -/
def bodyPost0 (c : Dev nD) (t : Fin cfg0.N) : sProp 𝕄 :=
  iprop((dat0 V qq c).Φ t.succ ∗ (dat0 V qq c).owesAt () t.succ
    ∗ owns (c : Thread nD τ) (st0_0 t) fullShare ((dat0 V qq c).after 0 t)
    ∗ owns (c : Thread nD τ) (st0_1 t) fullShare ((dat0 V qq c).after 1 t)
    ∗ owns (c : Thread nD τ) (st0_2 t) fullShare ((dat0 V qq c).after 2 t)
    ∗ owns (c : Thread nD τ) (st0_3 t) fullShare ((dat0 V qq c).after 3 t)
    ∗ owns (c : Thread nD τ) (st0_4 t) fullShare ((dat0 V qq c).after 4 t)
    ∗ owns (c : Thread nD τ) (st0_5 t) fullShare ((dat0 V qq c).after 5 t))

/-- The body at any point: the inputs' buffers hold their blocks, so the body's triple applies; the invariant and
    what the core owes pass through unread. -/
theorem sound_body0 (c : Dev nD) (t : Fin cfg0.N) :
    bodyPre0 V qq c t ⊢ wp frame (wpE (defs₀ (F := F)) Variants.none c none) Set.univ (bodyAt0 t) (fun _ => bodyPost0 V qq c t) := by
  unfold bodyPre0 bodyPost0 bodyAt0
  simp only [before0_0, before0_1, before0_2, before0_3, before0_4]
  rw [show (dat0 V qq c).Φ t.succ = (dat0 V qq c).Φ t.castSucc from rfl,
    show (dat0 V qq c).owesAt () t.succ = (dat0 V qq c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V qq c) (defs₀ (F := F)) Variants.none () Set.univ := fun t => by
  rw [bigSep_W0, bigSep_W0]
  exact sound_body0 V qq c t

end Cert.Kernel.Reg

end
-- ==== Proof.K.Region1.lean ====
/- Region 1 of @main (the first message-passing call): for ANY contents `V` of the core's buffers at the region's
   entry, what each window's block is at a grid point, what the body leaves in the output block (one store of the
   payload of the five input blocks), the body's triple, the proof data and the body obligation at every point.
   Every input window is read whole and left in place; the output window is overwritten whole at every point. -/
import proofs.«428334_j59700045414568_2_alg».proof.Proof.Gen.Kernel.Launch
import proofs.«428334_j59700045414568_2_alg».proof.Proof.Gen.Kernel.Skeleton
import proofs.«428334_j59700045414568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not
    fetched the block index has not moved, and the body leaves the block in place. One statement per window: a
    window's block type is a literal shape only at a literal window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1600x300 := Rect.unit (s := S1600x300) ![0, 0] S1600x300.size inb_S1600x300_S1600x300_0_0
abbrev r1_1 : Rect S1600x300 := Rect.unit (s := S1600x300) ![0, 0] S1600x300.size inb_S1600x300_S1600x300_0_0
abbrev r1_2 : Rect S1600x300 := Rect.unit (s := S1600x300) ![0, 0] S1600x300.size inb_S1600x300_S1600x300_0_0
abbrev r1_3 : Rect S300x300 := Rect.unit (s := S300x300) ![0, 0] S300x300.size inb_S300x300_S300x300_0_0
abbrev r1_4 : Rect S300 := Rect.unit (s := S300) ![0] S300.size inb_S300_S300_0
abbrev r1_5 : Rect S1600x300 := Rect.unit (s := S1600x300) ![0, 0] S1600x300.size inb_S1600x300_S1600x300_0_0

/-- The output block after the body: its one store, of the payload of the five input blocks. -/
def out1_5 (x0 : Vec F S1600x300 .bf16) (x1 : Vec F S1600x300 .bf16) (x2 : Vec F S1600x300 .bf16) (x3 : Vec F S300x300 .f32) (x4 : Vec F S300 .f32) : Vec F S1600x300 .bf16 :=
  View.canon [⟨r1_5, k1_pay1 (View.ld x0 r1_0) (View.ld x1 r1_1) (View.ld x3 r1_3) (View.ld x4 r1_4) (View.ld x2 r1_2)⟩]

/-- The store covers the whole block. -/
theorem cover1_5 (p0 : Vec F S1600x300 .bf16) (y : S1600x300.Idx) :
    ∃ pc ∈ ([⟨r1_5, p0⟩] : List (View.Piece (Elt F) S1600x300 .bf16)), y ∈ pc.1.set :=
  View.cover_of_tiled [⟨r1_5, p0⟩] S1600x300.size (by rfl) y

set_option maxHeartbeats 1000000 in
/-- The body on whole staging buffers: the five inputs keep their contents, the output ends at `out1_5` of them. -/
theorem sound_kernel1 (c : Dev nD) (E : Set ℕ) (i : grid1.Coords)
    (arg1 : Memref sig .tc .vmem S1600x300 .bf16) (harg1 : arg1.IsWhole) (arg2 : Memref sig .tc .vmem S1600x300 .bf16) (harg2 : arg2.IsWhole)
    (arg3 : Memref sig .tc .vmem S1600x300 .bf16) (harg3 : arg3.IsWhole) (arg4 : Memref sig .tc .vmem S300x300 .f32) (harg4 : arg4.IsWhole)
    (arg5 : Memref sig .tc .vmem S300 .f32) (harg5 : arg5.IsWhole) (arg6 : Memref sig .tc .vmem S1600x300 .bf16) (harg6 : arg6.IsWhole)
    (x0 : Vec F S1600x300 .bf16) (x1 : Vec F S1600x300 .bf16) (x2 : Vec F S1600x300 .bf16) (x3 : Vec F S300x300 .f32) (x4 : Vec F S300 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__conv_kernel i arg1 harg1 arg2 harg2 arg3 harg3 arg4 harg4 arg5 harg5 arg6 harg6) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body each input's
    buffer at its block, the output's at `out1_5` of the input blocks; nothing owed. The shares `qq` of the input
    arrays are a parameter. -/
def dat1 (qq : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := qq
  owed _ := 0

variable (qq : Fin cfg1.W → PosShare TreeShare)

theorem A_eq1 (c : Dev nD) (w : Fin cfg1.W) : (dat1 V qq c).A w = V c (Pipeline.arrRef spec1 w) := by
  dsimp only [dat1]

theorem after1_0 (c : Dev nD) (t : Fin cfg1.N) : (dat1 V qq c).after 0 t = iblk1 V c 0 t := by dsimp only [dat1]
theorem after1_1 (c : Dev nD) (t : Fin cfg1.N) : (dat1 V qq c).after 1 t = iblk1 V c 1 t := by dsimp only [dat1]
theorem after1_2 (c : Dev nD) (t : Fin cfg1.N) : (dat1 V qq c).after 2 t = iblk1 V c 2 t := by dsimp only [dat1]
theorem after1_3 (c : Dev nD) (t : Fin cfg1.N) : (dat1 V qq c).after 3 t = iblk1 V c 3 t := by dsimp only [dat1]
theorem after1_4 (c : Dev nD) (t : Fin cfg1.N) : (dat1 V qq c).after 4 t = iblk1 V c 4 t := by dsimp only [dat1]
theorem after1_5 (c : Dev nD) (t : Fin cfg1.N) : (dat1 V qq c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V qq c).before 0 t d = iblk1 V c 0 t :=
  before1_0_of V (dat1 V qq c) (A_eq1 V qq c 0) (after1_0 V qq c) t d
theorem before1_1 (c : Dev nD) (t : Fin cfg1.N) (d) : (dat1 V qq c).before 1 t d = iblk1 V c 1 t :=
  before1_1_of V (dat1 V qq c) (A_eq1 V qq c 1) (after1_1 V qq c) t d
theorem before1_2 (c : Dev nD) (t : Fin cfg1.N) (d) : (dat1 V qq c).before 2 t d = iblk1 V c 2 t :=
  before1_2_of V (dat1 V qq c) (A_eq1 V qq c 2) (after1_2 V qq c) t d
theorem before1_3 (c : Dev nD) (t : Fin cfg1.N) (d) : (dat1 V qq c).before 3 t d = iblk1 V c 3 t :=
  before1_3_of V (dat1 V qq c) (A_eq1 V qq c 3) (after1_3 V qq c) t d
theorem before1_4 (c : Dev nD) (t : Fin cfg1.N) (d) : (dat1 V qq c).before 4 t d = iblk1 V c 4 t :=
  before1_4_of V (dat1 V qq c) (A_eq1 V qq c 4) (after1_4 V qq c) t d

/-- What the body is called with at point `t`, the windows one by one, -/
def bodyPre1 (c : Dev nD) (t : Fin cfg1.N) : sProp 𝕄 :=
  iprop((dat1 V qq c).Φ t.castSucc ∗ (dat1 V qq c).owesAt () t.castSucc
    ∗ (∃ d, owns (c : Thread nD τ) (st1_0 t) fullShare ((dat1 V qq c).before 0 t d))
    ∗ (∃ d, owns (c : Thread nD τ) (st1_1 t) fullShare ((dat1 V qq c).before 1 t d))
    ∗ (∃ d, owns (c : Thread nD τ) (st1_2 t) fullShare ((dat1 V qq c).before 2 t d))
    ∗ (∃ d, owns (c : Thread nD τ) (st1_3 t) fullShare ((dat1 V qq c).before 3 t d))
    ∗ (∃ d, owns (c : Thread nD τ) (st1_4 t) fullShare ((dat1 V qq c).before 4 t d))
    ∗ (∃ d, owns (c : Thread nD τ) (st1_5 t) fullShare ((dat1 V qq c).before 5 t d)))

/-- and what it returns. -/
def bodyPost1 (c : Dev nD) (t : Fin cfg1.N) : sProp 𝕄 :=
  iprop((dat1 V qq c).Φ t.succ ∗ (dat1 V qq c).owesAt () t.succ
    ∗ owns (c : Thread nD τ) (st1_0 t) fullShare ((dat1 V qq c).after 0 t)
    ∗ owns (c : Thread nD τ) (st1_1 t) fullShare ((dat1 V qq c).after 1 t)
    ∗ owns (c : Thread nD τ) (st1_2 t) fullShare ((dat1 V qq c).after 2 t)
    ∗ owns (c : Thread nD τ) (st1_3 t) fullShare ((dat1 V qq c).after 3 t)
    ∗ owns (c : Thread nD τ) (st1_4 t) fullShare ((dat1 V qq c).after 4 t)
    ∗ owns (c : Thread nD τ) (st1_5 t) fullShare ((dat1 V qq c).after 5 t))

/-- The body at any point: the inputs' buffers hold their blocks, so the body's triple applies; the invariant and
    what the core owes pass through unread. -/
theorem sound_body1 (c : Dev nD) (t : Fin cfg1.N) :
    bodyPre1 V qq c t ⊢ wp frame (wpE (defs₀ (F := F)) Variants.none c none) Set.univ (bodyAt1 t) (fun _ => bodyPost1 V qq c t) := by
  unfold bodyPre1 bodyPost1 bodyAt1
  simp only [before1_0, before1_1, before1_2, before1_3, before1_4]
  rw [show (dat1 V qq c).Φ t.succ = (dat1 V qq c).Φ t.castSucc from rfl,
    show (dat1 V qq c).owesAt () t.succ = (dat1 V qq c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V qq c) (defs₀ (F := F)) Variants.none () Set.univ := fun t => by
  rw [bigSep_W1, bigSep_W1]
  exact sound_body1 V qq c t

end Cert.Kernel.Reg

end
-- ==== Proof.K.Region2.lean ====
/- Region 2 of @main (the second message-passing call): for ANY contents `V` of the core's buffers at the region's
   entry, what each window's block is at a grid point, what the body leaves in the output block (one store of the
   payload of the five input blocks), the body's triple, the proof data and the body obligation at every point.
   Every input window is read whole and left in place; the output window is overwritten whole at every point. -/
import proofs.«428334_j59700045414568_2_alg».proof.Proof.Gen.Kernel.Launch
import proofs.«428334_j59700045414568_2_alg».proof.Proof.Gen.Kernel.Skeleton
import proofs.«428334_j59700045414568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not
    fetched the block index has not moved, and the body leaves the block in place. One statement per window: a
    window's block type is a literal shape only at a literal window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1600x300 := Rect.unit (s := S1600x300) ![0, 0] S1600x300.size inb_S1600x300_S1600x300_0_0
abbrev r2_1 : Rect S1600x300 := Rect.unit (s := S1600x300) ![0, 0] S1600x300.size inb_S1600x300_S1600x300_0_0
abbrev r2_2 : Rect S1600x300 := Rect.unit (s := S1600x300) ![0, 0] S1600x300.size inb_S1600x300_S1600x300_0_0
abbrev r2_3 : Rect S300x300 := Rect.unit (s := S300x300) ![0, 0] S300x300.size inb_S300x300_S300x300_0_0
abbrev r2_4 : Rect S300 := Rect.unit (s := S300) ![0] S300.size inb_S300_S300_0
abbrev r2_5 : Rect S1600x300 := Rect.unit (s := S1600x300) ![0, 0] S1600x300.size inb_S1600x300_S1600x300_0_0

/-- The output block after the body: its one store, of the payload of the five input blocks. -/
def out2_5 (x0 : Vec F S1600x300 .bf16) (x1 : Vec F S1600x300 .bf16) (x2 : Vec F S1600x300 .bf16) (x3 : Vec F S300x300 .f32) (x4 : Vec F S300 .f32) : Vec F S1600x300 .bf16 :=
  View.canon [⟨r2_5, k2_pay1 (View.ld x0 r2_0) (View.ld x1 r2_1) (View.ld x3 r2_3) (View.ld x4 r2_4) (View.ld x2 r2_2)⟩]

/-- The store covers the whole block. -/
theorem cover2_5 (p0 : Vec F S1600x300 .bf16) (y : S1600x300.Idx) :
    ∃ pc ∈ ([⟨r2_5, p0⟩] : List (View.Piece (Elt F) S1600x300 .bf16)), y ∈ pc.1.set :=
  View.cover_of_tiled [⟨r2_5, p0⟩] S1600x300.size (by rfl) y

set_option maxHeartbeats 1000000 in
/-- The body on whole staging buffers: the five inputs keep their contents, the output ends at `out2_5` of them. -/
theorem sound_kernel2 (c : Dev nD) (E : Set ℕ) (i : grid2.Coords)
    (arg1 : Memref sig .tc .vmem S1600x300 .bf16) (harg1 : arg1.IsWhole) (arg2 : Memref sig .tc .vmem S1600x300 .bf16) (harg2 : arg2.IsWhole)
    (arg3 : Memref sig .tc .vmem S1600x300 .bf16) (harg3 : arg3.IsWhole) (arg4 : Memref sig .tc .vmem S300x300 .f32) (harg4 : arg4.IsWhole)
    (arg5 : Memref sig .tc .vmem S300 .f32) (harg5 : arg5.IsWhole) (arg6 : Memref sig .tc .vmem S1600x300 .bf16) (harg6 : arg6.IsWhole)
    (x0 : Vec F S1600x300 .bf16) (x1 : Vec F S1600x300 .bf16) (x2 : Vec F S1600x300 .bf16) (x3 : Vec F S300x300 .f32) (x4 : Vec F S300 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__conv_kernel i arg1 harg1 arg2 harg2 arg3 harg3 arg4 harg4 arg5 harg5 arg6 harg6) K := by
  simp only [cc2__conv_kernel_eq_skeleton]; unfold cc2__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body each input's
    buffer at its block, the output's at `out2_5` of the input blocks; nothing owed. The shares `qq` of the input
    arrays are a parameter. -/
def dat2 (qq : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q := qq
  owed _ := 0

variable (qq : Fin cfg2.W → PosShare TreeShare)

theorem A_eq2 (c : Dev nD) (w : Fin cfg2.W) : (dat2 V qq c).A w = V c (Pipeline.arrRef spec2 w) := by
  dsimp only [dat2]

theorem after2_0 (c : Dev nD) (t : Fin cfg2.N) : (dat2 V qq c).after 0 t = iblk2 V c 0 t := by dsimp only [dat2]
theorem after2_1 (c : Dev nD) (t : Fin cfg2.N) : (dat2 V qq c).after 1 t = iblk2 V c 1 t := by dsimp only [dat2]
theorem after2_2 (c : Dev nD) (t : Fin cfg2.N) : (dat2 V qq c).after 2 t = iblk2 V c 2 t := by dsimp only [dat2]
theorem after2_3 (c : Dev nD) (t : Fin cfg2.N) : (dat2 V qq c).after 3 t = iblk2 V c 3 t := by dsimp only [dat2]
theorem after2_4 (c : Dev nD) (t : Fin cfg2.N) : (dat2 V qq c).after 4 t = iblk2 V c 4 t := by dsimp only [dat2]
theorem after2_5 (c : Dev nD) (t : Fin cfg2.N) : (dat2 V qq c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V qq c).before 0 t d = iblk2 V c 0 t :=
  before2_0_of V (dat2 V qq c) (A_eq2 V qq c 0) (after2_0 V qq c) t d
theorem before2_1 (c : Dev nD) (t : Fin cfg2.N) (d) : (dat2 V qq c).before 1 t d = iblk2 V c 1 t :=
  before2_1_of V (dat2 V qq c) (A_eq2 V qq c 1) (after2_1 V qq c) t d
theorem before2_2 (c : Dev nD) (t : Fin cfg2.N) (d) : (dat2 V qq c).before 2 t d = iblk2 V c 2 t :=
  before2_2_of V (dat2 V qq c) (A_eq2 V qq c 2) (after2_2 V qq c) t d
theorem before2_3 (c : Dev nD) (t : Fin cfg2.N) (d) : (dat2 V qq c).before 3 t d = iblk2 V c 3 t :=
  before2_3_of V (dat2 V qq c) (A_eq2 V qq c 3) (after2_3 V qq c) t d
theorem before2_4 (c : Dev nD) (t : Fin cfg2.N) (d) : (dat2 V qq c).before 4 t d = iblk2 V c 4 t :=
  before2_4_of V (dat2 V qq c) (A_eq2 V qq c 4) (after2_4 V qq c) t d

/-- What the body is called with at point `t`, the windows one by one, -/
def bodyPre2 (c : Dev nD) (t : Fin cfg2.N) : sProp 𝕄 :=
  iprop((dat2 V qq c).Φ t.castSucc ∗ (dat2 V qq c).owesAt () t.castSucc
    ∗ (∃ d, owns (c : Thread nD τ) (st2_0 t) fullShare ((dat2 V qq c).before 0 t d))
    ∗ (∃ d, owns (c : Thread nD τ) (st2_1 t) fullShare ((dat2 V qq c).before 1 t d))
    ∗ (∃ d, owns (c : Thread nD τ) (st2_2 t) fullShare ((dat2 V qq c).before 2 t d))
    ∗ (∃ d, owns (c : Thread nD τ) (st2_3 t) fullShare ((dat2 V qq c).before 3 t d))
    ∗ (∃ d, owns (c : Thread nD τ) (st2_4 t) fullShare ((dat2 V qq c).before 4 t d))
    ∗ (∃ d, owns (c : Thread nD τ) (st2_5 t) fullShare ((dat2 V qq c).before 5 t d)))

/-- and what it returns. -/
def bodyPost2 (c : Dev nD) (t : Fin cfg2.N) : sProp 𝕄 :=
  iprop((dat2 V qq c).Φ t.succ ∗ (dat2 V qq c).owesAt () t.succ
    ∗ owns (c : Thread nD τ) (st2_0 t) fullShare ((dat2 V qq c).after 0 t)
    ∗ owns (c : Thread nD τ) (st2_1 t) fullShare ((dat2 V qq c).after 1 t)
    ∗ owns (c : Thread nD τ) (st2_2 t) fullShare ((dat2 V qq c).after 2 t)
    ∗ owns (c : Thread nD τ) (st2_3 t) fullShare ((dat2 V qq c).after 3 t)
    ∗ owns (c : Thread nD τ) (st2_4 t) fullShare ((dat2 V qq c).after 4 t)
    ∗ owns (c : Thread nD τ) (st2_5 t) fullShare ((dat2 V qq c).after 5 t))

/-- The body at any point: the inputs' buffers hold their blocks, so the body's triple applies; the invariant and
    what the core owes pass through unread. -/
theorem sound_body2 (c : Dev nD) (t : Fin cfg2.N) :
    bodyPre2 V qq c t ⊢ wp frame (wpE (defs₀ (F := F)) Variants.none c none) Set.univ (bodyAt2 t) (fun _ => bodyPost2 V qq c t) := by
  unfold bodyPre2 bodyPost2 bodyAt2
  simp only [before2_0, before2_1, before2_2, before2_3, before2_4]
  rw [show (dat2 V qq c).Φ t.succ = (dat2 V qq c).Φ t.castSucc from rfl,
    show (dat2 V qq c).owesAt () t.succ = (dat2 V qq c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V qq c) (defs₀ (F := F)) Variants.none () Set.univ := fun t => by
  rw [bigSep_W2, bigSep_W2]
  exact sound_body2 V qq c t

end Cert.Kernel.Reg

end
-- ==== Proof.K.Region3.lean ====
/- Region 3 of @main (the third message-passing call): for ANY contents `V` of the core's buffers at the region's
   entry, what each window's block is at a grid point, what the body leaves in the output block (one store of the
   payload of the five input blocks), the body's triple, the proof data and the body obligation at every point.
   Every input window is read whole and left in place; the output window is overwritten whole at every point. -/
import proofs.«428334_j59700045414568_2_alg».proof.Proof.Gen.Kernel.Launch
import proofs.«428334_j59700045414568_2_alg».proof.Proof.Gen.Kernel.Skeleton
import proofs.«428334_j59700045414568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: where it is not
    fetched the block index has not moved, and the body leaves the block in place. One statement per window: a
    window's block type is a literal shape only at a literal window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1600x300 := Rect.unit (s := S1600x300) ![0, 0] S1600x300.size inb_S1600x300_S1600x300_0_0
abbrev r3_1 : Rect S1600x300 := Rect.unit (s := S1600x300) ![0, 0] S1600x300.size inb_S1600x300_S1600x300_0_0
abbrev r3_2 : Rect S1600x300 := Rect.unit (s := S1600x300) ![0, 0] S1600x300.size inb_S1600x300_S1600x300_0_0
abbrev r3_3 : Rect S300x300 := Rect.unit (s := S300x300) ![0, 0] S300x300.size inb_S300x300_S300x300_0_0
abbrev r3_4 : Rect S300 := Rect.unit (s := S300) ![0] S300.size inb_S300_S300_0
abbrev r3_5 : Rect S1600x300 := Rect.unit (s := S1600x300) ![0, 0] S1600x300.size inb_S1600x300_S1600x300_0_0

/-- The output block after the body: its one store, of the payload of the five input blocks. -/
def out3_5 (x0 : Vec F S1600x300 .bf16) (x1 : Vec F S1600x300 .bf16) (x2 : Vec F S1600x300 .bf16) (x3 : Vec F S300x300 .f32) (x4 : Vec F S300 .f32) : Vec F S1600x300 .bf16 :=
  View.canon [⟨r3_5, k3_pay1 (View.ld x0 r3_0) (View.ld x1 r3_1) (View.ld x3 r3_3) (View.ld x4 r3_4) (View.ld x2 r3_2)⟩]

/-- The store covers the whole block. -/
theorem cover3_5 (p0 : Vec F S1600x300 .bf16) (y : S1600x300.Idx) :
    ∃ pc ∈ ([⟨r3_5, p0⟩] : List (View.Piece (Elt F) S1600x300 .bf16)), y ∈ pc.1.set :=
  View.cover_of_tiled [⟨r3_5, p0⟩] S1600x300.size (by rfl) y

set_option maxHeartbeats 1000000 in
/-- The body on whole staging buffers: the five inputs keep their contents, the output ends at `out3_5` of them. -/
theorem sound_kernel3 (c : Dev nD) (E : Set ℕ) (i : grid3.Coords)
    (arg1 : Memref sig .tc .vmem S1600x300 .bf16) (harg1 : arg1.IsWhole) (arg2 : Memref sig .tc .vmem S1600x300 .bf16) (harg2 : arg2.IsWhole)
    (arg3 : Memref sig .tc .vmem S1600x300 .bf16) (harg3 : arg3.IsWhole) (arg4 : Memref sig .tc .vmem S300x300 .f32) (harg4 : arg4.IsWhole)
    (arg5 : Memref sig .tc .vmem S300 .f32) (harg5 : arg5.IsWhole) (arg6 : Memref sig .tc .vmem S1600x300 .bf16) (harg6 : arg6.IsWhole)
    (x0 : Vec F S1600x300 .bf16) (x1 : Vec F S1600x300 .bf16) (x2 : Vec F S1600x300 .bf16) (x3 : Vec F S300x300 .f32) (x4 : Vec F S300 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__conv_kernel i arg1 harg1 arg2 harg2 arg3 harg3 arg4 harg4 arg5 harg5 arg6 harg6) K := by
  simp only [cc3__conv_kernel_eq_skeleton]; unfold cc3__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body each input's
    buffer at its block, the output's at `out3_5` of the input blocks; nothing owed. The shares `qq` of the input
    arrays are a parameter. -/
def dat3 (qq : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q := qq
  owed _ := 0

variable (qq : Fin cfg3.W → PosShare TreeShare)

theorem A_eq3 (c : Dev nD) (w : Fin cfg3.W) : (dat3 V qq c).A w = V c (Pipeline.arrRef spec3 w) := by
  dsimp only [dat3]

theorem after3_0 (c : Dev nD) (t : Fin cfg3.N) : (dat3 V qq c).after 0 t = iblk3 V c 0 t := by dsimp only [dat3]
theorem after3_1 (c : Dev nD) (t : Fin cfg3.N) : (dat3 V qq c).after 1 t = iblk3 V c 1 t := by dsimp only [dat3]
theorem after3_2 (c : Dev nD) (t : Fin cfg3.N) : (dat3 V qq c).after 2 t = iblk3 V c 2 t := by dsimp only [dat3]
theorem after3_3 (c : Dev nD) (t : Fin cfg3.N) : (dat3 V qq c).after 3 t = iblk3 V c 3 t := by dsimp only [dat3]
theorem after3_4 (c : Dev nD) (t : Fin cfg3.N) : (dat3 V qq c).after 4 t = iblk3 V c 4 t := by dsimp only [dat3]
theorem after3_5 (c : Dev nD) (t : Fin cfg3.N) : (dat3 V qq c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V qq c).before 0 t d = iblk3 V c 0 t :=
  before3_0_of V (dat3 V qq c) (A_eq3 V qq c 0) (after3_0 V qq c) t d
theorem before3_1 (c : Dev nD) (t : Fin cfg3.N) (d) : (dat3 V qq c).before 1 t d = iblk3 V c 1 t :=
  before3_1_of V (dat3 V qq c) (A_eq3 V qq c 1) (after3_1 V qq c) t d
theorem before3_2 (c : Dev nD) (t : Fin cfg3.N) (d) : (dat3 V qq c).before 2 t d = iblk3 V c 2 t :=
  before3_2_of V (dat3 V qq c) (A_eq3 V qq c 2) (after3_2 V qq c) t d
theorem before3_3 (c : Dev nD) (t : Fin cfg3.N) (d) : (dat3 V qq c).before 3 t d = iblk3 V c 3 t :=
  before3_3_of V (dat3 V qq c) (A_eq3 V qq c 3) (after3_3 V qq c) t d
theorem before3_4 (c : Dev nD) (t : Fin cfg3.N) (d) : (dat3 V qq c).before 4 t d = iblk3 V c 4 t :=
  before3_4_of V (dat3 V qq c) (A_eq3 V qq c 4) (after3_4 V qq c) t d

/-- What the body is called with at point `t`, the windows one by one, -/
def bodyPre3 (c : Dev nD) (t : Fin cfg3.N) : sProp 𝕄 :=
  iprop((dat3 V qq c).Φ t.castSucc ∗ (dat3 V qq c).owesAt () t.castSucc
    ∗ (∃ d, owns (c : Thread nD τ) (st3_0 t) fullShare ((dat3 V qq c).before 0 t d))
    ∗ (∃ d, owns (c : Thread nD τ) (st3_1 t) fullShare ((dat3 V qq c).before 1 t d))
    ∗ (∃ d, owns (c : Thread nD τ) (st3_2 t) fullShare ((dat3 V qq c).before 2 t d))
    ∗ (∃ d, owns (c : Thread nD τ) (st3_3 t) fullShare ((dat3 V qq c).before 3 t d))
    ∗ (∃ d, owns (c : Thread nD τ) (st3_4 t) fullShare ((dat3 V qq c).before 4 t d))
    ∗ (∃ d, owns (c : Thread nD τ) (st3_5 t) fullShare ((dat3 V qq c).before 5 t d)))

/-- and what it returns. -/
def bodyPost3 (c : Dev nD) (t : Fin cfg3.N) : sProp 𝕄 :=
  iprop((dat3 V qq c).Φ t.succ ∗ (dat3 V qq c).owesAt () t.succ
    ∗ owns (c : Thread nD τ) (st3_0 t) fullShare ((dat3 V qq c).after 0 t)
    ∗ owns (c : Thread nD τ) (st3_1 t) fullShare ((dat3 V qq c).after 1 t)
    ∗ owns (c : Thread nD τ) (st3_2 t) fullShare ((dat3 V qq c).after 2 t)
    ∗ owns (c : Thread nD τ) (st3_3 t) fullShare ((dat3 V qq c).after 3 t)
    ∗ owns (c : Thread nD τ) (st3_4 t) fullShare ((dat3 V qq c).after 4 t)
    ∗ owns (c : Thread nD τ) (st3_5 t) fullShare ((dat3 V qq c).after 5 t))

/-- The body at any point: the inputs' buffers hold their blocks, so the body's triple applies; the invariant and
    what the core owes pass through unread. -/
theorem sound_body3 (c : Dev nD) (t : Fin cfg3.N) :
    bodyPre3 V qq c t ⊢ wp frame (wpE (defs₀ (F := F)) Variants.none c none) Set.univ (bodyAt3 t) (fun _ => bodyPost3 V qq c t) := by
  unfold bodyPre3 bodyPost3 bodyAt3
  simp only [before3_0, before3_1, before3_2, before3_3, before3_4]
  rw [show (dat3 V qq c).Φ t.succ = (dat3 V qq c).Φ t.castSucc from rfl,
    show (dat3 V qq c).owesAt () t.succ = (dat3 V qq c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V qq c) (defs₀ (F := F)) Variants.none () Set.univ := fun t => by
  rw [bigSep_W3, bigSep_W3]
  exact sound_body3 V qq c t

end Cert.Kernel.Reg

end
-- ==== Proof.K.Region4.lean ====
/- Region 4 of @main (the node-update call): for ANY contents `V` of the core's buffers at the region's
   entry, what each window's block is at a grid point, what the body leaves in the output block (one store of the
   payload of the five input blocks), the body's triple, the proof data and the body obligation at every point.
   Every input window is read whole and left in place; the output window is overwritten whole at every point. -/
import proofs.«428334_j59700045414568_2_alg».proof.Proof.Gen.Kernel.Launch
import proofs.«428334_j59700045414568_2_alg».proof.Proof.Gen.Kernel.Skeleton
import proofs.«428334_j59700045414568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not: where it is not
    fetched the block index has not moved, and the body leaves the block in place. One statement per window: a
    window's block type is a literal shape only at a literal window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x64 := Rect.unit (s := S2000x64) ![0, 0] S2000x64.size inb_S2000x64_S2000x64_0_0
abbrev r4_1 : Rect S2000x300 := Rect.unit (s := S2000x300) ![0, 0] S2000x300.size inb_S2000x300_S2000x300_0_0
abbrev r4_2 : Rect S64x300 := Rect.unit (s := S64x300) ![0, 0] S64x300.size inb_S64x300_S64x300_0_0
abbrev r4_3 : Rect S300x300 := Rect.unit (s := S300x300) ![0, 0] S300x300.size inb_S300x300_S300x300_0_0
abbrev r4_4 : Rect S300 := Rect.unit (s := S300) ![0] S300.size inb_S300_S300_0
abbrev r4_5 : Rect S2000x300 := Rect.unit (s := S2000x300) ![0, 0] S2000x300.size inb_S2000x300_S2000x300_0_0

/-- The output block after the body: its one store, of the payload of the five input blocks. -/
def out4_5 (x0 : Vec F S2000x64 .f32) (x1 : Vec F S2000x300 .f32) (x2 : Vec F S64x300 .f32) (x3 : Vec F S300x300 .f32) (x4 : Vec F S300 .f32) : Vec F S2000x300 .f32 :=
  View.canon [⟨r4_5, k4_pay1 (View.ld x0 r4_0) (View.ld x1 r4_1) (View.ld x2 r4_2) (View.ld x3 r4_3) (View.ld x4 r4_4)⟩]

/-- The store covers the whole block. -/
theorem cover4_5 (p0 : Vec F S2000x300 .f32) (y : S2000x300.Idx) :
    ∃ pc ∈ ([⟨r4_5, p0⟩] : List (View.Piece (Elt F) S2000x300 .f32)), y ∈ pc.1.set :=
  View.cover_of_tiled [⟨r4_5, p0⟩] S2000x300.size (by rfl) y

set_option maxHeartbeats 1000000 in
/-- The body on whole staging buffers: the five inputs keep their contents, the output ends at `out4_5` of them. -/
theorem sound_kernel4 (c : Dev nD) (E : Set ℕ) (i : grid4.Coords)
    (arg1 : Memref sig .tc .vmem S2000x64 .f32) (harg1 : arg1.IsWhole) (arg2 : Memref sig .tc .vmem S2000x300 .f32) (harg2 : arg2.IsWhole)
    (arg3 : Memref sig .tc .vmem S64x300 .f32) (harg3 : arg3.IsWhole) (arg4 : Memref sig .tc .vmem S300x300 .f32) (harg4 : arg4.IsWhole)
    (arg5 : Memref sig .tc .vmem S300 .f32) (harg5 : arg5.IsWhole) (arg6 : Memref sig .tc .vmem S2000x300 .f32) (harg6 : arg6.IsWhole)
    (x0 : Vec F S2000x64 .f32) (x1 : Vec F S2000x300 .f32) (x2 : Vec F S64x300 .f32) (x3 : Vec F S300x300 .f32) (x4 : Vec F S300 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__e2n_kernel i arg1 harg1 arg2 harg2 arg3 harg3 arg4 harg4 arg5 harg5 arg6 harg6) K := by
  simp only [cc4__e2n_kernel_eq_skeleton]; unfold cc4__e2n_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of pipeline 4 on core `c`: the arrays as the region finds them; after the body each input's
    buffer at its block, the output's at `out4_5` of the input blocks; nothing owed. The shares `qq` of the input
    arrays are a parameter. -/
def dat4 (qq : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q := qq
  owed _ := 0

variable (qq : Fin cfg4.W → PosShare TreeShare)

theorem A_eq4 (c : Dev nD) (w : Fin cfg4.W) : (dat4 V qq c).A w = V c (Pipeline.arrRef spec4 w) := by
  dsimp only [dat4]

theorem after4_0 (c : Dev nD) (t : Fin cfg4.N) : (dat4 V qq c).after 0 t = iblk4 V c 0 t := by dsimp only [dat4]
theorem after4_1 (c : Dev nD) (t : Fin cfg4.N) : (dat4 V qq c).after 1 t = iblk4 V c 1 t := by dsimp only [dat4]
theorem after4_2 (c : Dev nD) (t : Fin cfg4.N) : (dat4 V qq c).after 2 t = iblk4 V c 2 t := by dsimp only [dat4]
theorem after4_3 (c : Dev nD) (t : Fin cfg4.N) : (dat4 V qq c).after 3 t = iblk4 V c 3 t := by dsimp only [dat4]
theorem after4_4 (c : Dev nD) (t : Fin cfg4.N) : (dat4 V qq c).after 4 t = iblk4 V c 4 t := by dsimp only [dat4]
theorem after4_5 (c : Dev nD) (t : Fin cfg4.N) : (dat4 V qq c).after 5 t
    = out4_5 (iblk4 V c 0 t) (iblk4 V c 1 t) (iblk4 V c 2 t) (iblk4 V c 3 t) (iblk4 V c 4 t) := by dsimp only [dat4]

theorem before4_0 (c : Dev nD) (t : Fin cfg4.N) (d) : (dat4 V qq c).before 0 t d = iblk4 V c 0 t :=
  before4_0_of V (dat4 V qq c) (A_eq4 V qq c 0) (after4_0 V qq c) t d
theorem before4_1 (c : Dev nD) (t : Fin cfg4.N) (d) : (dat4 V qq c).before 1 t d = iblk4 V c 1 t :=
  before4_1_of V (dat4 V qq c) (A_eq4 V qq c 1) (after4_1 V qq c) t d
theorem before4_2 (c : Dev nD) (t : Fin cfg4.N) (d) : (dat4 V qq c).before 2 t d = iblk4 V c 2 t :=
  before4_2_of V (dat4 V qq c) (A_eq4 V qq c 2) (after4_2 V qq c) t d
theorem before4_3 (c : Dev nD) (t : Fin cfg4.N) (d) : (dat4 V qq c).before 3 t d = iblk4 V c 3 t :=
  before4_3_of V (dat4 V qq c) (A_eq4 V qq c 3) (after4_3 V qq c) t d
theorem before4_4 (c : Dev nD) (t : Fin cfg4.N) (d) : (dat4 V qq c).before 4 t d = iblk4 V c 4 t :=
  before4_4_of V (dat4 V qq c) (A_eq4 V qq c 4) (after4_4 V qq c) t d

/-- What the body is called with at point `t`, the windows one by one, -/
def bodyPre4 (c : Dev nD) (t : Fin cfg4.N) : sProp 𝕄 :=
  iprop((dat4 V qq c).Φ t.castSucc ∗ (dat4 V qq c).owesAt () t.castSucc
    ∗ (∃ d, owns (c : Thread nD τ) (st4_0 t) fullShare ((dat4 V qq c).before 0 t d))
    ∗ (∃ d, owns (c : Thread nD τ) (st4_1 t) fullShare ((dat4 V qq c).before 1 t d))
    ∗ (∃ d, owns (c : Thread nD τ) (st4_2 t) fullShare ((dat4 V qq c).before 2 t d))
    ∗ (∃ d, owns (c : Thread nD τ) (st4_3 t) fullShare ((dat4 V qq c).before 3 t d))
    ∗ (∃ d, owns (c : Thread nD τ) (st4_4 t) fullShare ((dat4 V qq c).before 4 t d))
    ∗ (∃ d, owns (c : Thread nD τ) (st4_5 t) fullShare ((dat4 V qq c).before 5 t d)))

/-- and what it returns. -/
def bodyPost4 (c : Dev nD) (t : Fin cfg4.N) : sProp 𝕄 :=
  iprop((dat4 V qq c).Φ t.succ ∗ (dat4 V qq c).owesAt () t.succ
    ∗ owns (c : Thread nD τ) (st4_0 t) fullShare ((dat4 V qq c).after 0 t)
    ∗ owns (c : Thread nD τ) (st4_1 t) fullShare ((dat4 V qq c).after 1 t)
    ∗ owns (c : Thread nD τ) (st4_2 t) fullShare ((dat4 V qq c).after 2 t)
    ∗ owns (c : Thread nD τ) (st4_3 t) fullShare ((dat4 V qq c).after 3 t)
    ∗ owns (c : Thread nD τ) (st4_4 t) fullShare ((dat4 V qq c).after 4 t)
    ∗ owns (c : Thread nD τ) (st4_5 t) fullShare ((dat4 V qq c).after 5 t))

/-- The body at any point: the inputs' buffers hold their blocks, so the body's triple applies; the invariant and
    what the core owes pass through unread. -/
theorem sound_body4 (c : Dev nD) (t : Fin cfg4.N) :
    bodyPre4 V qq c t ⊢ wp frame (wpE (defs₀ (F := F)) Variants.none c none) Set.univ (bodyAt4 t) (fun _ => bodyPost4 V qq c t) := by
  unfold bodyPre4 bodyPost4 bodyAt4
  simp only [before4_0, before4_1, before4_2, before4_3, before4_4]
  rw [show (dat4 V qq c).Φ t.succ = (dat4 V qq c).Φ t.castSucc from rfl,
    show (dat4 V qq c).owesAt () t.succ = (dat4 V qq c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V qq c) (defs₀ (F := F)) Variants.none () Set.univ := fun t => by
  rw [bigSep_W4, bigSep_W4]
  exact sound_body4 V qq c t

end Cert.Kernel.Reg

end
-- ==== Proof.K.Fold.lean ====
/- The contents of a core's buffers at every boundary between two items of @main, as a fold from the launch memory:
   a stretch of host operations applies them; a kernel region replaces its one output array by what the pipeline's
   write-backs leave and keeps every other buffer. A buffer that no stretch writes and that is no region's output
   ends as launched. -/
import proofs.«428334_j59700045414568_2_alg».proof.Proof.K.Region0
import proofs.«428334_j59700045414568_2_alg».proof.Proof.K.Region1
import proofs.«428334_j59700045414568_2_alg».proof.Proof.K.Region2
import proofs.«428334_j59700045414568_2_alg».proof.Proof.K.Region3
import proofs.«428334_j59700045414568_2_alg».proof.Proof.K.Region4
import proofs.«428334_j59700045414568_2_alg».proof.Proof.Gen.Kernel.Regions

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares of the input arrays: whole, except where one array feeds two windows of a call (the first
    message-passing call reads the initial edge state both as its state and as its skip input), which then hold a half each. -/
abbrev qq0 : Fin cfg0.W → PosShare TreeShare := fun _ => fullShare
def qq1 : Fin cfg1.W → PosShare TreeShare := fun w => match w with
  | ⟨1, _⟩ => (fullShare : PosShare TreeShare).left
  | ⟨2, _⟩ => (fullShare : PosShare TreeShare).right
  | _ => fullShare
abbrev qq2 : Fin cfg2.W → PosShare TreeShare := fun _ => fullShare
abbrev qq3 : Fin cfg3.W → PosShare TreeShare := fun _ => fullShare
abbrev qq4 : Fin cfg4.W → PosShare TreeShare := fun _ => fullShare

variable (m : (ℓ : Loc nD τ sig) → Buf (Elt F) ℓ)

/-- Core `c`'s unscoped buffers at launch. -/
abbrev U0 : Dev nD → Valuation τ sig (Elt F) := fun c b => m (c, b)
/-- After the host stretch `hostOps0`. -/
abbrev U1 : Dev nD → Valuation τ sig (Elt F) := fun c => StableHlo.after hostOps0 (U0 m c)
/-- After the host stretch `hostOps0_1`. -/
abbrev U2 : Dev nD → Valuation τ sig (Elt F) := fun c => StableHlo.after hostOps0_1 (U1 m c)
/-- After the host stretch `hostOps0_2`. -/
abbrev U3 : Dev nD → Valuation τ sig (Elt F) := fun c => StableHlo.after hostOps0_2 (U2 m c)
/-- The same read at the TensorCore's references: what region 0's proof data take. -/
abbrev E0 : (c : Dev nD) → (b : Ref sig .tc) → Buf (Elt F) ((c : Thread nD τ).loc b) := fun c b => U3 m c b
/-- At region 0's exit: its output array at what the pipeline's write-backs leave, every other buffer as entered. -/
def U4 (c : Dev nD) : Valuation τ sig (Elt F) :=
  Function.update (U3 m c) (Proc.devRef .tc main_v9) ((dat0 (E0 m) qq0 c).arrAt 5 cfg0.N)
/-- The same read at the TensorCore's references (region 0's exit contents). -/
abbrev X0 : (c : Dev nD) → (b : Ref sig .tc) → Buf (Elt F) ((c : Thread nD τ).loc b) := fun c b => U4 m c b
theorem X0_out (c : Dev nD) : X0 m c main_v9 = (dat0 (E0 m) qq0 c).arrAt 5 cfg0.N := by
  show U4 m c (Proc.devRef .tc main_v9) = _
  unfold U4; exact Function.update_self ..
theorem X0_of_ne (c : Dev nD) (b : Ref sig .tc) (hb : b ≠ main_v9) : X0 m c b = E0 m c b := by
  show U4 m c (Proc.devRef .tc b) = U3 m c (Proc.devRef .tc b)
  unfold U4; exact Function.update_of_ne (StableHlo.devRef_ne_of_ne hb) ..
/-- After the host stretch `hostOps1`. -/
abbrev U5 : Dev nD → Valuation τ sig (Elt F) := fun c => StableHlo.after hostOps1 (U4 m c)
/-- After the host stretch `hostOps1_1`. -/
abbrev U6 : Dev nD → Valuation τ sig (Elt F) := fun c => StableHlo.after hostOps1_1 (U5 m c)
/-- After the host stretch `hostOps1_2`. -/
abbrev U7 : Dev nD → Valuation τ sig (Elt F) := fun c => StableHlo.after hostOps1_2 (U6 m c)
/-- The same read at the TensorCore's references: what region 1's proof data take. -/
abbrev E1 : (c : Dev nD) → (b : Ref sig .tc) → Buf (Elt F) ((c : Thread nD τ).loc b) := fun c b => U7 m c b
/-- At region 1's exit: its output array at what the pipeline's write-backs leave, every other buffer as entered. -/
def U8 (c : Dev nD) : Valuation τ sig (Elt F) :=
  Function.update (U7 m c) (Proc.devRef .tc main_v20) ((dat1 (E1 m) qq1 c).arrAt 5 cfg1.N)
/-- The same read at the TensorCore's references (region 1's exit contents). -/
abbrev X1 : (c : Dev nD) → (b : Ref sig .tc) → Buf (Elt F) ((c : Thread nD τ).loc b) := fun c b => U8 m c b
theorem X1_out (c : Dev nD) : X1 m c main_v20 = (dat1 (E1 m) qq1 c).arrAt 5 cfg1.N := by
  show U8 m c (Proc.devRef .tc main_v20) = _
  unfold U8; exact Function.update_self ..
theorem X1_of_ne (c : Dev nD) (b : Ref sig .tc) (hb : b ≠ main_v20) : X1 m c b = E1 m c b := by
  show U8 m c (Proc.devRef .tc b) = U7 m c (Proc.devRef .tc b)
  unfold U8; exact Function.update_of_ne (StableHlo.devRef_ne_of_ne hb) ..
/-- After the host stretch `hostOps2`. -/
abbrev U9 : Dev nD → Valuation τ sig (Elt F) := fun c => StableHlo.after hostOps2 (U8 m c)
/-- After the host stretch `hostOps2_1`. -/
abbrev U10 : Dev nD → Valuation τ sig (Elt F) := fun c => StableHlo.after hostOps2_1 (U9 m c)
/-- After the host stretch `hostOps2_2`. -/
abbrev U11 : Dev nD → Valuation τ sig (Elt F) := fun c => StableHlo.after hostOps2_2 (U10 m c)
/-- The same read at the TensorCore's references: what region 2's proof data take. -/
abbrev E2 : (c : Dev nD) → (b : Ref sig .tc) → Buf (Elt F) ((c : Thread nD τ).loc b) := fun c b => U11 m c b
/-- At region 2's exit: its output array at what the pipeline's write-backs leave, every other buffer as entered. -/
def U12 (c : Dev nD) : Valuation τ sig (Elt F) :=
  Function.update (U11 m c) (Proc.devRef .tc main_v31) ((dat2 (E2 m) qq2 c).arrAt 5 cfg2.N)
/-- The same read at the TensorCore's references (region 2's exit contents). -/
abbrev X2 : (c : Dev nD) → (b : Ref sig .tc) → Buf (Elt F) ((c : Thread nD τ).loc b) := fun c b => U12 m c b
theorem X2_out (c : Dev nD) : X2 m c main_v31 = (dat2 (E2 m) qq2 c).arrAt 5 cfg2.N := by
  show U12 m c (Proc.devRef .tc main_v31) = _
  unfold U12; exact Function.update_self ..
theorem X2_of_ne (c : Dev nD) (b : Ref sig .tc) (hb : b ≠ main_v31) : X2 m c b = E2 m c b := by
  show U12 m c (Proc.devRef .tc b) = U11 m c (Proc.devRef .tc b)
  unfold U12; exact Function.update_of_ne (StableHlo.devRef_ne_of_ne hb) ..
/-- After the host stretch `hostOps3`. -/
abbrev U13 : Dev nD → Valuation τ sig (Elt F) := fun c => StableHlo.after hostOps3 (U12 m c)
/-- After the host stretch `hostOps3_1`. -/
abbrev U14 : Dev nD → Valuation τ sig (Elt F) := fun c => StableHlo.after hostOps3_1 (U13 m c)
/-- After the host stretch `hostOps3_2`. -/
abbrev U15 : Dev nD → Valuation τ sig (Elt F) := fun c => StableHlo.after hostOps3_2 (U14 m c)
/-- The same read at the TensorCore's references: what region 3's proof data take. -/
abbrev E3 : (c : Dev nD) → (b : Ref sig .tc) → Buf (Elt F) ((c : Thread nD τ).loc b) := fun c b => U15 m c b
/-- At region 3's exit: its output array at what the pipeline's write-backs leave, every other buffer as entered. -/
def U16 (c : Dev nD) : Valuation τ sig (Elt F) :=
  Function.update (U15 m c) (Proc.devRef .tc main_v42) ((dat3 (E3 m) qq3 c).arrAt 5 cfg3.N)
/-- The same read at the TensorCore's references (region 3's exit contents). -/
abbrev X3 : (c : Dev nD) → (b : Ref sig .tc) → Buf (Elt F) ((c : Thread nD τ).loc b) := fun c b => U16 m c b
theorem X3_out (c : Dev nD) : X3 m c main_v42 = (dat3 (E3 m) qq3 c).arrAt 5 cfg3.N := by
  show U16 m c (Proc.devRef .tc main_v42) = _
  unfold U16; exact Function.update_self ..
theorem X3_of_ne (c : Dev nD) (b : Ref sig .tc) (hb : b ≠ main_v42) : X3 m c b = E3 m c b := by
  show U16 m c (Proc.devRef .tc b) = U15 m c (Proc.devRef .tc b)
  unfold U16; exact Function.update_of_ne (StableHlo.devRef_ne_of_ne hb) ..
/-- After the host stretch `hostOps4`. -/
abbrev U17 : Dev nD → Valuation τ sig (Elt F) := fun c => StableHlo.after hostOps4 (U16 m c)
/-- The same read at the TensorCore's references: what region 4's proof data take. -/
abbrev E4 : (c : Dev nD) → (b : Ref sig .tc) → Buf (Elt F) ((c : Thread nD τ).loc b) := fun c b => U17 m c b
/-- At region 4's exit: its output array at what the pipeline's write-backs leave, every other buffer as entered. -/
def U18 (c : Dev nD) : Valuation τ sig (Elt F) :=
  Function.update (U17 m c) (Proc.devRef .tc main_v49) ((dat4 (E4 m) qq4 c).arrAt 5 cfg4.N)
/-- The same read at the TensorCore's references (region 4's exit contents). -/
abbrev X4 : (c : Dev nD) → (b : Ref sig .tc) → Buf (Elt F) ((c : Thread nD τ).loc b) := fun c b => U18 m c b
theorem X4_out (c : Dev nD) : X4 m c main_v49 = (dat4 (E4 m) qq4 c).arrAt 5 cfg4.N := by
  show U18 m c (Proc.devRef .tc main_v49) = _
  unfold U18; exact Function.update_self ..
theorem X4_of_ne (c : Dev nD) (b : Ref sig .tc) (hb : b ≠ main_v49) : X4 m c b = E4 m c b := by
  show U18 m c (Proc.devRef .tc b) = U17 m c (Proc.devRef .tc b)
  unfold U18; exact Function.update_of_ne (StableHlo.devRef_ne_of_ne hb) ..
/-- After the host stretch `hostOps5`. -/
abbrev U19 : Dev nD → Valuation τ sig (Elt F) := fun c => StableHlo.after hostOps5 (U18 m c)

/-- A buffer that no host stretch writes and that is no region's output holds at the end what it held at launch. -/
theorem U19_keep (c : Dev nD) (r : Ref sig .tc) (h_hostOps0 : r ∉ hostOps0_W) (h_hostOps0_1 : r ∉ hostOps0_1_W) (h_hostOps0_2 : r ∉ hostOps0_2_W) (h_hostOps1 : r ∉ hostOps1_W) (h_hostOps1_1 : r ∉ hostOps1_1_W) (h_hostOps1_2 : r ∉ hostOps1_2_W) (h_hostOps2 : r ∉ hostOps2_W) (h_hostOps2_1 : r ∉ hostOps2_1_W) (h_hostOps2_2 : r ∉ hostOps2_2_W) (h_hostOps3 : r ∉ hostOps3_W) (h_hostOps3_1 : r ∉ hostOps3_1_W) (h_hostOps3_2 : r ∉ hostOps3_2_W) (h_hostOps4 : r ∉ hostOps4_W) (h_hostOps5 : r ∉ hostOps5_W)
    (hr : r ∉ ([main_v9, main_v20, main_v31, main_v42, main_v49] : List (Ref sig .tc))) :
    U19 m c r = m ((c : Thread nD τ).loc r) :=
  (StableHlo.after_of_writes_sub hostOps5 _ hostOps5_writes h_hostOps5).trans <|
  (X4_of_ne m c r (fun e => hr (by rw [e]; decide))).trans <|
  (StableHlo.after_of_writes_sub hostOps4 _ hostOps4_writes h_hostOps4).trans <|
  (X3_of_ne m c r (fun e => hr (by rw [e]; decide))).trans <|
  (StableHlo.after_of_writes_sub hostOps3_2 _ hostOps3_2_writes h_hostOps3_2).trans <|
  (StableHlo.after_of_writes_sub hostOps3_1 _ hostOps3_1_writes h_hostOps3_1).trans <|
  (StableHlo.after_of_writes_sub hostOps3 _ hostOps3_writes h_hostOps3).trans <|
  (X2_of_ne m c r (fun e => hr (by rw [e]; decide))).trans <|
  (StableHlo.after_of_writes_sub hostOps2_2 _ hostOps2_2_writes h_hostOps2_2).trans <|
  (StableHlo.after_of_writes_sub hostOps2_1 _ hostOps2_1_writes h_hostOps2_1).trans <|
  (StableHlo.after_of_writes_sub hostOps2 _ hostOps2_writes h_hostOps2).trans <|
  (X1_of_ne m c r (fun e => hr (by rw [e]; decide))).trans <|
  (StableHlo.after_of_writes_sub hostOps1_2 _ hostOps1_2_writes h_hostOps1_2).trans <|
  (StableHlo.after_of_writes_sub hostOps1_1 _ hostOps1_1_writes h_hostOps1_1).trans <|
  (StableHlo.after_of_writes_sub hostOps1 _ hostOps1_writes h_hostOps1).trans <|
  (X0_of_ne m c r (fun e => hr (by rw [e]; decide))).trans <|
  (StableHlo.after_of_writes_sub hostOps0_2 _ hostOps0_2_writes h_hostOps0_2).trans <|
  (StableHlo.after_of_writes_sub hostOps0_1 _ hostOps0_1_writes h_hostOps0_1).trans <|
  (StableHlo.after_of_writes_sub hostOps0 _ hostOps0_writes h_hostOps0)

end Cert.Kernel.Reg

end
-- ==== Proof.K.Shared1.lean ====
/- The first message-passing call reads the initial edge state through two of its windows, as its state and as its
   skip input: one array stands behind both. At the call's entry that array's full share is dealt to the two windows
   as its two halves; at the exit the halves are joined back into the whole. Every other array stands behind one
   window and is held whole throughout. -/
import proofs.«428334_j59700045414568_2_alg».proof.Proof.K.Fold
import Idealize.ShloMosaic.Lib.Pipeline.Kit
import Idealize.ShloMosaic.Lib.Pipeline.Launch
import Idealize.ShloMosaic.Lib.Pipeline.Regions
import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct arrays behind the call's six windows are five. -/
theorem arrImage1 : Finset.univ.image (Pipeline.arrRef spec1)
    = ([main_v15, main_v9, main_v17, main_v19, main_v20] : List (Ref sig .tc)).toFinset := by decide

theorem arrList1_nodup : ([main_v15, main_v9, main_v17, main_v19, main_v20] : List (Ref sig .tc)).Nodup := by decide

/-- The buffers behind the windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v15) ↦{fullShare} V main_v15) ∗ (((c : Thread nD τ).loc main_v9) ↦{fullShare} V main_v9)
        ∗ (((c : Thread nD τ).loc main_v17) ↦{fullShare} V main_v17) ∗ (((c : Thread nD τ).loc main_v19) ↦{fullShare} V main_v19)
        ∗ (((c : Thread nD τ).loc main_v20) ↦{fullShare} V main_v20)) := by
  unfold Pipeline.arrBufs
  rw [bigSep_eq_bigSepL_of_eq _ arrImage1 arrList1_nodup]
  rfl

variable (V : (c : Dev nD) → (b : Ref sig .tc) → Buf (Elt F) ((c : Thread nD τ).loc b))

/-- The shares the windows' arrays are held at: a half each where two windows have one array, else the whole. -/
theorem share1_0 (c : Dev nD) : (dat1 V qq1 c).share 0 = fullShare := rfl
theorem share1_1 (c : Dev nD) : (dat1 V qq1 c).share 1 = (fullShare : PosShare TreeShare).left := rfl
theorem share1_2 (c : Dev nD) : (dat1 V qq1 c).share 2 = (fullShare : PosShare TreeShare).right := rfl
theorem share1_3 (c : Dev nD) : (dat1 V qq1 c).share 3 = fullShare := rfl
theorem share1_4 (c : Dev nD) : (dat1 V qq1 c).share 4 = fullShare := rfl
theorem share1_5 (c : Dev nD) : (dat1 V qq1 c).share 5 = fullShare := rfl

/-- The call's arrays at contents `G`, window by window: the array behind windows 1 and 2 at a half share each. -/
theorem arrays1_eq (c : Dev nD) (G : (w : Fin cfg1.W) → Buf (Elt F) ((cfg1.win w).arr.view.loc (c : Thread nD τ))) :
    ((dat1 V qq1 c).arrays G : sProp 𝕄)
      = iprop((((c : Thread nD τ).loc main_v15) ↦{fullShare} G 0)
        ∗ (((c : Thread nD τ).loc main_v9) ↦{(fullShare : PosShare TreeShare).left} G 1)
        ∗ (((c : Thread nD τ).loc main_v9) ↦{(fullShare : PosShare TreeShare).right} G 2)
        ∗ (((c : Thread nD τ).loc main_v17) ↦{fullShare} G 3) ∗ (((c : Thread nD τ).loc main_v19) ↦{fullShare} G 4)
        ∗ (((c : Thread nD τ).loc main_v20) ↦{fullShare} G 5)) := by
  unfold Dat.arrays
  rw [bigSep_W1]
  simp only [View.set_whole, share1_0, share1_1, share1_2, share1_3, share1_4, share1_5]

/-- A core's unscoped buffers are the buffers behind the call's arrays and the rest. -/
theorem unscopedBufs_split1 (c : Dev nD) (W : (b : Ref sig .tc) → Buf (Elt F) ((c : Thread nD τ).loc b)) :
    (unscopedBufs c W : sProp 𝕄)
      = iprop(Pipeline.arrBufs (Ix := Unit) (Name := ℕ) (U := UR sig nD τ) (Lvl := ℕ) spec1 c W
        ∗ Pipeline.unscopedRest (Ix := Unit) (Name := ℕ) (U := UR sig nD τ) (Lvl := ℕ) spec1 c W) :=
  Pipeline.PerCore.unscopedBufs_split₀ (fun _ : Dev nD => cfgs) (1 : Fin 5) c winFacts₀1.arr_unscoped W

/-- At the entry every array holds what the core's buffers hold. -/
theorem arrAt1_zero (c : Dev nD) (w : Fin cfg1.W) : (dat1 V qq1 c).arrAt w 0 = V c (Pipeline.arrRef spec1 w) := rfl

/-- The array behind windows 1 and 2: its whole is its two halves. -/
theorem deal1 (c : Dev nD) (f : Buf (Elt F) ((c : Thread nD τ).loc main_v9)) :
    (((c : Thread nD τ).loc main_v9) ↦{fullShare} f : sProp 𝕄)
      ⊣⊢ iprop((((c : Thread nD τ).loc main_v9) ↦{(fullShare : PosShare TreeShare).left} f)
        ∗ (((c : Thread nD τ).loc main_v9) ↦{(fullShare : PosShare TreeShare).right} f)) :=
  pointsTo_share (PosShare.mem_left_op_right fullShare)

/-- ENTRY, for any contents `V` of the core's buffers: the unscoped buffers at `V` are the call's arrays at `V`,
    the array behind windows 1 and 2 dealt to them as the two halves of its full share, and the rest. -/
theorem entry1_of (c : Dev nD) : (unscopedBufs c (V c) : sProp 𝕄)
    ⊢ iprop((dat1 V qq1 c).arrays ((dat1 V qq1 c).arrAt · 0)
      ∗ Pipeline.unscopedRest (Ix := Unit) (Name := ℕ) (U := UR sig nD τ) (Lvl := ℕ) spec1 c (V c)) := by
  rw [unscopedBufs_split1, arrBufs1_eq, arrays1_eq]
  simp only [arrAt1_zero]
  iintro ⟨⟨Ha, Hb, Hc, Hd, He⟩, Hrest⟩
  ihave Hhh := (deal1 c _).1 $$ Hb
  icases Hhh with ⟨Hbl, Hbr⟩
  isplitr [Hrest]
  · isplitl [Ha]; · iexact Ha
    isplitl [Hbl]; · iexact Hbl
    isplitl [Hbr]; · iexact Hbr
    isplitl [Hc]; · iexact Hc
    isplitl [Hd]; · iexact Hd
    iexact He
  · iexact Hrest

/-- ENTRY of the first message-passing call. -/
theorem entry1 (c : Dev nD) : (unscopedBufs c (E1 m c) : sProp 𝕄)
    ⊢ iprop((dat1 (E1 m) qq1 c).arrays ((dat1 (E1 m) qq1 c).arrAt · 0)
      ∗ Pipeline.unscopedRest (Ix := Unit) (Name := ℕ) (U := UR sig nD τ) (Lvl := ℕ) spec1 c (E1 m c)) :=
  entry1_of (E1 m) c

/-- An input window's array is never written: it holds throughout what the core's buffers held at the entry. -/
theorem arrAt1_in (c : Dev nD) (w : Fin cfg1.W) (hin : (cfg1.win w).isOut = false) (t : ℕ) :
    (dat1 V qq1 c).arrAt w t = V c (Pipeline.arrRef spec1 w) := Dat.arrAt_in _ w hin t

/-- The output array is one of the call's arrays. -/
theorem out_mem_arrImage1 : main_v20 ∈ Finset.univ.image (Pipeline.arrRef spec1) :=
  Finset.mem_image.mpr ⟨5, Finset.mem_univ _, rfl⟩

/-- EXIT, for any entry contents `V` and any contents `W` that have the output array at what the write-backs leave
    and agree with `V` elsewhere: the call's arrays at their last contents, the two halves of the array behind
    windows 1 and 2 joined back, and the rest are the core's unscoped buffers at `W`. -/
theorem exit1_of (c : Dev nD) (W : (b : Ref sig .tc) → Buf (Elt F) ((c : Thread nD τ).loc b))
    (hout : W main_v20 = (dat1 V qq1 c).arrAt 5 cfg1.N) (hne : ∀ b, b ≠ main_v20 → W b = V c b) :
    iprop((dat1 V qq1 c).arrays ((dat1 V qq1 c).arrAt · cfg1.N)
      ∗ Pipeline.unscopedRest (Ix := Unit) (Name := ℕ) (U := UR sig nD τ) (Lvl := ℕ) spec1 c (V c))
      ⊢ (unscopedBufs c W : sProp 𝕄) := by
  have hrest : (Pipeline.unscopedRest (Ix := Unit) (Name := ℕ) (U := UR sig nD τ) (Lvl := ℕ) spec1 c (V c) : sProp 𝕄)
      = Pipeline.unscopedRest spec1 c W := by
    unfold Pipeline.unscopedRest
    exact bigSep_congr fun b hb => by
      rw [hne b fun e => (Finset.mem_sdiff.mp hb).2 (by rw [e]; exact out_mem_arrImage1)]
  rw [unscopedBufs_split1, arrBufs1_eq, arrays1_eq, hrest, hout, hne main_v15 (by decide), hne main_v9 (by decide),
    hne main_v17 (by decide), hne main_v19 (by decide)]
  simp only [arrAt1_in V c 0 rfl, arrAt1_in V c 1 rfl, arrAt1_in V c 2 rfl, arrAt1_in V c 3 rfl, arrAt1_in V c 4 rfl]
  iintro ⟨⟨Ha, Hbl, Hbr, Hc, Hd, He⟩, Hrest⟩
  ihave Hb := (deal1 c _).2 $$ [Hbl Hbr]
  · isplitl [Hbl] <;> iassumption
  isplitr [Hrest]
  · isplitl [Ha]; · iexact Ha
    isplitl [Hb]; · iexact Hb
    isplitl [Hc]; · iexact Hc
    isplitl [Hd]; · iexact Hd
    iexact He
  · iexact Hrest

/-- EXIT of the first message-passing call. -/
theorem exit1 (c : Dev nD) :
    iprop((dat1 (E1 m) qq1 c).arrays ((dat1 (E1 m) qq1 c).arrAt · cfg1.N)
      ∗ Pipeline.unscopedRest (Ix := Unit) (Name := ℕ) (U := UR sig nD τ) (Lvl := ℕ) spec1 c (E1 m c))
      ⊢ (unscopedBufs c (X1 m c) : sProp 𝕄) :=
  exit1_of (E1 m) c (X1 m c) (X1_out m c) (X1_of_ne m c)

end Cert.Kernel.Reg

end
-- ==== Proof.K.Run.lean ====
/- The run of @main as its nineteen items in order — stretches of host operations and the five kernel regions —
   from the launch memory: every weakly fair execution terminates, nothing faults, and at the end every unscoped
   buffer of a core holds the last fold value `U19`. The frame claim and the value of the result both read off it. -/
import proofs.«428334_j59700045414568_2_alg».proof.Proof.K.Fold
import proofs.«428334_j59700045414568_2_alg».proof.Proof.K.Shared1
import Idealize.ShloMosaic.Lib.Pipeline.Kit

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At region 0's exit each of its arrays holds what the pipeline leaves, and every other buffer what it held at entry. -/
theorem hF0 (c : Dev nD) (w : Fin cfg0.W) : (dat0 (E0 m) qq0 c).arrAt w cfg0.N = X0 m c (Pipeline.arrRef spec0 w) :=
  match w with
  | ⟨0, _⟩ => by
    show (dat0 (E0 m) qq0 c).arrAt (0 : Fin cfg0.W) cfg0.N = X0 m c main_v5
    rw [(dat0 (E0 m) qq0 c).arrAt_in 0 rfl, A_eq0]
    exact (X0_of_ne m c main_v5 (by decide)).symm
  | ⟨1, _⟩ => by
    show (dat0 (E0 m) qq0 c).arrAt (1 : Fin cfg0.W) cfg0.N = X0 m c main_v6
    rw [(dat0 (E0 m) qq0 c).arrAt_in 1 rfl, A_eq0]
    exact (X0_of_ne m c main_v6 (by decide)).symm
  | ⟨2, _⟩ => by
    show (dat0 (E0 m) qq0 c).arrAt (2 : Fin cfg0.W) cfg0.N = X0 m c main_v7
    rw [(dat0 (E0 m) qq0 c).arrAt_in 2 rfl, A_eq0]
    exact (X0_of_ne m c main_v7 (by decide)).symm
  | ⟨3, _⟩ => by
    show (dat0 (E0 m) qq0 c).arrAt (3 : Fin cfg0.W) cfg0.N = X0 m c main_v8
    rw [(dat0 (E0 m) qq0 c).arrAt_in 3 rfl, A_eq0]
    exact (X0_of_ne m c main_v8 (by decide)).symm
  | ⟨4, _⟩ => by
    show (dat0 (E0 m) qq0 c).arrAt (4 : Fin cfg0.W) cfg0.N = X0 m c main_arg5
    rw [(dat0 (E0 m) qq0 c).arrAt_in 4 rfl, A_eq0]
    exact (X0_of_ne m c main_arg5 (by decide)).symm
  | ⟨5, _⟩ => (X0_out m c).symm
theorem hrest0 (c : Dev nD) : ∀ b, b ∉ Finset.univ.image (Pipeline.arrRef spec0) → X0 m c b = E0 m c b :=
  fun b hb => X0_of_ne m c b fun e => hb (Finset.mem_image.mpr ⟨5, Finset.mem_univ _, e.symm⟩)

set_option maxHeartbeats 2000000 in
/-- At region 2's exit each of its arrays holds what the pipeline leaves, and every other buffer what it held at entry. -/
theorem hF2 (c : Dev nD) (w : Fin cfg2.W) : (dat2 (E2 m) qq2 c).arrAt w cfg2.N = X2 m c (Pipeline.arrRef spec2 w) :=
  match w with
  | ⟨0, _⟩ => by
    show (dat2 (E2 m) qq2 c).arrAt (0 : Fin cfg2.W) cfg2.N = X2 m c main_v26
    rw [(dat2 (E2 m) qq2 c).arrAt_in 0 rfl, A_eq2]
    exact (X2_of_ne m c main_v26 (by decide)).symm
  | ⟨1, _⟩ => by
    show (dat2 (E2 m) qq2 c).arrAt (1 : Fin cfg2.W) cfg2.N = X2 m c main_v20
    rw [(dat2 (E2 m) qq2 c).arrAt_in 1 rfl, A_eq2]
    exact (X2_of_ne m c main_v20 (by decide)).symm
  | ⟨2, _⟩ => by
    show (dat2 (E2 m) qq2 c).arrAt (2 : Fin cfg2.W) cfg2.N = X2 m c main_v9
    rw [(dat2 (E2 m) qq2 c).arrAt_in 2 rfl, A_eq2]
    exact (X2_of_ne m c main_v9 (by decide)).symm
  | ⟨3, _⟩ => by
    show (dat2 (E2 m) qq2 c).arrAt (3 : Fin cfg2.W) cfg2.N = X2 m c main_v28
    rw [(dat2 (E2 m) qq2 c).arrAt_in 3 rfl, A_eq2]
    exact (X2_of_ne m c main_v28 (by decide)).symm
  | ⟨4, _⟩ => by
    show (dat2 (E2 m) qq2 c).arrAt (4 : Fin cfg2.W) cfg2.N = X2 m c main_v30
    rw [(dat2 (E2 m) qq2 c).arrAt_in 4 rfl, A_eq2]
    exact (X2_of_ne m c main_v30 (by decide)).symm
  | ⟨5, _⟩ => (X2_out m c).symm
theorem hrest2 (c : Dev nD) : ∀ b, b ∉ Finset.univ.image (Pipeline.arrRef spec2) → X2 m c b = E2 m c b :=
  fun b hb => X2_of_ne m c b fun e => hb (Finset.mem_image.mpr ⟨5, Finset.mem_univ _, e.symm⟩)

set_option maxHeartbeats 2000000 in
/-- At region 3's exit each of its arrays holds what the pipeline leaves, and every other buffer what it held at entry. -/
theorem hF3 (c : Dev nD) (w : Fin cfg3.W) : (dat3 (E3 m) qq3 c).arrAt w cfg3.N = X3 m c (Pipeline.arrRef spec3 w) :=
  match w with
  | ⟨0, _⟩ => by
    show (dat3 (E3 m) qq3 c).arrAt (0 : Fin cfg3.W) cfg3.N = X3 m c main_v37
    rw [(dat3 (E3 m) qq3 c).arrAt_in 0 rfl, A_eq3]
    exact (X3_of_ne m c main_v37 (by decide)).symm
  | ⟨1, _⟩ => by
    show (dat3 (E3 m) qq3 c).arrAt (1 : Fin cfg3.W) cfg3.N = X3 m c main_v31
    rw [(dat3 (E3 m) qq3 c).arrAt_in 1 rfl, A_eq3]
    exact (X3_of_ne m c main_v31 (by decide)).symm
  | ⟨2, _⟩ => by
    show (dat3 (E3 m) qq3 c).arrAt (2 : Fin cfg3.W) cfg3.N = X3 m c main_v9
    rw [(dat3 (E3 m) qq3 c).arrAt_in 2 rfl, A_eq3]
    exact (X3_of_ne m c main_v9 (by decide)).symm
  | ⟨3, _⟩ => by
    show (dat3 (E3 m) qq3 c).arrAt (3 : Fin cfg3.W) cfg3.N = X3 m c main_v39
    rw [(dat3 (E3 m) qq3 c).arrAt_in 3 rfl, A_eq3]
    exact (X3_of_ne m c main_v39 (by decide)).symm
  | ⟨4, _⟩ => by
    show (dat3 (E3 m) qq3 c).arrAt (4 : Fin cfg3.W) cfg3.N = X3 m c main_v41
    rw [(dat3 (E3 m) qq3 c).arrAt_in 4 rfl, A_eq3]
    exact (X3_of_ne m c main_v41 (by decide)).symm
  | ⟨5, _⟩ => (X3_out m c).symm
theorem hrest3 (c : Dev nD) : ∀ b, b ∉ Finset.univ.image (Pipeline.arrRef spec3) → X3 m c b = E3 m c b :=
  fun b hb => X3_of_ne m c b fun e => hb (Finset.mem_image.mpr ⟨5, Finset.mem_univ _, e.symm⟩)

set_option maxHeartbeats 2000000 in
/-- At region 4's exit each of its arrays holds what the pipeline leaves, and every other buffer what it held at entry. -/
theorem hF4 (c : Dev nD) (w : Fin cfg4.W) : (dat4 (E4 m) qq4 c).arrAt w cfg4.N = X4 m c (Pipeline.arrRef spec4 w) :=
  match w with
  | ⟨0, _⟩ => by
    show (dat4 (E4 m) qq4 c).arrAt (0 : Fin cfg4.W) cfg4.N = X4 m c main_arg0
    rw [(dat4 (E4 m) qq4 c).arrAt_in 0 rfl, A_eq4]
    exact (X4_of_ne m c main_arg0 (by decide)).symm
  | ⟨1, _⟩ => by
    show (dat4 (E4 m) qq4 c).arrAt (1 : Fin cfg4.W) cfg4.N = X4 m c main_v46
    rw [(dat4 (E4 m) qq4 c).arrAt_in 1 rfl, A_eq4]
    exact (X4_of_ne m c main_v46 (by decide)).symm
  | ⟨2, _⟩ => by
    show (dat4 (E4 m) qq4 c).arrAt (2 : Fin cfg4.W) cfg4.N = X4 m c main_v47
    rw [(dat4 (E4 m) qq4 c).arrAt_in 2 rfl, A_eq4]
    exact (X4_of_ne m c main_v47 (by decide)).symm
  | ⟨3, _⟩ => by
    show (dat4 (E4 m) qq4 c).arrAt (3 : Fin cfg4.W) cfg4.N = X4 m c main_v48
    rw [(dat4 (E4 m) qq4 c).arrAt_in 3 rfl, A_eq4]
    exact (X4_of_ne m c main_v48 (by decide)).symm
  | ⟨4, _⟩ => by
    show (dat4 (E4 m) qq4 c).arrAt (4 : Fin cfg4.W) cfg4.N = X4 m c main_arg9
    rw [(dat4 (E4 m) qq4 c).arrAt_in 4 rfl, A_eq4]
    exact (X4_of_ne m c main_arg9 (by decide)).symm
  | ⟨5, _⟩ => (X4_out m c).symm
theorem hrest4 (c : Dev nD) : ∀ b, b ∉ Finset.univ.image (Pipeline.arrRef spec4) → X4 m c b = E4 m c b :=
  fun b hb => X4_of_ne m c b fun e => hb (Finset.mem_image.mpr ⟨5, Finset.mem_univ _, e.symm⟩)

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (E0 m) qq0 c
  | ⟨1, _⟩ => fun c => dat1 (E1 m) qq1 c
  | ⟨2, _⟩ => fun c => dat2 (E2 m) qq2 c
  | ⟨3, _⟩ => fun c => dat3 (E3 m) qq3 c
  | ⟨4, _⟩ => fun c => dat4 (E4 m) qq4 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (U19 m c) ∗ ∃ r, prngReg c r)

set_option backward.isDefEq.respectTransparency.types false in
/-- Region 0 over the thread state: entered from every unscoped buffer at `U3`, left at `U4`. Its arrays are
    split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) qq0 c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `U7`, left at `U8`. Two of its windows
    are on one array, which is dealt to them as two halves at the entry and joined back at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) qq1 c).loose
  hwaits := Pipeline.hwaits_of_owed_zero _ _ _ _ L lv 1 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (unscopedBufs c (E1 m c) : sProp 𝕄) ⊢ iprop((pdats m 1 c).arrays ((pdats m 1 c).arrAt · 0)
        ∗ Pipeline.unscopedRest (Ix := Unit) (Name := ℕ) (U := UR sig nD τ) (Lvl := ℕ) spec1 c (E1 m c)) := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
        ∗ Pipeline.unscopedRest (Ix := Unit) (Name := ℕ) (U := UR sig nD τ) (Lvl := ℕ) spec1 c (E1 m c)) ⊢ (unscopedBufs c (X1 m c) : sProp 𝕄) := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `U11`, left at `U12`. Its arrays are
    split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) qq2 c).loose
  hwaits := Pipeline.hwaits_of_owed_zero _ _ _ _ L lv 2 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `U15`, left at `U16`. Its arrays are
    split out of the unscoped buffers and put back at the exit contents; the generator register goes into the
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) qq3 c).loose
  hwaits := Pipeline.hwaits_of_owed_zero _ _ _ _ L lv 3 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `U17`, left at `U18`. Its arrays are
    split out of the unscoped buffers and put back at the exit contents; the generator register goes into the
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m) qq4 c).loose
  hwaits := Pipeline.hwaits_of_owed_zero _ _ _ _ L lv 4 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E4 m c) (X4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's nineteen items in order. -/
abbrev segs : List (Pipeline.Seg (pcfgs (F := F)) adm (pdats m) () defs₀ 𝒱₀ L lv) :=
  [
    .host (hseg hostOps0 hostOps0_sub hostOps0_fresh (U0 m)),
    .host (hseg hostOps0_1 hostOps0_1_sub hostOps0_1_fresh (U1 m)),
    .host (hseg hostOps0_2 hostOps0_2_sub hostOps0_2_fresh (U2 m)),
    .region (reg0 m),
    .host (hseg hostOps1 hostOps1_sub hostOps1_fresh (U4 m)),
    .host (hseg hostOps1_1 hostOps1_1_sub hostOps1_1_fresh (U5 m)),
    .host (hseg hostOps1_2 hostOps1_2_sub hostOps1_2_fresh (U6 m)),
    .region (reg1 m),
    .host (hseg hostOps2 hostOps2_sub hostOps2_fresh (U8 m)),
    .host (hseg hostOps2_1 hostOps2_1_sub hostOps2_1_fresh (U9 m)),
    .host (hseg hostOps2_2 hostOps2_2_sub hostOps2_2_fresh (U10 m)),
    .region (reg2 m),
    .host (hseg hostOps3 hostOps3_sub hostOps3_fresh (U12 m)),
    .host (hseg hostOps3_1 hostOps3_1_sub hostOps3_1_fresh (U13 m)),
    .host (hseg hostOps3_2 hostOps3_2_sub hostOps3_2_fresh (U14 m)),
    .region (reg3 m),
    .host (hseg hostOps4 hostOps4_sub hostOps4_fresh (U16 m)),
    .region (reg4 m),
    .host (hseg hostOps5 hostOps5_sub hostOps5_fresh (U18 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U19 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (U19 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U19 m c b)
    (hfin := fun c s' => by
      iintro ⟨⟨Hh, -⟩, HSI⟩
      unfold StableHlo.held
      imodintro
      iapply (pointsTo_read_all (Pipeline.ucRefs τ sig) (fun b => (((c : Thread nD τ)).1, b)) (U19 m c) s')
      isplitl [Hh] <;> iassumption)
    (hQ := fun s h c => h c)

/-- An argument array ends as launched: no host stretch writes it and it is no region's output. -/
theorem U19_main_arg0 (c : Dev nD) : U19 m c main_arg0 = m ((c : Thread nD τ).loc main_arg0) := U19_keep m c main_arg0 (by decide) (by decide) (by decide) (by decide) (by decide) (by decide) (by decide) (by decide) (by decide) (by decide) (by decide) (by decide) (by decide) (by decide) (by decide)
theorem U19_main_arg1 (c : Dev nD) : U19 m c main_arg1 = m ((c : Thread nD τ).loc main_arg1) := U19_keep m c main_arg1 (by decide) (by decide) (by decide) (by decide) (by decide) (by decide) (by decide) (by decide) (by decide) (by decide) (by decide) (by decide) (by decide) (by decide) (by decide)
theorem U19_main_arg2 (c : Dev nD) : U19 m c main_arg2 = m ((c : Thread nD τ).loc main_arg2) := U19_keep m c main_arg2 (by decide) (by decide) (by decide) (by decide) (by decide) (by decide) (by decide) (by decide) (by decide) (by decide) (by decide) (by decide) (by decide) (by decide) (by decide)
theorem U19_main_arg3 (c : Dev nD) : U19 m c main_arg3 = m ((c : Thread nD τ).loc main_arg3) := U19_keep m c main_arg3 (by decide) (by decide) (by decide) (by decide) (by decide) (by decide) (by decide) (by decide) (by decide) (by decide) (by decide) (by decide) (by decide) (by decide) (by decide)
theorem U19_main_arg4 (c : Dev nD) : U19 m c main_arg4 = m ((c : Thread nD τ).loc main_arg4) := U19_keep m c main_arg4 (by decide) (by decide) (by decide) (by decide) (by decide) (by decide) (by decide) (by decide) (by decide) (by decide) (by decide) (by decide) (by decide) (by decide) (by decide)
theorem U19_main_arg5 (c : Dev nD) : U19 m c main_arg5 = m ((c : Thread nD τ).loc main_arg5) := U19_keep m c main_arg5 (by decide) (by decide) (by decide) (by decide) (by decide) (by decide) (by decide) (by decide) (by decide) (by decide) (by decide) (by decide) (by decide) (by decide) (by decide)
theorem U19_main_arg6 (c : Dev nD) : U19 m c main_arg6 = m ((c : Thread nD τ).loc main_arg6) := U19_keep m c main_arg6 (by decide) (by decide) (by decide) (by decide) (by decide) (by decide) (by decide) (by decide) (by decide) (by decide) (by decide) (by decide) (by decide) (by decide) (by decide)
theorem U19_main_arg7 (c : Dev nD) : U19 m c main_arg7 = m ((c : Thread nD τ).loc main_arg7) := U19_keep m c main_arg7 (by decide) (by decide) (by decide) (by decide) (by decide) (by decide) (by decide) (by decide) (by decide) (by decide) (by decide) (by decide) (by decide) (by decide) (by decide)
theorem U19_main_arg8 (c : Dev nD) : U19 m c main_arg8 = m ((c : Thread nD τ).loc main_arg8) := U19_keep m c main_arg8 (by decide) (by decide) (by decide) (by decide) (by decide) (by decide) (by decide) (by decide) (by decide) (by decide) (by decide) (by decide) (by decide) (by decide) (by decide)
theorem U19_main_arg9 (c : Dev nD) : U19 m c main_arg9 = m ((c : Thread nD τ).loc main_arg9) := U19_keep m c main_arg9 (by decide) (by decide) (by decide) (by decide) (by decide) (by decide) (by decide) (by decide) (by decide) (by decide) (by decide) (by decide) (by decide) (by decide) (by decide)
theorem U19_main_arg10 (c : Dev nD) : U19 m c main_arg10 = m ((c : Thread nD τ).loc main_arg10) := U19_keep m c main_arg10 (by decide) (by decide) (by decide) (by decide) (by decide) (by decide) (by decide) (by decide) (by decide) (by decide) (by decide) (by decide) (by decide) (by decide) (by decide)
theorem U19_main_arg11 (c : Dev nD) : U19 m c main_arg11 = m ((c : Thread nD τ).loc main_arg11) := U19_keep m c main_arg11 (by decide) (by decide) (by decide) (by decide) (by decide) (by decide) (by decide) (by decide) (by decide) (by decide) (by decide) (by decide) (by decide) (by decide) (by decide)

/-- THE FRAME: every weakly fair execution terminates, nothing faults, every argument array ends as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (U19_main_arg0 m c),
    (h c _ (mem_uc main_arg1 (by decide))).trans (U19_main_arg1 m c),
    (h c _ (mem_uc main_arg2 (by decide))).trans (U19_main_arg2 m c),
    (h c _ (mem_uc main_arg3 (by decide))).trans (U19_main_arg3 m c),
    (h c _ (mem_uc main_arg4 (by decide))).trans (U19_main_arg4 m c),
    (h c _ (mem_uc main_arg5 (by decide))).trans (U19_main_arg5 m c),
    (h c _ (mem_uc main_arg6 (by decide))).trans (U19_main_arg6 m c),
    (h c _ (mem_uc main_arg7 (by decide))).trans (U19_main_arg7 m c),
    (h c _ (mem_uc main_arg8 (by decide))).trans (U19_main_arg8 m c),
    (h c _ (mem_uc main_arg9 (by decide))).trans (U19_main_arg9 m c),
    (h c _ (mem_uc main_arg10 (by decide))).trans (U19_main_arg10 m c),
    (h c _ (mem_uc main_arg11 (by decide))).trans (U19_main_arg11 m c)⟩)
    (run_all m ρ)

/-- THE RUN WITH ITS RESULT: as the frame, and the result buffer ends at the fold's last value of it. -/
theorem run_value : θ_run defs (onTc (τ := τ) (main (F := F))) ⟨m, fun _ => 0, ρ⟩ (fun r => ∀ c : Dev nD,
      r.2.mem ((c.tc : Thread nD τ).loc main_v57) = U19 m c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v57 (by decide)), (h c _ (mem_uc main_arg0 (by decide))).trans (U19_main_arg0 m c),
    (h c _ (mem_uc main_arg1 (by decide))).trans (U19_main_arg1 m c),
    (h c _ (mem_uc main_arg2 (by decide))).trans (U19_main_arg2 m c),
    (h c _ (mem_uc main_arg3 (by decide))).trans (U19_main_arg3 m c),
    (h c _ (mem_uc main_arg4 (by decide))).trans (U19_main_arg4 m c),
    (h c _ (mem_uc main_arg5 (by decide))).trans (U19_main_arg5 m c),
    (h c _ (mem_uc main_arg6 (by decide))).trans (U19_main_arg6 m c),
    (h c _ (mem_uc main_arg7 (by decide))).trans (U19_main_arg7 m c),
    (h c _ (mem_uc main_arg8 (by decide))).trans (U19_main_arg8 m c),
    (h c _ (mem_uc main_arg9 (by decide))).trans (U19_main_arg9 m c),
    (h c _ (mem_uc main_arg10 (by decide))).trans (U19_main_arg10 m c),
    (h c _ (mem_uc main_arg11 (by decide))).trans (U19_main_arg11 m c)⟩)
    (run_all m ρ)

end Cert.Kernel.Reg

end
-- ==== Proof.KI.Region0.lean ====
/- Region 0 of @main (the edge-initialisation call): for ANY contents `V` of the core's buffers at the region's
   entry, what each window's block is at a grid point, what the body leaves in the output block (one store of the
   payload of the five input blocks), the body's triple, the proof data and the body obligation at every point.
   Every input window is read whole and left in place; the output window is overwritten whole at every point. -/
import proofs.«428334_j59700045414568_2_alg».proof.Proof.Gen.KernelIdeal.Launch
import proofs.«428334_j59700045414568_2_alg».proof.Proof.Gen.KernelIdeal.Skeleton
import proofs.«428334_j59700045414568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched the block index has not moved, and the body leaves the block in place. One statement per window: a
    window's block type is a literal shape only at a literal window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S3200x64 := Rect.unit (s := S3200x64) ![0, 0] S3200x64.size inb_S3200x64_S3200x64_0_0
abbrev r0_1 : Rect S3200x16 := Rect.unit (s := S3200x16) ![0, 0] S3200x16.size inb_S3200x16_S3200x16_0_0
abbrev r0_2 : Rect S64x300 := Rect.unit (s := S64x300) ![0, 0] S64x300.size inb_S64x300_S64x300_0_0
abbrev r0_3 : Rect S16x300 := Rect.unit (s := S16x300) ![0, 0] S16x300.size inb_S16x300_S16x300_0_0
abbrev r0_4 : Rect S300 := Rect.unit (s := S300) ![0] S300.size inb_S300_S300_0
abbrev r0_5 : Rect S3200x300 := Rect.unit (s := S3200x300) ![0, 0] S3200x300.size inb_S3200x300_S3200x300_0_0

/-- The output block after the body: its one store, of the payload of the five input blocks. -/
def out0_5 (x0 : Vec F S3200x64 .bf16) (x1 : Vec F S3200x16 .bf16) (x2 : Vec F S64x300 .f32) (x3 : Vec F S16x300 .f32) (x4 : Vec F S300 .f32) : Vec F S3200x300 .bf16 :=
  View.canon [⟨r0_5, k0_pay1 (View.ld x0 r0_0) (View.ld x1 r0_1) (View.ld x2 r0_2) (View.ld x3 r0_3) (View.ld x4 r0_4)⟩]

/-- The store covers the whole block. -/
theorem cover0_5 (p0 : Vec F S3200x300 .bf16) (y : S3200x300.Idx) :
    ∃ pc ∈ ([⟨r0_5, p0⟩] : List (View.Piece (Elt F) S3200x300 .bf16)), y ∈ pc.1.set :=
  View.cover_of_tiled [⟨r0_5, p0⟩] S3200x300.size (by rfl) y

set_option maxHeartbeats 1000000 in
/-- The body on whole staging buffers: the five inputs keep their contents, the output ends at `out0_5` of them. -/
theorem sound_kernel0 (c : Dev nD) (E : Set ℕ) (i : grid0.Coords)
    (arg1 : Memref sig .tc .vmem S3200x64 .bf16) (harg1 : arg1.IsWhole) (arg2 : Memref sig .tc .vmem S3200x16 .bf16) (harg2 : arg2.IsWhole)
    (arg3 : Memref sig .tc .vmem S64x300 .f32) (harg3 : arg3.IsWhole) (arg4 : Memref sig .tc .vmem S16x300 .f32) (harg4 : arg4.IsWhole)
    (arg5 : Memref sig .tc .vmem S300 .f32) (harg5 : arg5.IsWhole) (arg6 : Memref sig .tc .vmem S3200x300 .bf16) (harg6 : arg6.IsWhole)
    (x0 : Vec F S3200x64 .bf16) (x1 : Vec F S3200x16 .bf16) (x2 : Vec F S64x300 .f32) (x3 : Vec F S16x300 .f32) (x4 : Vec F S300 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__edge_init_kernel i arg1 harg1 arg2 harg2 arg3 harg3 arg4 harg4 arg5 harg5 arg6 harg6) K := by
  simp only [cc0__edge_init_kernel_eq_skeleton]; unfold cc0__edge_init_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`: the arrays as the region finds them; after the body each input's
    buffer at its block, the output's at `out0_5` of the input blocks; nothing owed. The shares `qq` of the input
    arrays are a parameter. -/
def dat0 (qq : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q := qq
  owed _ := 0

variable (qq : Fin cfg0.W → PosShare TreeShare)

theorem A_eq0 (c : Dev nD) (w : Fin cfg0.W) : (dat0 V qq c).A w = V c (Pipeline.arrRef spec0 w) := by
  dsimp only [dat0]

theorem after0_0 (c : Dev nD) (t : Fin cfg0.N) : (dat0 V qq c).after 0 t = iblk0 V c 0 t := by dsimp only [dat0]
theorem after0_1 (c : Dev nD) (t : Fin cfg0.N) : (dat0 V qq c).after 1 t = iblk0 V c 1 t := by dsimp only [dat0]
theorem after0_2 (c : Dev nD) (t : Fin cfg0.N) : (dat0 V qq c).after 2 t = iblk0 V c 2 t := by dsimp only [dat0]
theorem after0_3 (c : Dev nD) (t : Fin cfg0.N) : (dat0 V qq c).after 3 t = iblk0 V c 3 t := by dsimp only [dat0]
theorem after0_4 (c : Dev nD) (t : Fin cfg0.N) : (dat0 V qq c).after 4 t = iblk0 V c 4 t := by dsimp only [dat0]
theorem after0_5 (c : Dev nD) (t : Fin cfg0.N) : (dat0 V qq c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V qq c).before 0 t d = iblk0 V c 0 t :=
  before0_0_of V (dat0 V qq c) (A_eq0 V qq c 0) (after0_0 V qq c) t d
theorem before0_1 (c : Dev nD) (t : Fin cfg0.N) (d) : (dat0 V qq c).before 1 t d = iblk0 V c 1 t :=
  before0_1_of V (dat0 V qq c) (A_eq0 V qq c 1) (after0_1 V qq c) t d
theorem before0_2 (c : Dev nD) (t : Fin cfg0.N) (d) : (dat0 V qq c).before 2 t d = iblk0 V c 2 t :=
  before0_2_of V (dat0 V qq c) (A_eq0 V qq c 2) (after0_2 V qq c) t d
theorem before0_3 (c : Dev nD) (t : Fin cfg0.N) (d) : (dat0 V qq c).before 3 t d = iblk0 V c 3 t :=
  before0_3_of V (dat0 V qq c) (A_eq0 V qq c 3) (after0_3 V qq c) t d
theorem before0_4 (c : Dev nD) (t : Fin cfg0.N) (d) : (dat0 V qq c).before 4 t d = iblk0 V c 4 t :=
  before0_4_of V (dat0 V qq c) (A_eq0 V qq c 4) (after0_4 V qq c) t d

/-- What the body is called with at point `t`, the windows one by one, -/
def bodyPre0 (c : Dev nD) (t : Fin cfg0.N) : sProp 𝕄 :=
  iprop((dat0 V qq c).Φ t.castSucc ∗ (dat0 V qq c).owesAt () t.castSucc
    ∗ (∃ d, owns (c : Thread nD τ) (st0_0 t) fullShare ((dat0 V qq c).before 0 t d))
    ∗ (∃ d, owns (c : Thread nD τ) (st0_1 t) fullShare ((dat0 V qq c).before 1 t d))
    ∗ (∃ d, owns (c : Thread nD τ) (st0_2 t) fullShare ((dat0 V qq c).before 2 t d))
    ∗ (∃ d, owns (c : Thread nD τ) (st0_3 t) fullShare ((dat0 V qq c).before 3 t d))
    ∗ (∃ d, owns (c : Thread nD τ) (st0_4 t) fullShare ((dat0 V qq c).before 4 t d))
    ∗ (∃ d, owns (c : Thread nD τ) (st0_5 t) fullShare ((dat0 V qq c).before 5 t d)))

/-- and what it returns. -/
def bodyPost0 (c : Dev nD) (t : Fin cfg0.N) : sProp 𝕄 :=
  iprop((dat0 V qq c).Φ t.succ ∗ (dat0 V qq c).owesAt () t.succ
    ∗ owns (c : Thread nD τ) (st0_0 t) fullShare ((dat0 V qq c).after 0 t)
    ∗ owns (c : Thread nD τ) (st0_1 t) fullShare ((dat0 V qq c).after 1 t)
    ∗ owns (c : Thread nD τ) (st0_2 t) fullShare ((dat0 V qq c).after 2 t)
    ∗ owns (c : Thread nD τ) (st0_3 t) fullShare ((dat0 V qq c).after 3 t)
    ∗ owns (c : Thread nD τ) (st0_4 t) fullShare ((dat0 V qq c).after 4 t)
    ∗ owns (c : Thread nD τ) (st0_5 t) fullShare ((dat0 V qq c).after 5 t))

/-- The body at any point: the inputs' buffers hold their blocks, so the body's triple applies; the invariant and
    what the core owes pass through unread. -/
theorem sound_body0 (c : Dev nD) (t : Fin cfg0.N) :
    bodyPre0 V qq c t ⊢ wp frame (wpE (defs₀ (F := F)) Variants.none c none) Set.univ (bodyAt0 t) (fun _ => bodyPost0 V qq c t) := by
  unfold bodyPre0 bodyPost0 bodyAt0
  simp only [before0_0, before0_1, before0_2, before0_3, before0_4]
  rw [show (dat0 V qq c).Φ t.succ = (dat0 V qq c).Φ t.castSucc from rfl,
    show (dat0 V qq c).owesAt () t.succ = (dat0 V qq c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V qq c) (defs₀ (F := F)) Variants.none () Set.univ := fun t => by
  rw [bigSep_W0, bigSep_W0]
  exact sound_body0 V qq c t

end Cert.KernelIdeal.Reg

end
-- ==== Proof.KI.Region1.lean ====
/- Region 1 of @main (the first message-passing call): for ANY contents `V` of the core's buffers at the region's
   entry, what each window's block is at a grid point, what the body leaves in the output block (one store of the
   payload of the five input blocks), the body's triple, the proof data and the body obligation at every point.
   Every input window is read whole and left in place; the output window is overwritten whole at every point. -/
import proofs.«428334_j59700045414568_2_alg».proof.Proof.Gen.KernelIdeal.Launch
import proofs.«428334_j59700045414568_2_alg».proof.Proof.Gen.KernelIdeal.Skeleton
import proofs.«428334_j59700045414568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not
    fetched the block index has not moved, and the body leaves the block in place. One statement per window: a
    window's block type is a literal shape only at a literal window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1600x300 := Rect.unit (s := S1600x300) ![0, 0] S1600x300.size inb_S1600x300_S1600x300_0_0
abbrev r1_1 : Rect S1600x300 := Rect.unit (s := S1600x300) ![0, 0] S1600x300.size inb_S1600x300_S1600x300_0_0
abbrev r1_2 : Rect S1600x300 := Rect.unit (s := S1600x300) ![0, 0] S1600x300.size inb_S1600x300_S1600x300_0_0
abbrev r1_3 : Rect S300x300 := Rect.unit (s := S300x300) ![0, 0] S300x300.size inb_S300x300_S300x300_0_0
abbrev r1_4 : Rect S300 := Rect.unit (s := S300) ![0] S300.size inb_S300_S300_0
abbrev r1_5 : Rect S1600x300 := Rect.unit (s := S1600x300) ![0, 0] S1600x300.size inb_S1600x300_S1600x300_0_0

/-- The output block after the body: its one store, of the payload of the five input blocks. -/
def out1_5 (x0 : Vec F S1600x300 .bf16) (x1 : Vec F S1600x300 .bf16) (x2 : Vec F S1600x300 .bf16) (x3 : Vec F S300x300 .f32) (x4 : Vec F S300 .f32) : Vec F S1600x300 .bf16 :=
  View.canon [⟨r1_5, k1_pay1 (View.ld x0 r1_0) (View.ld x1 r1_1) (View.ld x3 r1_3) (View.ld x4 r1_4) (View.ld x2 r1_2)⟩]

/-- The store covers the whole block. -/
theorem cover1_5 (p0 : Vec F S1600x300 .bf16) (y : S1600x300.Idx) :
    ∃ pc ∈ ([⟨r1_5, p0⟩] : List (View.Piece (Elt F) S1600x300 .bf16)), y ∈ pc.1.set :=
  View.cover_of_tiled [⟨r1_5, p0⟩] S1600x300.size (by rfl) y

set_option maxHeartbeats 1000000 in
/-- The body on whole staging buffers: the five inputs keep their contents, the output ends at `out1_5` of them. -/
theorem sound_kernel1 (c : Dev nD) (E : Set ℕ) (i : grid1.Coords)
    (arg1 : Memref sig .tc .vmem S1600x300 .bf16) (harg1 : arg1.IsWhole) (arg2 : Memref sig .tc .vmem S1600x300 .bf16) (harg2 : arg2.IsWhole)
    (arg3 : Memref sig .tc .vmem S1600x300 .bf16) (harg3 : arg3.IsWhole) (arg4 : Memref sig .tc .vmem S300x300 .f32) (harg4 : arg4.IsWhole)
    (arg5 : Memref sig .tc .vmem S300 .f32) (harg5 : arg5.IsWhole) (arg6 : Memref sig .tc .vmem S1600x300 .bf16) (harg6 : arg6.IsWhole)
    (x0 : Vec F S1600x300 .bf16) (x1 : Vec F S1600x300 .bf16) (x2 : Vec F S1600x300 .bf16) (x3 : Vec F S300x300 .f32) (x4 : Vec F S300 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__conv_kernel i arg1 harg1 arg2 harg2 arg3 harg3 arg4 harg4 arg5 harg5 arg6 harg6) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body each input's
    buffer at its block, the output's at `out1_5` of the input blocks; nothing owed. The shares `qq` of the input
    arrays are a parameter. -/
def dat1 (qq : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := qq
  owed _ := 0

variable (qq : Fin cfg1.W → PosShare TreeShare)

theorem A_eq1 (c : Dev nD) (w : Fin cfg1.W) : (dat1 V qq c).A w = V c (Pipeline.arrRef spec1 w) := by
  dsimp only [dat1]

theorem after1_0 (c : Dev nD) (t : Fin cfg1.N) : (dat1 V qq c).after 0 t = iblk1 V c 0 t := by dsimp only [dat1]
theorem after1_1 (c : Dev nD) (t : Fin cfg1.N) : (dat1 V qq c).after 1 t = iblk1 V c 1 t := by dsimp only [dat1]
theorem after1_2 (c : Dev nD) (t : Fin cfg1.N) : (dat1 V qq c).after 2 t = iblk1 V c 2 t := by dsimp only [dat1]
theorem after1_3 (c : Dev nD) (t : Fin cfg1.N) : (dat1 V qq c).after 3 t = iblk1 V c 3 t := by dsimp only [dat1]
theorem after1_4 (c : Dev nD) (t : Fin cfg1.N) : (dat1 V qq c).after 4 t = iblk1 V c 4 t := by dsimp only [dat1]
theorem after1_5 (c : Dev nD) (t : Fin cfg1.N) : (dat1 V qq c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V qq c).before 0 t d = iblk1 V c 0 t :=
  before1_0_of V (dat1 V qq c) (A_eq1 V qq c 0) (after1_0 V qq c) t d
theorem before1_1 (c : Dev nD) (t : Fin cfg1.N) (d) : (dat1 V qq c).before 1 t d = iblk1 V c 1 t :=
  before1_1_of V (dat1 V qq c) (A_eq1 V qq c 1) (after1_1 V qq c) t d
theorem before1_2 (c : Dev nD) (t : Fin cfg1.N) (d) : (dat1 V qq c).before 2 t d = iblk1 V c 2 t :=
  before1_2_of V (dat1 V qq c) (A_eq1 V qq c 2) (after1_2 V qq c) t d
theorem before1_3 (c : Dev nD) (t : Fin cfg1.N) (d) : (dat1 V qq c).before 3 t d = iblk1 V c 3 t :=
  before1_3_of V (dat1 V qq c) (A_eq1 V qq c 3) (after1_3 V qq c) t d
theorem before1_4 (c : Dev nD) (t : Fin cfg1.N) (d) : (dat1 V qq c).before 4 t d = iblk1 V c 4 t :=
  before1_4_of V (dat1 V qq c) (A_eq1 V qq c 4) (after1_4 V qq c) t d

/-- What the body is called with at point `t`, the windows one by one, -/
def bodyPre1 (c : Dev nD) (t : Fin cfg1.N) : sProp 𝕄 :=
  iprop((dat1 V qq c).Φ t.castSucc ∗ (dat1 V qq c).owesAt () t.castSucc
    ∗ (∃ d, owns (c : Thread nD τ) (st1_0 t) fullShare ((dat1 V qq c).before 0 t d))
    ∗ (∃ d, owns (c : Thread nD τ) (st1_1 t) fullShare ((dat1 V qq c).before 1 t d))
    ∗ (∃ d, owns (c : Thread nD τ) (st1_2 t) fullShare ((dat1 V qq c).before 2 t d))
    ∗ (∃ d, owns (c : Thread nD τ) (st1_3 t) fullShare ((dat1 V qq c).before 3 t d))
    ∗ (∃ d, owns (c : Thread nD τ) (st1_4 t) fullShare ((dat1 V qq c).before 4 t d))
    ∗ (∃ d, owns (c : Thread nD τ) (st1_5 t) fullShare ((dat1 V qq c).before 5 t d)))

/-- and what it returns. -/
def bodyPost1 (c : Dev nD) (t : Fin cfg1.N) : sProp 𝕄 :=
  iprop((dat1 V qq c).Φ t.succ ∗ (dat1 V qq c).owesAt () t.succ
    ∗ owns (c : Thread nD τ) (st1_0 t) fullShare ((dat1 V qq c).after 0 t)
    ∗ owns (c : Thread nD τ) (st1_1 t) fullShare ((dat1 V qq c).after 1 t)
    ∗ owns (c : Thread nD τ) (st1_2 t) fullShare ((dat1 V qq c).after 2 t)
    ∗ owns (c : Thread nD τ) (st1_3 t) fullShare ((dat1 V qq c).after 3 t)
    ∗ owns (c : Thread nD τ) (st1_4 t) fullShare ((dat1 V qq c).after 4 t)
    ∗ owns (c : Thread nD τ) (st1_5 t) fullShare ((dat1 V qq c).after 5 t))

/-- The body at any point: the inputs' buffers hold their blocks, so the body's triple applies; the invariant and
    what the core owes pass through unread. -/
theorem sound_body1 (c : Dev nD) (t : Fin cfg1.N) :
    bodyPre1 V qq c t ⊢ wp frame (wpE (defs₀ (F := F)) Variants.none c none) Set.univ (bodyAt1 t) (fun _ => bodyPost1 V qq c t) := by
  unfold bodyPre1 bodyPost1 bodyAt1
  simp only [before1_0, before1_1, before1_2, before1_3, before1_4]
  rw [show (dat1 V qq c).Φ t.succ = (dat1 V qq c).Φ t.castSucc from rfl,
    show (dat1 V qq c).owesAt () t.succ = (dat1 V qq c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V qq c) (defs₀ (F := F)) Variants.none () Set.univ := fun t => by
  rw [bigSep_W1, bigSep_W1]
  exact sound_body1 V qq c t

end Cert.KernelIdeal.Reg

end
-- ==== Proof.KI.Region2.lean ====
/- Region 2 of @main (the second message-passing call): for ANY contents `V` of the core's buffers at the region's
   entry, what each window's block is at a grid point, what the body leaves in the output block (one store of the
   payload of the five input blocks), the body's triple, the proof data and the body obligation at every point.
   Every input window is read whole and left in place; the output window is overwritten whole at every point. -/
import proofs.«428334_j59700045414568_2_alg».proof.Proof.Gen.KernelIdeal.Launch
import proofs.«428334_j59700045414568_2_alg».proof.Proof.Gen.KernelIdeal.Skeleton
import proofs.«428334_j59700045414568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not
    fetched the block index has not moved, and the body leaves the block in place. One statement per window: a
    window's block type is a literal shape only at a literal window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1600x300 := Rect.unit (s := S1600x300) ![0, 0] S1600x300.size inb_S1600x300_S1600x300_0_0
abbrev r2_1 : Rect S1600x300 := Rect.unit (s := S1600x300) ![0, 0] S1600x300.size inb_S1600x300_S1600x300_0_0
abbrev r2_2 : Rect S1600x300 := Rect.unit (s := S1600x300) ![0, 0] S1600x300.size inb_S1600x300_S1600x300_0_0
abbrev r2_3 : Rect S300x300 := Rect.unit (s := S300x300) ![0, 0] S300x300.size inb_S300x300_S300x300_0_0
abbrev r2_4 : Rect S300 := Rect.unit (s := S300) ![0] S300.size inb_S300_S300_0
abbrev r2_5 : Rect S1600x300 := Rect.unit (s := S1600x300) ![0, 0] S1600x300.size inb_S1600x300_S1600x300_0_0

/-- The output block after the body: its one store, of the payload of the five input blocks. -/
def out2_5 (x0 : Vec F S1600x300 .bf16) (x1 : Vec F S1600x300 .bf16) (x2 : Vec F S1600x300 .bf16) (x3 : Vec F S300x300 .f32) (x4 : Vec F S300 .f32) : Vec F S1600x300 .bf16 :=
  View.canon [⟨r2_5, k2_pay1 (View.ld x0 r2_0) (View.ld x1 r2_1) (View.ld x3 r2_3) (View.ld x4 r2_4) (View.ld x2 r2_2)⟩]

/-- The store covers the whole block. -/
theorem cover2_5 (p0 : Vec F S1600x300 .bf16) (y : S1600x300.Idx) :
    ∃ pc ∈ ([⟨r2_5, p0⟩] : List (View.Piece (Elt F) S1600x300 .bf16)), y ∈ pc.1.set :=
  View.cover_of_tiled [⟨r2_5, p0⟩] S1600x300.size (by rfl) y

set_option maxHeartbeats 1000000 in
/-- The body on whole staging buffers: the five inputs keep their contents, the output ends at `out2_5` of them. -/
theorem sound_kernel2 (c : Dev nD) (E : Set ℕ) (i : grid2.Coords)
    (arg1 : Memref sig .tc .vmem S1600x300 .bf16) (harg1 : arg1.IsWhole) (arg2 : Memref sig .tc .vmem S1600x300 .bf16) (harg2 : arg2.IsWhole)
    (arg3 : Memref sig .tc .vmem S1600x300 .bf16) (harg3 : arg3.IsWhole) (arg4 : Memref sig .tc .vmem S300x300 .f32) (harg4 : arg4.IsWhole)
    (arg5 : Memref sig .tc .vmem S300 .f32) (harg5 : arg5.IsWhole) (arg6 : Memref sig .tc .vmem S1600x300 .bf16) (harg6 : arg6.IsWhole)
    (x0 : Vec F S1600x300 .bf16) (x1 : Vec F S1600x300 .bf16) (x2 : Vec F S1600x300 .bf16) (x3 : Vec F S300x300 .f32) (x4 : Vec F S300 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__conv_kernel i arg1 harg1 arg2 harg2 arg3 harg3 arg4 harg4 arg5 harg5 arg6 harg6) K := by
  simp only [cc2__conv_kernel_eq_skeleton]; unfold cc2__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body each input's
    buffer at its block, the output's at `out2_5` of the input blocks; nothing owed. The shares `qq` of the input
    arrays are a parameter. -/
def dat2 (qq : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q := qq
  owed _ := 0

variable (qq : Fin cfg2.W → PosShare TreeShare)

theorem A_eq2 (c : Dev nD) (w : Fin cfg2.W) : (dat2 V qq c).A w = V c (Pipeline.arrRef spec2 w) := by
  dsimp only [dat2]

theorem after2_0 (c : Dev nD) (t : Fin cfg2.N) : (dat2 V qq c).after 0 t = iblk2 V c 0 t := by dsimp only [dat2]
theorem after2_1 (c : Dev nD) (t : Fin cfg2.N) : (dat2 V qq c).after 1 t = iblk2 V c 1 t := by dsimp only [dat2]
theorem after2_2 (c : Dev nD) (t : Fin cfg2.N) : (dat2 V qq c).after 2 t = iblk2 V c 2 t := by dsimp only [dat2]
theorem after2_3 (c : Dev nD) (t : Fin cfg2.N) : (dat2 V qq c).after 3 t = iblk2 V c 3 t := by dsimp only [dat2]
theorem after2_4 (c : Dev nD) (t : Fin cfg2.N) : (dat2 V qq c).after 4 t = iblk2 V c 4 t := by dsimp only [dat2]
theorem after2_5 (c : Dev nD) (t : Fin cfg2.N) : (dat2 V qq c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V qq c).before 0 t d = iblk2 V c 0 t :=
  before2_0_of V (dat2 V qq c) (A_eq2 V qq c 0) (after2_0 V qq c) t d
theorem before2_1 (c : Dev nD) (t : Fin cfg2.N) (d) : (dat2 V qq c).before 1 t d = iblk2 V c 1 t :=
  before2_1_of V (dat2 V qq c) (A_eq2 V qq c 1) (after2_1 V qq c) t d
theorem before2_2 (c : Dev nD) (t : Fin cfg2.N) (d) : (dat2 V qq c).before 2 t d = iblk2 V c 2 t :=
  before2_2_of V (dat2 V qq c) (A_eq2 V qq c 2) (after2_2 V qq c) t d
theorem before2_3 (c : Dev nD) (t : Fin cfg2.N) (d) : (dat2 V qq c).before 3 t d = iblk2 V c 3 t :=
  before2_3_of V (dat2 V qq c) (A_eq2 V qq c 3) (after2_3 V qq c) t d
theorem before2_4 (c : Dev nD) (t : Fin cfg2.N) (d) : (dat2 V qq c).before 4 t d = iblk2 V c 4 t :=
  before2_4_of V (dat2 V qq c) (A_eq2 V qq c 4) (after2_4 V qq c) t d

/-- What the body is called with at point `t`, the windows one by one, -/
def bodyPre2 (c : Dev nD) (t : Fin cfg2.N) : sProp 𝕄 :=
  iprop((dat2 V qq c).Φ t.castSucc ∗ (dat2 V qq c).owesAt () t.castSucc
    ∗ (∃ d, owns (c : Thread nD τ) (st2_0 t) fullShare ((dat2 V qq c).before 0 t d))
    ∗ (∃ d, owns (c : Thread nD τ) (st2_1 t) fullShare ((dat2 V qq c).before 1 t d))
    ∗ (∃ d, owns (c : Thread nD τ) (st2_2 t) fullShare ((dat2 V qq c).before 2 t d))
    ∗ (∃ d, owns (c : Thread nD τ) (st2_3 t) fullShare ((dat2 V qq c).before 3 t d))
    ∗ (∃ d, owns (c : Thread nD τ) (st2_4 t) fullShare ((dat2 V qq c).before 4 t d))
    ∗ (∃ d, owns (c : Thread nD τ) (st2_5 t) fullShare ((dat2 V qq c).before 5 t d)))

/-- and what it returns. -/
def bodyPost2 (c : Dev nD) (t : Fin cfg2.N) : sProp 𝕄 :=
  iprop((dat2 V qq c).Φ t.succ ∗ (dat2 V qq c).owesAt () t.succ
    ∗ owns (c : Thread nD τ) (st2_0 t) fullShare ((dat2 V qq c).after 0 t)
    ∗ owns (c : Thread nD τ) (st2_1 t) fullShare ((dat2 V qq c).after 1 t)
    ∗ owns (c : Thread nD τ) (st2_2 t) fullShare ((dat2 V qq c).after 2 t)
    ∗ owns (c : Thread nD τ) (st2_3 t) fullShare ((dat2 V qq c).after 3 t)
    ∗ owns (c : Thread nD τ) (st2_4 t) fullShare ((dat2 V qq c).after 4 t)
    ∗ owns (c : Thread nD τ) (st2_5 t) fullShare ((dat2 V qq c).after 5 t))

/-- The body at any point: the inputs' buffers hold their blocks, so the body's triple applies; the invariant and
    what the core owes pass through unread. -/
theorem sound_body2 (c : Dev nD) (t : Fin cfg2.N) :
    bodyPre2 V qq c t ⊢ wp frame (wpE (defs₀ (F := F)) Variants.none c none) Set.univ (bodyAt2 t) (fun _ => bodyPost2 V qq c t) := by
  unfold bodyPre2 bodyPost2 bodyAt2
  simp only [before2_0, before2_1, before2_2, before2_3, before2_4]
  rw [show (dat2 V qq c).Φ t.succ = (dat2 V qq c).Φ t.castSucc from rfl,
    show (dat2 V qq c).owesAt () t.succ = (dat2 V qq c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V qq c) (defs₀ (F := F)) Variants.none () Set.univ := fun t => by
  rw [bigSep_W2, bigSep_W2]
  exact sound_body2 V qq c t

end Cert.KernelIdeal.Reg

end
-- ==== Proof.KI.Region3.lean ====
/- Region 3 of @main (the third message-passing call): for ANY contents `V` of the core's buffers at the region's
   entry, what each window's block is at a grid point, what the body leaves in the output block (one store of the
   payload of the five input blocks), the body's triple, the proof data and the body obligation at every point.
   Every input window is read whole and left in place; the output window is overwritten whole at every point. -/
import proofs.«428334_j59700045414568_2_alg».proof.Proof.Gen.KernelIdeal.Launch
import proofs.«428334_j59700045414568_2_alg».proof.Proof.Gen.KernelIdeal.Skeleton
import proofs.«428334_j59700045414568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: where it is not
    fetched the block index has not moved, and the body leaves the block in place. One statement per window: a
    window's block type is a literal shape only at a literal window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1600x300 := Rect.unit (s := S1600x300) ![0, 0] S1600x300.size inb_S1600x300_S1600x300_0_0
abbrev r3_1 : Rect S1600x300 := Rect.unit (s := S1600x300) ![0, 0] S1600x300.size inb_S1600x300_S1600x300_0_0
abbrev r3_2 : Rect S1600x300 := Rect.unit (s := S1600x300) ![0, 0] S1600x300.size inb_S1600x300_S1600x300_0_0
abbrev r3_3 : Rect S300x300 := Rect.unit (s := S300x300) ![0, 0] S300x300.size inb_S300x300_S300x300_0_0
abbrev r3_4 : Rect S300 := Rect.unit (s := S300) ![0] S300.size inb_S300_S300_0
abbrev r3_5 : Rect S1600x300 := Rect.unit (s := S1600x300) ![0, 0] S1600x300.size inb_S1600x300_S1600x300_0_0

/-- The output block after the body: its one store, of the payload of the five input blocks. -/
def out3_5 (x0 : Vec F S1600x300 .bf16) (x1 : Vec F S1600x300 .bf16) (x2 : Vec F S1600x300 .bf16) (x3 : Vec F S300x300 .f32) (x4 : Vec F S300 .f32) : Vec F S1600x300 .bf16 :=
  View.canon [⟨r3_5, k3_pay1 (View.ld x0 r3_0) (View.ld x1 r3_1) (View.ld x3 r3_3) (View.ld x4 r3_4) (View.ld x2 r3_2)⟩]

/-- The store covers the whole block. -/
theorem cover3_5 (p0 : Vec F S1600x300 .bf16) (y : S1600x300.Idx) :
    ∃ pc ∈ ([⟨r3_5, p0⟩] : List (View.Piece (Elt F) S1600x300 .bf16)), y ∈ pc.1.set :=
  View.cover_of_tiled [⟨r3_5, p0⟩] S1600x300.size (by rfl) y

set_option maxHeartbeats 1000000 in
/-- The body on whole staging buffers: the five inputs keep their contents, the output ends at `out3_5` of them. -/
theorem sound_kernel3 (c : Dev nD) (E : Set ℕ) (i : grid3.Coords)
    (arg1 : Memref sig .tc .vmem S1600x300 .bf16) (harg1 : arg1.IsWhole) (arg2 : Memref sig .tc .vmem S1600x300 .bf16) (harg2 : arg2.IsWhole)
    (arg3 : Memref sig .tc .vmem S1600x300 .bf16) (harg3 : arg3.IsWhole) (arg4 : Memref sig .tc .vmem S300x300 .f32) (harg4 : arg4.IsWhole)
    (arg5 : Memref sig .tc .vmem S300 .f32) (harg5 : arg5.IsWhole) (arg6 : Memref sig .tc .vmem S1600x300 .bf16) (harg6 : arg6.IsWhole)
    (x0 : Vec F S1600x300 .bf16) (x1 : Vec F S1600x300 .bf16) (x2 : Vec F S1600x300 .bf16) (x3 : Vec F S300x300 .f32) (x4 : Vec F S300 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__conv_kernel i arg1 harg1 arg2 harg2 arg3 harg3 arg4 harg4 arg5 harg5 arg6 harg6) K := by
  simp only [cc3__conv_kernel_eq_skeleton]; unfold cc3__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body each input's
    buffer at its block, the output's at `out3_5` of the input blocks; nothing owed. The shares `qq` of the input
    arrays are a parameter. -/
def dat3 (qq : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q := qq
  owed _ := 0

variable (qq : Fin cfg3.W → PosShare TreeShare)

theorem A_eq3 (c : Dev nD) (w : Fin cfg3.W) : (dat3 V qq c).A w = V c (Pipeline.arrRef spec3 w) := by
  dsimp only [dat3]

theorem after3_0 (c : Dev nD) (t : Fin cfg3.N) : (dat3 V qq c).after 0 t = iblk3 V c 0 t := by dsimp only [dat3]
theorem after3_1 (c : Dev nD) (t : Fin cfg3.N) : (dat3 V qq c).after 1 t = iblk3 V c 1 t := by dsimp only [dat3]
theorem after3_2 (c : Dev nD) (t : Fin cfg3.N) : (dat3 V qq c).after 2 t = iblk3 V c 2 t := by dsimp only [dat3]
theorem after3_3 (c : Dev nD) (t : Fin cfg3.N) : (dat3 V qq c).after 3 t = iblk3 V c 3 t := by dsimp only [dat3]
theorem after3_4 (c : Dev nD) (t : Fin cfg3.N) : (dat3 V qq c).after 4 t = iblk3 V c 4 t := by dsimp only [dat3]
theorem after3_5 (c : Dev nD) (t : Fin cfg3.N) : (dat3 V qq c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V qq c).before 0 t d = iblk3 V c 0 t :=
  before3_0_of V (dat3 V qq c) (A_eq3 V qq c 0) (after3_0 V qq c) t d
theorem before3_1 (c : Dev nD) (t : Fin cfg3.N) (d) : (dat3 V qq c).before 1 t d = iblk3 V c 1 t :=
  before3_1_of V (dat3 V qq c) (A_eq3 V qq c 1) (after3_1 V qq c) t d
theorem before3_2 (c : Dev nD) (t : Fin cfg3.N) (d) : (dat3 V qq c).before 2 t d = iblk3 V c 2 t :=
  before3_2_of V (dat3 V qq c) (A_eq3 V qq c 2) (after3_2 V qq c) t d
theorem before3_3 (c : Dev nD) (t : Fin cfg3.N) (d) : (dat3 V qq c).before 3 t d = iblk3 V c 3 t :=
  before3_3_of V (dat3 V qq c) (A_eq3 V qq c 3) (after3_3 V qq c) t d
theorem before3_4 (c : Dev nD) (t : Fin cfg3.N) (d) : (dat3 V qq c).before 4 t d = iblk3 V c 4 t :=
  before3_4_of V (dat3 V qq c) (A_eq3 V qq c 4) (after3_4 V qq c) t d

/-- What the body is called with at point `t`, the windows one by one, -/
def bodyPre3 (c : Dev nD) (t : Fin cfg3.N) : sProp 𝕄 :=
  iprop((dat3 V qq c).Φ t.castSucc ∗ (dat3 V qq c).owesAt () t.castSucc
    ∗ (∃ d, owns (c : Thread nD τ) (st3_0 t) fullShare ((dat3 V qq c).before 0 t d))
    ∗ (∃ d, owns (c : Thread nD τ) (st3_1 t) fullShare ((dat3 V qq c).before 1 t d))
    ∗ (∃ d, owns (c : Thread nD τ) (st3_2 t) fullShare ((dat3 V qq c).before 2 t d))
    ∗ (∃ d, owns (c : Thread nD τ) (st3_3 t) fullShare ((dat3 V qq c).before 3 t d))
    ∗ (∃ d, owns (c : Thread nD τ) (st3_4 t) fullShare ((dat3 V qq c).before 4 t d))
    ∗ (∃ d, owns (c : Thread nD τ) (st3_5 t) fullShare ((dat3 V qq c).before 5 t d)))

/-- and what it returns. -/
def bodyPost3 (c : Dev nD) (t : Fin cfg3.N) : sProp 𝕄 :=
  iprop((dat3 V qq c).Φ t.succ ∗ (dat3 V qq c).owesAt () t.succ
    ∗ owns (c : Thread nD τ) (st3_0 t) fullShare ((dat3 V qq c).after 0 t)
    ∗ owns (c : Thread nD τ) (st3_1 t) fullShare ((dat3 V qq c).after 1 t)
    ∗ owns (c : Thread nD τ) (st3_2 t) fullShare ((dat3 V qq c).after 2 t)
    ∗ owns (c : Thread nD τ) (st3_3 t) fullShare ((dat3 V qq c).after 3 t)
    ∗ owns (c : Thread nD τ) (st3_4 t) fullShare ((dat3 V qq c).after 4 t)
    ∗ owns (c : Thread nD τ) (st3_5 t) fullShare ((dat3 V qq c).after 5 t))

/-- The body at any point: the inputs' buffers hold their blocks, so the body's triple applies; the invariant and
    what the core owes pass through unread. -/
theorem sound_body3 (c : Dev nD) (t : Fin cfg3.N) :
    bodyPre3 V qq c t ⊢ wp frame (wpE (defs₀ (F := F)) Variants.none c none) Set.univ (bodyAt3 t) (fun _ => bodyPost3 V qq c t) := by
  unfold bodyPre3 bodyPost3 bodyAt3
  simp only [before3_0, before3_1, before3_2, before3_3, before3_4]
  rw [show (dat3 V qq c).Φ t.succ = (dat3 V qq c).Φ t.castSucc from rfl,
    show (dat3 V qq c).owesAt () t.succ = (dat3 V qq c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V qq c) (defs₀ (F := F)) Variants.none () Set.univ := fun t => by
  rw [bigSep_W3, bigSep_W3]
  exact sound_body3 V qq c t

end Cert.KernelIdeal.Reg

end
-- ==== Proof.KI.Region4.lean ====
/- Region 4 of @main (the node-update call): for ANY contents `V` of the core's buffers at the region's
   entry, what each window's block is at a grid point, what the body leaves in the output block (one store of the
   payload of the five input blocks), the body's triple, the proof data and the body obligation at every point.
   Every input window is read whole and left in place; the output window is overwritten whole at every point. -/
import proofs.«428334_j59700045414568_2_alg».proof.Proof.Gen.KernelIdeal.Launch
import proofs.«428334_j59700045414568_2_alg».proof.Proof.Gen.KernelIdeal.Skeleton
import proofs.«428334_j59700045414568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not: where it is not
    fetched the block index has not moved, and the body leaves the block in place. One statement per window: a
    window's block type is a literal shape only at a literal window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x64 := Rect.unit (s := S2000x64) ![0, 0] S2000x64.size inb_S2000x64_S2000x64_0_0
abbrev r4_1 : Rect S2000x300 := Rect.unit (s := S2000x300) ![0, 0] S2000x300.size inb_S2000x300_S2000x300_0_0
abbrev r4_2 : Rect S64x300 := Rect.unit (s := S64x300) ![0, 0] S64x300.size inb_S64x300_S64x300_0_0
abbrev r4_3 : Rect S300x300 := Rect.unit (s := S300x300) ![0, 0] S300x300.size inb_S300x300_S300x300_0_0
abbrev r4_4 : Rect S300 := Rect.unit (s := S300) ![0] S300.size inb_S300_S300_0
abbrev r4_5 : Rect S2000x300 := Rect.unit (s := S2000x300) ![0, 0] S2000x300.size inb_S2000x300_S2000x300_0_0

/-- The output block after the body: its one store, of the payload of the five input blocks. -/
def out4_5 (x0 : Vec F S2000x64 .f32) (x1 : Vec F S2000x300 .f32) (x2 : Vec F S64x300 .f32) (x3 : Vec F S300x300 .f32) (x4 : Vec F S300 .f32) : Vec F S2000x300 .f32 :=
  View.canon [⟨r4_5, k4_pay1 (View.ld x0 r4_0) (View.ld x1 r4_1) (View.ld x2 r4_2) (View.ld x3 r4_3) (View.ld x4 r4_4)⟩]

/-- The store covers the whole block. -/
theorem cover4_5 (p0 : Vec F S2000x300 .f32) (y : S2000x300.Idx) :
    ∃ pc ∈ ([⟨r4_5, p0⟩] : List (View.Piece (Elt F) S2000x300 .f32)), y ∈ pc.1.set :=
  View.cover_of_tiled [⟨r4_5, p0⟩] S2000x300.size (by rfl) y

set_option maxHeartbeats 1000000 in
/-- The body on whole staging buffers: the five inputs keep their contents, the output ends at `out4_5` of them. -/
theorem sound_kernel4 (c : Dev nD) (E : Set ℕ) (i : grid4.Coords)
    (arg1 : Memref sig .tc .vmem S2000x64 .f32) (harg1 : arg1.IsWhole) (arg2 : Memref sig .tc .vmem S2000x300 .f32) (harg2 : arg2.IsWhole)
    (arg3 : Memref sig .tc .vmem S64x300 .f32) (harg3 : arg3.IsWhole) (arg4 : Memref sig .tc .vmem S300x300 .f32) (harg4 : arg4.IsWhole)
    (arg5 : Memref sig .tc .vmem S300 .f32) (harg5 : arg5.IsWhole) (arg6 : Memref sig .tc .vmem S2000x300 .f32) (harg6 : arg6.IsWhole)
    (x0 : Vec F S2000x64 .f32) (x1 : Vec F S2000x300 .f32) (x2 : Vec F S64x300 .f32) (x3 : Vec F S300x300 .f32) (x4 : Vec F S300 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__e2n_kernel i arg1 harg1 arg2 harg2 arg3 harg3 arg4 harg4 arg5 harg5 arg6 harg6) K := by
  simp only [cc4__e2n_kernel_eq_skeleton]; unfold cc4__e2n_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of pipeline 4 on core `c`: the arrays as the region finds them; after the body each input's
    buffer at its block, the output's at `out4_5` of the input blocks; nothing owed. The shares `qq` of the input
    arrays are a parameter. -/
def dat4 (qq : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q := qq
  owed _ := 0

variable (qq : Fin cfg4.W → PosShare TreeShare)

theorem A_eq4 (c : Dev nD) (w : Fin cfg4.W) : (dat4 V qq c).A w = V c (Pipeline.arrRef spec4 w) := by
  dsimp only [dat4]

theorem after4_0 (c : Dev nD) (t : Fin cfg4.N) : (dat4 V qq c).after 0 t = iblk4 V c 0 t := by dsimp only [dat4]
theorem after4_1 (c : Dev nD) (t : Fin cfg4.N) : (dat4 V qq c).after 1 t = iblk4 V c 1 t := by dsimp only [dat4]
theorem after4_2 (c : Dev nD) (t : Fin cfg4.N) : (dat4 V qq c).after 2 t = iblk4 V c 2 t := by dsimp only [dat4]
theorem after4_3 (c : Dev nD) (t : Fin cfg4.N) : (dat4 V qq c).after 3 t = iblk4 V c 3 t := by dsimp only [dat4]
theorem after4_4 (c : Dev nD) (t : Fin cfg4.N) : (dat4 V qq c).after 4 t = iblk4 V c 4 t := by dsimp only [dat4]
theorem after4_5 (c : Dev nD) (t : Fin cfg4.N) : (dat4 V qq c).after 5 t
    = out4_5 (iblk4 V c 0 t) (iblk4 V c 1 t) (iblk4 V c 2 t) (iblk4 V c 3 t) (iblk4 V c 4 t) := by dsimp only [dat4]

theorem before4_0 (c : Dev nD) (t : Fin cfg4.N) (d) : (dat4 V qq c).before 0 t d = iblk4 V c 0 t :=
  before4_0_of V (dat4 V qq c) (A_eq4 V qq c 0) (after4_0 V qq c) t d
theorem before4_1 (c : Dev nD) (t : Fin cfg4.N) (d) : (dat4 V qq c).before 1 t d = iblk4 V c 1 t :=
  before4_1_of V (dat4 V qq c) (A_eq4 V qq c 1) (after4_1 V qq c) t d
theorem before4_2 (c : Dev nD) (t : Fin cfg4.N) (d) : (dat4 V qq c).before 2 t d = iblk4 V c 2 t :=
  before4_2_of V (dat4 V qq c) (A_eq4 V qq c 2) (after4_2 V qq c) t d
theorem before4_3 (c : Dev nD) (t : Fin cfg4.N) (d) : (dat4 V qq c).before 3 t d = iblk4 V c 3 t :=
  before4_3_of V (dat4 V qq c) (A_eq4 V qq c 3) (after4_3 V qq c) t d
theorem before4_4 (c : Dev nD) (t : Fin cfg4.N) (d) : (dat4 V qq c).before 4 t d = iblk4 V c 4 t :=
  before4_4_of V (dat4 V qq c) (A_eq4 V qq c 4) (after4_4 V qq c) t d

/-- What the body is called with at point `t`, the windows one by one, -/
def bodyPre4 (c : Dev nD) (t : Fin cfg4.N) : sProp 𝕄 :=
  iprop((dat4 V qq c).Φ t.castSucc ∗ (dat4 V qq c).owesAt () t.castSucc
    ∗ (∃ d, owns (c : Thread nD τ) (st4_0 t) fullShare ((dat4 V qq c).before 0 t d))
    ∗ (∃ d, owns (c : Thread nD τ) (st4_1 t) fullShare ((dat4 V qq c).before 1 t d))
    ∗ (∃ d, owns (c : Thread nD τ) (st4_2 t) fullShare ((dat4 V qq c).before 2 t d))
    ∗ (∃ d, owns (c : Thread nD τ) (st4_3 t) fullShare ((dat4 V qq c).before 3 t d))
    ∗ (∃ d, owns (c : Thread nD τ) (st4_4 t) fullShare ((dat4 V qq c).before 4 t d))
    ∗ (∃ d, owns (c : Thread nD τ) (st4_5 t) fullShare ((dat4 V qq c).before 5 t d)))

/-- and what it returns. -/
def bodyPost4 (c : Dev nD) (t : Fin cfg4.N) : sProp 𝕄 :=
  iprop((dat4 V qq c).Φ t.succ ∗ (dat4 V qq c).owesAt () t.succ
    ∗ owns (c : Thread nD τ) (st4_0 t) fullShare ((dat4 V qq c).after 0 t)
    ∗ owns (c : Thread nD τ) (st4_1 t) fullShare ((dat4 V qq c).after 1 t)
    ∗ owns (c : Thread nD τ) (st4_2 t) fullShare ((dat4 V qq c).after 2 t)
    ∗ owns (c : Thread nD τ) (st4_3 t) fullShare ((dat4 V qq c).after 3 t)
    ∗ owns (c : Thread nD τ) (st4_4 t) fullShare ((dat4 V qq c).after 4 t)
    ∗ owns (c : Thread nD τ) (st4_5 t) fullShare ((dat4 V qq c).after 5 t))

/-- The body at any point: the inputs' buffers hold their blocks, so the body's triple applies; the invariant and
    what the core owes pass through unread. -/
theorem sound_body4 (c : Dev nD) (t : Fin cfg4.N) :
    bodyPre4 V qq c t ⊢ wp frame (wpE (defs₀ (F := F)) Variants.none c none) Set.univ (bodyAt4 t) (fun _ => bodyPost4 V qq c t) := by
  unfold bodyPre4 bodyPost4 bodyAt4
  simp only [before4_0, before4_1, before4_2, before4_3, before4_4]
  rw [show (dat4 V qq c).Φ t.succ = (dat4 V qq c).Φ t.castSucc from rfl,
    show (dat4 V qq c).owesAt () t.succ = (dat4 V qq c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V qq c) (defs₀ (F := F)) Variants.none () Set.univ := fun t => by
  rw [bigSep_W4, bigSep_W4]
  exact sound_body4 V qq c t

end Cert.KernelIdeal.Reg

end
-- ==== Proof.KI.Fold.lean ====
/- The contents of a core's buffers at every boundary between two items of @main, as a fold from the launch memory:
   a stretch of host operations applies them; a kernel region replaces its one output array by what the pipeline's
   write-backs leave and keeps every other buffer. A buffer that no stretch writes and that is no region's output
   ends as launched. -/
import proofs.«428334_j59700045414568_2_alg».proof.Proof.KI.Region0
import proofs.«428334_j59700045414568_2_alg».proof.Proof.KI.Region1
import proofs.«428334_j59700045414568_2_alg».proof.Proof.KI.Region2
import proofs.«428334_j59700045414568_2_alg».proof.Proof.KI.Region3
import proofs.«428334_j59700045414568_2_alg».proof.Proof.KI.Region4
import proofs.«428334_j59700045414568_2_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares of the input arrays: whole, except where one array feeds two windows of a call (the first
    message-passing call reads the initial edge state both as its state and as its skip input), which then hold a half each. -/
abbrev qq0 : Fin cfg0.W → PosShare TreeShare := fun _ => fullShare
def qq1 : Fin cfg1.W → PosShare TreeShare := fun w => match w with
  | ⟨1, _⟩ => (fullShare : PosShare TreeShare).left
  | ⟨2, _⟩ => (fullShare : PosShare TreeShare).right
  | _ => fullShare
abbrev qq2 : Fin cfg2.W → PosShare TreeShare := fun _ => fullShare
abbrev qq3 : Fin cfg3.W → PosShare TreeShare := fun _ => fullShare
abbrev qq4 : Fin cfg4.W → PosShare TreeShare := fun _ => fullShare

variable (m : (ℓ : Loc nD τ sig) → Buf (Elt F) ℓ)

/-- Core `c`'s unscoped buffers at launch. -/
abbrev U0 : Dev nD → Valuation τ sig (Elt F) := fun c b => m (c, b)
/-- After the host stretch `hostOps0`. -/
abbrev U1 : Dev nD → Valuation τ sig (Elt F) := fun c => StableHlo.after hostOps0 (U0 m c)
/-- After the host stretch `hostOps0_1`. -/
abbrev U2 : Dev nD → Valuation τ sig (Elt F) := fun c => StableHlo.after hostOps0_1 (U1 m c)
/-- After the host stretch `hostOps0_2`. -/
abbrev U3 : Dev nD → Valuation τ sig (Elt F) := fun c => StableHlo.after hostOps0_2 (U2 m c)
/-- The same read at the TensorCore's references: what region 0's proof data take. -/
abbrev E0 : (c : Dev nD) → (b : Ref sig .tc) → Buf (Elt F) ((c : Thread nD τ).loc b) := fun c b => U3 m c b
/-- At region 0's exit: its output array at what the pipeline's write-backs leave, every other buffer as entered. -/
def U4 (c : Dev nD) : Valuation τ sig (Elt F) :=
  Function.update (U3 m c) (Proc.devRef .tc main_v9) ((dat0 (E0 m) qq0 c).arrAt 5 cfg0.N)
/-- The same read at the TensorCore's references (region 0's exit contents). -/
abbrev X0 : (c : Dev nD) → (b : Ref sig .tc) → Buf (Elt F) ((c : Thread nD τ).loc b) := fun c b => U4 m c b
theorem X0_out (c : Dev nD) : X0 m c main_v9 = (dat0 (E0 m) qq0 c).arrAt 5 cfg0.N := by
  show U4 m c (Proc.devRef .tc main_v9) = _
  unfold U4; exact Function.update_self ..
theorem X0_of_ne (c : Dev nD) (b : Ref sig .tc) (hb : b ≠ main_v9) : X0 m c b = E0 m c b := by
  show U4 m c (Proc.devRef .tc b) = U3 m c (Proc.devRef .tc b)
  unfold U4; exact Function.update_of_ne (StableHlo.devRef_ne_of_ne hb) ..
/-- After the host stretch `hostOps1`. -/
abbrev U5 : Dev nD → Valuation τ sig (Elt F) := fun c => StableHlo.after hostOps1 (U4 m c)
/-- After the host stretch `hostOps1_1`. -/
abbrev U6 : Dev nD → Valuation τ sig (Elt F) := fun c => StableHlo.after hostOps1_1 (U5 m c)
/-- After the host stretch `hostOps1_2`. -/
abbrev U7 : Dev nD → Valuation τ sig (Elt F) := fun c => StableHlo.after hostOps1_2 (U6 m c)
/-- The same read at the TensorCore's references: what region 1's proof data take. -/
abbrev E1 : (c : Dev nD) → (b : Ref sig .tc) → Buf (Elt F) ((c : Thread nD τ).loc b) := fun c b => U7 m c b
/-- At region 1's exit: its output array at what the pipeline's write-backs leave, every other buffer as entered. -/
def U8 (c : Dev nD) : Valuation τ sig (Elt F) :=
  Function.update (U7 m c) (Proc.devRef .tc main_v20) ((dat1 (E1 m) qq1 c).arrAt 5 cfg1.N)
/-- The same read at the TensorCore's references (region 1's exit contents). -/
abbrev X1 : (c : Dev nD) → (b : Ref sig .tc) → Buf (Elt F) ((c : Thread nD τ).loc b) := fun c b => U8 m c b
theorem X1_out (c : Dev nD) : X1 m c main_v20 = (dat1 (E1 m) qq1 c).arrAt 5 cfg1.N := by
  show U8 m c (Proc.devRef .tc main_v20) = _
  unfold U8; exact Function.update_self ..
theorem X1_of_ne (c : Dev nD) (b : Ref sig .tc) (hb : b ≠ main_v20) : X1 m c b = E1 m c b := by
  show U8 m c (Proc.devRef .tc b) = U7 m c (Proc.devRef .tc b)
  unfold U8; exact Function.update_of_ne (StableHlo.devRef_ne_of_ne hb) ..
/-- After the host stretch `hostOps2`. -/
abbrev U9 : Dev nD → Valuation τ sig (Elt F) := fun c => StableHlo.after hostOps2 (U8 m c)
/-- After the host stretch `hostOps2_1`. -/
abbrev U10 : Dev nD → Valuation τ sig (Elt F) := fun c => StableHlo.after hostOps2_1 (U9 m c)
/-- After the host stretch `hostOps2_2`. -/
abbrev U11 : Dev nD → Valuation τ sig (Elt F) := fun c => StableHlo.after hostOps2_2 (U10 m c)
/-- The same read at the TensorCore's references: what region 2's proof data take. -/
abbrev E2 : (c : Dev nD) → (b : Ref sig .tc) → Buf (Elt F) ((c : Thread nD τ).loc b) := fun c b => U11 m c b
/-- At region 2's exit: its output array at what the pipeline's write-backs leave, every other buffer as entered. -/
def U12 (c : Dev nD) : Valuation τ sig (Elt F) :=
  Function.update (U11 m c) (Proc.devRef .tc main_v31) ((dat2 (E2 m) qq2 c).arrAt 5 cfg2.N)
/-- The same read at the TensorCore's references (region 2's exit contents). -/
abbrev X2 : (c : Dev nD) → (b : Ref sig .tc) → Buf (Elt F) ((c : Thread nD τ).loc b) := fun c b => U12 m c b
theorem X2_out (c : Dev nD) : X2 m c main_v31 = (dat2 (E2 m) qq2 c).arrAt 5 cfg2.N := by
  show U12 m c (Proc.devRef .tc main_v31) = _
  unfold U12; exact Function.update_self ..
theorem X2_of_ne (c : Dev nD) (b : Ref sig .tc) (hb : b ≠ main_v31) : X2 m c b = E2 m c b := by
  show U12 m c (Proc.devRef .tc b) = U11 m c (Proc.devRef .tc b)
  unfold U12; exact Function.update_of_ne (StableHlo.devRef_ne_of_ne hb) ..
/-- After the host stretch `hostOps3`. -/
abbrev U13 : Dev nD → Valuation τ sig (Elt F) := fun c => StableHlo.after hostOps3 (U12 m c)
/-- After the host stretch `hostOps3_1`. -/
abbrev U14 : Dev nD → Valuation τ sig (Elt F) := fun c => StableHlo.after hostOps3_1 (U13 m c)
/-- After the host stretch `hostOps3_2`. -/
abbrev U15 : Dev nD → Valuation τ sig (Elt F) := fun c => StableHlo.after hostOps3_2 (U14 m c)
/-- The same read at the TensorCore's references: what region 3's proof data take. -/
abbrev E3 : (c : Dev nD) → (b : Ref sig .tc) → Buf (Elt F) ((c : Thread nD τ).loc b) := fun c b => U15 m c b
/-- At region 3's exit: its output array at what the pipeline's write-backs leave, every other buffer as entered. -/
def U16 (c : Dev nD) : Valuation τ sig (Elt F) :=
  Function.update (U15 m c) (Proc.devRef .tc main_v42) ((dat3 (E3 m) qq3 c).arrAt 5 cfg3.N)
/-- The same read at the TensorCore's references (region 3's exit contents). -/
abbrev X3 : (c : Dev nD) → (b : Ref sig .tc) → Buf (Elt F) ((c : Thread nD τ).loc b) := fun c b => U16 m c b
theorem X3_out (c : Dev nD) : X3 m c main_v42 = (dat3 (E3 m) qq3 c).arrAt 5 cfg3.N := by
  show U16 m c (Proc.devRef .tc main_v42) = _
  unfold U16; exact Function.update_self ..
theorem X3_of_ne (c : Dev nD) (b : Ref sig .tc) (hb : b ≠ main_v42) : X3 m c b = E3 m c b := by
  show U16 m c (Proc.devRef .tc b) = U15 m c (Proc.devRef .tc b)
  unfold U16; exact Function.update_of_ne (StableHlo.devRef_ne_of_ne hb) ..
/-- After the host stretch `hostOps4`. -/
abbrev U17 : Dev nD → Valuation τ sig (Elt F) := fun c => StableHlo.after hostOps4 (U16 m c)
/-- The same read at the TensorCore's references: what region 4's proof data take. -/
abbrev E4 : (c : Dev nD) → (b : Ref sig .tc) → Buf (Elt F) ((c : Thread nD τ).loc b) := fun c b => U17 m c b
/-- At region 4's exit: its output array at what the pipeline's write-backs leave, every other buffer as entered. -/
def U18 (c : Dev nD) : Valuation τ sig (Elt F) :=
  Function.update (U17 m c) (Proc.devRef .tc main_v49) ((dat4 (E4 m) qq4 c).arrAt 5 cfg4.N)
/-- The same read at the TensorCore's references (region 4's exit contents). -/
abbrev X4 : (c : Dev nD) → (b : Ref sig .tc) → Buf (Elt F) ((c : Thread nD τ).loc b) := fun c b => U18 m c b
theorem X4_out (c : Dev nD) : X4 m c main_v49 = (dat4 (E4 m) qq4 c).arrAt 5 cfg4.N := by
  show U18 m c (Proc.devRef .tc main_v49) = _
  unfold U18; exact Function.update_self ..
theorem X4_of_ne (c : Dev nD) (b : Ref sig .tc) (hb : b ≠ main_v49) : X4 m c b = E4 m c b := by
  show U18 m c (Proc.devRef .tc b) = U17 m c (Proc.devRef .tc b)
  unfold U18; exact Function.update_of_ne (StableHlo.devRef_ne_of_ne hb) ..
/-- After the host stretch `hostOps5`. -/
abbrev U19 : Dev nD → Valuation τ sig (Elt F) := fun c => StableHlo.after hostOps5 (U18 m c)

/-- A buffer that no host stretch writes and that is no region's output holds at the end what it held at launch. -/
theorem U19_keep (c : Dev nD) (r : Ref sig .tc) (h_hostOps0 : r ∉ hostOps0_W) (h_hostOps0_1 : r ∉ hostOps0_1_W) (h_hostOps0_2 : r ∉ hostOps0_2_W) (h_hostOps1 : r ∉ hostOps1_W) (h_hostOps1_1 : r ∉ hostOps1_1_W) (h_hostOps1_2 : r ∉ hostOps1_2_W) (h_hostOps2 : r ∉ hostOps2_W) (h_hostOps2_1 : r ∉ hostOps2_1_W) (h_hostOps2_2 : r ∉ hostOps2_2_W) (h_hostOps3 : r ∉ hostOps3_W) (h_hostOps3_1 : r ∉ hostOps3_1_W) (h_hostOps3_2 : r ∉ hostOps3_2_W) (h_hostOps4 : r ∉ hostOps4_W) (h_hostOps5 : r ∉ hostOps5_W)
    (hr : r ∉ ([main_v9, main_v20, main_v31, main_v42, main_v49] : List (Ref sig .tc))) :
    U19 m c r = m ((c : Thread nD τ).loc r) :=
  (StableHlo.after_of_writes_sub hostOps5 _ hostOps5_writes h_hostOps5).trans <|
  (X4_of_ne m c r (fun e => hr (by rw [e]; decide))).trans <|
  (StableHlo.after_of_writes_sub hostOps4 _ hostOps4_writes h_hostOps4).trans <|
  (X3_of_ne m c r (fun e => hr (by rw [e]; decide))).trans <|
  (StableHlo.after_of_writes_sub hostOps3_2 _ hostOps3_2_writes h_hostOps3_2).trans <|
  (StableHlo.after_of_writes_sub hostOps3_1 _ hostOps3_1_writes h_hostOps3_1).trans <|
  (StableHlo.after_of_writes_sub hostOps3 _ hostOps3_writes h_hostOps3).trans <|
  (X2_of_ne m c r (fun e => hr (by rw [e]; decide))).trans <|
  (StableHlo.after_of_writes_sub hostOps2_2 _ hostOps2_2_writes h_hostOps2_2).trans <|
  (StableHlo.after_of_writes_sub hostOps2_1 _ hostOps2_1_writes h_hostOps2_1).trans <|
  (StableHlo.after_of_writes_sub hostOps2 _ hostOps2_writes h_hostOps2).trans <|
  (X1_of_ne m c r (fun e => hr (by rw [e]; decide))).trans <|
  (StableHlo.after_of_writes_sub hostOps1_2 _ hostOps1_2_writes h_hostOps1_2).trans <|
  (StableHlo.after_of_writes_sub hostOps1_1 _ hostOps1_1_writes h_hostOps1_1).trans <|
  (StableHlo.after_of_writes_sub hostOps1 _ hostOps1_writes h_hostOps1).trans <|
  (X0_of_ne m c r (fun e => hr (by rw [e]; decide))).trans <|
  (StableHlo.after_of_writes_sub hostOps0_2 _ hostOps0_2_writes h_hostOps0_2).trans <|
  (StableHlo.after_of_writes_sub hostOps0_1 _ hostOps0_1_writes h_hostOps0_1).trans <|
  (StableHlo.after_of_writes_sub hostOps0 _ hostOps0_writes h_hostOps0)

end Cert.KernelIdeal.Reg

end
-- ==== Proof.KI.Shared1.lean ====
/- The first message-passing call reads the initial edge state through two of its windows, as its state and as its
   skip input: one array stands behind both. At the call's entry that array's full share is dealt to the two windows
   as its two halves; at the exit the halves are joined back into the whole. Every other array stands behind one
   window and is held whole throughout. -/
import proofs.«428334_j59700045414568_2_alg».proof.Proof.KI.Fold
import Idealize.ShloMosaic.Lib.Pipeline.Kit
import Idealize.ShloMosaic.Lib.Pipeline.Launch
import Idealize.ShloMosaic.Lib.Pipeline.Regions
import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct arrays behind the call's six windows are five. -/
theorem arrImage1 : Finset.univ.image (Pipeline.arrRef spec1)
    = ([main_v15, main_v9, main_v17, main_v19, main_v20] : List (Ref sig .tc)).toFinset := by decide

theorem arrList1_nodup : ([main_v15, main_v9, main_v17, main_v19, main_v20] : List (Ref sig .tc)).Nodup := by decide

/-- The buffers behind the windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v15) ↦{fullShare} V main_v15) ∗ (((c : Thread nD τ).loc main_v9) ↦{fullShare} V main_v9)
        ∗ (((c : Thread nD τ).loc main_v17) ↦{fullShare} V main_v17) ∗ (((c : Thread nD τ).loc main_v19) ↦{fullShare} V main_v19)
        ∗ (((c : Thread nD τ).loc main_v20) ↦{fullShare} V main_v20)) := by
  unfold Pipeline.arrBufs
  rw [bigSep_eq_bigSepL_of_eq _ arrImage1 arrList1_nodup]
  rfl

variable (V : (c : Dev nD) → (b : Ref sig .tc) → Buf (Elt F) ((c : Thread nD τ).loc b))

/-- The shares the windows' arrays are held at: a half each where two windows have one array, else the whole. -/
theorem share1_0 (c : Dev nD) : (dat1 V qq1 c).share 0 = fullShare := rfl
theorem share1_1 (c : Dev nD) : (dat1 V qq1 c).share 1 = (fullShare : PosShare TreeShare).left := rfl
theorem share1_2 (c : Dev nD) : (dat1 V qq1 c).share 2 = (fullShare : PosShare TreeShare).right := rfl
theorem share1_3 (c : Dev nD) : (dat1 V qq1 c).share 3 = fullShare := rfl
theorem share1_4 (c : Dev nD) : (dat1 V qq1 c).share 4 = fullShare := rfl
theorem share1_5 (c : Dev nD) : (dat1 V qq1 c).share 5 = fullShare := rfl

/-- The call's arrays at contents `G`, window by window: the array behind windows 1 and 2 at a half share each. -/
theorem arrays1_eq (c : Dev nD) (G : (w : Fin cfg1.W) → Buf (Elt F) ((cfg1.win w).arr.view.loc (c : Thread nD τ))) :
    ((dat1 V qq1 c).arrays G : sProp 𝕄)
      = iprop((((c : Thread nD τ).loc main_v15) ↦{fullShare} G 0)
        ∗ (((c : Thread nD τ).loc main_v9) ↦{(fullShare : PosShare TreeShare).left} G 1)
        ∗ (((c : Thread nD τ).loc main_v9) ↦{(fullShare : PosShare TreeShare).right} G 2)
        ∗ (((c : Thread nD τ).loc main_v17) ↦{fullShare} G 3) ∗ (((c : Thread nD τ).loc main_v19) ↦{fullShare} G 4)
        ∗ (((c : Thread nD τ).loc main_v20) ↦{fullShare} G 5)) := by
  unfold Dat.arrays
  rw [bigSep_W1]
  simp only [View.set_whole, share1_0, share1_1, share1_2, share1_3, share1_4, share1_5]

/-- A core's unscoped buffers are the buffers behind the call's arrays and the rest. -/
theorem unscopedBufs_split1 (c : Dev nD) (W : (b : Ref sig .tc) → Buf (Elt F) ((c : Thread nD τ).loc b)) :
    (unscopedBufs c W : sProp 𝕄)
      = iprop(Pipeline.arrBufs (Ix := Unit) (Name := ℕ) (U := UR sig nD τ) (Lvl := ℕ) spec1 c W
        ∗ Pipeline.unscopedRest (Ix := Unit) (Name := ℕ) (U := UR sig nD τ) (Lvl := ℕ) spec1 c W) :=
  Pipeline.PerCore.unscopedBufs_split₀ (fun _ : Dev nD => cfgs) (1 : Fin 5) c winFacts₀1.arr_unscoped W

/-- At the entry every array holds what the core's buffers hold. -/
theorem arrAt1_zero (c : Dev nD) (w : Fin cfg1.W) : (dat1 V qq1 c).arrAt w 0 = V c (Pipeline.arrRef spec1 w) := rfl

/-- The array behind windows 1 and 2: its whole is its two halves. -/
theorem deal1 (c : Dev nD) (f : Buf (Elt F) ((c : Thread nD τ).loc main_v9)) :
    (((c : Thread nD τ).loc main_v9) ↦{fullShare} f : sProp 𝕄)
      ⊣⊢ iprop((((c : Thread nD τ).loc main_v9) ↦{(fullShare : PosShare TreeShare).left} f)
        ∗ (((c : Thread nD τ).loc main_v9) ↦{(fullShare : PosShare TreeShare).right} f)) :=
  pointsTo_share (PosShare.mem_left_op_right fullShare)

/-- ENTRY, for any contents `V` of the core's buffers: the unscoped buffers at `V` are the call's arrays at `V`,
    the array behind windows 1 and 2 dealt to them as the two halves of its full share, and the rest. -/
theorem entry1_of (c : Dev nD) : (unscopedBufs c (V c) : sProp 𝕄)
    ⊢ iprop((dat1 V qq1 c).arrays ((dat1 V qq1 c).arrAt · 0)
      ∗ Pipeline.unscopedRest (Ix := Unit) (Name := ℕ) (U := UR sig nD τ) (Lvl := ℕ) spec1 c (V c)) := by
  rw [unscopedBufs_split1, arrBufs1_eq, arrays1_eq]
  simp only [arrAt1_zero]
  iintro ⟨⟨Ha, Hb, Hc, Hd, He⟩, Hrest⟩
  ihave Hhh := (deal1 c _).1 $$ Hb
  icases Hhh with ⟨Hbl, Hbr⟩
  isplitr [Hrest]
  · isplitl [Ha]; · iexact Ha
    isplitl [Hbl]; · iexact Hbl
    isplitl [Hbr]; · iexact Hbr
    isplitl [Hc]; · iexact Hc
    isplitl [Hd]; · iexact Hd
    iexact He
  · iexact Hrest

/-- ENTRY of the first message-passing call. -/
theorem entry1 (c : Dev nD) : (unscopedBufs c (E1 m c) : sProp 𝕄)
    ⊢ iprop((dat1 (E1 m) qq1 c).arrays ((dat1 (E1 m) qq1 c).arrAt · 0)
      ∗ Pipeline.unscopedRest (Ix := Unit) (Name := ℕ) (U := UR sig nD τ) (Lvl := ℕ) spec1 c (E1 m c)) :=
  entry1_of (E1 m) c

/-- An input window's array is never written: it holds throughout what the core's buffers held at the entry. -/
theorem arrAt1_in (c : Dev nD) (w : Fin cfg1.W) (hin : (cfg1.win w).isOut = false) (t : ℕ) :
    (dat1 V qq1 c).arrAt w t = V c (Pipeline.arrRef spec1 w) := Dat.arrAt_in _ w hin t

/-- The output array is one of the call's arrays. -/
theorem out_mem_arrImage1 : main_v20 ∈ Finset.univ.image (Pipeline.arrRef spec1) :=
  Finset.mem_image.mpr ⟨5, Finset.mem_univ _, rfl⟩

/-- EXIT, for any entry contents `V` and any contents `W` that have the output array at what the write-backs leave
    and agree with `V` elsewhere: the call's arrays at their last contents, the two halves of the array behind
    windows 1 and 2 joined back, and the rest are the core's unscoped buffers at `W`. -/
theorem exit1_of (c : Dev nD) (W : (b : Ref sig .tc) → Buf (Elt F) ((c : Thread nD τ).loc b))
    (hout : W main_v20 = (dat1 V qq1 c).arrAt 5 cfg1.N) (hne : ∀ b, b ≠ main_v20 → W b = V c b) :
    iprop((dat1 V qq1 c).arrays ((dat1 V qq1 c).arrAt · cfg1.N)
      ∗ Pipeline.unscopedRest (Ix := Unit) (Name := ℕ) (U := UR sig nD τ) (Lvl := ℕ) spec1 c (V c))
      ⊢ (unscopedBufs c W : sProp 𝕄) := by
  have hrest : (Pipeline.unscopedRest (Ix := Unit) (Name := ℕ) (U := UR sig nD τ) (Lvl := ℕ) spec1 c (V c) : sProp 𝕄)
      = Pipeline.unscopedRest spec1 c W := by
    unfold Pipeline.unscopedRest
    exact bigSep_congr fun b hb => by
      rw [hne b fun e => (Finset.mem_sdiff.mp hb).2 (by rw [e]; exact out_mem_arrImage1)]
  rw [unscopedBufs_split1, arrBufs1_eq, arrays1_eq, hrest, hout, hne main_v15 (by decide), hne main_v9 (by decide),
    hne main_v17 (by decide), hne main_v19 (by decide)]
  simp only [arrAt1_in V c 0 rfl, arrAt1_in V c 1 rfl, arrAt1_in V c 2 rfl, arrAt1_in V c 3 rfl, arrAt1_in V c 4 rfl]
  iintro ⟨⟨Ha, Hbl, Hbr, Hc, Hd, He⟩, Hrest⟩
  ihave Hb := (deal1 c _).2 $$ [Hbl Hbr]
  · isplitl [Hbl] <;> iassumption
  isplitr [Hrest]
  · isplitl [Ha]; · iexact Ha
    isplitl [Hb]; · iexact Hb
    isplitl [Hc]; · iexact Hc
    isplitl [Hd]; · iexact Hd
    iexact He
  · iexact Hrest

/-- EXIT of the first message-passing call. -/
theorem exit1 (c : Dev nD) :
    iprop((dat1 (E1 m) qq1 c).arrays ((dat1 (E1 m) qq1 c).arrAt · cfg1.N)
      ∗ Pipeline.unscopedRest (Ix := Unit) (Name := ℕ) (U := UR sig nD τ) (Lvl := ℕ) spec1 c (E1 m c))
      ⊢ (unscopedBufs c (X1 m c) : sProp 𝕄) :=
  exit1_of (E1 m) c (X1 m c) (X1_out m c) (X1_of_ne m c)

end Cert.KernelIdeal.Reg

end
-- ==== Proof.KI.Run.lean ====
/- The run of @main as its nineteen items in order — stretches of host operations and the five kernel regions —
   from the launch memory: every weakly fair execution terminates, nothing faults, and at the end every unscoped
   buffer of a core holds the last fold value `U19`. The frame claim and the value of the result both read off it. -/
import proofs.«428334_j59700045414568_2_alg».proof.Proof.KI.Fold
import proofs.«428334_j59700045414568_2_alg».proof.Proof.KI.Shared1
import Idealize.ShloMosaic.Lib.Pipeline.Kit

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At region 0's exit each of its arrays holds what the pipeline leaves, and every other buffer what it held at entry. -/
theorem hF0 (c : Dev nD) (w : Fin cfg0.W) : (dat0 (E0 m) qq0 c).arrAt w cfg0.N = X0 m c (Pipeline.arrRef spec0 w) :=
  match w with
  | ⟨0, _⟩ => by
    show (dat0 (E0 m) qq0 c).arrAt (0 : Fin cfg0.W) cfg0.N = X0 m c main_v5
    rw [(dat0 (E0 m) qq0 c).arrAt_in 0 rfl, A_eq0]
    exact (X0_of_ne m c main_v5 (by decide)).symm
  | ⟨1, _⟩ => by
    show (dat0 (E0 m) qq0 c).arrAt (1 : Fin cfg0.W) cfg0.N = X0 m c main_v6
    rw [(dat0 (E0 m) qq0 c).arrAt_in 1 rfl, A_eq0]
    exact (X0_of_ne m c main_v6 (by decide)).symm
  | ⟨2, _⟩ => by
    show (dat0 (E0 m) qq0 c).arrAt (2 : Fin cfg0.W) cfg0.N = X0 m c main_v7
    rw [(dat0 (E0 m) qq0 c).arrAt_in 2 rfl, A_eq0]
    exact (X0_of_ne m c main_v7 (by decide)).symm
  | ⟨3, _⟩ => by
    show (dat0 (E0 m) qq0 c).arrAt (3 : Fin cfg0.W) cfg0.N = X0 m c main_v8
    rw [(dat0 (E0 m) qq0 c).arrAt_in 3 rfl, A_eq0]
    exact (X0_of_ne m c main_v8 (by decide)).symm
  | ⟨4, _⟩ => by
    show (dat0 (E0 m) qq0 c).arrAt (4 : Fin cfg0.W) cfg0.N = X0 m c main_arg5
    rw [(dat0 (E0 m) qq0 c).arrAt_in 4 rfl, A_eq0]
    exact (X0_of_ne m c main_arg5 (by decide)).symm
  | ⟨5, _⟩ => (X0_out m c).symm
theorem hrest0 (c : Dev nD) : ∀ b, b ∉ Finset.univ.image (Pipeline.arrRef spec0) → X0 m c b = E0 m c b :=
  fun b hb => X0_of_ne m c b fun e => hb (Finset.mem_image.mpr ⟨5, Finset.mem_univ _, e.symm⟩)

set_option maxHeartbeats 2000000 in
/-- At region 2's exit each of its arrays holds what the pipeline leaves, and every other buffer what it held at entry. -/
theorem hF2 (c : Dev nD) (w : Fin cfg2.W) : (dat2 (E2 m) qq2 c).arrAt w cfg2.N = X2 m c (Pipeline.arrRef spec2 w) :=
  match w with
  | ⟨0, _⟩ => by
    show (dat2 (E2 m) qq2 c).arrAt (0 : Fin cfg2.W) cfg2.N = X2 m c main_v26
    rw [(dat2 (E2 m) qq2 c).arrAt_in 0 rfl, A_eq2]
    exact (X2_of_ne m c main_v26 (by decide)).symm
  | ⟨1, _⟩ => by
    show (dat2 (E2 m) qq2 c).arrAt (1 : Fin cfg2.W) cfg2.N = X2 m c main_v20
    rw [(dat2 (E2 m) qq2 c).arrAt_in 1 rfl, A_eq2]
    exact (X2_of_ne m c main_v20 (by decide)).symm
  | ⟨2, _⟩ => by
    show (dat2 (E2 m) qq2 c).arrAt (2 : Fin cfg2.W) cfg2.N = X2 m c main_v9
    rw [(dat2 (E2 m) qq2 c).arrAt_in 2 rfl, A_eq2]
    exact (X2_of_ne m c main_v9 (by decide)).symm
  | ⟨3, _⟩ => by
    show (dat2 (E2 m) qq2 c).arrAt (3 : Fin cfg2.W) cfg2.N = X2 m c main_v28
    rw [(dat2 (E2 m) qq2 c).arrAt_in 3 rfl, A_eq2]
    exact (X2_of_ne m c main_v28 (by decide)).symm
  | ⟨4, _⟩ => by
    show (dat2 (E2 m) qq2 c).arrAt (4 : Fin cfg2.W) cfg2.N = X2 m c main_v30
    rw [(dat2 (E2 m) qq2 c).arrAt_in 4 rfl, A_eq2]
    exact (X2_of_ne m c main_v30 (by decide)).symm
  | ⟨5, _⟩ => (X2_out m c).symm
theorem hrest2 (c : Dev nD) : ∀ b, b ∉ Finset.univ.image (Pipeline.arrRef spec2) → X2 m c b = E2 m c b :=
  fun b hb => X2_of_ne m c b fun e => hb (Finset.mem_image.mpr ⟨5, Finset.mem_univ _, e.symm⟩)

set_option maxHeartbeats 2000000 in
/-- At region 3's exit each of its arrays holds what the pipeline leaves, and every other buffer what it held at entry. -/
theorem hF3 (c : Dev nD) (w : Fin cfg3.W) : (dat3 (E3 m) qq3 c).arrAt w cfg3.N = X3 m c (Pipeline.arrRef spec3 w) :=
  match w with
  | ⟨0, _⟩ => by
    show (dat3 (E3 m) qq3 c).arrAt (0 : Fin cfg3.W) cfg3.N = X3 m c main_v37
    rw [(dat3 (E3 m) qq3 c).arrAt_in 0 rfl, A_eq3]
    exact (X3_of_ne m c main_v37 (by decide)).symm
  | ⟨1, _⟩ => by
    show (dat3 (E3 m) qq3 c).arrAt (1 : Fin cfg3.W) cfg3.N = X3 m c main_v31
    rw [(dat3 (E3 m) qq3 c).arrAt_in 1 rfl, A_eq3]
    exact (X3_of_ne m c main_v31 (by decide)).symm
  | ⟨2, _⟩ => by
    show (dat3 (E3 m) qq3 c).arrAt (2 : Fin cfg3.W) cfg3.N = X3 m c main_v9
    rw [(dat3 (E3 m) qq3 c).arrAt_in 2 rfl, A_eq3]
    exact (X3_of_ne m c main_v9 (by decide)).symm
  | ⟨3, _⟩ => by
    show (dat3 (E3 m) qq3 c).arrAt (3 : Fin cfg3.W) cfg3.N = X3 m c main_v39
    rw [(dat3 (E3 m) qq3 c).arrAt_in 3 rfl, A_eq3]
    exact (X3_of_ne m c main_v39 (by decide)).symm
  | ⟨4, _⟩ => by
    show (dat3 (E3 m) qq3 c).arrAt (4 : Fin cfg3.W) cfg3.N = X3 m c main_v41
    rw [(dat3 (E3 m) qq3 c).arrAt_in 4 rfl, A_eq3]
    exact (X3_of_ne m c main_v41 (by decide)).symm
  | ⟨5, _⟩ => (X3_out m c).symm
theorem hrest3 (c : Dev nD) : ∀ b, b ∉ Finset.univ.image (Pipeline.arrRef spec3) → X3 m c b = E3 m c b :=
  fun b hb => X3_of_ne m c b fun e => hb (Finset.mem_image.mpr ⟨5, Finset.mem_univ _, e.symm⟩)

set_option maxHeartbeats 2000000 in
/-- At region 4's exit each of its arrays holds what the pipeline leaves, and every other buffer what it held at entry. -/
theorem hF4 (c : Dev nD) (w : Fin cfg4.W) : (dat4 (E4 m) qq4 c).arrAt w cfg4.N = X4 m c (Pipeline.arrRef spec4 w) :=
  match w with
  | ⟨0, _⟩ => by
    show (dat4 (E4 m) qq4 c).arrAt (0 : Fin cfg4.W) cfg4.N = X4 m c main_arg0
    rw [(dat4 (E4 m) qq4 c).arrAt_in 0 rfl, A_eq4]
    exact (X4_of_ne m c main_arg0 (by decide)).symm
  | ⟨1, _⟩ => by
    show (dat4 (E4 m) qq4 c).arrAt (1 : Fin cfg4.W) cfg4.N = X4 m c main_v46
    rw [(dat4 (E4 m) qq4 c).arrAt_in 1 rfl, A_eq4]
    exact (X4_of_ne m c main_v46 (by decide)).symm
  | ⟨2, _⟩ => by
    show (dat4 (E4 m) qq4 c).arrAt (2 : Fin cfg4.W) cfg4.N = X4 m c main_v47
    rw [(dat4 (E4 m) qq4 c).arrAt_in 2 rfl, A_eq4]
    exact (X4_of_ne m c main_v47 (by decide)).symm
  | ⟨3, _⟩ => by
    show (dat4 (E4 m) qq4 c).arrAt (3 : Fin cfg4.W) cfg4.N = X4 m c main_v48
    rw [(dat4 (E4 m) qq4 c).arrAt_in 3 rfl, A_eq4]
    exact (X4_of_ne m c main_v48 (by decide)).symm
  | ⟨4, _⟩ => by
    show (dat4 (E4 m) qq4 c).arrAt (4 : Fin cfg4.W) cfg4.N = X4 m c main_arg9
    rw [(dat4 (E4 m) qq4 c).arrAt_in 4 rfl, A_eq4]
    exact (X4_of_ne m c main_arg9 (by decide)).symm
  | ⟨5, _⟩ => (X4_out m c).symm
theorem hrest4 (c : Dev nD) : ∀ b, b ∉ Finset.univ.image (Pipeline.arrRef spec4) → X4 m c b = E4 m c b :=
  fun b hb => X4_of_ne m c b fun e => hb (Finset.mem_image.mpr ⟨5, Finset.mem_univ _, e.symm⟩)

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (E0 m) qq0 c
  | ⟨1, _⟩ => fun c => dat1 (E1 m) qq1 c
  | ⟨2, _⟩ => fun c => dat2 (E2 m) qq2 c
  | ⟨3, _⟩ => fun c => dat3 (E3 m) qq3 c
  | ⟨4, _⟩ => fun c => dat4 (E4 m) qq4 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (U19 m c) ∗ ∃ r, prngReg c r)

set_option backward.isDefEq.respectTransparency.types false in
/-- Region 0 over the thread state: entered from every unscoped buffer at `U3`, left at `U4`. Its arrays are
    split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) qq0 c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `U7`, left at `U8`. Two of its windows
    are on one array, which is dealt to them as two halves at the entry and joined back at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) qq1 c).loose
  hwaits := Pipeline.hwaits_of_owed_zero _ _ _ _ L lv 1 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (unscopedBufs c (E1 m c) : sProp 𝕄) ⊢ iprop((pdats m 1 c).arrays ((pdats m 1 c).arrAt · 0)
        ∗ Pipeline.unscopedRest (Ix := Unit) (Name := ℕ) (U := UR sig nD τ) (Lvl := ℕ) spec1 c (E1 m c)) := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
        ∗ Pipeline.unscopedRest (Ix := Unit) (Name := ℕ) (U := UR sig nD τ) (Lvl := ℕ) spec1 c (E1 m c)) ⊢ (unscopedBufs c (X1 m c) : sProp 𝕄) := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `U11`, left at `U12`. Its arrays are
    split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) qq2 c).loose
  hwaits := Pipeline.hwaits_of_owed_zero _ _ _ _ L lv 2 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `U15`, left at `U16`. Its arrays are
    split out of the unscoped buffers and put back at the exit contents; the generator register goes into the
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) qq3 c).loose
  hwaits := Pipeline.hwaits_of_owed_zero _ _ _ _ L lv 3 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `U17`, left at `U18`. Its arrays are
    split out of the unscoped buffers and put back at the exit contents; the generator register goes into the
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m) qq4 c).loose
  hwaits := Pipeline.hwaits_of_owed_zero _ _ _ _ L lv 4 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E4 m c) (X4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's nineteen items in order. -/
abbrev segs : List (Pipeline.Seg (pcfgs (F := F)) adm (pdats m) () defs₀ 𝒱₀ L lv) :=
  [
    .host (hseg hostOps0 hostOps0_sub hostOps0_fresh (U0 m)),
    .host (hseg hostOps0_1 hostOps0_1_sub hostOps0_1_fresh (U1 m)),
    .host (hseg hostOps0_2 hostOps0_2_sub hostOps0_2_fresh (U2 m)),
    .region (reg0 m),
    .host (hseg hostOps1 hostOps1_sub hostOps1_fresh (U4 m)),
    .host (hseg hostOps1_1 hostOps1_1_sub hostOps1_1_fresh (U5 m)),
    .host (hseg hostOps1_2 hostOps1_2_sub hostOps1_2_fresh (U6 m)),
    .region (reg1 m),
    .host (hseg hostOps2 hostOps2_sub hostOps2_fresh (U8 m)),
    .host (hseg hostOps2_1 hostOps2_1_sub hostOps2_1_fresh (U9 m)),
    .host (hseg hostOps2_2 hostOps2_2_sub hostOps2_2_fresh (U10 m)),
    .region (reg2 m),
    .host (hseg hostOps3 hostOps3_sub hostOps3_fresh (U12 m)),
    .host (hseg hostOps3_1 hostOps3_1_sub hostOps3_1_fresh (U13 m)),
    .host (hseg hostOps3_2 hostOps3_2_sub hostOps3_2_fresh (U14 m)),
    .region (reg3 m),
    .host (hseg hostOps4 hostOps4_sub hostOps4_fresh (U16 m)),
    .region (reg4 m),
    .host (hseg hostOps5 hostOps5_sub hostOps5_fresh (U18 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U19 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (U19 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U19 m c b)
    (hfin := fun c s' => by
      iintro ⟨⟨Hh, -⟩, HSI⟩
      unfold StableHlo.held
      imodintro
      iapply (pointsTo_read_all (Pipeline.ucRefs τ sig) (fun b => (((c : Thread nD τ)).1, b)) (U19 m c) s')
      isplitl [Hh] <;> iassumption)
    (hQ := fun s h c => h c)

/-- An argument array ends as launched: no host stretch writes it and it is no region's output. -/
theorem U19_main_arg0 (c : Dev nD) : U19 m c main_arg0 = m ((c : Thread nD τ).loc main_arg0) := U19_keep m c main_arg0 (by decide) (by decide) (by decide) (by decide) (by decide) (by decide) (by decide) (by decide) (by decide) (by decide) (by decide) (by decide) (by decide) (by decide) (by decide)
theorem U19_main_arg1 (c : Dev nD) : U19 m c main_arg1 = m ((c : Thread nD τ).loc main_arg1) := U19_keep m c main_arg1 (by decide) (by decide) (by decide) (by decide) (by decide) (by decide) (by decide) (by decide) (by decide) (by decide) (by decide) (by decide) (by decide) (by decide) (by decide)
theorem U19_main_arg2 (c : Dev nD) : U19 m c main_arg2 = m ((c : Thread nD τ).loc main_arg2) := U19_keep m c main_arg2 (by decide) (by decide) (by decide) (by decide) (by decide) (by decide) (by decide) (by decide) (by decide) (by decide) (by decide) (by decide) (by decide) (by decide) (by decide)
theorem U19_main_arg3 (c : Dev nD) : U19 m c main_arg3 = m ((c : Thread nD τ).loc main_arg3) := U19_keep m c main_arg3 (by decide) (by decide) (by decide) (by decide) (by decide) (by decide) (by decide) (by decide) (by decide) (by decide) (by decide) (by decide) (by decide) (by decide) (by decide)
theorem U19_main_arg4 (c : Dev nD) : U19 m c main_arg4 = m ((c : Thread nD τ).loc main_arg4) := U19_keep m c main_arg4 (by decide) (by decide) (by decide) (by decide) (by decide) (by decide) (by decide) (by decide) (by decide) (by decide) (by decide) (by decide) (by decide) (by decide) (by decide)
theorem U19_main_arg5 (c : Dev nD) : U19 m c main_arg5 = m ((c : Thread nD τ).loc main_arg5) := U19_keep m c main_arg5 (by decide) (by decide) (by decide) (by decide) (by decide) (by decide) (by decide) (by decide) (by decide) (by decide) (by decide) (by decide) (by decide) (by decide) (by decide)
theorem U19_main_arg6 (c : Dev nD) : U19 m c main_arg6 = m ((c : Thread nD τ).loc main_arg6) := U19_keep m c main_arg6 (by decide) (by decide) (by decide) (by decide) (by decide) (by decide) (by decide) (by decide) (by decide) (by decide) (by decide) (by decide) (by decide) (by decide) (by decide)
theorem U19_main_arg7 (c : Dev nD) : U19 m c main_arg7 = m ((c : Thread nD τ).loc main_arg7) := U19_keep m c main_arg7 (by decide) (by decide) (by decide) (by decide) (by decide) (by decide) (by decide) (by decide) (by decide) (by decide) (by decide) (by decide) (by decide) (by decide) (by decide)
theorem U19_main_arg8 (c : Dev nD) : U19 m c main_arg8 = m ((c : Thread nD τ).loc main_arg8) := U19_keep m c main_arg8 (by decide) (by decide) (by decide) (by decide) (by decide) (by decide) (by decide) (by decide) (by decide) (by decide) (by decide) (by decide) (by decide) (by decide) (by decide)
theorem U19_main_arg9 (c : Dev nD) : U19 m c main_arg9 = m ((c : Thread nD τ).loc main_arg9) := U19_keep m c main_arg9 (by decide) (by decide) (by decide) (by decide) (by decide) (by decide) (by decide) (by decide) (by decide) (by decide) (by decide) (by decide) (by decide) (by decide) (by decide)
theorem U19_main_arg10 (c : Dev nD) : U19 m c main_arg10 = m ((c : Thread nD τ).loc main_arg10) := U19_keep m c main_arg10 (by decide) (by decide) (by decide) (by decide) (by decide) (by decide) (by decide) (by decide) (by decide) (by decide) (by decide) (by decide) (by decide) (by decide) (by decide)
theorem U19_main_arg11 (c : Dev nD) : U19 m c main_arg11 = m ((c : Thread nD τ).loc main_arg11) := U19_keep m c main_arg11 (by decide) (by decide) (by decide) (by decide) (by decide) (by decide) (by decide) (by decide) (by decide) (by decide) (by decide) (by decide) (by decide) (by decide) (by decide)

/-- THE FRAME: every weakly fair execution terminates, nothing faults, every argument array ends as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (U19_main_arg0 m c),
    (h c _ (mem_uc main_arg1 (by decide))).trans (U19_main_arg1 m c),
    (h c _ (mem_uc main_arg2 (by decide))).trans (U19_main_arg2 m c),
    (h c _ (mem_uc main_arg3 (by decide))).trans (U19_main_arg3 m c),
    (h c _ (mem_uc main_arg4 (by decide))).trans (U19_main_arg4 m c),
    (h c _ (mem_uc main_arg5 (by decide))).trans (U19_main_arg5 m c),
    (h c _ (mem_uc main_arg6 (by decide))).trans (U19_main_arg6 m c),
    (h c _ (mem_uc main_arg7 (by decide))).trans (U19_main_arg7 m c),
    (h c _ (mem_uc main_arg8 (by decide))).trans (U19_main_arg8 m c),
    (h c _ (mem_uc main_arg9 (by decide))).trans (U19_main_arg9 m c),
    (h c _ (mem_uc main_arg10 (by decide))).trans (U19_main_arg10 m c),
    (h c _ (mem_uc main_arg11 (by decide))).trans (U19_main_arg11 m c)⟩)
    (run_all m ρ)

/-- THE RUN WITH ITS RESULT: as the frame, and the result buffer ends at the fold's last value of it. -/
theorem run_value : θ_run defs (onTc (τ := τ) (main (F := F))) ⟨m, fun _ => 0, ρ⟩ (fun r => ∀ c : Dev nD,
      r.2.mem ((c.tc : Thread nD τ).loc main_v57) = U19 m c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v57 (by decide)), (h c _ (mem_uc main_arg0 (by decide))).trans (U19_main_arg0 m c),
    (h c _ (mem_uc main_arg1 (by decide))).trans (U19_main_arg1 m c),
    (h c _ (mem_uc main_arg2 (by decide))).trans (U19_main_arg2 m c),
    (h c _ (mem_uc main_arg3 (by decide))).trans (U19_main_arg3 m c),
    (h c _ (mem_uc main_arg4 (by decide))).trans (U19_main_arg4 m c),
    (h c _ (mem_uc main_arg5 (by decide))).trans (U19_main_arg5 m c),
    (h c _ (mem_uc main_arg6 (by decide))).trans (U19_main_arg6 m c),
    (h c _ (mem_uc main_arg7 (by decide))).trans (U19_main_arg7 m c),
    (h c _ (mem_uc main_arg8 (by decide))).trans (U19_main_arg8 m c),
    (h c _ (mem_uc main_arg9 (by decide))).trans (U19_main_arg9 m c),
    (h c _ (mem_uc main_arg10 (by decide))).trans (U19_main_arg10 m c),
    (h c _ (mem_uc main_arg11 (by decide))).trans (U19_main_arg11 m c)⟩)
    (run_all m ρ)

end Cert.KernelIdeal.Reg

end
-- ==== Proof.Spec.lean ====
/- The mathematics both programs compute, stage by stage, as functions on index sets over the extended reals.
   One edge stage (`initRow`), one message-passing stage (`convRow`), one node stage (`e2nRow`); row blocks of the
   weight matrices. Edges come in (forward, reverse) pairs on rows 2p and 2p+1; `partner` exchanges the two. -/
import Idealize.ShloMosaic.PureOps.Ideal
import Idealize.ShloMosaic.Lib.ValueIdx

noncomputable section

open scoped BigOperators

namespace Cert.Spec

open Idealize.ShloMosaic Idealize.ShloMosaic.ValueIdx

/-- A rank-2 and a rank-1 shape by their extents. -/
abbrev Sh2 (a b : Nat) : Shape := ⟨2, ![a, b]⟩
abbrev Sh1 (a : Nat) : Shape := ⟨1, ![a]⟩
abbrev Sh3 (a b c : Nat) : Shape := ⟨3, ![a, b, c]⟩

/-- The zero both programs compare against in their rectifier, as the printed word. -/
abbrev zero32 : EReal := Ideal.ofBits .f32 0x00000000#32

/-- The other edge of an edge's (forward, reverse) pair: row 2p ↔ row 2p+1. -/
def partner (r : Fin 320000) : Fin 320000 :=
  ⟨if r.val % 2 = 0 then r.val + 1 else r.val - 1, by have := r.isLt; split <;> omega⟩

/-- Edge initialisation: the rectified affine image of an edge's gathered node features and its own features,
    the weight matrix given as its two row blocks. -/
def initRow (xr : (Sh2 320000 64).Idx → EReal) (ea : (Sh2 320000 16).Idx → EReal) (wx : (Sh2 64 300).Idx → EReal)
    (we : (Sh2 16 300).Idx → EReal) (b : (Sh1 300).Idx → EReal) : (Sh2 320000 300).Idx → EReal :=
  fun i => max (((∑ k : Fin 64, xr (ix2 (i 0) k) * wx (ix2 k (i 1))) + (∑ k : Fin 16, ea (ix2 (i 0) k) * we (ix2 k (i 1))))
    + b (ix1 (i 1))) zero32

/-- One message-passing step: the gathered aggregate less the partner edge's state, through the layer's weights,
    plus the bias, plus the skip connection, rectified. -/
def convRow (ag h h0 : (Sh2 320000 300).Idx → EReal) (w : (Sh2 300 300).Idx → EReal) (b : (Sh1 300).Idx → EReal) :
    (Sh2 320000 300).Idx → EReal :=
  fun i => max (((∑ k : Fin 300, (ag (ix2 (i 0) k) - h (ix2 (partner (i 0)) k)) * w (ix2 k (i 1))) + b (ix1 (i 1))) + h0 i) zero32

/-- The node update: the rectified affine image of a node's features and its aggregated messages, the weight
    matrix given as its two row blocks. -/
def e2nRow (x : (Sh2 20000 64).Idx → EReal) (s : (Sh2 20000 300).Idx → EReal) (wx : (Sh2 64 300).Idx → EReal)
    (ws : (Sh2 300 300).Idx → EReal) (b : (Sh1 300).Idx → EReal) : (Sh2 20000 300).Idx → EReal :=
  fun i => max (((∑ k : Fin 64, x (ix2 (i 0) k) * wx (ix2 k (i 1))) + (∑ k : Fin 300, s (ix2 (i 0) k) * ws (ix2 k (i 1))))
    + b (ix1 (i 1))) zero32

/-- Rows `off … off + n - 1` of a matrix of `N` rows. -/
def rows {N C : Nat} (n off : Nat) (h : off + n ≤ N) (w : (Sh2 N C).Idx → EReal) : (Sh2 n C).Idx → EReal :=
  fun i => w (ix2 ⟨off + (i 0).val, by have hi : (i 0).val < n := (i 0).isLt; omega⟩ (i 1))

/-- Layer `l` of a stack of square matrices, and of a stack of vectors. -/
def layerMat (l : Fin 3) (w : (Sh3 3 300 300).Idx → EReal) : (Sh2 300 300).Idx → EReal := fun i => w (ix3 l (i 0) (i 1))
def layerVec (l : Fin 3) (b : (Sh2 3 300).Idx → EReal) : (Sh1 300).Idx → EReal := fun i => b (ix2 l (i 0))

end Cert.Spec

end
-- ==== Proof.KI.Val0.lean ====
/- The value of region 0 (the edge-initialisation call) over the extended reals. At an output index (p, q) of a block
   the body's payload is the rectified affine image: the sum over the 64 node-feature columns of the first input's
   row p against column q of the first weight block, plus the same over the 16 edge-feature columns against the
   second weight block, plus the bias at q, and the maximum of that with zero. Format changes are the identity.
   Point t of the grid reads rows 3200 t … 3200 t + 3199 of the two row-blocked inputs and the whole of the two
   weight blocks and the bias, and writes rows 3200 t … 3200 t + 3199 of the output; the hundred blocks tile the
   320000 rows, so the output array ends holding the specification's `initRow` of the five input arrays. -/
import proofs.«428334_j59700045414568_2_alg».proof.Proof.KI.Region0
import proofs.«428334_j59700045414568_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.RA
open Idealize.ShloMosaic.Pipeline (Dat)
open scoped BigOperators

/-! ## The two products at an index -/

/-- Row coordinate of the left operand of the 64-column product: the output's row. -/
theorem lhs_mm64_0 (i : S3200x300.Idx) (q : dot_S3200x64_S64x300_S3200x300_1_0_0_1_n_n.contr.Idx) :
    (dot_S3200x64_S64x300_S3200x300_1_0_0_1_n_n.lhsIdx i q 0).val = (i 0).val := by
  unfold DotDims.lhsIdx
  rw [dif_neg (show ¬(0 : Fin S3200x64.rank) ∈ dot_S3200x64_S64x300_S3200x300_1_0_0_1_n_n.lhsBatch by decide), dif_pos (show (0 : Fin S3200x64.rank) ∈ dot_S3200x64_S64x300_S3200x300_1_0_0_1_n_n.lhsNonContracting by decide)]
  rfl
/-- Column coordinate of the left operand: the summation index. -/
theorem lhs_mm64_1 (i : S3200x300.Idx) (q : dot_S3200x64_S64x300_S3200x300_1_0_0_1_n_n.contr.Idx) :
    (dot_S3200x64_S64x300_S3200x300_1_0_0_1_n_n.lhsIdx i q 1).val = (q ⟨0, by decide⟩).val :=
  dot_S3200x64_S64x300_S3200x300_1_0_0_1_n_n.lhsIdx_val_of_single rfl i q
/-- Row coordinate of the right operand: the summation index. -/
theorem rhs_mm64_0 (i : S3200x300.Idx) (q : dot_S3200x64_S64x300_S3200x300_1_0_0_1_n_n.contr.Idx) :
    (dot_S3200x64_S64x300_S3200x300_1_0_0_1_n_n.rhsIdx i q 0).val = (q ⟨0, by decide⟩).val :=
  dot_S3200x64_S64x300_S3200x300_1_0_0_1_n_n.rhsIdx_val_of_single rfl i q
/-- Column coordinate of the right operand: the output's column. -/
theorem rhs_mm64_1 (i : S3200x300.Idx) (q : dot_S3200x64_S64x300_S3200x300_1_0_0_1_n_n.contr.Idx) :
    (dot_S3200x64_S64x300_S3200x300_1_0_0_1_n_n.rhsIdx i q 1).val = (i 1).val := by
  unfold DotDims.rhsIdx
  rw [dif_neg (show ¬(1 : Fin S64x300.rank) ∈ dot_S3200x64_S64x300_S3200x300_1_0_0_1_n_n.rhsBatch by decide), dif_pos (show (1 : Fin S64x300.rank) ∈ dot_S3200x64_S64x300_S3200x300_1_0_0_1_n_n.rhsNonContracting by decide)]
  rfl

/-- The 3200×64 by 64×300 product into the zero accumulator, at (p, q): the sum over the 64 columns. -/
theorem mm64_apply (x : FVec Ideal S3200x64 .bf16) (w : FVec Ideal S64x300 .bf16) (p : Fin 3200) (q : Fin 300) :
    matmul dot_S3200x64_S64x300_S3200x300_1_0_0_1_n_n none x w (constant (F := Ideal) S3200x300 .f32 0x00000000#32) (ix2 p q)
      = ∑ k : Fin 64, x (ix2 p k) * w (ix2 k q) := by
  simp only [matmul]
  rw [Ideal.matmul_constant_zero_apply, ← Equiv.sum_comp (ValueIdx.contrEquiv1 dot_S3200x64_S64x300_S3200x300_1_0_0_1_n_n 64 rfl rfl).symm]
  refine Finset.sum_congr rfl fun k _ => ?_
  have hk := ValueIdx.contrEquiv1_symm_val dot_S3200x64_S64x300_S3200x300_1_0_0_1_n_n 64 rfl rfl k
  have el : dot_S3200x64_S64x300_S3200x300_1_0_0_1_n_n.lhsIdx (ix2 p q) ((ValueIdx.contrEquiv1 dot_S3200x64_S64x300_S3200x300_1_0_0_1_n_n 64 rfl rfl).symm k) = ix2 p k := funext fun a => Fin.ext (by
    match a with
    | ⟨0, _⟩ => exact lhs_mm64_0 _ _
    | ⟨1, _⟩ => exact (lhs_mm64_1 _ _).trans hk)
  have er : dot_S3200x64_S64x300_S3200x300_1_0_0_1_n_n.rhsIdx (ix2 p q) ((ValueIdx.contrEquiv1 dot_S3200x64_S64x300_S3200x300_1_0_0_1_n_n 64 rfl rfl).symm k) = ix2 k q := funext fun a => Fin.ext (by
    match a with
    | ⟨0, _⟩ => exact (rhs_mm64_0 _ _).trans hk
    | ⟨1, _⟩ => exact rhs_mm64_1 _ _)
  rw [el, er]

/-- Row coordinate of the left operand of the 16-column product: the output's row. -/
theorem lhs_mm16_0 (i : S3200x300.Idx) (q : dot_S3200x16_S16x300_S3200x300_1_0_0_1_n_n.contr.Idx) :
    (dot_S3200x16_S16x300_S3200x300_1_0_0_1_n_n.lhsIdx i q 0).val = (i 0).val := by
  unfold DotDims.lhsIdx
  rw [dif_neg (show ¬(0 : Fin S3200x16.rank) ∈ dot_S3200x16_S16x300_S3200x300_1_0_0_1_n_n.lhsBatch by decide), dif_pos (show (0 : Fin S3200x16.rank) ∈ dot_S3200x16_S16x300_S3200x300_1_0_0_1_n_n.lhsNonContracting by decide)]
  rfl
/-- Column coordinate of the left operand: the summation index. -/
theorem lhs_mm16_1 (i : S3200x300.Idx) (q : dot_S3200x16_S16x300_S3200x300_1_0_0_1_n_n.contr.Idx) :
    (dot_S3200x16_S16x300_S3200x300_1_0_0_1_n_n.lhsIdx i q 1).val = (q ⟨0, by decide⟩).val :=
  dot_S3200x16_S16x300_S3200x300_1_0_0_1_n_n.lhsIdx_val_of_single rfl i q
/-- Row coordinate of the right operand: the summation index. -/
theorem rhs_mm16_0 (i : S3200x300.Idx) (q : dot_S3200x16_S16x300_S3200x300_1_0_0_1_n_n.contr.Idx) :
    (dot_S3200x16_S16x300_S3200x300_1_0_0_1_n_n.rhsIdx i q 0).val = (q ⟨0, by decide⟩).val :=
  dot_S3200x16_S16x300_S3200x300_1_0_0_1_n_n.rhsIdx_val_of_single rfl i q
/-- Column coordinate of the right operand: the output's column. -/
theorem rhs_mm16_1 (i : S3200x300.Idx) (q : dot_S3200x16_S16x300_S3200x300_1_0_0_1_n_n.contr.Idx) :
    (dot_S3200x16_S16x300_S3200x300_1_0_0_1_n_n.rhsIdx i q 1).val = (i 1).val := by
  unfold DotDims.rhsIdx
  rw [dif_neg (show ¬(1 : Fin S16x300.rank) ∈ dot_S3200x16_S16x300_S3200x300_1_0_0_1_n_n.rhsBatch by decide), dif_pos (show (1 : Fin S16x300.rank) ∈ dot_S3200x16_S16x300_S3200x300_1_0_0_1_n_n.rhsNonContracting by decide)]
  rfl

/-- The 3200×16 by 16×300 product into the zero accumulator, at (p, q): the sum over the 16 columns. -/
theorem mm16_apply (x : FVec Ideal S3200x16 .bf16) (w : FVec Ideal S16x300 .bf16) (p : Fin 3200) (q : Fin 300) :
    matmul dot_S3200x16_S16x300_S3200x300_1_0_0_1_n_n none x w (constant (F := Ideal) S3200x300 .f32 0x00000000#32) (ix2 p q)
      = ∑ k : Fin 16, x (ix2 p k) * w (ix2 k q) := by
  simp only [matmul]
  rw [Ideal.matmul_constant_zero_apply, ← Equiv.sum_comp (ValueIdx.contrEquiv1 dot_S3200x16_S16x300_S3200x300_1_0_0_1_n_n 16 rfl rfl).symm]
  refine Finset.sum_congr rfl fun k _ => ?_
  have hk := ValueIdx.contrEquiv1_symm_val dot_S3200x16_S16x300_S3200x300_1_0_0_1_n_n 16 rfl rfl k
  have el : dot_S3200x16_S16x300_S3200x300_1_0_0_1_n_n.lhsIdx (ix2 p q) ((ValueIdx.contrEquiv1 dot_S3200x16_S16x300_S3200x300_1_0_0_1_n_n 16 rfl rfl).symm k) = ix2 p k := funext fun a => Fin.ext (by
    match a with
    | ⟨0, _⟩ => exact lhs_mm16_0 _ _
    | ⟨1, _⟩ => exact (lhs_mm16_1 _ _).trans hk)
  have er : dot_S3200x16_S16x300_S3200x300_1_0_0_1_n_n.rhsIdx (ix2 p q) ((ValueIdx.contrEquiv1 dot_S3200x16_S16x300_S3200x300_1_0_0_1_n_n 16 rfl rfl).symm k) = ix2 k q := funext fun a => Fin.ext (by
    match a with
    | ⟨0, _⟩ => exact (rhs_mm16_0 _ _).trans hk
    | ⟨1, _⟩ => exact rhs_mm16_1 _ _)
  rw [el, er]

/-! ## The payload at an index -/

/-- The body's payload at (p, q): both products, the bias at q broadcast down the rows, and the maximum with zero. -/
theorem pay0_apply (x0 : Vec Ideal S3200x64 .bf16) (x1 : Vec Ideal S3200x16 .bf16) (x2 : Vec Ideal S64x300 .f32)
    (x3 : Vec Ideal S16x300 .f32) (x4 : Vec Ideal S300 .f32) (p : Fin 3200) (q : Fin 300) :
    k0_pay1 x0 x1 x2 x3 x4 (ix2 p q)
      = max (((∑ k : Fin 64, x0 (ix2 p k) * x2 (ix2 k q)) + (∑ k : Fin 16, x1 (ix2 p k) * x3 (ix2 k q))) + x4 (ix1 q))
          (Ideal.ofBits .f32 0x00000000#32) := by
  unfold k0_pay1
  simp only [shapeCast_self]
  rw [truncf_apply, maximumf_apply, addf_apply, addf_apply, mm64_apply, mm16_apply, broadcastTo_1b_ab_apply, shapeCast_a_1a_apply,
    broadcast_apply]
  rfl

/-- The payload at (p, q) when the five loaded blocks are row r of the two row-blocked arrays and the whole of the
    two weight blocks and the bias: the specification's edge stage at (r, q). -/
theorem pay0_rows (x0 : Vec Ideal S3200x64 .bf16) (x1 : Vec Ideal S3200x16 .bf16) (x2 : Vec Ideal S64x300 .f32)
    (x3 : Vec Ideal S16x300 .f32) (x4 : Vec Ideal S300 .f32)
    (A0 : S320000x64.Idx → EReal) (A1 : S320000x16.Idx → EReal) (A2 : S64x300.Idx → EReal) (A3 : S16x300.Idx → EReal)
    (A4 : S300.Idx → EReal) (p : Fin 3200) (q : Fin 300) (r : Fin 320000)
    (h0 : ∀ k : Fin 64, x0 (ix2 p k) = A0 (ix2 r k)) (h1 : ∀ k : Fin 16, x1 (ix2 p k) = A1 (ix2 r k))
    (h2 : ∀ k : Fin 64, x2 (ix2 k q) = A2 (ix2 k q)) (h3 : ∀ k : Fin 16, x3 (ix2 k q) = A3 (ix2 k q))
    (h4 : x4 (ix1 q) = A4 (ix1 q)) :
    k0_pay1 x0 x1 x2 x3 x4 (ix2 p q) = Cert.Spec.initRow A0 A1 A2 A3 A4 (ix2 r q) := by
  rw [pay0_apply]
  unfold Cert.Spec.initRow
  simp only [h0, h1, h2, h3, h4]

/-! ## The index maps over the grid -/

variable (V : (c : Dev nD) → (b : Ref sig .tc) → Buf (Elt Ideal) ((c : Thread nD τ).loc b))

theorem zeros2 : (![0, 0] : Fin 2 → Nat) = fun _ => 0 := funext fun a => by
  match a with
  | ⟨0, _⟩ => rfl
  | ⟨1, _⟩ => rfl
theorem zeros1 : (![0] : Fin 1 → Nat) = fun _ => 0 := funext fun a => by
  match a with
  | ⟨0, _⟩ => rfl

/-- The printed index maps, decided over the hundred points: the two row-blocked inputs and the output sit at
    block (t, 0); the two weight blocks and the bias at block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## Each block as rows of its array -/

/-- Point t's block of the gathered node features is rows 3200 t … 3200 t + 3199 of the array. -/
theorem blk0_0_apply (c : Dev nD) (t : Fin cfg0.N) (p : Fin 3200) (k : Fin 64) (r : Fin 320000)
    (hr : r.val = 3200 * t.val + p.val) :
    (iblk0 V c 0 t : Vec Ideal S3200x64 .bf16) (ix2 p k) = (V c main_v5 : S320000x64.Idx → EReal) (ix2 r k) := by
  obtain ⟨e0, e1, -⟩ := idx0 t
  unfold iblk0
  rw [View.read_apply]
  show (V c main_v5 : S320000x64.Idx → EReal) _ = _
  congr 1
  funext a
  apply Fin.ext
  match a with
  | ⟨0, _⟩ => show win0_0.index t (0 : Fin 2) * 3200 + 1 * p.val = r.val; rw [e0, hr]; omega
  | ⟨1, _⟩ => show win0_0.index t (1 : Fin 2) * 64 + 1 * k.val = k.val; rw [e1]; omega

/-- Point t's block of the edge features is rows 3200 t … 3200 t + 3199 of the array. -/
theorem blk0_1_apply (c : Dev nD) (t : Fin cfg0.N) (p : Fin 3200) (k : Fin 16) (r : Fin 320000)
    (hr : r.val = 3200 * t.val + p.val) :
    (iblk0 V c 1 t : Vec Ideal S3200x16 .bf16) (ix2 p k) = (V c main_v6 : S320000x16.Idx → EReal) (ix2 r k) := by
  obtain ⟨-, -, e0, e1, -⟩ := idx0 t
  unfold iblk0
  rw [View.read_apply]
  show (V c main_v6 : S320000x16.Idx → EReal) _ = _
  congr 1
  funext a
  apply Fin.ext
  match a with
  | ⟨0, _⟩ => show win0_1.index t (0 : Fin 2) * 3200 + 1 * p.val = r.val; rw [e0, hr]; omega
  | ⟨1, _⟩ => show win0_1.index t (1 : Fin 2) * 16 + 1 * k.val = k.val; rw [e1]; omega

/-- Every point's block of the first weight block is the whole of it. -/
theorem blk0_2_apply (c : Dev nD) (t : Fin cfg0.N) (k : Fin 64) (q : Fin 300) :
    (iblk0 V c 2 t : Vec Ideal S64x300 .f32) (ix2 k q) = (V c main_v7 : S64x300.Idx → EReal) (ix2 k q) := by
  obtain ⟨-, -, -, -, e0, e1, -⟩ := idx0 t
  unfold iblk0
  rw [View.read_apply]
  show (V c main_v7 : S64x300.Idx → EReal) _ = _
  congr 1
  funext a
  apply Fin.ext
  match a with
  | ⟨0, _⟩ => show win0_2.index t (0 : Fin 2) * 64 + 1 * k.val = k.val; rw [e0]; omega
  | ⟨1, _⟩ => show win0_2.index t (1 : Fin 2) * 300 + 1 * q.val = q.val; rw [e1]; omega

/-- Every point's block of the second weight block is the whole of it. -/
theorem blk0_3_apply (c : Dev nD) (t : Fin cfg0.N) (k : Fin 16) (q : Fin 300) :
    (iblk0 V c 3 t : Vec Ideal S16x300 .f32) (ix2 k q) = (V c main_v8 : S16x300.Idx → EReal) (ix2 k q) := by
  obtain ⟨-, -, -, -, -, -, e0, e1, -⟩ := idx0 t
  unfold iblk0
  rw [View.read_apply]
  show (V c main_v8 : S16x300.Idx → EReal) _ = _
  congr 1
  funext a
  apply Fin.ext
  match a with
  | ⟨0, _⟩ => show win0_3.index t (0 : Fin 2) * 16 + 1 * k.val = k.val; rw [e0]; omega
  | ⟨1, _⟩ => show win0_3.index t (1 : Fin 2) * 300 + 1 * q.val = q.val; rw [e1]; omega

/-- Every point's block of the bias is the whole of it. -/
theorem blk0_4_apply (c : Dev nD) (t : Fin cfg0.N) (q : Fin 300) :
    (iblk0 V c 4 t : Vec Ideal S300 .f32) (ix1 q) = (V c main_arg5 : S300.Idx → EReal) (ix1 q) := by
  obtain ⟨-, -, -, -, -, -, -, -, e0, -⟩ := idx0 t
  unfold iblk0
  rw [View.read_apply]
  show (V c main_arg5 : S300.Idx → EReal) _ = _
  congr 1
  funext a
  apply Fin.ext
  match a with
  | ⟨0, _⟩ => show win0_4.index t (0 : Fin 1) * 300 + 1 * q.val = q.val; rw [e0]; omega

/-- Where point t's output block sits in the array: row 3200 t + p, the same column. -/
theorem emb0_5 (t : Fin cfg0.N) (p : Fin 3200) (q : Fin 300) (r : Fin 320000) (hr : r.val = 3200 * t.val + p.val) :
    (((cfg0.win 5).blk t).view.emb (ix2 p q) : S320000x300.Idx) = ix2 r q := by
  obtain ⟨-, -, -, -, -, -, -, -, -, e0, e1⟩ := idx0 t
  funext a
  apply Fin.ext
  match a with
  | ⟨0, _⟩ => show win0_5.index t (0 : Fin 2) * 3200 + 1 * p.val = r.val; rw [e0, hr]; omega
  | ⟨1, _⟩ => show win0_5.index t (1 : Fin 2) * 300 + 1 * q.val = q.val; rw [e1]; omega

/-! ## What each point writes back, and the array after the last point -/

variable (qq : Fin cfg0.W → PosShare TreeShare)

/-- Point t writes back block t of the specification's edge stage of the five arrays. -/
theorem flushed0_5_eq (c : Dev nD) (t : Fin cfg0.N) :
    (dat0 V qq c).flushed 5 t = ((cfg0.win 5).blk t).view.read (Elt Ideal)
      (Cert.Spec.initRow (V c main_v5) (V c main_v6) (V c main_v7) (V c main_v8) (V c main_arg5)) := by
  show (cfg0.win 5).cut (grid0.coords t) ((dat0 V qq c).after 5 t) = _
  rw [after0_5]
  unfold out0_5
  rw [View.canon_unit_zero zeros2]
  simp only [View.ld_unit_zero (S := S3200x64) zeros2, View.ld_unit_zero (S := S3200x16) zeros2, View.ld_unit_zero (S := S64x300) zeros2,
    View.ld_unit_zero (S := S16x300) zeros2, View.ld_unit_zero (S := S300) zeros1]
  funext j
  obtain ⟨p, q, rfl⟩ : ∃ (p : Fin 3200) (q : Fin 300), j = ix2 p q := ⟨j 0, j 1, eq_ix2 j⟩
  have hN : cfg0.N = 100 := N_0
  have ht : t.val < 100 := hN ▸ t.isLt
  have hrow : 3200 * t.val + p.val < 320000 := by have := p.isLt; omega
  show k0_pay1 (iblk0 V c 0 t) (iblk0 V c 1 t) (iblk0 V c 2 t) (iblk0 V c 3 t) (iblk0 V c 4 t) (ix2 p q)
    = Cert.Spec.initRow (V c main_v5) (V c main_v6) (V c main_v7) (V c main_v8) (V c main_arg5) (((cfg0.win 5).blk t).view.emb (ix2 p q))
  rw [emb0_5 t p q ⟨3200 * t.val + p.val, hrow⟩ rfl]
  exact pay0_rows _ _ _ _ _ _ _ _ _ _ p q ⟨3200 * t.val + p.val, hrow⟩
    (fun k => blk0_0_apply V c t p k _ rfl) (fun k => blk0_1_apply V c t p k _ rfl)
    (fun k => blk0_2_apply V c t k q) (fun k => blk0_3_apply V c t k q) (blk0_4_apply V c t q)

/-- An index of the output array is in point t's block iff each coordinate is in the block's range on its axis. -/
theorem mem_blk0_5 (t : Fin cfg0.N) (i : S320000x300.Idx) :
    i ∈ ((cfg0.win 5).blk t).view.set ↔ ∀ a : Fin 2, win0_5.index t a * S3200x300.size a ≤ (i a).val ∧ (i a).val < win0_5.index t a * S3200x300.size a + S3200x300.size a := by
  show i ∈ ((View.whole main_v9).slice (win0_5.rect t)).set ↔ _
  rw [View.set_slice_whole, Rect.mem_set_unit]
  exact Iff.rfl

/-- The hundred blocks tile the 320000 rows: row r is in the block of point r / 3200. -/
theorem cover0_rows (i : S320000x300.Idx) :
    ∃ t : Fin cfg0.N, (cfg0.win 5).flush t = true ∧ i ∈ ((cfg0.win 5).blk t).view.set := by
  have hN : cfg0.N = 100 := N_0
  have hi0 : (i 0).val < 320000 := (i 0).isLt
  have hi1 : (i 1).val < 300 := (i 1).isLt
  have ht : (i 0).val / 3200 < cfg0.N := by rw [hN]; omega
  refine ⟨⟨(i 0).val / 3200, ht⟩, flush0_5 _, ?_⟩
  obtain ⟨-, -, -, -, -, -, -, -, -, e0, e1⟩ := idx0 ⟨(i 0).val / 3200, ht⟩
  rw [mem_blk0_5]
  intro a
  match a with
  | ⟨0, _⟩ =>
    show win0_5.index ⟨(i 0).val / 3200, ht⟩ (0 : Fin 2) * 3200 ≤ (i 0).val ∧ (i 0).val < win0_5.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win0_5.index ⟨(i 0).val / 3200, ht⟩ (1 : Fin 2) * 300 ≤ (i 1).val ∧ (i 1).val < win0_5.index ⟨(i 0).val / 3200, ht⟩ (1 : Fin 2) * 300 + 300
    rw [e1]; omega

/-- The output array of the edge-initialisation call after its last point: the specification's edge stage of the
    five input arrays as the region finds them. -/
theorem final0 (c : Dev nD) :
    (dat0 V qq c).arrAt 5 cfg0.N = Cert.Spec.initRow (V c main_v5) (V c main_v6) (V c main_v7) (V c main_v8) (V c main_arg5) :=
  (dat0 V qq c).arrAt_eq_of_cover 5 _ (fun t _ => flushed0_5_eq V qq c t) cover0_rows

end Cert.KernelIdeal.Reg

end
-- ==== Proof.KI.Val1.lean ====
/- The value of the first message-passing call, over the extended reals. Its grid has 200 points; at point t the
   three row-blocked inputs (the gathered aggregate, the edge state, the skip input) and the output are at rows
   1600 t … 1600 t + 1599 of their arrays, the layer's 300 x 300 weights and its bias of 300 are held whole. The body
   takes the aggregate's row p less the state's row "mate p" (rows come in pairs 2j, 2j + 1, and the body exchanges
   the two rows of each pair by re-laying 1600 x 300 as 800 x 600, exchanging the two halves of every row, and
   re-laying back), multiplies by the weights, adds the bias and the skip input, and rectifies. A block of 1600 rows
   starts at an even row, so the mate of a row inside a block is its partner in the whole array; the blocks tile the
   array; hence the output array ends at the message-passing step `Cert.Spec.convRow` of the five input arrays. -/
import proofs.«428334_j59700045414568_2_alg».proof.Proof.KI.Region1
import proofs.«428334_j59700045414568_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-- The other row of a row's pair inside a block of 1600 rows: 2j ↔ 2j+1. -/
def mate1 (p : Fin 1600) : Fin 1600 :=
  ⟨if p.val % 2 = 0 then p.val + 1 else p.val - 1, by have := p.isLt; split <;> omega⟩

/-- The pair swap, at an index: re-laid as 800 rows of two halves, the halves exchanged, re-laid back — row p of
    the result is row mate p of the operand. -/
theorem swap1_apply {α : Type} (y : S1600x300.Idx → α) (p : Fin 1600) (q : Fin 300) :
    shapeCast S1600x300 (concatenate S800x600 1 [⟨S800x300, extractStridedSlice S800x300 ![0, 300] (shapeCast S800x600 y shapeCasts_S1600x300_S800x600) slices_S800x600_o0_300_S800x300⟩,
        ⟨S800x300, extractStridedSlice S800x300 ![0, 0] (shapeCast S800x600 y shapeCasts_S1600x300_S800x600) slices_S800x600_o0_0_S800x300⟩] concatenates_S800x300_S800x300_S800x600_d1)
      shapeCasts_S800x600_S1600x300 (ix2 p q) = y (ix2 (mate1 p) q) := by
  have hp := p.isLt
  have hq := q.isLt
  by_cases h : p.val % 2 = 0
  · -- an even row: the left half of the joined row, which is the right half of the re-laid operand
    refine (shapeCast_apply _ shapeCasts_S800x600_S1600x300 (ix2 p q) (ix2 (⟨p.val / 2, by omega⟩ : Fin 800) (⟨q.val, by omega⟩ : Fin 600)) ?_).trans ?_
    · rw [Shape.rowMajor_val_two, Shape.rowMajor_val_two]
      show p.val / 2 * 600 + q.val = p.val * 300 + q.val
      omega
    refine (concatenate_pair_apply_left (1 : Fin S800x600.rank) _ _ concatenates_S800x300_S800x300_S800x600_d1 _ rfl
      (ix2 (⟨p.val / 2, by omega⟩ : Fin 800) q) (fun b => by match b with | ⟨0, _⟩ => rfl | ⟨1, _⟩ => rfl)).trans ?_
    refine (slice2_axis1_apply 300 _ slices_S800x600_o0_300_S800x300 (⟨p.val / 2, by omega⟩ : Fin 800) q (⟨300 + q.val, by omega⟩ : Fin 600) rfl).trans ?_
    refine shapeCast_apply y shapeCasts_S1600x300_S800x600 _ (ix2 (mate1 p) q) ?_
    rw [Shape.rowMajor_val_two, Shape.rowMajor_val_two]
    show (mate1 p).val * 300 + q.val = p.val / 2 * 600 + (300 + q.val)
    unfold mate1
    simp only [h, if_true]
    omega
  · refine (shapeCast_apply _ shapeCasts_S800x600_S1600x300 (ix2 p q) (ix2 (⟨p.val / 2, by omega⟩ : Fin 800) (⟨300 + q.val, by omega⟩ : Fin 600)) ?_).trans ?_
    · rw [Shape.rowMajor_val_two, Shape.rowMajor_val_two]
      show p.val / 2 * 600 + (300 + q.val) = p.val * 300 + q.val
      omega
    refine (concatenate_pair_apply_right (1 : Fin S800x600.rank) _ _ concatenates_S800x300_S800x300_S800x600_d1 _ rfl rfl
      (ix2 (⟨p.val / 2, by omega⟩ : Fin 800) q) (fun b hb => by match b with | ⟨0, _⟩ => rfl | ⟨1, _⟩ => exact absurd rfl hb) ?_).trans ?_
    · show q.val + 300 = 300 + q.val
      omega
    refine (slice2_axis1_apply 0 _ slices_S800x600_o0_0_S800x300 (⟨p.val / 2, by omega⟩ : Fin 800) q (⟨q.val, by omega⟩ : Fin 600) (by show q.val = 0 + q.val; omega)).trans ?_
    refine shapeCast_apply y shapeCasts_S1600x300_S800x600 _ (ix2 (mate1 p) q) ?_
    rw [Shape.rowMajor_val_two, Shape.rowMajor_val_two]
    show (mate1 p).val * 300 + q.val = p.val / 2 * 600 + q.val
    unfold mate1
    simp only [h, if_false]
    omega

/-! The contraction of the body's matrix product, axis by axis: the left operand is read at (row, k), the right at
    (k, column). -/
theorem lhs1_0 (i : S1600x300.Idx) (q : dot_S1600x300_S300x300_S1600x300_1_0_0_1_n_n.contr.Idx) :
    (dot_S1600x300_S300x300_S1600x300_1_0_0_1_n_n.lhsIdx i q 0).val = (i 0).val := by
  unfold DotDims.lhsIdx
  rw [dif_neg (show ¬(0 : Fin S1600x300.rank) ∈ dot_S1600x300_S300x300_S1600x300_1_0_0_1_n_n.lhsBatch by decide), dif_pos (show (0 : Fin S1600x300.rank) ∈ dot_S1600x300_S300x300_S1600x300_1_0_0_1_n_n.lhsNonContracting by decide)]
  rfl
theorem lhs1_1 (i : S1600x300.Idx) (q : dot_S1600x300_S300x300_S1600x300_1_0_0_1_n_n.contr.Idx) :
    (dot_S1600x300_S300x300_S1600x300_1_0_0_1_n_n.lhsIdx i q 1).val = (q ⟨0, by decide⟩).val :=
  dot_S1600x300_S300x300_S1600x300_1_0_0_1_n_n.lhsIdx_val_of_single rfl i q
theorem rhs1_0 (i : S1600x300.Idx) (q : dot_S1600x300_S300x300_S1600x300_1_0_0_1_n_n.contr.Idx) :
    (dot_S1600x300_S300x300_S1600x300_1_0_0_1_n_n.rhsIdx i q 0).val = (q ⟨0, by decide⟩).val :=
  dot_S1600x300_S300x300_S1600x300_1_0_0_1_n_n.rhsIdx_val_of_single rfl i q
theorem rhs1_1 (i : S1600x300.Idx) (q : dot_S1600x300_S300x300_S1600x300_1_0_0_1_n_n.contr.Idx) :
    (dot_S1600x300_S300x300_S1600x300_1_0_0_1_n_n.rhsIdx i q 1).val = (i 1).val := by
  unfold DotDims.rhsIdx
  rw [dif_neg (show ¬(1 : Fin S300x300.rank) ∈ dot_S1600x300_S300x300_S1600x300_1_0_0_1_n_n.rhsBatch by decide), dif_pos (show (1 : Fin S300x300.rank) ∈ dot_S1600x300_S300x300_S1600x300_1_0_0_1_n_n.rhsNonContracting by decide)]
  rfl

/-- The matrix product into a zero accumulator, at an entry: the sum over the 300 inner coordinates of the row's
    entries times the column's. -/
theorem mm1_apply (l : FVec Ideal S1600x300 .bf16) (r : FVec Ideal S300x300 .bf16) (p : Fin 1600) (q : Fin 300) :
    matmul dot_S1600x300_S300x300_S1600x300_1_0_0_1_n_n none l r (constant (F := Ideal) S1600x300 .f32 0x00000000#32) (ix2 p q)
      = ∑ k : Fin 300, l (ix2 p k) * r (ix2 k q) := by
  simp only [matmul]
  rw [Ideal.matmul_constant_zero_apply, ← Equiv.sum_comp (ValueIdx.contrEquiv1 dot_S1600x300_S300x300_S1600x300_1_0_0_1_n_n 300 rfl rfl).symm]
  refine Finset.sum_congr rfl fun k _ => ?_
  have hk := ValueIdx.contrEquiv1_symm_val dot_S1600x300_S300x300_S1600x300_1_0_0_1_n_n 300 rfl rfl k
  have el : dot_S1600x300_S300x300_S1600x300_1_0_0_1_n_n.lhsIdx (ix2 p q) ((ValueIdx.contrEquiv1 dot_S1600x300_S300x300_S1600x300_1_0_0_1_n_n 300 rfl rfl).symm k) = ix2 p k := funext fun a => Fin.ext (by
    match a with
    | ⟨0, _⟩ => exact lhs1_0 _ _
    | ⟨1, _⟩ => exact (lhs1_1 _ _).trans hk)
  have er : dot_S1600x300_S300x300_S1600x300_1_0_0_1_n_n.rhsIdx (ix2 p q) ((ValueIdx.contrEquiv1 dot_S1600x300_S300x300_S1600x300_1_0_0_1_n_n 300 rfl rfl).symm k) = ix2 k q := funext fun a => Fin.ext (by
    match a with
    | ⟨0, _⟩ => exact (rhs1_0 _ _).trans hk
    | ⟨1, _⟩ => exact rhs1_1 _ _)
  rw [el, er]

/-- The bias, a vector of 300, laid as one row and repeated down the 1600 rows: at (p, q) it is the vector at q. -/
theorem bias1_apply {α : Type} (b : S300.Idx → α) (p : Fin 1600) (q : Fin 300) :
    broadcastTo S1600x300 (shapeCast S1x300 b shapeCasts_S300_S1x300) broadcasts_S1x300_S1600x300 (ix2 p q) = b (ix1 q) := by
  refine (broadcastTo_1b_ab_apply _ broadcasts_S1x300_S1600x300 p q).trans ?_
  exact shapeCast_a_1a_apply b shapeCasts_S300_S1x300 (0 : Fin 1) q

/-- THE BODY'S ARITHMETIC AT AN ENTRY (p, q) of the block: the aggregate's row p less the state's row mate p, through
    the weights' column q, plus the bias at q, plus the skip input at (p, q), rectified. -/
theorem pay1_apply (x0 x1 x2 : Vec Ideal S1600x300 .bf16) (x3 : Vec Ideal S300x300 .f32) (x4 : Vec Ideal S300 .f32) (p : Fin 1600) (q : Fin 300) :
    k1_pay1 (F := Ideal) x0 x1 x3 x4 x2 (ix2 p q)
      = max (((∑ k : Fin 300, (x0 (ix2 p k) - x1 (ix2 (mate1 p) k)) * x3 (ix2 k q)) + x4 (ix1 q)) + x2 (ix2 p q)) (Ideal.ofBits .f32 0x00000000#32) := by
  unfold k1_pay1
  simp only [shapeCast_self]
  show max (((matmul dot_S1600x300_S300x300_S1600x300_1_0_0_1_n_n none _ _ (constant (F := Ideal) S1600x300 .f32 0x00000000#32) (ix2 p q)) + _) + x2 (ix2 p q)) _ = _
  rw [mm1_apply, bias1_apply]
  refine congrArg (fun s => max ((s + x4 (ix1 q)) + x2 (ix2 p q)) _) (Finset.sum_congr rfl fun k _ => ?_)
  show (x0 (ix2 p k) - _) * x3 (ix2 k q) = _
  rw [swap1_apply]
  show (x0 (ix2 p k) - shapeCast S1600x300 x1 shapeCasts_S1600x300_S1600x300 (ix2 (mate1 p) k)) * x3 (ix2 k q) = _
  rw [shapeCast_self]

/-- A block of 1600 rows starts at an even row, so the pair of row 1600 T + p is at 1600 T + mate p. -/
theorem partner1_block (T : Nat) (hT : T < 200) (p : Fin 1600) :
    Cert.Spec.partner ⟨1600 * T + p.val, by have := p.isLt; omega⟩ = ⟨1600 * T + (mate1 p).val, by have := (mate1 p).isLt; omega⟩ := by
  apply Fin.ext
  have hp := p.isLt
  unfold Cert.Spec.partner mate1
  dsimp only
  by_cases h : p.val % 2 = 0
  · rw [if_pos (show (1600 * T + p.val) % 2 = 0 by omega), if_pos h]; omega
  · rw [if_neg (show ¬(1600 * T + p.val) % 2 = 0 by omega), if_neg h]; omega

/-- THE BODY AT GRID POINT T IS THE SPECIFICATION ON ROWS 1600 T … 1600 T + 1599: when the three row-blocked inputs
    hold rows 1600 T + p of their arrays and the weights and bias are held whole, the body's value at (p, q) is the
    message-passing step of the arrays at (1600 T + p, q). -/
theorem point1 (ag h h0 : S320000x300.Idx → EReal) (w : S300x300.Idx → EReal) (b : S300.Idx → EReal)
    (x0 x1 x2 : Vec Ideal S1600x300 .bf16) (x3 : Vec Ideal S300x300 .f32) (x4 : Vec Ideal S300 .f32) (T : Nat) (hT : T < 200)
    (e0 : ∀ (p : Fin 1600) (k : Fin 300), x0 (ix2 p k) = ag (ix2 (⟨1600 * T + p.val, by have := p.isLt; omega⟩ : Fin 320000) k))
    (e1 : ∀ (p : Fin 1600) (k : Fin 300), x1 (ix2 p k) = h (ix2 (⟨1600 * T + p.val, by have := p.isLt; omega⟩ : Fin 320000) k))
    (e2 : ∀ (p : Fin 1600) (k : Fin 300), x2 (ix2 p k) = h0 (ix2 (⟨1600 * T + p.val, by have := p.isLt; omega⟩ : Fin 320000) k))
    (e3 : ∀ (k q : Fin 300), x3 (ix2 k q) = w (ix2 k q)) (e4 : ∀ q : Fin 300, x4 (ix1 q) = b (ix1 q))
    (j : S1600x300.Idx) (i : S320000x300.Idx) (hi0 : (i 0).val = 1600 * T + (j 0).val) (hi1 : (i 1).val = (j 1).val) :
    k1_pay1 (F := Ideal) x0 x1 x3 x4 x2 j = Cert.Spec.convRow ag h h0 w b i := by
  obtain ⟨p, q, rfl⟩ : ∃ (p : Fin 1600) (q : Fin 300), j = ix2 p q := ⟨j 0, j 1, eq_ix2 j⟩
  have hb : 1600 * T + p.val < 320000 := by have := p.isLt; omega
  obtain ⟨r, s, rfl⟩ : ∃ (r : Fin 320000) (s : Fin 300), i = ix2 r s := ⟨i 0, i 1, eq_ix2 i⟩
  have hr : r = ⟨1600 * T + p.val, hb⟩ := Fin.ext hi0
  have hs : s = q := Fin.ext hi1
  subst hr hs
  rw [pay1_apply]
  unfold Cert.Spec.convRow
  show max _ _ = max (((∑ k : Fin 300, (ag (ix2 (⟨1600 * T + p.val, _⟩ : Fin 320000) k) - h (ix2 (Cert.Spec.partner ⟨1600 * T + p.val, _⟩) k)) * w (ix2 k s)) + b (ix1 s)) + h0 (ix2 (⟨1600 * T + p.val, _⟩ : Fin 320000) s)) Cert.Spec.zero32
  rw [partner1_block T hT p]
  simp only [e0, e1, e2, e3, e4]

variable (V : (c : Dev nD) → (b : Ref sig .tc) → Buf (Elt Ideal) ((c : Thread nD τ).loc b))
variable (qq : Fin cfg1.W → PosShare TreeShare)

theorem hz1 : (![0, 0] : Fin 2 → Nat) = fun _ => 0 := funext fun a => by fin_cases a <;> rfl
theorem hz1_1 : (![0] : Fin 1 → Nat) = fun _ => 0 := funext fun a => by fin_cases a <;> rfl

/-- The index maps, decided over the 200 grid points: the three row-blocked inputs and the output are at
    block (t, 0) at point t; the weights and the bias are at block 0 throughout. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Window 0's block at point t is rows 1600 t … 1600 t + 1599 of its array. -/
theorem blk1_0 (c : Dev nD) (t : Fin cfg1.N) (p : Fin 1600) (k : Fin 300) :
    (iblk1 V c 0 t : Vec Ideal S1600x300 .bf16) (ix2 p k)
      = (V c (Pipeline.arrRef spec1 0) : S320000x300.Idx → EReal) (ix2 (⟨1600 * t.val + p.val, by have := p.isLt; have := t.isLt; have hN : cfg1.N = 200 := N_1; omega⟩ : Fin 320000) k) := by
  obtain ⟨f0, f1, -⟩ := idx_facts1 t
  unfold iblk1
  rw [View.read_apply]
  refine congrArg (V c (Pipeline.arrRef spec1 0) : S320000x300.Idx → EReal) (funext fun a => Fin.ext ?_)
  match a with
  | ⟨0, _⟩ => show win1_0.index t (0 : Fin 2) * 1600 + 1 * p.val = 1600 * t.val + p.val; rw [f0]; omega
  | ⟨1, _⟩ => show win1_0.index t (1 : Fin 2) * 300 + 1 * k.val = k.val; rw [f1]; omega

/-- Window 1's block at point t is rows 1600 t … 1600 t + 1599 of its array. -/
theorem blk1_1 (c : Dev nD) (t : Fin cfg1.N) (p : Fin 1600) (k : Fin 300) :
    (iblk1 V c 1 t : Vec Ideal S1600x300 .bf16) (ix2 p k)
      = (V c (Pipeline.arrRef spec1 1) : S320000x300.Idx → EReal) (ix2 (⟨1600 * t.val + p.val, by have := p.isLt; have := t.isLt; have hN : cfg1.N = 200 := N_1; omega⟩ : Fin 320000) k) := by
  obtain ⟨-, -, f0, f1, -⟩ := idx_facts1 t
  unfold iblk1
  rw [View.read_apply]
  refine congrArg (V c (Pipeline.arrRef spec1 1) : S320000x300.Idx → EReal) (funext fun a => Fin.ext ?_)
  match a with
  | ⟨0, _⟩ => show win1_1.index t (0 : Fin 2) * 1600 + 1 * p.val = 1600 * t.val + p.val; rw [f0]; omega
  | ⟨1, _⟩ => show win1_1.index t (1 : Fin 2) * 300 + 1 * k.val = k.val; rw [f1]; omega

/-- Window 2's block at point t is rows 1600 t … 1600 t + 1599 of its array. -/
theorem blk1_2 (c : Dev nD) (t : Fin cfg1.N) (p : Fin 1600) (k : Fin 300) :
    (iblk1 V c 2 t : Vec Ideal S1600x300 .bf16) (ix2 p k)
      = (V c (Pipeline.arrRef spec1 2) : S320000x300.Idx → EReal) (ix2 (⟨1600 * t.val + p.val, by have := p.isLt; have := t.isLt; have hN : cfg1.N = 200 := N_1; omega⟩ : Fin 320000) k) := by
  obtain ⟨-, -, -, -, f0, f1, -⟩ := idx_facts1 t
  unfold iblk1
  rw [View.read_apply]
  refine congrArg (V c (Pipeline.arrRef spec1 2) : S320000x300.Idx → EReal) (funext fun a => Fin.ext ?_)
  match a with
  | ⟨0, _⟩ => show win1_2.index t (0 : Fin 2) * 1600 + 1 * p.val = 1600 * t.val + p.val; rw [f0]; omega
  | ⟨1, _⟩ => show win1_2.index t (1 : Fin 2) * 300 + 1 * k.val = k.val; rw [f1]; omega

/-- Window 3's block is its whole array (the weights) at every point. -/
theorem blk1_3 (c : Dev nD) (t : Fin cfg1.N) (k q : Fin 300) :
    (iblk1 V c 3 t : Vec Ideal S300x300 .f32) (ix2 k q) = (V c (Pipeline.arrRef spec1 3) : S300x300.Idx → EReal) (ix2 k q) := by
  obtain ⟨-, -, -, -, -, -, f0, f1, -⟩ := idx_facts1 t
  unfold iblk1
  rw [View.read_apply]
  refine congrArg (V c (Pipeline.arrRef spec1 3) : S300x300.Idx → EReal) (funext fun a => Fin.ext ?_)
  match a with
  | ⟨0, _⟩ => show win1_3.index t (0 : Fin 2) * 300 + 1 * k.val = k.val; rw [f0]; omega
  | ⟨1, _⟩ => show win1_3.index t (1 : Fin 2) * 300 + 1 * q.val = q.val; rw [f1]; omega

/-- Window 4's block is its whole array (the bias) at every point. -/
theorem blk1_4 (c : Dev nD) (t : Fin cfg1.N) (q : Fin 300) :
    (iblk1 V c 4 t : Vec Ideal S300 .f32) (ix1 q) = (V c (Pipeline.arrRef spec1 4) : S300.Idx → EReal) (ix1 q) := by
  obtain ⟨-, -, -, -, -, -, -, -, f0, -⟩ := idx_facts1 t
  unfold iblk1
  rw [View.read_apply]
  refine congrArg (V c (Pipeline.arrRef spec1 4) : S300.Idx → EReal) (funext fun a => Fin.ext ?_)
  match a with
  | ⟨0, _⟩ => show win1_4.index t (0 : Fin 1) * 300 + 1 * q.val = q.val; rw [f0]; omega

/-- WHAT POINT t WRITES BACK is block t of the message-passing step of the five arrays as the region finds them. -/
theorem flushed1_eq (c : Dev nD) (t : Fin cfg1.N) :
    (dat1 (F := Ideal) V qq c).flushed 5 t = ((cfg1.win 5).blk t).view.read (Elt Ideal)
      (Cert.Spec.convRow (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 (F := Ideal) V qq c).after 5 t) = _
  rw [after1_5]
  unfold out1_5
  rw [View.canon_unit_zero hz1]
  simp only [View.ld_unit_zero (S := S1600x300) hz1, View.ld_unit_zero (S := S300x300) hz1, View.ld_unit_zero (S := S300) hz1_1]
  obtain ⟨-, -, -, -, -, -, -, -, -, f0, f1⟩ := idx_facts1 t
  have hN : cfg1.N = 200 := N_1
  funext j
  refine point1 (V c (Pipeline.arrRef spec1 0)) (V c (Pipeline.arrRef spec1 1)) (V c (Pipeline.arrRef spec1 2)) (V c (Pipeline.arrRef spec1 3)) (V c (Pipeline.arrRef spec1 4))
    (iblk1 V c 0 t) (iblk1 V c 1 t) (iblk1 V c 2 t) (iblk1 V c 3 t) (iblk1 V c 4 t) t.val (by have := t.isLt; omega)
    (blk1_0 V c t) (blk1_1 V c t) (blk1_2 V c t) (blk1_3 V c t) (blk1_4 V c t) j (((cfg1.win 5).blk t).view.emb j) ?_ ?_
  · show win1_5.index t (0 : Fin 2) * 1600 + 1 * (j 0).val = 1600 * t.val + (j 0).val
    rw [f0]; omega
  · show win1_5.index t (1 : Fin 2) * 300 + 1 * (j 1).val = (j 1).val
    rw [f1]; omega

/-- An index of the output array is in point t's block iff each coordinate is in the block's range on its axis. -/
theorem mem_blk1 (t : Fin cfg1.N) (i : S320000x300.Idx) :
    i ∈ ((cfg1.win 5).blk t).view.set ↔ ∀ a : Fin 2, win1_5.index t a * S1600x300.size a ≤ (i a).val ∧ (i a).val < win1_5.index t a * S1600x300.size a + S1600x300.size a := by
  show i ∈ ((View.whole (Pipeline.arrRef spec1 5)).slice (win1_5.rect t)).set ↔ _
  rw [View.set_slice_whole, Rect.mem_set_unit]
  exact Iff.rfl

/-- Every row of the output array is in the block of the point r / 1600: the 200 blocks tile the array. -/
theorem cover1 (i : S320000x300.Idx) : ∃ t : Fin cfg1.N, (cfg1.win 5).flush t = true ∧ i ∈ ((cfg1.win 5).blk t).view.set := by
  have hi0 : (i 0).val < 320000 := (i 0).isLt
  have hi1 : (i 1).val < 300 := (i 1).isLt
  have hN : cfg1.N = 200 := N_1
  refine ⟨⟨(i 0).val / 1600, by omega⟩, flush1_5 _, ?_⟩
  obtain ⟨-, -, -, -, -, -, -, -, -, f0, f1⟩ := idx_facts1 ⟨(i 0).val / 1600, by omega⟩
  rw [mem_blk1]
  intro a
  match a with
  | ⟨0, _⟩ =>
    show win1_5.index ⟨(i 0).val / 1600, _⟩ (0 : Fin 2) * 1600 ≤ (i 0).val ∧ (i 0).val < win1_5.index ⟨(i 0).val / 1600, _⟩ (0 : Fin 2) * 1600 + 1600
    rw [f0]; show (i 0).val / 1600 * 1600 ≤ (i 0).val ∧ (i 0).val < (i 0).val / 1600 * 1600 + 1600; omega
  | ⟨1, _⟩ =>
    show win1_5.index ⟨(i 0).val / 1600, _⟩ (1 : Fin 2) * 300 ≤ (i 1).val ∧ (i 1).val < win1_5.index ⟨(i 0).val / 1600, _⟩ (1 : Fin 2) * 300 + 300
    rw [f1]; omega

/-- THE OUTPUT ARRAY AFTER THE REGION is the message-passing step of the five input arrays as the region finds them:
    the gathered aggregate, the edge state, the skip input, the layer's weights and bias. -/
theorem final1 (c : Dev nD) :
    (dat1 (F := Ideal) V qq c).arrAt 5 cfg1.N = Cert.Spec.convRow (V c (Pipeline.arrRef spec1 0)) (V c (Pipeline.arrRef spec1 1)) (V c (Pipeline.arrRef spec1 2)) (V c (Pipeline.arrRef spec1 3)) (V c (Pipeline.arrRef spec1 4)) :=
  (dat1 (F := Ideal) V qq c).arrAt_eq_of_cover 5 _ (fun t _ => flushed1_eq V qq c t) cover1

end Cert.KernelIdeal.Reg

end
-- ==== Proof.KI.Val2.lean ====
/- The value of the second message-passing call, over the extended reals. Its grid has 200 points; at point t the
   three row-blocked inputs (the gathered aggregate, the edge state, the skip input) and the output are at rows
   1600 t … 1600 t + 1599 of their arrays, the layer's 300 x 300 weights and its bias of 300 are held whole. The body
   takes the aggregate's row p less the state's row "mate p" (rows come in pairs 2j, 2j + 1, and the body exchanges
   the two rows of each pair by re-laying 1600 x 300 as 800 x 600, exchanging the two halves of every row, and
   re-laying back), multiplies by the weights, adds the bias and the skip input, and rectifies. A block of 1600 rows
   starts at an even row, so the mate of a row inside a block is its partner in the whole array; the blocks tile the
   array; hence the output array ends at the message-passing step `Cert.Spec.convRow` of the five input arrays. -/
import proofs.«428334_j59700045414568_2_alg».proof.Proof.KI.Region2
import proofs.«428334_j59700045414568_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-- The other row of a row's pair inside a block of 1600 rows: 2j ↔ 2j+1. -/
def mate2 (p : Fin 1600) : Fin 1600 :=
  ⟨if p.val % 2 = 0 then p.val + 1 else p.val - 1, by have := p.isLt; split <;> omega⟩

/-- The pair swap, at an index: re-laid as 800 rows of two halves, the halves exchanged, re-laid back — row p of
    the result is row mate p of the operand. -/
theorem swap2_apply {α : Type} (y : S1600x300.Idx → α) (p : Fin 1600) (q : Fin 300) :
    shapeCast S1600x300 (concatenate S800x600 1 [⟨S800x300, extractStridedSlice S800x300 ![0, 300] (shapeCast S800x600 y shapeCasts_S1600x300_S800x600) slices_S800x600_o0_300_S800x300⟩,
        ⟨S800x300, extractStridedSlice S800x300 ![0, 0] (shapeCast S800x600 y shapeCasts_S1600x300_S800x600) slices_S800x600_o0_0_S800x300⟩] concatenates_S800x300_S800x300_S800x600_d1)
      shapeCasts_S800x600_S1600x300 (ix2 p q) = y (ix2 (mate2 p) q) := by
  have hp := p.isLt
  have hq := q.isLt
  by_cases h : p.val % 2 = 0
  · -- an even row: the left half of the joined row, which is the right half of the re-laid operand
    refine (shapeCast_apply _ shapeCasts_S800x600_S1600x300 (ix2 p q) (ix2 (⟨p.val / 2, by omega⟩ : Fin 800) (⟨q.val, by omega⟩ : Fin 600)) ?_).trans ?_
    · rw [Shape.rowMajor_val_two, Shape.rowMajor_val_two]
      show p.val / 2 * 600 + q.val = p.val * 300 + q.val
      omega
    refine (concatenate_pair_apply_left (1 : Fin S800x600.rank) _ _ concatenates_S800x300_S800x300_S800x600_d1 _ rfl
      (ix2 (⟨p.val / 2, by omega⟩ : Fin 800) q) (fun b => by match b with | ⟨0, _⟩ => rfl | ⟨1, _⟩ => rfl)).trans ?_
    refine (slice2_axis1_apply 300 _ slices_S800x600_o0_300_S800x300 (⟨p.val / 2, by omega⟩ : Fin 800) q (⟨300 + q.val, by omega⟩ : Fin 600) rfl).trans ?_
    refine shapeCast_apply y shapeCasts_S1600x300_S800x600 _ (ix2 (mate2 p) q) ?_
    rw [Shape.rowMajor_val_two, Shape.rowMajor_val_two]
    show (mate2 p).val * 300 + q.val = p.val / 2 * 600 + (300 + q.val)
    unfold mate2
    simp only [h, if_true]
    omega
  · refine (shapeCast_apply _ shapeCasts_S800x600_S1600x300 (ix2 p q) (ix2 (⟨p.val / 2, by omega⟩ : Fin 800) (⟨300 + q.val, by omega⟩ : Fin 600)) ?_).trans ?_
    · rw [Shape.rowMajor_val_two, Shape.rowMajor_val_two]
      show p.val / 2 * 600 + (300 + q.val) = p.val * 300 + q.val
      omega
    refine (concatenate_pair_apply_right (1 : Fin S800x600.rank) _ _ concatenates_S800x300_S800x300_S800x600_d1 _ rfl rfl
      (ix2 (⟨p.val / 2, by omega⟩ : Fin 800) q) (fun b hb => by match b with | ⟨0, _⟩ => rfl | ⟨1, _⟩ => exact absurd rfl hb) ?_).trans ?_
    · show q.val + 300 = 300 + q.val
      omega
    refine (slice2_axis1_apply 0 _ slices_S800x600_o0_0_S800x300 (⟨p.val / 2, by omega⟩ : Fin 800) q (⟨q.val, by omega⟩ : Fin 600) (by show q.val = 0 + q.val; omega)).trans ?_
    refine shapeCast_apply y shapeCasts_S1600x300_S800x600 _ (ix2 (mate2 p) q) ?_
    rw [Shape.rowMajor_val_two, Shape.rowMajor_val_two]
    show (mate2 p).val * 300 + q.val = p.val / 2 * 600 + q.val
    unfold mate2
    simp only [h, if_false]
    omega

/-! The contraction of the body's matrix product, axis by axis: the left operand is read at (row, k), the right at
    (k, column). -/
theorem lhs2_0 (i : S1600x300.Idx) (q : dot_S1600x300_S300x300_S1600x300_1_0_0_1_n_n.contr.Idx) :
    (dot_S1600x300_S300x300_S1600x300_1_0_0_1_n_n.lhsIdx i q 0).val = (i 0).val := by
  unfold DotDims.lhsIdx
  rw [dif_neg (show ¬(0 : Fin S1600x300.rank) ∈ dot_S1600x300_S300x300_S1600x300_1_0_0_1_n_n.lhsBatch by decide), dif_pos (show (0 : Fin S1600x300.rank) ∈ dot_S1600x300_S300x300_S1600x300_1_0_0_1_n_n.lhsNonContracting by decide)]
  rfl
theorem lhs2_1 (i : S1600x300.Idx) (q : dot_S1600x300_S300x300_S1600x300_1_0_0_1_n_n.contr.Idx) :
    (dot_S1600x300_S300x300_S1600x300_1_0_0_1_n_n.lhsIdx i q 1).val = (q ⟨0, by decide⟩).val :=
  dot_S1600x300_S300x300_S1600x300_1_0_0_1_n_n.lhsIdx_val_of_single rfl i q
theorem rhs2_0 (i : S1600x300.Idx) (q : dot_S1600x300_S300x300_S1600x300_1_0_0_1_n_n.contr.Idx) :
    (dot_S1600x300_S300x300_S1600x300_1_0_0_1_n_n.rhsIdx i q 0).val = (q ⟨0, by decide⟩).val :=
  dot_S1600x300_S300x300_S1600x300_1_0_0_1_n_n.rhsIdx_val_of_single rfl i q
theorem rhs2_1 (i : S1600x300.Idx) (q : dot_S1600x300_S300x300_S1600x300_1_0_0_1_n_n.contr.Idx) :
    (dot_S1600x300_S300x300_S1600x300_1_0_0_1_n_n.rhsIdx i q 1).val = (i 1).val := by
  unfold DotDims.rhsIdx
  rw [dif_neg (show ¬(1 : Fin S300x300.rank) ∈ dot_S1600x300_S300x300_S1600x300_1_0_0_1_n_n.rhsBatch by decide), dif_pos (show (1 : Fin S300x300.rank) ∈ dot_S1600x300_S300x300_S1600x300_1_0_0_1_n_n.rhsNonContracting by decide)]
  rfl

/-- The matrix product into a zero accumulator, at an entry: the sum over the 300 inner coordinates of the row's
    entries times the column's. -/
theorem mm2_apply (l : FVec Ideal S1600x300 .bf16) (r : FVec Ideal S300x300 .bf16) (p : Fin 1600) (q : Fin 300) :
    matmul dot_S1600x300_S300x300_S1600x300_1_0_0_1_n_n none l r (constant (F := Ideal) S1600x300 .f32 0x00000000#32) (ix2 p q)
      = ∑ k : Fin 300, l (ix2 p k) * r (ix2 k q) := by
  simp only [matmul]
  rw [Ideal.matmul_constant_zero_apply, ← Equiv.sum_comp (ValueIdx.contrEquiv1 dot_S1600x300_S300x300_S1600x300_1_0_0_1_n_n 300 rfl rfl).symm]
  refine Finset.sum_congr rfl fun k _ => ?_
  have hk := ValueIdx.contrEquiv1_symm_val dot_S1600x300_S300x300_S1600x300_1_0_0_1_n_n 300 rfl rfl k
  have el : dot_S1600x300_S300x300_S1600x300_1_0_0_1_n_n.lhsIdx (ix2 p q) ((ValueIdx.contrEquiv1 dot_S1600x300_S300x300_S1600x300_1_0_0_1_n_n 300 rfl rfl).symm k) = ix2 p k := funext fun a => Fin.ext (by
    match a with
    | ⟨0, _⟩ => exact lhs2_0 _ _
    | ⟨1, _⟩ => exact (lhs2_1 _ _).trans hk)
  have er : dot_S1600x300_S300x300_S1600x300_1_0_0_1_n_n.rhsIdx (ix2 p q) ((ValueIdx.contrEquiv1 dot_S1600x300_S300x300_S1600x300_1_0_0_1_n_n 300 rfl rfl).symm k) = ix2 k q := funext fun a => Fin.ext (by
    match a with
    | ⟨0, _⟩ => exact (rhs2_0 _ _).trans hk
    | ⟨1, _⟩ => exact rhs2_1 _ _)
  rw [el, er]

/-- The bias, a vector of 300, laid as one row and repeated down the 1600 rows: at (p, q) it is the vector at q. -/
theorem bias2_apply {α : Type} (b : S300.Idx → α) (p : Fin 1600) (q : Fin 300) :
    broadcastTo S1600x300 (shapeCast S1x300 b shapeCasts_S300_S1x300) broadcasts_S1x300_S1600x300 (ix2 p q) = b (ix1 q) := by
  refine (broadcastTo_1b_ab_apply _ broadcasts_S1x300_S1600x300 p q).trans ?_
  exact shapeCast_a_1a_apply b shapeCasts_S300_S1x300 (0 : Fin 1) q

/-- THE BODY'S ARITHMETIC AT AN ENTRY (p, q) of the block: the aggregate's row p less the state's row mate p, through
    the weights' column q, plus the bias at q, plus the skip input at (p, q), rectified. -/
theorem pay2_apply (x0 x1 x2 : Vec Ideal S1600x300 .bf16) (x3 : Vec Ideal S300x300 .f32) (x4 : Vec Ideal S300 .f32) (p : Fin 1600) (q : Fin 300) :
    k2_pay1 (F := Ideal) x0 x1 x3 x4 x2 (ix2 p q)
      = max (((∑ k : Fin 300, (x0 (ix2 p k) - x1 (ix2 (mate2 p) k)) * x3 (ix2 k q)) + x4 (ix1 q)) + x2 (ix2 p q)) (Ideal.ofBits .f32 0x00000000#32) := by
  unfold k2_pay1
  simp only [shapeCast_self]
  show max (((matmul dot_S1600x300_S300x300_S1600x300_1_0_0_1_n_n none _ _ (constant (F := Ideal) S1600x300 .f32 0x00000000#32) (ix2 p q)) + _) + x2 (ix2 p q)) _ = _
  rw [mm2_apply, bias2_apply]
  refine congrArg (fun s => max ((s + x4 (ix1 q)) + x2 (ix2 p q)) _) (Finset.sum_congr rfl fun k _ => ?_)
  show (x0 (ix2 p k) - _) * x3 (ix2 k q) = _
  rw [swap2_apply]
  show (x0 (ix2 p k) - shapeCast S1600x300 x1 shapeCasts_S1600x300_S1600x300 (ix2 (mate2 p) k)) * x3 (ix2 k q) = _
  rw [shapeCast_self]

/-- A block of 1600 rows starts at an even row, so the pair of row 1600 T + p is at 1600 T + mate p. -/
theorem partner2_block (T : Nat) (hT : T < 200) (p : Fin 1600) :
    Cert.Spec.partner ⟨1600 * T + p.val, by have := p.isLt; omega⟩ = ⟨1600 * T + (mate2 p).val, by have := (mate2 p).isLt; omega⟩ := by
  apply Fin.ext
  have hp := p.isLt
  unfold Cert.Spec.partner mate2
  dsimp only
  by_cases h : p.val % 2 = 0
  · rw [if_pos (show (1600 * T + p.val) % 2 = 0 by omega), if_pos h]; omega
  · rw [if_neg (show ¬(1600 * T + p.val) % 2 = 0 by omega), if_neg h]; omega

/-- THE BODY AT GRID POINT T IS THE SPECIFICATION ON ROWS 1600 T … 1600 T + 1599: when the three row-blocked inputs
    hold rows 1600 T + p of their arrays and the weights and bias are held whole, the body's value at (p, q) is the
    message-passing step of the arrays at (1600 T + p, q). -/
theorem point2 (ag h h0 : S320000x300.Idx → EReal) (w : S300x300.Idx → EReal) (b : S300.Idx → EReal)
    (x0 x1 x2 : Vec Ideal S1600x300 .bf16) (x3 : Vec Ideal S300x300 .f32) (x4 : Vec Ideal S300 .f32) (T : Nat) (hT : T < 200)
    (e0 : ∀ (p : Fin 1600) (k : Fin 300), x0 (ix2 p k) = ag (ix2 (⟨1600 * T + p.val, by have := p.isLt; omega⟩ : Fin 320000) k))
    (e1 : ∀ (p : Fin 1600) (k : Fin 300), x1 (ix2 p k) = h (ix2 (⟨1600 * T + p.val, by have := p.isLt; omega⟩ : Fin 320000) k))
    (e2 : ∀ (p : Fin 1600) (k : Fin 300), x2 (ix2 p k) = h0 (ix2 (⟨1600 * T + p.val, by have := p.isLt; omega⟩ : Fin 320000) k))
    (e3 : ∀ (k q : Fin 300), x3 (ix2 k q) = w (ix2 k q)) (e4 : ∀ q : Fin 300, x4 (ix1 q) = b (ix1 q))
    (j : S1600x300.Idx) (i : S320000x300.Idx) (hi0 : (i 0).val = 1600 * T + (j 0).val) (hi1 : (i 1).val = (j 1).val) :
    k2_pay1 (F := Ideal) x0 x1 x3 x4 x2 j = Cert.Spec.convRow ag h h0 w b i := by
  obtain ⟨p, q, rfl⟩ : ∃ (p : Fin 1600) (q : Fin 300), j = ix2 p q := ⟨j 0, j 1, eq_ix2 j⟩
  have hb : 1600 * T + p.val < 320000 := by have := p.isLt; omega
  obtain ⟨r, s, rfl⟩ : ∃ (r : Fin 320000) (s : Fin 300), i = ix2 r s := ⟨i 0, i 1, eq_ix2 i⟩
  have hr : r = ⟨1600 * T + p.val, hb⟩ := Fin.ext hi0
  have hs : s = q := Fin.ext hi1
  subst hr hs
  rw [pay2_apply]
  unfold Cert.Spec.convRow
  show max _ _ = max (((∑ k : Fin 300, (ag (ix2 (⟨1600 * T + p.val, _⟩ : Fin 320000) k) - h (ix2 (Cert.Spec.partner ⟨1600 * T + p.val, _⟩) k)) * w (ix2 k s)) + b (ix1 s)) + h0 (ix2 (⟨1600 * T + p.val, _⟩ : Fin 320000) s)) Cert.Spec.zero32
  rw [partner2_block T hT p]
  simp only [e0, e1, e2, e3, e4]

variable (V : (c : Dev nD) → (b : Ref sig .tc) → Buf (Elt Ideal) ((c : Thread nD τ).loc b))
variable (qq : Fin cfg2.W → PosShare TreeShare)

theorem hz2 : (![0, 0] : Fin 2 → Nat) = fun _ => 0 := funext fun a => by fin_cases a <;> rfl
theorem hz2_1 : (![0] : Fin 1 → Nat) = fun _ => 0 := funext fun a => by fin_cases a <;> rfl

/-- The index maps, decided over the 200 grid points: the three row-blocked inputs and the output are at
    block (t, 0) at point t; the weights and the bias are at block 0 throughout. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Window 0's block at point t is rows 1600 t … 1600 t + 1599 of its array. -/
theorem blk2_0 (c : Dev nD) (t : Fin cfg2.N) (p : Fin 1600) (k : Fin 300) :
    (iblk2 V c 0 t : Vec Ideal S1600x300 .bf16) (ix2 p k)
      = (V c (Pipeline.arrRef spec2 0) : S320000x300.Idx → EReal) (ix2 (⟨1600 * t.val + p.val, by have := p.isLt; have := t.isLt; have hN : cfg2.N = 200 := N_2; omega⟩ : Fin 320000) k) := by
  obtain ⟨f0, f1, -⟩ := idx_facts2 t
  unfold iblk2
  rw [View.read_apply]
  refine congrArg (V c (Pipeline.arrRef spec2 0) : S320000x300.Idx → EReal) (funext fun a => Fin.ext ?_)
  match a with
  | ⟨0, _⟩ => show win2_0.index t (0 : Fin 2) * 1600 + 1 * p.val = 1600 * t.val + p.val; rw [f0]; omega
  | ⟨1, _⟩ => show win2_0.index t (1 : Fin 2) * 300 + 1 * k.val = k.val; rw [f1]; omega

/-- Window 1's block at point t is rows 1600 t … 1600 t + 1599 of its array. -/
theorem blk2_1 (c : Dev nD) (t : Fin cfg2.N) (p : Fin 1600) (k : Fin 300) :
    (iblk2 V c 1 t : Vec Ideal S1600x300 .bf16) (ix2 p k)
      = (V c (Pipeline.arrRef spec2 1) : S320000x300.Idx → EReal) (ix2 (⟨1600 * t.val + p.val, by have := p.isLt; have := t.isLt; have hN : cfg2.N = 200 := N_2; omega⟩ : Fin 320000) k) := by
  obtain ⟨-, -, f0, f1, -⟩ := idx_facts2 t
  unfold iblk2
  rw [View.read_apply]
  refine congrArg (V c (Pipeline.arrRef spec2 1) : S320000x300.Idx → EReal) (funext fun a => Fin.ext ?_)
  match a with
  | ⟨0, _⟩ => show win2_1.index t (0 : Fin 2) * 1600 + 1 * p.val = 1600 * t.val + p.val; rw [f0]; omega
  | ⟨1, _⟩ => show win2_1.index t (1 : Fin 2) * 300 + 1 * k.val = k.val; rw [f1]; omega

/-- Window 2's block at point t is rows 1600 t … 1600 t + 1599 of its array. -/
theorem blk2_2 (c : Dev nD) (t : Fin cfg2.N) (p : Fin 1600) (k : Fin 300) :
    (iblk2 V c 2 t : Vec Ideal S1600x300 .bf16) (ix2 p k)
      = (V c (Pipeline.arrRef spec2 2) : S320000x300.Idx → EReal) (ix2 (⟨1600 * t.val + p.val, by have := p.isLt; have := t.isLt; have hN : cfg2.N = 200 := N_2; omega⟩ : Fin 320000) k) := by
  obtain ⟨-, -, -, -, f0, f1, -⟩ := idx_facts2 t
  unfold iblk2
  rw [View.read_apply]
  refine congrArg (V c (Pipeline.arrRef spec2 2) : S320000x300.Idx → EReal) (funext fun a => Fin.ext ?_)
  match a with
  | ⟨0, _⟩ => show win2_2.index t (0 : Fin 2) * 1600 + 1 * p.val = 1600 * t.val + p.val; rw [f0]; omega
  | ⟨1, _⟩ => show win2_2.index t (1 : Fin 2) * 300 + 1 * k.val = k.val; rw [f1]; omega

/-- Window 3's block is its whole array (the weights) at every point. -/
theorem blk2_3 (c : Dev nD) (t : Fin cfg2.N) (k q : Fin 300) :
    (iblk2 V c 3 t : Vec Ideal S300x300 .f32) (ix2 k q) = (V c (Pipeline.arrRef spec2 3) : S300x300.Idx → EReal) (ix2 k q) := by
  obtain ⟨-, -, -, -, -, -, f0, f1, -⟩ := idx_facts2 t
  unfold iblk2
  rw [View.read_apply]
  refine congrArg (V c (Pipeline.arrRef spec2 3) : S300x300.Idx → EReal) (funext fun a => Fin.ext ?_)
  match a with
  | ⟨0, _⟩ => show win2_3.index t (0 : Fin 2) * 300 + 1 * k.val = k.val; rw [f0]; omega
  | ⟨1, _⟩ => show win2_3.index t (1 : Fin 2) * 300 + 1 * q.val = q.val; rw [f1]; omega

/-- Window 4's block is its whole array (the bias) at every point. -/
theorem blk2_4 (c : Dev nD) (t : Fin cfg2.N) (q : Fin 300) :
    (iblk2 V c 4 t : Vec Ideal S300 .f32) (ix1 q) = (V c (Pipeline.arrRef spec2 4) : S300.Idx → EReal) (ix1 q) := by
  obtain ⟨-, -, -, -, -, -, -, -, f0, -⟩ := idx_facts2 t
  unfold iblk2
  rw [View.read_apply]
  refine congrArg (V c (Pipeline.arrRef spec2 4) : S300.Idx → EReal) (funext fun a => Fin.ext ?_)
  match a with
  | ⟨0, _⟩ => show win2_4.index t (0 : Fin 1) * 300 + 1 * q.val = q.val; rw [f0]; omega

/-- WHAT POINT t WRITES BACK is block t of the message-passing step of the five arrays as the region finds them. -/
theorem flushed2_eq (c : Dev nD) (t : Fin cfg2.N) :
    (dat2 (F := Ideal) V qq c).flushed 5 t = ((cfg2.win 5).blk t).view.read (Elt Ideal)
      (Cert.Spec.convRow (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 (F := Ideal) V qq c).after 5 t) = _
  rw [after2_5]
  unfold out2_5
  rw [View.canon_unit_zero hz2]
  simp only [View.ld_unit_zero (S := S1600x300) hz2, View.ld_unit_zero (S := S300x300) hz2, View.ld_unit_zero (S := S300) hz2_1]
  obtain ⟨-, -, -, -, -, -, -, -, -, f0, f1⟩ := idx_facts2 t
  have hN : cfg2.N = 200 := N_2
  funext j
  refine point2 (V c (Pipeline.arrRef spec2 0)) (V c (Pipeline.arrRef spec2 1)) (V c (Pipeline.arrRef spec2 2)) (V c (Pipeline.arrRef spec2 3)) (V c (Pipeline.arrRef spec2 4))
    (iblk2 V c 0 t) (iblk2 V c 1 t) (iblk2 V c 2 t) (iblk2 V c 3 t) (iblk2 V c 4 t) t.val (by have := t.isLt; omega)
    (blk2_0 V c t) (blk2_1 V c t) (blk2_2 V c t) (blk2_3 V c t) (blk2_4 V c t) j (((cfg2.win 5).blk t).view.emb j) ?_ ?_
  · show win2_5.index t (0 : Fin 2) * 1600 + 1 * (j 0).val = 1600 * t.val + (j 0).val
    rw [f0]; omega
  · show win2_5.index t (1 : Fin 2) * 300 + 1 * (j 1).val = (j 1).val
    rw [f1]; omega

/-- An index of the output array is in point t's block iff each coordinate is in the block's range on its axis. -/
theorem mem_blk2 (t : Fin cfg2.N) (i : S320000x300.Idx) :
    i ∈ ((cfg2.win 5).blk t).view.set ↔ ∀ a : Fin 2, win2_5.index t a * S1600x300.size a ≤ (i a).val ∧ (i a).val < win2_5.index t a * S1600x300.size a + S1600x300.size a := by
  show i ∈ ((View.whole (Pipeline.arrRef spec2 5)).slice (win2_5.rect t)).set ↔ _
  rw [View.set_slice_whole, Rect.mem_set_unit]
  exact Iff.rfl

/-- Every row of the output array is in the block of the point r / 1600: the 200 blocks tile the array. -/
theorem cover2 (i : S320000x300.Idx) : ∃ t : Fin cfg2.N, (cfg2.win 5).flush t = true ∧ i ∈ ((cfg2.win 5).blk t).view.set := by
  have hi0 : (i 0).val < 320000 := (i 0).isLt
  have hi1 : (i 1).val < 300 := (i 1).isLt
  have hN : cfg2.N = 200 := N_2
  refine ⟨⟨(i 0).val / 1600, by omega⟩, flush2_5 _, ?_⟩
  obtain ⟨-, -, -, -, -, -, -, -, -, f0, f1⟩ := idx_facts2 ⟨(i 0).val / 1600, by omega⟩
  rw [mem_blk2]
  intro a
  match a with
  | ⟨0, _⟩ =>
    show win2_5.index ⟨(i 0).val / 1600, _⟩ (0 : Fin 2) * 1600 ≤ (i 0).val ∧ (i 0).val < win2_5.index ⟨(i 0).val / 1600, _⟩ (0 : Fin 2) * 1600 + 1600
    rw [f0]; show (i 0).val / 1600 * 1600 ≤ (i 0).val ∧ (i 0).val < (i 0).val / 1600 * 1600 + 1600; omega
  | ⟨1, _⟩ =>
    show win2_5.index ⟨(i 0).val / 1600, _⟩ (1 : Fin 2) * 300 ≤ (i 1).val ∧ (i 1).val < win2_5.index ⟨(i 0).val / 1600, _⟩ (1 : Fin 2) * 300 + 300
    rw [f1]; omega

/-- THE OUTPUT ARRAY AFTER THE REGION is the message-passing step of the five input arrays as the region finds them:
    the gathered aggregate, the edge state, the skip input, the layer's weights and bias. -/
theorem final2 (c : Dev nD) :
    (dat2 (F := Ideal) V qq c).arrAt 5 cfg2.N = Cert.Spec.convRow (V c (Pipeline.arrRef spec2 0)) (V c (Pipeline.arrRef spec2 1)) (V c (Pipeline.arrRef spec2 2)) (V c (Pipeline.arrRef spec2 3)) (V c (Pipeline.arrRef spec2 4)) :=
  (dat2 (F := Ideal) V qq c).arrAt_eq_of_cover 5 _ (fun t _ => flushed2_eq V qq c t) cover2

end Cert.KernelIdeal.Reg

end
-- ==== Proof.KI.Val3.lean ====
/- The value of the third message-passing call, over the extended reals. Its grid has 200 points; at point t the
   three row-blocked inputs (the gathered aggregate, the edge state, the skip input) and the output are at rows
   1600 t … 1600 t + 1599 of their arrays, the layer's 300 x 300 weights and its bias of 300 are held whole. The body
   takes the aggregate's row p less the state's row "mate p" (rows come in pairs 2j, 2j + 1, and the body exchanges
   the two rows of each pair by re-laying 1600 x 300 as 800 x 600, exchanging the two halves of every row, and
   re-laying back), multiplies by the weights, adds the bias and the skip input, and rectifies. A block of 1600 rows
   starts at an even row, so the mate of a row inside a block is its partner in the whole array; the blocks tile the
   array; hence the output array ends at the message-passing step `Cert.Spec.convRow` of the five input arrays. -/
import proofs.«428334_j59700045414568_2_alg».proof.Proof.KI.Region3
import proofs.«428334_j59700045414568_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-- The other row of a row's pair inside a block of 1600 rows: 2j ↔ 2j+1. -/
def mate3 (p : Fin 1600) : Fin 1600 :=
  ⟨if p.val % 2 = 0 then p.val + 1 else p.val - 1, by have := p.isLt; split <;> omega⟩

/-- The pair swap, at an index: re-laid as 800 rows of two halves, the halves exchanged, re-laid back — row p of
    the result is row mate p of the operand. -/
theorem swap3_apply {α : Type} (y : S1600x300.Idx → α) (p : Fin 1600) (q : Fin 300) :
    shapeCast S1600x300 (concatenate S800x600 1 [⟨S800x300, extractStridedSlice S800x300 ![0, 300] (shapeCast S800x600 y shapeCasts_S1600x300_S800x600) slices_S800x600_o0_300_S800x300⟩,
        ⟨S800x300, extractStridedSlice S800x300 ![0, 0] (shapeCast S800x600 y shapeCasts_S1600x300_S800x600) slices_S800x600_o0_0_S800x300⟩] concatenates_S800x300_S800x300_S800x600_d1)
      shapeCasts_S800x600_S1600x300 (ix2 p q) = y (ix2 (mate3 p) q) := by
  have hp := p.isLt
  have hq := q.isLt
  by_cases h : p.val % 2 = 0
  · -- an even row: the left half of the joined row, which is the right half of the re-laid operand
    refine (shapeCast_apply _ shapeCasts_S800x600_S1600x300 (ix2 p q) (ix2 (⟨p.val / 2, by omega⟩ : Fin 800) (⟨q.val, by omega⟩ : Fin 600)) ?_).trans ?_
    · rw [Shape.rowMajor_val_two, Shape.rowMajor_val_two]
      show p.val / 2 * 600 + q.val = p.val * 300 + q.val
      omega
    refine (concatenate_pair_apply_left (1 : Fin S800x600.rank) _ _ concatenates_S800x300_S800x300_S800x600_d1 _ rfl
      (ix2 (⟨p.val / 2, by omega⟩ : Fin 800) q) (fun b => by match b with | ⟨0, _⟩ => rfl | ⟨1, _⟩ => rfl)).trans ?_
    refine (slice2_axis1_apply 300 _ slices_S800x600_o0_300_S800x300 (⟨p.val / 2, by omega⟩ : Fin 800) q (⟨300 + q.val, by omega⟩ : Fin 600) rfl).trans ?_
    refine shapeCast_apply y shapeCasts_S1600x300_S800x600 _ (ix2 (mate3 p) q) ?_
    rw [Shape.rowMajor_val_two, Shape.rowMajor_val_two]
    show (mate3 p).val * 300 + q.val = p.val / 2 * 600 + (300 + q.val)
    unfold mate3
    simp only [h, if_true]
    omega
  · refine (shapeCast_apply _ shapeCasts_S800x600_S1600x300 (ix2 p q) (ix2 (⟨p.val / 2, by omega⟩ : Fin 800) (⟨300 + q.val, by omega⟩ : Fin 600)) ?_).trans ?_
    · rw [Shape.rowMajor_val_two, Shape.rowMajor_val_two]
      show p.val / 2 * 600 + (300 + q.val) = p.val * 300 + q.val
      omega
    refine (concatenate_pair_apply_right (1 : Fin S800x600.rank) _ _ concatenates_S800x300_S800x300_S800x600_d1 _ rfl rfl
      (ix2 (⟨p.val / 2, by omega⟩ : Fin 800) q) (fun b hb => by match b with | ⟨0, _⟩ => rfl | ⟨1, _⟩ => exact absurd rfl hb) ?_).trans ?_
    · show q.val + 300 = 300 + q.val
      omega
    refine (slice2_axis1_apply 0 _ slices_S800x600_o0_0_S800x300 (⟨p.val / 2, by omega⟩ : Fin 800) q (⟨q.val, by omega⟩ : Fin 600) (by show q.val = 0 + q.val; omega)).trans ?_
    refine shapeCast_apply y shapeCasts_S1600x300_S800x600 _ (ix2 (mate3 p) q) ?_
    rw [Shape.rowMajor_val_two, Shape.rowMajor_val_two]
    show (mate3 p).val * 300 + q.val = p.val / 2 * 600 + q.val
    unfold mate3
    simp only [h, if_false]
    omega

/-! The contraction of the body's matrix product, axis by axis: the left operand is read at (row, k), the right at
    (k, column). -/
theorem lhs3_0 (i : S1600x300.Idx) (q : dot_S1600x300_S300x300_S1600x300_1_0_0_1_n_n.contr.Idx) :
    (dot_S1600x300_S300x300_S1600x300_1_0_0_1_n_n.lhsIdx i q 0).val = (i 0).val := by
  unfold DotDims.lhsIdx
  rw [dif_neg (show ¬(0 : Fin S1600x300.rank) ∈ dot_S1600x300_S300x300_S1600x300_1_0_0_1_n_n.lhsBatch by decide), dif_pos (show (0 : Fin S1600x300.rank) ∈ dot_S1600x300_S300x300_S1600x300_1_0_0_1_n_n.lhsNonContracting by decide)]
  rfl
theorem lhs3_1 (i : S1600x300.Idx) (q : dot_S1600x300_S300x300_S1600x300_1_0_0_1_n_n.contr.Idx) :
    (dot_S1600x300_S300x300_S1600x300_1_0_0_1_n_n.lhsIdx i q 1).val = (q ⟨0, by decide⟩).val :=
  dot_S1600x300_S300x300_S1600x300_1_0_0_1_n_n.lhsIdx_val_of_single rfl i q
theorem rhs3_0 (i : S1600x300.Idx) (q : dot_S1600x300_S300x300_S1600x300_1_0_0_1_n_n.contr.Idx) :
    (dot_S1600x300_S300x300_S1600x300_1_0_0_1_n_n.rhsIdx i q 0).val = (q ⟨0, by decide⟩).val :=
  dot_S1600x300_S300x300_S1600x300_1_0_0_1_n_n.rhsIdx_val_of_single rfl i q
theorem rhs3_1 (i : S1600x300.Idx) (q : dot_S1600x300_S300x300_S1600x300_1_0_0_1_n_n.contr.Idx) :
    (dot_S1600x300_S300x300_S1600x300_1_0_0_1_n_n.rhsIdx i q 1).val = (i 1).val := by
  unfold DotDims.rhsIdx
  rw [dif_neg (show ¬(1 : Fin S300x300.rank) ∈ dot_S1600x300_S300x300_S1600x300_1_0_0_1_n_n.rhsBatch by decide), dif_pos (show (1 : Fin S300x300.rank) ∈ dot_S1600x300_S300x300_S1600x300_1_0_0_1_n_n.rhsNonContracting by decide)]
  rfl

/-- The matrix product into a zero accumulator, at an entry: the sum over the 300 inner coordinates of the row's
    entries times the column's. -/
theorem mm3_apply (l : FVec Ideal S1600x300 .bf16) (r : FVec Ideal S300x300 .bf16) (p : Fin 1600) (q : Fin 300) :
    matmul dot_S1600x300_S300x300_S1600x300_1_0_0_1_n_n none l r (constant (F := Ideal) S1600x300 .f32 0x00000000#32) (ix2 p q)
      = ∑ k : Fin 300, l (ix2 p k) * r (ix2 k q) := by
  simp only [matmul]
  rw [Ideal.matmul_constant_zero_apply, ← Equiv.sum_comp (ValueIdx.contrEquiv1 dot_S1600x300_S300x300_S1600x300_1_0_0_1_n_n 300 rfl rfl).symm]
  refine Finset.sum_congr rfl fun k _ => ?_
  have hk := ValueIdx.contrEquiv1_symm_val dot_S1600x300_S300x300_S1600x300_1_0_0_1_n_n 300 rfl rfl k
  have el : dot_S1600x300_S300x300_S1600x300_1_0_0_1_n_n.lhsIdx (ix2 p q) ((ValueIdx.contrEquiv1 dot_S1600x300_S300x300_S1600x300_1_0_0_1_n_n 300 rfl rfl).symm k) = ix2 p k := funext fun a => Fin.ext (by
    match a with
    | ⟨0, _⟩ => exact lhs3_0 _ _
    | ⟨1, _⟩ => exact (lhs3_1 _ _).trans hk)
  have er : dot_S1600x300_S300x300_S1600x300_1_0_0_1_n_n.rhsIdx (ix2 p q) ((ValueIdx.contrEquiv1 dot_S1600x300_S300x300_S1600x300_1_0_0_1_n_n 300 rfl rfl).symm k) = ix2 k q := funext fun a => Fin.ext (by
    match a with
    | ⟨0, _⟩ => exact (rhs3_0 _ _).trans hk
    | ⟨1, _⟩ => exact rhs3_1 _ _)
  rw [el, er]

/-- The bias, a vector of 300, laid as one row and repeated down the 1600 rows: at (p, q) it is the vector at q. -/
theorem bias3_apply {α : Type} (b : S300.Idx → α) (p : Fin 1600) (q : Fin 300) :
    broadcastTo S1600x300 (shapeCast S1x300 b shapeCasts_S300_S1x300) broadcasts_S1x300_S1600x300 (ix2 p q) = b (ix1 q) := by
  refine (broadcastTo_1b_ab_apply _ broadcasts_S1x300_S1600x300 p q).trans ?_
  exact shapeCast_a_1a_apply b shapeCasts_S300_S1x300 (0 : Fin 1) q

/-- THE BODY'S ARITHMETIC AT AN ENTRY (p, q) of the block: the aggregate's row p less the state's row mate p, through
    the weights' column q, plus the bias at q, plus the skip input at (p, q), rectified. -/
theorem pay3_apply (x0 x1 x2 : Vec Ideal S1600x300 .bf16) (x3 : Vec Ideal S300x300 .f32) (x4 : Vec Ideal S300 .f32) (p : Fin 1600) (q : Fin 300) :
    k3_pay1 (F := Ideal) x0 x1 x3 x4 x2 (ix2 p q)
      = max (((∑ k : Fin 300, (x0 (ix2 p k) - x1 (ix2 (mate3 p) k)) * x3 (ix2 k q)) + x4 (ix1 q)) + x2 (ix2 p q)) (Ideal.ofBits .f32 0x00000000#32) := by
  unfold k3_pay1
  simp only [shapeCast_self]
  show max (((matmul dot_S1600x300_S300x300_S1600x300_1_0_0_1_n_n none _ _ (constant (F := Ideal) S1600x300 .f32 0x00000000#32) (ix2 p q)) + _) + x2 (ix2 p q)) _ = _
  rw [mm3_apply, bias3_apply]
  refine congrArg (fun s => max ((s + x4 (ix1 q)) + x2 (ix2 p q)) _) (Finset.sum_congr rfl fun k _ => ?_)
  show (x0 (ix2 p k) - _) * x3 (ix2 k q) = _
  rw [swap3_apply]
  show (x0 (ix2 p k) - shapeCast S1600x300 x1 shapeCasts_S1600x300_S1600x300 (ix2 (mate3 p) k)) * x3 (ix2 k q) = _
  rw [shapeCast_self]

/-- A block of 1600 rows starts at an even row, so the pair of row 1600 T + p is at 1600 T + mate p. -/
theorem partner3_block (T : Nat) (hT : T < 200) (p : Fin 1600) :
    Cert.Spec.partner ⟨1600 * T + p.val, by have := p.isLt; omega⟩ = ⟨1600 * T + (mate3 p).val, by have := (mate3 p).isLt; omega⟩ := by
  apply Fin.ext
  have hp := p.isLt
  unfold Cert.Spec.partner mate3
  dsimp only
  by_cases h : p.val % 2 = 0
  · rw [if_pos (show (1600 * T + p.val) % 2 = 0 by omega), if_pos h]; omega
  · rw [if_neg (show ¬(1600 * T + p.val) % 2 = 0 by omega), if_neg h]; omega

/-- THE BODY AT GRID POINT T IS THE SPECIFICATION ON ROWS 1600 T … 1600 T + 1599: when the three row-blocked inputs
    hold rows 1600 T + p of their arrays and the weights and bias are held whole, the body's value at (p, q) is the
    message-passing step of the arrays at (1600 T + p, q). -/
theorem point3 (ag h h0 : S320000x300.Idx → EReal) (w : S300x300.Idx → EReal) (b : S300.Idx → EReal)
    (x0 x1 x2 : Vec Ideal S1600x300 .bf16) (x3 : Vec Ideal S300x300 .f32) (x4 : Vec Ideal S300 .f32) (T : Nat) (hT : T < 200)
    (e0 : ∀ (p : Fin 1600) (k : Fin 300), x0 (ix2 p k) = ag (ix2 (⟨1600 * T + p.val, by have := p.isLt; omega⟩ : Fin 320000) k))
    (e1 : ∀ (p : Fin 1600) (k : Fin 300), x1 (ix2 p k) = h (ix2 (⟨1600 * T + p.val, by have := p.isLt; omega⟩ : Fin 320000) k))
    (e2 : ∀ (p : Fin 1600) (k : Fin 300), x2 (ix2 p k) = h0 (ix2 (⟨1600 * T + p.val, by have := p.isLt; omega⟩ : Fin 320000) k))
    (e3 : ∀ (k q : Fin 300), x3 (ix2 k q) = w (ix2 k q)) (e4 : ∀ q : Fin 300, x4 (ix1 q) = b (ix1 q))
    (j : S1600x300.Idx) (i : S320000x300.Idx) (hi0 : (i 0).val = 1600 * T + (j 0).val) (hi1 : (i 1).val = (j 1).val) :
    k3_pay1 (F := Ideal) x0 x1 x3 x4 x2 j = Cert.Spec.convRow ag h h0 w b i := by
  obtain ⟨p, q, rfl⟩ : ∃ (p : Fin 1600) (q : Fin 300), j = ix2 p q := ⟨j 0, j 1, eq_ix2 j⟩
  have hb : 1600 * T + p.val < 320000 := by have := p.isLt; omega
  obtain ⟨r, s, rfl⟩ : ∃ (r : Fin 320000) (s : Fin 300), i = ix2 r s := ⟨i 0, i 1, eq_ix2 i⟩
  have hr : r = ⟨1600 * T + p.val, hb⟩ := Fin.ext hi0
  have hs : s = q := Fin.ext hi1
  subst hr hs
  rw [pay3_apply]
  unfold Cert.Spec.convRow
  show max _ _ = max (((∑ k : Fin 300, (ag (ix2 (⟨1600 * T + p.val, _⟩ : Fin 320000) k) - h (ix2 (Cert.Spec.partner ⟨1600 * T + p.val, _⟩) k)) * w (ix2 k s)) + b (ix1 s)) + h0 (ix2 (⟨1600 * T + p.val, _⟩ : Fin 320000) s)) Cert.Spec.zero32
  rw [partner3_block T hT p]
  simp only [e0, e1, e2, e3, e4]

variable (V : (c : Dev nD) → (b : Ref sig .tc) → Buf (Elt Ideal) ((c : Thread nD τ).loc b))
variable (qq : Fin cfg3.W → PosShare TreeShare)

theorem hz3 : (![0, 0] : Fin 2 → Nat) = fun _ => 0 := funext fun a => by fin_cases a <;> rfl
theorem hz3_1 : (![0] : Fin 1 → Nat) = fun _ => 0 := funext fun a => by fin_cases a <;> rfl

/-- The index maps, decided over the 200 grid points: the three row-blocked inputs and the output are at
    block (t, 0) at point t; the weights and the bias are at block 0 throughout. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- Window 0's block at point t is rows 1600 t … 1600 t + 1599 of its array. -/
theorem blk3_0 (c : Dev nD) (t : Fin cfg3.N) (p : Fin 1600) (k : Fin 300) :
    (iblk3 V c 0 t : Vec Ideal S1600x300 .bf16) (ix2 p k)
      = (V c (Pipeline.arrRef spec3 0) : S320000x300.Idx → EReal) (ix2 (⟨1600 * t.val + p.val, by have := p.isLt; have := t.isLt; have hN : cfg3.N = 200 := N_3; omega⟩ : Fin 320000) k) := by
  obtain ⟨f0, f1, -⟩ := idx_facts3 t
  unfold iblk3
  rw [View.read_apply]
  refine congrArg (V c (Pipeline.arrRef spec3 0) : S320000x300.Idx → EReal) (funext fun a => Fin.ext ?_)
  match a with
  | ⟨0, _⟩ => show win3_0.index t (0 : Fin 2) * 1600 + 1 * p.val = 1600 * t.val + p.val; rw [f0]; omega
  | ⟨1, _⟩ => show win3_0.index t (1 : Fin 2) * 300 + 1 * k.val = k.val; rw [f1]; omega

/-- Window 1's block at point t is rows 1600 t … 1600 t + 1599 of its array. -/
theorem blk3_1 (c : Dev nD) (t : Fin cfg3.N) (p : Fin 1600) (k : Fin 300) :
    (iblk3 V c 1 t : Vec Ideal S1600x300 .bf16) (ix2 p k)
      = (V c (Pipeline.arrRef spec3 1) : S320000x300.Idx → EReal) (ix2 (⟨1600 * t.val + p.val, by have := p.isLt; have := t.isLt; have hN : cfg3.N = 200 := N_3; omega⟩ : Fin 320000) k) := by
  obtain ⟨-, -, f0, f1, -⟩ := idx_facts3 t
  unfold iblk3
  rw [View.read_apply]
  refine congrArg (V c (Pipeline.arrRef spec3 1) : S320000x300.Idx → EReal) (funext fun a => Fin.ext ?_)
  match a with
  | ⟨0, _⟩ => show win3_1.index t (0 : Fin 2) * 1600 + 1 * p.val = 1600 * t.val + p.val; rw [f0]; omega
  | ⟨1, _⟩ => show win3_1.index t (1 : Fin 2) * 300 + 1 * k.val = k.val; rw [f1]; omega

/-- Window 2's block at point t is rows 1600 t … 1600 t + 1599 of its array. -/
theorem blk3_2 (c : Dev nD) (t : Fin cfg3.N) (p : Fin 1600) (k : Fin 300) :
    (iblk3 V c 2 t : Vec Ideal S1600x300 .bf16) (ix2 p k)
      = (V c (Pipeline.arrRef spec3 2) : S320000x300.Idx → EReal) (ix2 (⟨1600 * t.val + p.val, by have := p.isLt; have := t.isLt; have hN : cfg3.N = 200 := N_3; omega⟩ : Fin 320000) k) := by
  obtain ⟨-, -, -, -, f0, f1, -⟩ := idx_facts3 t
  unfold iblk3
  rw [View.read_apply]
  refine congrArg (V c (Pipeline.arrRef spec3 2) : S320000x300.Idx → EReal) (funext fun a => Fin.ext ?_)
  match a with
  | ⟨0, _⟩ => show win3_2.index t (0 : Fin 2) * 1600 + 1 * p.val = 1600 * t.val + p.val; rw [f0]; omega
  | ⟨1, _⟩ => show win3_2.index t (1 : Fin 2) * 300 + 1 * k.val = k.val; rw [f1]; omega

/-- Window 3's block is its whole array (the weights) at every point. -/
theorem blk3_3 (c : Dev nD) (t : Fin cfg3.N) (k q : Fin 300) :
    (iblk3 V c 3 t : Vec Ideal S300x300 .f32) (ix2 k q) = (V c (Pipeline.arrRef spec3 3) : S300x300.Idx → EReal) (ix2 k q) := by
  obtain ⟨-, -, -, -, -, -, f0, f1, -⟩ := idx_facts3 t
  unfold iblk3
  rw [View.read_apply]
  refine congrArg (V c (Pipeline.arrRef spec3 3) : S300x300.Idx → EReal) (funext fun a => Fin.ext ?_)
  match a with
  | ⟨0, _⟩ => show win3_3.index t (0 : Fin 2) * 300 + 1 * k.val = k.val; rw [f0]; omega
  | ⟨1, _⟩ => show win3_3.index t (1 : Fin 2) * 300 + 1 * q.val = q.val; rw [f1]; omega

/-- Window 4's block is its whole array (the bias) at every point. -/
theorem blk3_4 (c : Dev nD) (t : Fin cfg3.N) (q : Fin 300) :
    (iblk3 V c 4 t : Vec Ideal S300 .f32) (ix1 q) = (V c (Pipeline.arrRef spec3 4) : S300.Idx → EReal) (ix1 q) := by
  obtain ⟨-, -, -, -, -, -, -, -, f0, -⟩ := idx_facts3 t
  unfold iblk3
  rw [View.read_apply]
  refine congrArg (V c (Pipeline.arrRef spec3 4) : S300.Idx → EReal) (funext fun a => Fin.ext ?_)
  match a with
  | ⟨0, _⟩ => show win3_4.index t (0 : Fin 1) * 300 + 1 * q.val = q.val; rw [f0]; omega

/-- WHAT POINT t WRITES BACK is block t of the message-passing step of the five arrays as the region finds them. -/
theorem flushed3_eq (c : Dev nD) (t : Fin cfg3.N) :
    (dat3 (F := Ideal) V qq c).flushed 5 t = ((cfg3.win 5).blk t).view.read (Elt Ideal)
      (Cert.Spec.convRow (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 (F := Ideal) V qq c).after 5 t) = _
  rw [after3_5]
  unfold out3_5
  rw [View.canon_unit_zero hz3]
  simp only [View.ld_unit_zero (S := S1600x300) hz3, View.ld_unit_zero (S := S300x300) hz3, View.ld_unit_zero (S := S300) hz3_1]
  obtain ⟨-, -, -, -, -, -, -, -, -, f0, f1⟩ := idx_facts3 t
  have hN : cfg3.N = 200 := N_3
  funext j
  refine point3 (V c (Pipeline.arrRef spec3 0)) (V c (Pipeline.arrRef spec3 1)) (V c (Pipeline.arrRef spec3 2)) (V c (Pipeline.arrRef spec3 3)) (V c (Pipeline.arrRef spec3 4))
    (iblk3 V c 0 t) (iblk3 V c 1 t) (iblk3 V c 2 t) (iblk3 V c 3 t) (iblk3 V c 4 t) t.val (by have := t.isLt; omega)
    (blk3_0 V c t) (blk3_1 V c t) (blk3_2 V c t) (blk3_3 V c t) (blk3_4 V c t) j (((cfg3.win 5).blk t).view.emb j) ?_ ?_
  · show win3_5.index t (0 : Fin 2) * 1600 + 1 * (j 0).val = 1600 * t.val + (j 0).val
    rw [f0]; omega
  · show win3_5.index t (1 : Fin 2) * 300 + 1 * (j 1).val = (j 1).val
    rw [f1]; omega

/-- An index of the output array is in point t's block iff each coordinate is in the block's range on its axis. -/
theorem mem_blk3 (t : Fin cfg3.N) (i : S320000x300.Idx) :
    i ∈ ((cfg3.win 5).blk t).view.set ↔ ∀ a : Fin 2, win3_5.index t a * S1600x300.size a ≤ (i a).val ∧ (i a).val < win3_5.index t a * S1600x300.size a + S1600x300.size a := by
  show i ∈ ((View.whole (Pipeline.arrRef spec3 5)).slice (win3_5.rect t)).set ↔ _
  rw [View.set_slice_whole, Rect.mem_set_unit]
  exact Iff.rfl

/-- Every row of the output array is in the block of the point r / 1600: the 200 blocks tile the array. -/
theorem cover3 (i : S320000x300.Idx) : ∃ t : Fin cfg3.N, (cfg3.win 5).flush t = true ∧ i ∈ ((cfg3.win 5).blk t).view.set := by
  have hi0 : (i 0).val < 320000 := (i 0).isLt
  have hi1 : (i 1).val < 300 := (i 1).isLt
  have hN : cfg3.N = 200 := N_3
  refine ⟨⟨(i 0).val / 1600, by omega⟩, flush3_5 _, ?_⟩
  obtain ⟨-, -, -, -, -, -, -, -, -, f0, f1⟩ := idx_facts3 ⟨(i 0).val / 1600, by omega⟩
  rw [mem_blk3]
  intro a
  match a with
  | ⟨0, _⟩ =>
    show win3_5.index ⟨(i 0).val / 1600, _⟩ (0 : Fin 2) * 1600 ≤ (i 0).val ∧ (i 0).val < win3_5.index ⟨(i 0).val / 1600, _⟩ (0 : Fin 2) * 1600 + 1600
    rw [f0]; show (i 0).val / 1600 * 1600 ≤ (i 0).val ∧ (i 0).val < (i 0).val / 1600 * 1600 + 1600; omega
  | ⟨1, _⟩ =>
    show win3_5.index ⟨(i 0).val / 1600, _⟩ (1 : Fin 2) * 300 ≤ (i 1).val ∧ (i 1).val < win3_5.index ⟨(i 0).val / 1600, _⟩ (1 : Fin 2) * 300 + 300
    rw [f1]; omega

/-- THE OUTPUT ARRAY AFTER THE REGION is the message-passing step of the five input arrays as the region finds them:
    the gathered aggregate, the edge state, the skip input, the layer's weights and bias. -/
theorem final3 (c : Dev nD) :
    (dat3 (F := Ideal) V qq c).arrAt 5 cfg3.N = Cert.Spec.convRow (V c (Pipeline.arrRef spec3 0)) (V c (Pipeline.arrRef spec3 1)) (V c (Pipeline.arrRef spec3 2)) (V c (Pipeline.arrRef spec3 3)) (V c (Pipeline.arrRef spec3 4)) :=
  (dat3 (F := Ideal) V qq c).arrAt_eq_of_cover 5 _ (fun t _ => flushed3_eq V qq c t) cover3

end Cert.KernelIdeal.Reg

end
-- ==== Proof.KI.Val4.lean ====
/- The value of the node-update call at the extended reals. For any contents of the core's buffers at the call's entry,
   the output array after the last grid point is the node stage of the specification applied to the five input arrays:
   at row r, column q, the maximum with zero of (sum over the 64 feature columns of x[r,k] wx[k,q]) + (sum over the 300
   message columns of s[r,k] ws[k,q]) + b[q]. The steps: each of the two products into a zero accumulator read at an
   index as its sum over the contracted axis; the stored value at an index of a block; the blocks of the five inputs as
   rows of their arrays (rows 2000 t … 2000 t + 1999 for the two row-blocked ones, the whole array for the weights and
   the bias); what point t writes back; the ten row blocks cover the 20000 rows. -/
import proofs.«428334_j59700045414568_2_alg».proof.Proof.KI.Region4
import proofs.«428334_j59700045414568_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open Idealize.SL Idealize.SL.RA
open scoped BigOperators

/-! ## The two products of the node update, read at an index

Each product contracts the one shared axis: at output index (p, q) the left operand is read at (p, k) and the right
at (k, q), k running over the contracted extent. -/

theorem lhs_nodeFeat_0 (i : S2000x300.Idx) (q : dot_S2000x64_S64x300_S2000x300_1_0_0_1_n_n.contr.Idx) :
    (dot_S2000x64_S64x300_S2000x300_1_0_0_1_n_n.lhsIdx i q 0).val = (i 0).val := by
  unfold DotDims.lhsIdx
  rw [dif_neg (show ¬(0 : Fin S2000x64.rank) ∈ dot_S2000x64_S64x300_S2000x300_1_0_0_1_n_n.lhsBatch by decide), dif_pos (show (0 : Fin S2000x64.rank) ∈ dot_S2000x64_S64x300_S2000x300_1_0_0_1_n_n.lhsNonContracting by decide)]
  rfl
theorem lhs_nodeFeat_1 (i : S2000x300.Idx) (q : dot_S2000x64_S64x300_S2000x300_1_0_0_1_n_n.contr.Idx) :
    (dot_S2000x64_S64x300_S2000x300_1_0_0_1_n_n.lhsIdx i q 1).val = (q ⟨0, by decide⟩).val :=
  dot_S2000x64_S64x300_S2000x300_1_0_0_1_n_n.lhsIdx_val_of_single rfl i q
theorem rhs_nodeFeat_0 (i : S2000x300.Idx) (q : dot_S2000x64_S64x300_S2000x300_1_0_0_1_n_n.contr.Idx) :
    (dot_S2000x64_S64x300_S2000x300_1_0_0_1_n_n.rhsIdx i q 0).val = (q ⟨0, by decide⟩).val :=
  dot_S2000x64_S64x300_S2000x300_1_0_0_1_n_n.rhsIdx_val_of_single rfl i q
theorem rhs_nodeFeat_1 (i : S2000x300.Idx) (q : dot_S2000x64_S64x300_S2000x300_1_0_0_1_n_n.contr.Idx) :
    (dot_S2000x64_S64x300_S2000x300_1_0_0_1_n_n.rhsIdx i q 1).val = (i 1).val := by
  unfold DotDims.rhsIdx
  rw [dif_neg (show ¬(1 : Fin S64x300.rank) ∈ dot_S2000x64_S64x300_S2000x300_1_0_0_1_n_n.rhsBatch by decide), dif_pos (show (1 : Fin S64x300.rank) ∈ dot_S2000x64_S64x300_S2000x300_1_0_0_1_n_n.rhsNonContracting by decide)]
  rfl

/-- The node-feature product into a zero accumulator: the sum over the 64 feature columns. -/
theorem nodeFeat_matmul_apply (a : FVec Ideal S2000x64 .bf16) (b : FVec Ideal S64x300 .bf16) (p : Fin 2000) (q : Fin 300) :
    matmul dot_S2000x64_S64x300_S2000x300_1_0_0_1_n_n none a b (constant S2000x300 .f32 0x00000000#32) (ix2 p q)
      = ∑ k : Fin 64, a (ix2 p k) * b (ix2 k q) := by
  simp only [matmul]
  rw [Ideal.matmul_constant_zero_apply, ← Equiv.sum_comp (ValueIdx.contrEquiv1 dot_S2000x64_S64x300_S2000x300_1_0_0_1_n_n 64 rfl rfl).symm]
  refine Finset.sum_congr rfl fun k _ => ?_
  have hk := ValueIdx.contrEquiv1_symm_val dot_S2000x64_S64x300_S2000x300_1_0_0_1_n_n 64 rfl rfl k
  have el : dot_S2000x64_S64x300_S2000x300_1_0_0_1_n_n.lhsIdx (ix2 p q) ((ValueIdx.contrEquiv1 dot_S2000x64_S64x300_S2000x300_1_0_0_1_n_n 64 rfl rfl).symm k) = ix2 p k := funext fun ax => Fin.ext (by
    match ax with
    | ⟨0, _⟩ => exact lhs_nodeFeat_0 _ _
    | ⟨1, _⟩ => exact (lhs_nodeFeat_1 _ _).trans hk)
  have er : dot_S2000x64_S64x300_S2000x300_1_0_0_1_n_n.rhsIdx (ix2 p q) ((ValueIdx.contrEquiv1 dot_S2000x64_S64x300_S2000x300_1_0_0_1_n_n 64 rfl rfl).symm k) = ix2 k q := funext fun ax => Fin.ext (by
    match ax with
    | ⟨0, _⟩ => exact (rhs_nodeFeat_0 _ _).trans hk
    | ⟨1, _⟩ => exact rhs_nodeFeat_1 _ _)
  rw [el, er]

theorem lhs_nodeAggr_0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide), dif_pos (show (0 : Fin S2000x300.rank) ∈ dot_S2000x300_S300x300_S2000x300_1_0_0_1_n_n.lhsNonContracting by decide)]
  rfl
theorem lhs_nodeAggr_1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q
theorem rhs_nodeAggr_0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q
theorem rhs_nodeAggr_1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide), dif_pos (show (1 : Fin S300x300.rank) ∈ dot_S2000x300_S300x300_S2000x300_1_0_0_1_n_n.rhsNonContracting by decide)]
  rfl

/-- The aggregated-message product into a zero accumulator: the sum over the 300 message columns. -/
theorem nodeAggr_matmul_apply (a : FVec Ideal S2000x300 .bf16) (b : FVec Ideal S300x300 .bf16) (p : Fin 2000) (q : Fin 300) :
    matmul dot_S2000x300_S300x300_S2000x300_1_0_0_1_n_n none a b (constant S2000x300 .f32 0x00000000#32) (ix2 p q)
      = ∑ k : Fin 300, a (ix2 p k) * b (ix2 k q) := by
  simp only [matmul]
  rw [Ideal.matmul_constant_zero_apply, ← Equiv.sum_comp (ValueIdx.contrEquiv1 dot_S2000x300_S300x300_S2000x300_1_0_0_1_n_n 300 rfl rfl).symm]
  refine Finset.sum_congr rfl fun k _ => ?_
  have hk := ValueIdx.contrEquiv1_symm_val dot_S2000x300_S300x300_S2000x300_1_0_0_1_n_n 300 rfl rfl k
  have el : dot_S2000x300_S300x300_S2000x300_1_0_0_1_n_n.lhsIdx (ix2 p q) ((ValueIdx.contrEquiv1 dot_S2000x300_S300x300_S2000x300_1_0_0_1_n_n 300 rfl rfl).symm k) = ix2 p k := funext fun ax => Fin.ext (by
    match ax with
    | ⟨0, _⟩ => exact lhs_nodeAggr_0 _ _
    | ⟨1, _⟩ => exact (lhs_nodeAggr_1 _ _).trans hk)
  have er : dot_S2000x300_S300x300_S2000x300_1_0_0_1_n_n.rhsIdx (ix2 p q) ((ValueIdx.contrEquiv1 dot_S2000x300_S300x300_S2000x300_1_0_0_1_n_n 300 rfl rfl).symm k) = ix2 k q := funext fun ax => Fin.ext (by
    match ax with
    | ⟨0, _⟩ => exact (rhs_nodeAggr_0 _ _).trans hk
    | ⟨1, _⟩ => exact rhs_nodeAggr_1 _ _)
  rw [el, er]

/-! ## The body's arithmetic at an index -/

/-- The stored value at row p, column q of the block: the rectified affine image of row p of the two input blocks. -/
theorem nodeUpdate_payload_apply (x0 : Vec Ideal S2000x64 .f32) (x1 : Vec Ideal S2000x300 .f32) (x2 : Vec Ideal S64x300 .f32)
    (x3 : Vec Ideal S300x300 .f32) (x4 : Vec Ideal S300 .f32) (p : Fin 2000) (q : Fin 300) :
    k4_pay1 x0 x1 x2 x3 x4 (ix2 p q)
      = max (((∑ k : Fin 64, x0 (ix2 p k) * x2 (ix2 k q)) + (∑ k : Fin 300, x1 (ix2 p k) * x3 (ix2 k q))) + x4 (ix1 q))
          (Ideal.ofBits .f32 0x00000000#32) := by
  unfold k4_pay1
  simp only [shapeCast_self]
  rw [maximumf_apply, addf_apply, addf_apply, nodeFeat_matmul_apply, nodeAggr_matmul_apply, broadcastTo_1b_ab_apply,
    shapeCast_a_1a_apply, broadcast_apply]
  rfl

/-! ## The body's arithmetic on a block of rows

If the two row-blocked inputs hold rows of two arrays and the three whole inputs are their arrays, the stored value at
(p, q) is the node update of those arrays at the row p stands for. -/

theorem nodeUpdate_block_apply (x0 : Vec Ideal S2000x64 .f32) (x1 : Vec Ideal S2000x300 .f32) (x2 : Vec Ideal S64x300 .f32)
    (x3 : Vec Ideal S300x300 .f32) (x4 : Vec Ideal S300 .f32)
    (A0 : (Cert.Spec.Sh2 20000 64).Idx → EReal) (A1 : (Cert.Spec.Sh2 20000 300).Idx → EReal)
    (A2 : (Cert.Spec.Sh2 64 300).Idx → EReal) (A3 : (Cert.Spec.Sh2 300 300).Idx → EReal) (A4 : (Cert.Spec.Sh1 300).Idx → EReal)
    (p : Fin 2000) (q : Fin 300) (r : Fin 20000)
    (h0 : ∀ k : Fin 64, x0 (ix2 p k) = A0 (ix2 r k)) (h1 : ∀ k : Fin 300, x1 (ix2 p k) = A1 (ix2 r k))
    (h2 : ∀ (k : Fin 64) (q : Fin 300), x2 (ix2 k q) = A2 (ix2 k q)) (h3 : ∀ (k : Fin 300) (q : Fin 300), x3 (ix2 k q) = A3 (ix2 k q))
    (h4 : ∀ q : Fin 300, x4 (ix1 q) = A4 (ix1 q)) :
    k4_pay1 x0 x1 x2 x3 x4 (ix2 p q) = Cert.Spec.e2nRow A0 A1 A2 A3 A4 (ix2 r q) := by
  rw [nodeUpdate_payload_apply]
  show _ = max (((∑ k : Fin 64, A0 (ix2 r k) * A2 (ix2 k q)) + (∑ k : Fin 300, A1 (ix2 r k) * A3 (ix2 k q))) + A4 (ix1 q)) (Ideal.ofBits .f32 0x00000000#32)
  have s0 : (∑ k : Fin 64, x0 (ix2 p k) * x2 (ix2 k q)) = ∑ k : Fin 64, A0 (ix2 r k) * A2 (ix2 k q) :=
    Finset.sum_congr rfl fun k _ => by rw [h0 k, h2 k q]
  have s1 : (∑ k : Fin 300, x1 (ix2 p k) * x3 (ix2 k q)) = ∑ k : Fin 300, A1 (ix2 r k) * A3 (ix2 k q) :=
    Finset.sum_congr rfl fun k _ => by rw [h1 k, h3 k q]
  rw [s0, s1, h4]

/-! ## Where each window's block sits -/

variable (V : (c : Dev nD) → (b : Ref sig .tc) → Buf (Elt Ideal) ((c : Thread nD τ).loc b))
variable (qq : Fin cfg4.W → PosShare TreeShare)

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the two row-blocked inputs and the output sit at block row t, column block 0;
    the three whole inputs at block 0. -/
theorem blockIndex4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- Row p of the node-feature block at point t is row 2000 t + p of the node features. -/
theorem nodeFeatBlock_apply (c : Dev nD) (t : Fin cfg4.N) (p : Fin 2000) (k : Fin 64) (r : Fin 20000) (hr : r.val = 2000 * t.val + p.val) :
    (iblk4 V c 0 t : Vec Ideal S2000x64 .f32) (ix2 p k) = (V c main_arg0 : (Cert.Spec.Sh2 20000 64).Idx → EReal) (ix2 r k) := by
  obtain ⟨e00, e01, -⟩ := blockIndex4 t
  unfold iblk4
  rw [View.read_apply]
  show V c main_arg0 _ = V c main_arg0 _
  congr 1
  funext a
  apply Fin.ext
  match a with
  | ⟨0, _⟩ => show win4_0.index t (0 : Fin 2) * 2000 + 1 * p.val = r.val; rw [e00, hr]; omega
  | ⟨1, _⟩ => show win4_0.index t (1 : Fin 2) * 64 + 1 * k.val = k.val; rw [e01]; omega

/-- Row p of the aggregated-message block at point t is row 2000 t + p of the aggregated messages. -/
theorem nodeAggrBlock_apply (c : Dev nD) (t : Fin cfg4.N) (p : Fin 2000) (k : Fin 300) (r : Fin 20000) (hr : r.val = 2000 * t.val + p.val) :
    (iblk4 V c 1 t : Vec Ideal S2000x300 .f32) (ix2 p k) = (V c main_v46 : (Cert.Spec.Sh2 20000 300).Idx → EReal) (ix2 r k) := by
  obtain ⟨-, -, e10, e11, -⟩ := blockIndex4 t
  unfold iblk4
  rw [View.read_apply]
  show V c main_v46 _ = V c main_v46 _
  congr 1
  funext a
  apply Fin.ext
  match a with
  | ⟨0, _⟩ => show win4_1.index t (0 : Fin 2) * 2000 + 1 * p.val = r.val; rw [e10, hr]; omega
  | ⟨1, _⟩ => show win4_1.index t (1 : Fin 2) * 300 + 1 * k.val = k.val; rw [e11]; omega

/-- The node-feature weight block is the whole matrix at every point. -/
theorem featWeightBlock_apply (c : Dev nD) (t : Fin cfg4.N) (k : Fin 64) (q : Fin 300) :
    (iblk4 V c 2 t : Vec Ideal S64x300 .f32) (ix2 k q) = (V c main_v47 : (Cert.Spec.Sh2 64 300).Idx → EReal) (ix2 k q) := by
  obtain ⟨-, -, -, -, e20, e21, -⟩ := blockIndex4 t
  unfold iblk4
  rw [View.read_apply]
  show V c main_v47 _ = V c main_v47 _
  congr 1
  funext a
  apply Fin.ext
  match a with
  | ⟨0, _⟩ => show win4_2.index t (0 : Fin 2) * 64 + 1 * k.val = k.val; rw [e20]; omega
  | ⟨1, _⟩ => show win4_2.index t (1 : Fin 2) * 300 + 1 * q.val = q.val; rw [e21]; omega

/-- The message weight block is the whole matrix at every point. -/
theorem aggrWeightBlock_apply (c : Dev nD) (t : Fin cfg4.N) (k : Fin 300) (q : Fin 300) :
    (iblk4 V c 3 t : Vec Ideal S300x300 .f32) (ix2 k q) = (V c main_v48 : (Cert.Spec.Sh2 300 300).Idx → EReal) (ix2 k q) := by
  obtain ⟨-, -, -, -, -, -, e30, e31, -⟩ := blockIndex4 t
  unfold iblk4
  rw [View.read_apply]
  show V c main_v48 _ = V c main_v48 _
  congr 1
  funext a
  apply Fin.ext
  match a with
  | ⟨0, _⟩ => show win4_3.index t (0 : Fin 2) * 300 + 1 * k.val = k.val; rw [e30]; omega
  | ⟨1, _⟩ => show win4_3.index t (1 : Fin 2) * 300 + 1 * q.val = q.val; rw [e31]; omega

/-- The bias block is the whole vector at every point. -/
theorem biasBlock_apply (c : Dev nD) (t : Fin cfg4.N) (q : Fin 300) :
    (iblk4 V c 4 t : Vec Ideal S300 .f32) (ix1 q) = (V c main_arg9 : (Cert.Spec.Sh1 300).Idx → EReal) (ix1 q) := by
  obtain ⟨-, -, -, -, -, -, -, -, e40, -⟩ := blockIndex4 t
  unfold iblk4
  rw [View.read_apply]
  show V c main_arg9 _ = V c main_arg9 _
  congr 1
  funext a
  apply Fin.ext
  match a with
  | ⟨0, _⟩ => show win4_4.index t (0 : Fin 1) * 300 + 1 * q.val = q.val; rw [e40]; omega

/-! ## What each point writes back, and the array after the last point -/

/-- Point t writes back block t of the node update of the arrays as the region finds them. -/
theorem flushed4_eq (c : Dev nD) (t : Fin cfg4.N) :
    (dat4 V qq c).flushed 5 t = ((cfg4.win 5).blk t).view.read (Elt Ideal)
      (Cert.Spec.e2nRow (V c main_arg0) (V c main_v46) (V c main_v47) (V c main_v48) (V c main_arg9)) := by
  show (cfg4.win 5).cut (grid4.coords t) ((dat4 V qq c).after 5 t) = _
  rw [after4_5]
  unfold out4_5
  rw [View.canon_unit_zero zero2]
  simp only [View.ld_unit_zero (S := S2000x64) zero2, View.ld_unit_zero (S := S2000x300) zero2, View.ld_unit_zero (S := S64x300) zero2,
    View.ld_unit_zero (S := S300x300) zero2, View.ld_unit_zero (S := S300) zero1]
  funext j
  have hj0 : (j 0).val < 2000 := (j 0).isLt
  have hj1 : (j 1).val < 300 := (j 1).isLt
  have ht : t.val < 10 := Nat.lt_of_lt_of_eq t.isLt N_4
  obtain ⟨-, -, -, -, -, -, -, -, -, e50, e51⟩ := blockIndex4 t
  have hx : (cfg4.win 5).xinj (grid4.coords t) j = ix2 (⟨(j 0).val, hj0⟩ : Fin 2000) (⟨(j 1).val, hj1⟩ : Fin 300) :=
    funext fun a => by match a with | ⟨0, _⟩ => rfl | ⟨1, _⟩ => rfl
  have he : ((cfg4.win 5).blk t).view.emb j = ix2 (⟨2000 * t.val + (j 0).val, by omega⟩ : Fin 20000) (⟨(j 1).val, hj1⟩ : Fin 300) :=
    funext fun a => Fin.ext (by
      match a with
      | ⟨0, _⟩ => show win4_5.index t (0 : Fin 2) * 2000 + 1 * (j 0).val = 2000 * t.val + (j 0).val; rw [e50]; omega
      | ⟨1, _⟩ => show win4_5.index t (1 : Fin 2) * 300 + 1 * (j 1).val = (j 1).val; rw [e51]; omega)
  rw [View.read_apply]
  show k4_pay1 (iblk4 V c 0 t) (iblk4 V c 1 t) (iblk4 V c 2 t) (iblk4 V c 3 t) (iblk4 V c 4 t) ((cfg4.win 5).xinj (grid4.coords t) j)
    = Cert.Spec.e2nRow (V c main_arg0) (V c main_v46) (V c main_v47) (V c main_v48) (V c main_arg9) (((cfg4.win 5).blk t).view.emb j)
  rw [hx, he]
  exact nodeUpdate_block_apply (iblk4 V c 0 t) (iblk4 V c 1 t) (iblk4 V c 2 t) (iblk4 V c 3 t) (iblk4 V c 4 t)
    (V c main_arg0) (V c main_v46) (V c main_v47) (V c main_v48) (V c main_arg9)
    ⟨(j 0).val, hj0⟩ ⟨(j 1).val, hj1⟩ ⟨2000 * t.val + (j 0).val, by omega⟩
    (fun k => nodeFeatBlock_apply V c t ⟨(j 0).val, hj0⟩ k ⟨2000 * t.val + (j 0).val, by omega⟩ rfl)
    (fun k => nodeAggrBlock_apply V c t ⟨(j 0).val, hj0⟩ k ⟨2000 * t.val + (j 0).val, by omega⟩ rfl)
    (fun k q => featWeightBlock_apply V c t k q) (fun k q => aggrWeightBlock_apply V c t k q) (fun q => biasBlock_apply V c t q)

/-- A row of the output array is in point t's block iff each coordinate is in the block's range on its axis. -/
theorem mem_block4 (t : Fin cfg4.N) (i : S20000x300.Idx) :
    i ∈ ((cfg4.win 5).blk t).view.set ↔ ∀ a : Fin 2, win4_5.index t a * S2000x300.size a ≤ (i a).val
      ∧ (i a).val < win4_5.index t a * S2000x300.size a + S2000x300.size a := by
  show i ∈ ((View.whole main_v49).slice (win4_5.rect t)).set ↔ _
  rw [View.set_slice_whole, Rect.mem_set_unit]
  exact Iff.rfl

/-- The ten row blocks cover the output array: row r is in the block of point r / 2000. -/
theorem cover4 (i : S20000x300.Idx) : ∃ t : Fin cfg4.N, (cfg4.win 5).flush t = true ∧ i ∈ ((cfg4.win 5).blk t).view.set := by
  have hi0 : (i 0).val < 20000 := (i 0).isLt
  have hi1 : (i 1).val < 300 := (i 1).isLt
  have hN : cfg4.N = 10 := N_4
  have hlt : (i 0).val / 2000 < cfg4.N := by rw [hN]; omega
  obtain ⟨-, -, -, -, -, -, -, -, -, e50, e51⟩ := blockIndex4 ⟨(i 0).val / 2000, hlt⟩
  refine ⟨⟨(i 0).val / 2000, hlt⟩, flush4_5 _, ?_⟩
  rw [mem_block4]
  intro a
  match a with
  | ⟨0, _⟩ =>
    show win4_5.index ⟨(i 0).val / 2000, hlt⟩ (0 : Fin 2) * 2000 ≤ (i 0).val
      ∧ (i 0).val < win4_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win4_5.index ⟨(i 0).val / 2000, hlt⟩ (1 : Fin 2) * 300 ≤ (i 1).val
      ∧ (i 1).val < win4_5.index ⟨(i 0).val / 2000, hlt⟩ (1 : Fin 2) * 300 + 300
    rw [e51]
    omega

/-- THE OUTPUT ARRAY after the last point: the node update of the arrays as the region finds them. -/
theorem final4 (c : Dev nD) :
    (dat4 V qq c).arrAt 5 cfg4.N
      = Cert.Spec.e2nRow (V c main_arg0) (V c main_v46) (V c main_v47) (V c main_v48) (V c main_arg9) :=
  (dat4 V qq c).arrAt_eq_of_cover 5 _ (fun t _ => flushed4_eq V qq c t) cover4

end Cert.KernelIdeal.Reg

end
-- ==== Proof.KI.TakeDefs.lean ====
/- The two row gathers of the kernel's host program as pure operations of the row-index vector and the table:
   negative indices wrap once by the table's height; a row whose wrapped index leaves [0, 19999] is filled with the
   not-a-number word, every other row is the gathered one. -/
import proofs.«428334_j59700045414568_2_alg».proof.Proof.Gen.KernelIdeal

noncomputable section

namespace Cert.KernelIdeal.Take

open Cert.KernelIdeal Cert.KernelIdeal.Gen
open Idealize.ShloMosaic Idealize.SL.Sem

variable {F : FTy → Type} [FloatOps F]

/-- The source-node row of the edge index array. -/
def rowOf (e : IVec S2x320000 32) : IVec S320000 32 :=
  shapeCast S320000 (extractStridedSlice S1x320000 ![0, 0] e slices_S2x320000_S1x320000_0_0) shapeCasts_S1x320000_S320000

/-- The target-node row of the edge index array. -/
def colOf (e : IVec S2x320000 32) : IVec S320000 32 :=
  shapeCast S320000 (extractStridedSlice S1x320000 ![1, 0] e slices_S2x320000_S1x320000_1_0) shapeCasts_S1x320000_S320000

/-- A negative index wraps once by the table's height. -/
def wrap (r : IVec S320000 32) : IVec S320000 32 :=
  select (cmpi .slt r (broadcastInDim S320000 ![] bcast_S_S320000 (constantI S_ 32 0#32)))
    (addi r (broadcastInDim S320000 ![] bcast_S_S320000 (constantI S_ 32 20000#32))) r

/-- The gather's start indices, one per edge. -/
def takeIdx (r : IVec S320000 32) : IVec S320000x1 32 :=
  broadcastInDim S320000x1 ![0] bcast_S320000_S320000x1_0 (wrap r)

/-- Per edge: is the wrapped index inside [0, 19999]? -/
def takeMask (r : IVec S320000 32) : IVec S320000 1 :=
  Host.reduce IntOp.andi
    (andi (cmpi .sge (takeIdx r) (broadcastInDim S320000x1 ![] bcast_S_S320000x1 (constantI S_ 32 0#32)))
      (cmpi .sle (takeIdx r) (broadcastInDim S320000x1 ![0, 1] bcast_S1x1_S320000x1_0_1 (broadcastInDim S1x1 ![1] bcast_S1_S1x1_1 (constantI S1 32 19999#32)))))
    (constantI S_ 1 1#1) reducesTo_S320000x1_S320000_d1 h_S_

/-- The node-feature rows of the edges' source nodes, a row out of range filled. -/
def take64 (x : FVec F S20000x64 .f32) (r : IVec S320000 32) : FVec F S320000x64 .f32 :=
  select (broadcastInDim S320000x64 ![0] bcast_S320000_S320000x64_0 (takeMask r))
    (Host.gather gather_S20000x64_S320000x1_S320000x64_1_0_n_n_0_1_164 x (takeIdx r))
    (broadcastInDim S320000x64 ![] bcast_S_S320000x64 (constant S_ .f32 0x7FC00000#32))

/-- The aggregate's rows at the edges' source nodes, a row out of range filled. -/
def take300 (a : FVec F S20000x300 .f32) (r : IVec S320000 32) : FVec F S320000x300 .f32 :=
  select (broadcastInDim S320000x300 ![0] bcast_S320000_S320000x300_0 (takeMask r))
    (Host.gather gather_S20000x300_S320000x1_S320000x300_1_0_n_n_0_1_1300 a (takeIdx r))
    (broadcastInDim S320000x300 ![] bcast_S_S320000x300 (constant S_ .f32 0x7FC00000#32))

/-- The scatter-add of edge rows onto their target nodes, from zero. -/
def segSum (col : IVec S320000 32) (h : FVec F S320000x300 .f32) : FVec F S20000x300 .f32 :=
  Host.scatterAdd scatter_S20000x300_S320000x1_S320000x300_1_0_0_1
    (broadcastInDim S20000x300 ![] bcast_S_S20000x300 (constant S_ .f32 0x00000000#32))
    (broadcastInDim S320000x1 ![0] bcast_S320000_S320000x1_0 col) h

end Cert.KernelIdeal.Take

end
-- ==== Proof.KI.Take.lean ====
/- The kernel's two row gathers are masked: a row whose wrapped index leaves [0, 19999] is replaced by a filler.
   When every row index lies in [-20000, 20000) the wrapped index (index + 20000 where the index is negative, else
   the index itself) lies in [0, 19999], so the mask is all ones and the masked gather IS the clamped gather.
   The precondition's last two conjuncts state exactly that range of the edge list's first row. -/
import proofs.«428334_j59700045414568_2_alg».proof.Proof.KI.TakeDefs
import proofs.«428334_j59700045414568_2_alg».proof.Defs
import Idealize.ShloMosaic.Lib.StableHlo.Predicate
import Idealize.ShloMosaic.Lib.ReduceAll
import Idealize.ShloMosaic.Lib.ValueIdx
import Idealize.ShloMosaic.Lib.ValueLayout

noncomputable section

namespace Cert.KernelIdeal.Take

open Cert.KernelIdeal Cert.KernelIdeal.Gen
open Idealize.ShloMosaic Idealize.ShloMosaic.TcCoe
open Idealize.SL.Sem

/-! ## Words: the wrapped index of an index in [-20000, 20000) lies in [0, 19999] -/

theorem toInt_20000 : (20000#32 : BitVec 32).toInt = 20000 := by decide
theorem toInt_19999 : (19999#32 : BitVec 32).toInt = 19999 := by decide
theorem toInt_0 : (0#32 : BitVec 32).toInt = 0 := by decide

/-- For a word w in [-20000, 20000) (signed), v = (w + 20000 if w < 0, else w) has 0 ≤ v ≤ 19999 (signed): adding
    20000 to a negative w ≥ -20000 does not wrap. -/
theorem wrap_word (w : BitVec 32) (h1 : -20000 ≤ w.toInt) (h2 : w.toInt < 20000) :
    IntOp.andi (IntOp.cmpi .sge (Scalar.select (IntOp.cmpi .slt w 0#32) (IntOp.addi w 20000#32) w) 0#32)
      (IntOp.cmpi .sle (Scalar.select (IntOp.cmpi .slt w 0#32) (IntOp.addi w 20000#32) w) 19999#32) = 1#1 := by
  have hadd : (IntOp.addi w 20000#32).toInt = (w.toInt + 20000).bmod (2 ^ 32) := by
    show (w + 20000#32).toInt = _
    rw [BitVec.toInt_add, toInt_20000]
  rw [IntOp.andi_eq_one]
  unfold IntOp.cmpi Scalar.select
  simp only [StableHlo.Predicate.ofBool_eq_one_iff, BitVec.slt, BitVec.sle, toInt_0, toInt_19999, decide_eq_true_eq]
  by_cases hneg : w.toInt < 0
  · rw [if_pos (by simp [hneg])]
    rw [hadd, Int.bmod_eq_of_le_mul_two (by omega) (by omega)]
    omega
  · rw [if_neg (by simp [hneg])]
    omega

/-- A left fold by "and" from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-! ## The mask is all ones, and the masked gathers are the clamped gathers -/

/-- The range hypothesis at every index of the row vector. -/
theorem range_idx (r : IVec S320000 32)
    (hr : ∀ e : Fin 320000, -20000 ≤ (r (ValueIdx.ix1 e)).toInt ∧ (r (ValueIdx.ix1 e)).toInt < 20000)
    (k : S320000.Idx) : -20000 ≤ (r k).toInt ∧ (r k).toInt < 20000 := by
  rw [ValueIdx.eq_ix1 k]
  exact hr (k 0)

/-- Every row's wrapped index is in [0, 19999]: the mask is 1 at every row. -/
theorem takeMask_one (r : IVec S320000 32)
    (hr : ∀ e : Fin 320000, -20000 ≤ (r (ValueIdx.ix1 e)).toInt ∧ (r (ValueIdx.ix1 e)).toInt < 20000)
    (j : S320000.Idx) : takeMask r j = 1#1 := by
  unfold takeMask
  rw [Host.reduce_eq_foldl]
  refine foldl_andi_one _ _ (fun i _ => ?_)
  show IntOp.andi (IntOp.cmpi .sge (wrap r _) 0#32) (IntOp.cmpi .sle (wrap r _) 19999#32) = 1#1
  exact wrap_word (r _) (range_idx r hr _).1 (range_idx r hr _).2

theorem take64_eq {F : FTy → Type} [FloatOps F] (x : FVec F S20000x64 .f32) (r : IVec S320000 32)
    (hr : ∀ e : Fin 320000, -20000 ≤ (r (ValueIdx.ix1 e)).toInt ∧ (r (ValueIdx.ix1 e)).toInt < 20000) :
    take64 x r = Host.gather gather_S20000x64_S320000x1_S320000x64_1_0_n_n_0_1_164 x (takeIdx r) := by
  funext i
  unfold take64
  rw [ValueIdx.select_apply]
  have hm : broadcastInDim S320000x64 ![0] bcast_S320000_S320000x64_0 (takeMask r) i = 1#1 := takeMask_one r hr _
  rw [hm, ValueIdx.select_one]

theorem take300_eq {F : FTy → Type} [FloatOps F] (a : FVec F S20000x300 .f32) (r : IVec S320000 32)
    (hr : ∀ e : Fin 320000, -20000 ≤ (r (ValueIdx.ix1 e)).toInt ∧ (r (ValueIdx.ix1 e)).toInt < 20000) :
    take300 a r = Host.gather gather_S20000x300_S320000x1_S320000x300_1_0_n_n_0_1_1300 a (takeIdx r) := by
  funext i
  unfold take300
  rw [ValueIdx.select_apply]
  have hm : broadcastInDim S320000x300 ![0] bcast_S320000_S320000x300_0 (takeMask r) i = 1#1 := takeMask_one r hr _
  rw [hm, ValueIdx.select_one]

/-! ## The precondition gives the range -/

theorem toInt_neg20000 : (4294947296#32 : BitVec 32).toInt = -20000 := by decide

/-- A word that compares ≥ -20000 and < 20000 (signed) lies in [-20000, 20000). -/
theorem range_word (w : BitVec 32) (h1 : IntOp.cmpi .sge w 4294947296#32 = 1#1) (h2 : IntOp.cmpi .slt w 20000#32 = 1#1) :
    -20000 ≤ w.toInt ∧ w.toInt < 20000 := by
  unfold IntOp.cmpi at h1 h2
  simp only [StableHlo.Predicate.ofBool_eq_one_iff, BitVec.slt, BitVec.sle, toInt_neg20000, toInt_20000,
    decide_eq_true_eq] at h1 h2
  exact ⟨h1, h2⟩

/-- The precondition's last two conjuncts, read at one element: every entry of the edge list's first row lies in
    [-20000, 20000). The conjunction splits bit by bit; each "all" is a reduce by "and" that is 1, so every compared
    element is 1; the first row as a vector at e is the [1, 320000] slice at (0, e). -/
theorem range_of_fn [hP : Cert.Pre_finite_inputs.Facts]
    (a0 : FVec Ideal Cert.Pre_finite_inputs.S20000x64 .f32) (a1 : FVec Ideal Cert.Pre_finite_inputs.S320000x16 .f32)
    (a2 : IVec Cert.Pre_finite_inputs.S2x320000 32) (a3 : IVec Cert.Pre_finite_inputs.S20000 32)
    (a4 : FVec Ideal Cert.Pre_finite_inputs.S80x300 .f32) (a5 : FVec Ideal Cert.Pre_finite_inputs.S300 .f32)
    (a6 : FVec Ideal Cert.Pre_finite_inputs.S3x300x300 .f32) (a7 : FVec Ideal Cert.Pre_finite_inputs.S3x300 .f32)
    (a8 : FVec Ideal Cert.Pre_finite_inputs.S364x300 .f32) (a9 : FVec Ideal Cert.Pre_finite_inputs.S300 .f32)
    (a10 : FVec Ideal Cert.Pre_finite_inputs.S300x1 .f32) (a11 : FVec Ideal Cert.Pre_finite_inputs.S1 .f32)
    (h : Cert.Pre_finite_inputs.fn (F := Ideal) a0 a1 a2 a3 a4 a5 a6 a7 a8 a9 a10 a11 = fun _ => 1#1) (e : Fin 320000) :
    -20000 ≤ (rowOf a2 (ValueIdx.ix1 e)).toInt ∧ (rowOf a2 (ValueIdx.ix1 e)).toInt < 20000 := by
  haveI : Subsingleton (⟨0, ![]⟩ : Shape).Idx := ⟨fun a b => funext fun d => d.elim0⟩
  have e0 := congrFun h ValueIdx.ix0
  dsimp only [Cert.Pre_finite_inputs.fn, Cert.Pre_finite_inputs.fn_part1, Cert.Pre_finite_inputs.fn_part2,
    Cert.Pre_finite_inputs.fn_part3] at e0
  obtain ⟨e1, hlt⟩ := IntOp.andi_eq_one.1 e0
  obtain ⟨-, hge⟩ := IntOp.andi_eq_one.1 e1
  have hge' := Host.reduce_andi_all _ _ _ _ _ hge (ValueIdx.ix2 (0 : Fin 1) e)
  have hlt' := Host.reduce_andi_all _ _ _ _ _ hlt (ValueIdx.ix2 (0 : Fin 1) e)
  have hrow : rowOf a2 (ValueIdx.ix1 e)
      = extractStridedSlice S1x320000 ![0, 0] a2 slices_S2x320000_S1x320000_0_0 (ValueIdx.ix2 (0 : Fin 1) e) :=
    ValueIdx.shapeCast_1a_a_apply _ _ e
  rw [hrow]
  exact range_word _ hge' hlt'

/-- The precondition gives the range of the row indices the kernel gathers at, on every device. -/
theorem row_range [hP : Cert.Pre_finite_inputs.Facts] (m : (ℓ : Loc nD τ sig) → Buf (Elt Ideal) ℓ)
    (h : Cert.Pre_KernelIdeal m) (c : Dev nD) (e : Fin 320000) :
    -20000 ≤ ((rowOf (m ((c.tc : Thread nD τ).loc main_arg2))) (ValueIdx.ix1 e)).toInt
      ∧ ((rowOf (m ((c.tc : Thread nD τ).loc main_arg2))) (ValueIdx.ix1 e)).toInt < 20000 :=
  range_of_fn _ _ _ _ _ _ _ _ _ _ _ _ (h c) e

end Cert.KernelIdeal.Take

end
-- ==== Proof.KI.Entries012.lean ====
/- What each of the first three kernel regions finds in its input arrays at entry, as pure operation terms of @main's
   arguments and of the earlier regions' outputs: the host operations between the regions are read off one by one, and
   a buffer no later operation writes is carried unchanged to where it is read. -/
import proofs.«428334_j59700045414568_2_alg».proof.Proof.KI.Fold
import proofs.«428334_j59700045414568_2_alg».proof.Proof.KI.TakeDefs
import proofs.«428334_j59700045414568_2_alg».proof.Proof.Gen.KernelIdeal.Regions
import Idealize.ShloMosaic.Lib.StableHlo.Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Take

variable {F : FTy → Type} [FloatOps F]

variable (m : (ℓ : Loc nD τ sig) → Buf (Elt F) ℓ)

/-! ## Transport along a buffer's own type

A called function's operations carry their operands to and from the buffers' own types; at a literal reference the
transport is the identity. -/

theorem ofBuf_toBuf {T : BufTy} (r : Ref sig .tc) (h1 h1' : r.ty = T) (h2 h2' h3 h3') (v : T.Contents (Elt F)) :
    (StableHlo.TRef.of r h1 h2 h3).ofBuf ((StableHlo.TRef.of r h1' h2' h3').toBuf v) = v := by
  subst h1; rfl

theorem toBuf_self (r : Ref sig .tc) (h1 : r.ty = r.ty) (h2 h3) (v : r.ty.Contents (Elt F)) :
    (StableHlo.TRef.of r h1 h2 h3).toBuf v = v := rfl

/-! ## The host stretches, from any contents -/

section Stretches

variable (V : Valuation τ sig (Elt F))

/-- The first stretch splits the edge index array into its two rows. -/
theorem hostOps0_row :
    (StableHlo.after hostOps0 V (Proc.devRef .tc main_v1) : IVec S320000 32)
      = rowOf (V (Proc.devRef .tc main_arg2)) := by
  after_results_simp <;> exact rfl

theorem hostOps0_col :
    (StableHlo.after hostOps0 V (Proc.devRef .tc main_v3) : IVec S320000 32)
      = colOf (V (Proc.devRef .tc main_arg2)) := by
  after_results_simp <;> exact rfl

/-- The masked row gather of the node features. -/
theorem hostOps0_1_take :
    (StableHlo.after hostOps0_1 V (Proc.devRef .tc main_v4) : FVec F S320000x64 .f32)
      = take64 (V (Proc.devRef .tc main_arg0)) (V (Proc.devRef .tc main_v1)) := by
  after_results_simp
  simp only [ofBuf_toBuf]
  rw [toBuf_self main_v4]
  exact rfl

/-- The masked row gathers of the aggregate, before the first and the second message-passing call. -/
theorem hostOps1_1_take :
    (StableHlo.after hostOps1_1 V (Proc.devRef .tc main_v14) : FVec F S320000x300 .f32)
      = take300 (V (Proc.devRef .tc main_v13)) (V (Proc.devRef .tc main_v1)) := by
  after_results_simp
  simp only [ofBuf_toBuf]
  rw [toBuf_self main_v14]
  exact rfl

theorem hostOps2_1_take :
    (StableHlo.after hostOps2_1 V (Proc.devRef .tc main_v25) : FVec F S320000x300 .f32)
      = take300 (V (Proc.devRef .tc main_v24)) (V (Proc.devRef .tc main_v1)) := by
  after_results_simp
  simp only [ofBuf_toBuf]
  rw [toBuf_self main_v25]
  exact rfl

/-- The scatter-add of the edge states onto their target nodes, after region 0 and after region 1. -/
theorem hostOps1_seg :
    (StableHlo.after hostOps1 V (Proc.devRef .tc main_v13) : FVec F S20000x300 .f32)
      = segSum (V (Proc.devRef .tc main_v3)) (extf .f32 (V (Proc.devRef .tc main_v9) : FVec F S320000x300 .bf16) bitsLt_bf16_f32) := by
  after_results_simp <;> exact rfl

theorem hostOps2_seg :
    (StableHlo.after hostOps2 V (Proc.devRef .tc main_v24) : FVec F S20000x300 .f32)
      = segSum (V (Proc.devRef .tc main_v3)) (extf .f32 (V (Proc.devRef .tc main_v20) : FVec F S320000x300 .bf16) bitsLt_bf16_f32) := by
  after_results_simp <;> exact rfl

/-- The narrowings and slices just before each region. -/
theorem hostOps0_2_v5 :
    (StableHlo.after hostOps0_2 V (Proc.devRef .tc main_v5) : FVec F S320000x64 .bf16)
      = truncf .bf16 (V (Proc.devRef .tc main_v4) : FVec F S320000x64 .f32) bitsLt_bf16_f32 := by
  after_results_simp <;> exact rfl

theorem hostOps1_2_v15 :
    (StableHlo.after hostOps1_2 V (Proc.devRef .tc main_v15) : FVec F S320000x300 .bf16)
      = truncf .bf16 (V (Proc.devRef .tc main_v14) : FVec F S320000x300 .f32) bitsLt_bf16_f32 := by
  after_results_simp <;> exact rfl

theorem hostOps1_2_v17 :
    (StableHlo.after hostOps1_2 V (Proc.devRef .tc main_v17) : FVec F S300x300 .f32)
      = shapeCast S300x300 (extractStridedSlice S1x300x300 ![0, 0, 0] (V (Proc.devRef .tc main_arg6) : FVec F S3x300x300 .f32)
          slices_S3x300x300_S1x300x300_0_0_0) shapeCasts_S1x300x300_S300x300 := by
  after_results_simp <;> exact rfl

theorem hostOps1_2_v19 :
    (StableHlo.after hostOps1_2 V (Proc.devRef .tc main_v19) : FVec F S300 .f32)
      = shapeCast S300 (extractStridedSlice S1x300 ![0, 0] (V (Proc.devRef .tc main_arg7) : FVec F S3x300 .f32)
          slices_S3x300_S1x300_0_0) shapeCasts_S1x300_S300 := by
  after_results_simp <;> exact rfl

theorem hostOps2_2_v26 :
    (StableHlo.after hostOps2_2 V (Proc.devRef .tc main_v26) : FVec F S320000x300 .bf16)
      = truncf .bf16 (V (Proc.devRef .tc main_v25) : FVec F S320000x300 .f32) bitsLt_bf16_f32 := by
  after_results_simp <;> exact rfl

theorem hostOps2_2_v28 :
    (StableHlo.after hostOps2_2 V (Proc.devRef .tc main_v28) : FVec F S300x300 .f32)
      = shapeCast S300x300 (extractStridedSlice S1x300x300 ![1, 0, 0] (V (Proc.devRef .tc main_arg6) : FVec F S3x300x300 .f32)
          slices_S3x300x300_S1x300x300_1_0_0) shapeCasts_S1x300x300_S300x300 := by
  after_results_simp <;> exact rfl

theorem hostOps2_2_v30 :
    (StableHlo.after hostOps2_2 V (Proc.devRef .tc main_v30) : FVec F S300 .f32)
      = shapeCast S300 (extractStridedSlice S1x300 ![1, 0] (V (Proc.devRef .tc main_arg7) : FVec F S3x300 .f32)
          slices_S3x300_S1x300_1_0) shapeCasts_S1x300_S300 := by
  after_results_simp <;> exact rfl

end Stretches

/-! ## What a buffer keeps from one boundary to the next -/

section Carries

variable (c : Dev nD) (r : Ref sig .tc)

theorem U1_of (h : r ∉ hostOps0_W) : U1 m c r = U0 m c r :=
  StableHlo.after_of_writes_sub hostOps0 _ hostOps0_writes h
theorem U2_of (h : r ∉ hostOps0_1_W) : U2 m c r = U1 m c r :=
  StableHlo.after_of_writes_sub hostOps0_1 _ hostOps0_1_writes h
theorem U3_of (h : r ∉ hostOps0_2_W) : U3 m c r = U2 m c r :=
  StableHlo.after_of_writes_sub hostOps0_2 _ hostOps0_2_writes h
theorem U4_of (h : r ≠ main_v9) : U4 m c r = U3 m c r := X0_of_ne m c r h
theorem U5_of (h : r ∉ hostOps1_W) : U5 m c r = U4 m c r :=
  StableHlo.after_of_writes_sub hostOps1 _ hostOps1_writes h
theorem U6_of (h : r ∉ hostOps1_1_W) : U6 m c r = U5 m c r :=
  StableHlo.after_of_writes_sub hostOps1_1 _ hostOps1_1_writes h
theorem U7_of (h : r ∉ hostOps1_2_W) : U7 m c r = U6 m c r :=
  StableHlo.after_of_writes_sub hostOps1_2 _ hostOps1_2_writes h
theorem U8_of (h : r ≠ main_v20) : U8 m c r = U7 m c r := X1_of_ne m c r h
theorem U9_of (h : r ∉ hostOps2_W) : U9 m c r = U8 m c r :=
  StableHlo.after_of_writes_sub hostOps2 _ hostOps2_writes h
theorem U10_of (h : r ∉ hostOps2_1_W) : U10 m c r = U9 m c r :=
  StableHlo.after_of_writes_sub hostOps2_1 _ hostOps2_1_writes h
theorem U11_of (h : r ∉ hostOps2_2_W) : U11 m c r = U10 m c r :=
  StableHlo.after_of_writes_sub hostOps2_2 _ hostOps2_2_writes h

end Carries

/-! ## The two rows of the edge index array, at every boundary where they are read -/

section Rows

variable (c : Dev nD)

theorem row_U1 : (U1 m c main_v1 : IVec S320000 32) = rowOf (m ((c : Thread nD τ).loc main_arg2)) :=
  hostOps0_row (U0 m c)
theorem col_U1 : (U1 m c main_v3 : IVec S320000 32) = colOf (m ((c : Thread nD τ).loc main_arg2)) :=
  hostOps0_col (U0 m c)

theorem row_U4 : (U4 m c main_v1 : IVec S320000 32) = rowOf (m ((c : Thread nD τ).loc main_arg2)) :=
  (U4_of m c main_v1 (by decide)).trans <| (U3_of m c main_v1 (by decide)).trans <|
  (U2_of m c main_v1 (by decide)).trans <| row_U1 m c
theorem col_U4 : (U4 m c main_v3 : IVec S320000 32) = colOf (m ((c : Thread nD τ).loc main_arg2)) :=
  (U4_of m c main_v3 (by decide)).trans <| (U3_of m c main_v3 (by decide)).trans <|
  (U2_of m c main_v3 (by decide)).trans <| col_U1 m c
theorem row_U5 : (U5 m c main_v1 : IVec S320000 32) = rowOf (m ((c : Thread nD τ).loc main_arg2)) :=
  (U5_of m c main_v1 (by decide)).trans <| row_U4 m c

theorem row_U8 : (U8 m c main_v1 : IVec S320000 32) = rowOf (m ((c : Thread nD τ).loc main_arg2)) :=
  (U8_of m c main_v1 (by decide)).trans <| (U7_of m c main_v1 (by decide)).trans <|
  (U6_of m c main_v1 (by decide)).trans <| row_U5 m c
theorem col_U8 : (U8 m c main_v3 : IVec S320000 32) = colOf (m ((c : Thread nD τ).loc main_arg2)) :=
  (U8_of m c main_v3 (by decide)).trans <| (U7_of m c main_v3 (by decide)).trans <|
  (U6_of m c main_v3 (by decide)).trans <| (U5_of m c main_v3 (by decide)).trans <| col_U4 m c
theorem row_U9 : (U9 m c main_v1 : IVec S320000 32) = rowOf (m ((c : Thread nD τ).loc main_arg2)) :=
  (U9_of m c main_v1 (by decide)).trans <| row_U8 m c

end Rows

/-! ## Region 0's entry -/

section Region0

variable (c : Dev nD)

theorem e0_0 :
    (E0 m c main_v5 : FVec F S320000x64 .bf16)
      = truncf .bf16 (take64 (m ((c : Thread nD τ).loc main_arg0) : FVec F S20000x64 .f32)
          (rowOf (m ((c : Thread nD τ).loc main_arg2)))) bitsLt_bf16_f32 := by
  show StableHlo.after hostOps0_2 (U2 m c) (Proc.devRef .tc main_v5) = _
  rw [hostOps0_2_v5]
  show truncf .bf16 (StableHlo.after hostOps0_1 (U1 m c) (Proc.devRef .tc main_v4)) _ = _
  rw [hostOps0_1_take, row_U1, U1_of m c main_arg0 (by decide)]

theorem e0_1 :
    (E0 m c main_v6 : FVec F S320000x16 .bf16)
      = truncf .bf16 (m ((c : Thread nD τ).loc main_arg1) : FVec F S320000x16 .f32) bitsLt_bf16_f32 := by
  show StableHlo.after hostOps0_2 (StableHlo.after hostOps0_1 (StableHlo.after hostOps0 (U0 m c))) (Proc.devRef .tc main_v6) = _
  after_results

theorem e0_2 :
    (E0 m c main_v7 : FVec F S64x300 .f32)
      = extractStridedSlice S64x300 ![0, 0] (m ((c : Thread nD τ).loc main_arg4) : FVec F S80x300 .f32) slices_S80x300_S64x300_0_0 := by
  show StableHlo.after hostOps0_2 (StableHlo.after hostOps0_1 (StableHlo.after hostOps0 (U0 m c))) (Proc.devRef .tc main_v7) = _
  after_results

theorem e0_3 :
    (E0 m c main_v8 : FVec F S16x300 .f32)
      = extractStridedSlice S16x300 ![64, 0] (m ((c : Thread nD τ).loc main_arg4) : FVec F S80x300 .f32) slices_S80x300_S16x300_64_0 := by
  show StableHlo.after hostOps0_2 (StableHlo.after hostOps0_1 (StableHlo.after hostOps0 (U0 m c))) (Proc.devRef .tc main_v8) = _
  after_results

theorem e0_4 :
    (E0 m c main_arg5 : FVec F S300 .f32) = m ((c : Thread nD τ).loc main_arg5) :=
  (U3_of m c main_arg5 (by decide)).trans <| (U2_of m c main_arg5 (by decide)).trans <| U1_of m c main_arg5 (by decide)

end Region0

/-! ## Region 1's entry -/

section Region1

variable (c : Dev nD)

/-- The aggregate before the first message-passing call: region 0's output, widened, summed onto the target nodes. -/
theorem agg_U5 :
    (U5 m c main_v13 : FVec F S20000x300 .f32)
      = segSum (colOf (m ((c : Thread nD τ).loc main_arg2)))
          (extf .f32 (X0 m c main_v9 : FVec F S320000x300 .bf16) bitsLt_bf16_f32) := by
  show StableHlo.after hostOps1 (U4 m c) (Proc.devRef .tc main_v13) = _
  rw [hostOps1_seg, col_U4]

theorem e1_0 :
    (E1 m c main_v15 : FVec F S320000x300 .bf16)
      = truncf .bf16 (take300 (segSum (colOf (m ((c : Thread nD τ).loc main_arg2)))
            (extf .f32 (X0 m c main_v9 : FVec F S320000x300 .bf16) bitsLt_bf16_f32))
          (rowOf (m ((c : Thread nD τ).loc main_arg2)))) bitsLt_bf16_f32 := by
  show StableHlo.after hostOps1_2 (U6 m c) (Proc.devRef .tc main_v15) = _
  rw [hostOps1_2_v15]
  show truncf .bf16 (StableHlo.after hostOps1_1 (U5 m c) (Proc.devRef .tc main_v14)) _ = _
  rw [hostOps1_1_take, row_U5, agg_U5]

theorem e1_1 : E1 m c main_v9 = X0 m c main_v9 :=
  (U7_of m c main_v9 (by decide)).trans <| (U6_of m c main_v9 (by decide)).trans <| U5_of m c main_v9 (by decide)

/-- An argument of @main no operation writes, at region 1's last host stretch. -/
theorem U6_arg (r : Ref sig .tc) (h0 : r ∉ hostOps0_W) (h0_1 : r ∉ hostOps0_1_W) (h0_2 : r ∉ hostOps0_2_W)
    (h1 : r ∉ hostOps1_W) (h1_1 : r ∉ hostOps1_1_W) (hr : r ≠ main_v9) :
    U6 m c r = m ((c : Thread nD τ).loc r) :=
  (U6_of m c r h1_1).trans <| (U5_of m c r h1).trans <| (U4_of m c r hr).trans <|
  (U3_of m c r h0_2).trans <| (U2_of m c r h0_1).trans <| U1_of m c r h0

theorem e1_3 :
    (E1 m c main_v17 : FVec F S300x300 .f32)
      = shapeCast S300x300 (extractStridedSlice S1x300x300 ![0, 0, 0] (m ((c : Thread nD τ).loc main_arg6) : FVec F S3x300x300 .f32)
          slices_S3x300x300_S1x300x300_0_0_0) shapeCasts_S1x300x300_S300x300 := by
  show StableHlo.after hostOps1_2 (U6 m c) (Proc.devRef .tc main_v17) = _
  rw [hostOps1_2_v17, U6_arg m c main_arg6 (by decide) (by decide) (by decide) (by decide) (by decide) (by decide)]

theorem e1_4 :
    (E1 m c main_v19 : FVec F S300 .f32)
      = shapeCast S300 (extractStridedSlice S1x300 ![0, 0] (m ((c : Thread nD τ).loc main_arg7) : FVec F S3x300 .f32)
          slices_S3x300_S1x300_0_0) shapeCasts_S1x300_S300 := by
  show StableHlo.after hostOps1_2 (U6 m c) (Proc.devRef .tc main_v19) = _
  rw [hostOps1_2_v19, U6_arg m c main_arg7 (by decide) (by decide) (by decide) (by decide) (by decide) (by decide)]

end Region1

/-! ## Region 2's entry -/

section Region2

variable (c : Dev nD)

/-- The aggregate before the second message-passing call: region 1's output, widened, summed onto the target nodes. -/
theorem agg_U9 :
    (U9 m c main_v24 : FVec F S20000x300 .f32)
      = segSum (colOf (m ((c : Thread nD τ).loc main_arg2)))
          (extf .f32 (X1 m c main_v20 : FVec F S320000x300 .bf16) bitsLt_bf16_f32) := by
  show StableHlo.after hostOps2 (U8 m c) (Proc.devRef .tc main_v24) = _
  rw [hostOps2_seg, col_U8]

theorem e2_0 :
    (E2 m c main_v26 : FVec F S320000x300 .bf16)
      = truncf .bf16 (take300 (segSum (colOf (m ((c : Thread nD τ).loc main_arg2)))
            (extf .f32 (X1 m c main_v20 : FVec F S320000x300 .bf16) bitsLt_bf16_f32))
          (rowOf (m ((c : Thread nD τ).loc main_arg2)))) bitsLt_bf16_f32 := by
  show StableHlo.after hostOps2_2 (U10 m c) (Proc.devRef .tc main_v26) = _
  rw [hostOps2_2_v26]
  show truncf .bf16 (StableHlo.after hostOps2_1 (U9 m c) (Proc.devRef .tc main_v25)) _ = _
  rw [hostOps2_1_take, row_U9, agg_U9]

theorem e2_1 : E2 m c main_v20 = X1 m c main_v20 :=
  (U11_of m c main_v20 (by decide)).trans <| (U10_of m c main_v20 (by decide)).trans <| U9_of m c main_v20 (by decide)

theorem e2_2 : E2 m c main_v9 = X0 m c main_v9 :=
  (U11_of m c main_v9 (by decide)).trans <| (U10_of m c main_v9 (by decide)).trans <| (U9_of m c main_v9 (by decide)).trans <|
  (U8_of m c main_v9 (by decide)).trans <| e1_1 m c

/-- An argument of @main no operation writes, at region 2's last host stretch. -/
theorem U10_arg (r : Ref sig .tc) (h0 : r ∉ hostOps0_W) (h0_1 : r ∉ hostOps0_1_W) (h0_2 : r ∉ hostOps0_2_W)
    (h1 : r ∉ hostOps1_W) (h1_1 : r ∉ hostOps1_1_W) (h1_2 : r ∉ hostOps1_2_W) (h2 : r ∉ hostOps2_W) (h2_1 : r ∉ hostOps2_1_W)
    (hr : r ≠ main_v9) (hr' : r ≠ main_v20) :
    U10 m c r = m ((c : Thread nD τ).loc r) :=
  (U10_of m c r h2_1).trans <| (U9_of m c r h2).trans <| (U8_of m c r hr').trans <| (U7_of m c r h1_2).trans <|
  U6_arg m c r h0 h0_1 h0_2 h1 h1_1 hr

theorem e2_3 :
    (E2 m c main_v28 : FVec F S300x300 .f32)
      = shapeCast S300x300 (extractStridedSlice S1x300x300 ![1, 0, 0] (m ((c : Thread nD τ).loc main_arg6) : FVec F S3x300x300 .f32)
          slices_S3x300x300_S1x300x300_1_0_0) shapeCasts_S1x300x300_S300x300 := by
  show StableHlo.after hostOps2_2 (U10 m c) (Proc.devRef .tc main_v28) = _
  rw [hostOps2_2_v28, U10_arg m c main_arg6 (by decide) (by decide) (by decide) (by decide) (by decide) (by decide) (by decide)
    (by decide) (by decide) (by decide)]

theorem e2_4 :
    (E2 m c main_v30 : FVec F S300 .f32)
      = shapeCast S300 (extractStridedSlice S1x300 ![1, 0] (m ((c : Thread nD τ).loc main_arg7) : FVec F S3x300 .f32)
          slices_S3x300_S1x300_1_0) shapeCasts_S1x300_S300 := by
  show StableHlo.after hostOps2_2 (U10 m c) (Proc.devRef .tc main_v30) = _
  rw [hostOps2_2_v30, U10_arg m c main_arg7 (by decide) (by decide) (by decide) (by decide) (by decide) (by decide) (by decide)
    (by decide) (by decide) (by decide)]

end Region2

end Cert.KernelIdeal.Reg

end
-- ==== Proof.KI.Entries34.lean ====
/- What the host operations between the kernel regions leave in the arrays the last two regions read, and in the
   program's result, as pure operation terms of the program's arguments and of the regions' outputs: the edge list's
   two rows, the scatter-add of the previous region's output onto the target nodes, its gather back at the source
   nodes, the slices of the weight stacks, and the pooled read-out. A buffer no later operation writes is carried
   unchanged through every host stretch and every region. -/
import proofs.«428334_j59700045414568_2_alg».proof.Proof.KI.Fold
import proofs.«428334_j59700045414568_2_alg».proof.Proof.KI.TakeDefs
import proofs.«428334_j59700045414568_2_alg».proof.Proof.Gen.KernelIdeal.Regions
import Idealize.ShloMosaic.Lib.StableHlo.Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Take

variable {F : FTy → Type} [FloatOps F]

variable (m : (ℓ : Loc nD τ sig) → Buf (Elt F) ℓ)

/-! The carrying and stretch lemmas below are auxiliary; they live in their own namespace. The statements about the
    regions' inputs and the result follow it. -/
namespace E34

/-! ## One item at a time: a reference the item does not write keeps its contents -/

/-- The five regions' output arrays. -/
abbrev outs5 : List (Ref sig .tc) := [main_v9, main_v20, main_v31, main_v42, main_v49]

section Steps

variable (c : Dev nD) (r : Ref sig .tc)

theorem U1_of (h : r ∉ hostOps0_W) : U1 m c r = U0 m c r :=
  StableHlo.after_of_writes_sub hostOps0 _ hostOps0_writes h
theorem U2_of (h : r ∉ hostOps0_1_W) : U2 m c r = U1 m c r :=
  StableHlo.after_of_writes_sub hostOps0_1 _ hostOps0_1_writes h
theorem U3_of (h : r ∉ hostOps0_2_W) : U3 m c r = U2 m c r :=
  StableHlo.after_of_writes_sub hostOps0_2 _ hostOps0_2_writes h
theorem U4_of (h : r ≠ main_v9) : U4 m c r = U3 m c r := X0_of_ne m c r h
theorem U5_of (h : r ∉ hostOps1_W) : U5 m c r = U4 m c r :=
  StableHlo.after_of_writes_sub hostOps1 _ hostOps1_writes h
theorem U6_of (h : r ∉ hostOps1_1_W) : U6 m c r = U5 m c r :=
  StableHlo.after_of_writes_sub hostOps1_1 _ hostOps1_1_writes h
theorem U7_of (h : r ∉ hostOps1_2_W) : U7 m c r = U6 m c r :=
  StableHlo.after_of_writes_sub hostOps1_2 _ hostOps1_2_writes h
theorem U8_of (h : r ≠ main_v20) : U8 m c r = U7 m c r := X1_of_ne m c r h
theorem U9_of (h : r ∉ hostOps2_W) : U9 m c r = U8 m c r :=
  StableHlo.after_of_writes_sub hostOps2 _ hostOps2_writes h
theorem U10_of (h : r ∉ hostOps2_1_W) : U10 m c r = U9 m c r :=
  StableHlo.after_of_writes_sub hostOps2_1 _ hostOps2_1_writes h
theorem U11_of (h : r ∉ hostOps2_2_W) : U11 m c r = U10 m c r :=
  StableHlo.after_of_writes_sub hostOps2_2 _ hostOps2_2_writes h
theorem U12_of (h : r ≠ main_v31) : U12 m c r = U11 m c r := X2_of_ne m c r h
theorem U13_of (h : r ∉ hostOps3_W) : U13 m c r = U12 m c r :=
  StableHlo.after_of_writes_sub hostOps3 _ hostOps3_writes h
theorem U14_of (h : r ∉ hostOps3_1_W) : U14 m c r = U13 m c r :=
  StableHlo.after_of_writes_sub hostOps3_1 _ hostOps3_1_writes h
theorem U15_of (h : r ∉ hostOps3_2_W) : U15 m c r = U14 m c r :=
  StableHlo.after_of_writes_sub hostOps3_2 _ hostOps3_2_writes h
theorem U16_of (h : r ≠ main_v42) : U16 m c r = U15 m c r := X3_of_ne m c r h
theorem U17_of (h : r ∉ hostOps4_W) : U17 m c r = U16 m c r :=
  StableHlo.after_of_writes_sub hostOps4 _ hostOps4_writes h
theorem U18_of (h : r ≠ main_v49) : U18 m c r = U17 m c r := X4_of_ne m c r h

/-- No item after the first host stretch, up to region 4's exit, writes the reference. -/
abbrev Kept (r : Ref sig .tc) : Prop :=
  r ∉ hostOps0_1_W ∧ r ∉ hostOps0_2_W ∧ r ∉ hostOps1_W ∧ r ∉ hostOps1_1_W ∧ r ∉ hostOps1_2_W ∧ r ∉ hostOps2_W ∧
  r ∉ hostOps2_1_W ∧ r ∉ hostOps2_2_W ∧ r ∉ hostOps3_W ∧ r ∉ hostOps3_1_W ∧ r ∉ hostOps3_2_W ∧ r ∉ hostOps4_W ∧ r ∉ outs5

/-- Such a reference holds, at every later boundary, what the first host stretch left in it. -/
theorem U12_kept (h : Kept r) : U12 m c r = U1 m c r := by
  obtain ⟨h0_1, h0_2, h1, h1_1, h1_2, h2, h2_1, h2_2, h3, h3_1, h3_2, h4, hr⟩ := h
  exact (U12_of m c r (fun e => hr (by rw [e]; decide))).trans <|
    (U11_of m c r h2_2).trans <| (U10_of m c r h2_1).trans <| (U9_of m c r h2).trans <|
    (U8_of m c r (fun e => hr (by rw [e]; decide))).trans <|
    (U7_of m c r h1_2).trans <| (U6_of m c r h1_1).trans <| (U5_of m c r h1).trans <|
    (U4_of m c r (fun e => hr (by rw [e]; decide))).trans <|
    (U3_of m c r h0_2).trans <| (U2_of m c r h0_1)
theorem U13_kept (h : Kept r) : U13 m c r = U1 m c r :=
  (U13_of m c r h.2.2.2.2.2.2.2.2.1).trans (U12_kept m c r h)
theorem U14_kept (h : Kept r) : U14 m c r = U1 m c r :=
  (U14_of m c r h.2.2.2.2.2.2.2.2.2.1).trans (U13_kept m c r h)
theorem U15_kept (h : Kept r) : U15 m c r = U1 m c r :=
  (U15_of m c r h.2.2.2.2.2.2.2.2.2.2.1).trans (U14_kept m c r h)
theorem U16_kept (h : Kept r) : U16 m c r = U1 m c r :=
  (U16_of m c r (fun e => h.2.2.2.2.2.2.2.2.2.2.2.2 (by rw [e]; decide))).trans (U15_kept m c r h)
theorem U17_kept (h : Kept r) : U17 m c r = U1 m c r :=
  (U17_of m c r h.2.2.2.2.2.2.2.2.2.2.2.1).trans (U16_kept m c r h)
theorem U18_kept (h : Kept r) : U18 m c r = U1 m c r :=
  (U18_of m c r (fun e => h.2.2.2.2.2.2.2.2.2.2.2.2 (by rw [e]; decide))).trans (U17_kept m c r h)

/-- From region 0's exit to region 1's exit. -/
theorem U8_of_U4 (h1 : r ∉ hostOps1_W) (h1_1 : r ∉ hostOps1_1_W) (h1_2 : r ∉ hostOps1_2_W) (hr : r ≠ main_v20) :
    U8 m c r = U4 m c r :=
  (U8_of m c r hr).trans <| (U7_of m c r h1_2).trans <| (U6_of m c r h1_1).trans <| (U5_of m c r h1)

/-- From region 1's exit to region 2's exit. -/
theorem U12_of_U8 (h2 : r ∉ hostOps2_W) (h2_1 : r ∉ hostOps2_1_W) (h2_2 : r ∉ hostOps2_2_W) (hr : r ≠ main_v31) :
    U12 m c r = U8 m c r :=
  (U12_of m c r hr).trans <| (U11_of m c r h2_2).trans <| (U10_of m c r h2_1).trans <| (U9_of m c r h2)

/-- From region 2's exit to region 3's entry. -/
theorem U15_of_U12 (h3 : r ∉ hostOps3_W) (h3_1 : r ∉ hostOps3_1_W) (h3_2 : r ∉ hostOps3_2_W) : U15 m c r = U12 m c r :=
  (U15_of m c r h3_2).trans <| (U14_of m c r h3_1).trans <| (U13_of m c r h3)

end Steps

/-! ## The carried buffers -/

section Carried

variable (c : Dev nD)

/-- The edge list's two rows, written by the first host stretch. -/
theorem U1_v1 : U1 m c main_v1 = rowOf (m ((c : Thread nD τ).loc main_arg2)) := by
  show StableHlo.after hostOps0 (U0 m c) (Proc.devRef .tc main_v1) = _
  after_results
  rfl

theorem U1_v3 : U1 m c main_v3 = colOf (m ((c : Thread nD τ).loc main_arg2)) := by
  show StableHlo.after hostOps0 (U0 m c) (Proc.devRef .tc main_v3) = _
  after_results
  rfl

/-- An argument of the program after the first host stretch: as launched. -/
theorem U1_arg (r : Ref sig .tc) (h : r ∉ hostOps0_W) : U1 m c r = m ((c : Thread nD τ).loc r) := U1_of m c r h

end Carried

/-! ## The gather stretch before region 3, in four runs of its operations -/

section Take3

/-- The stretch's operations in four runs: the wrapped index, the start indices, the range mask, the masked gather. -/
abbrev tk3A : List (HloOp τ sig (Elt F)) := (hostOps3_1 : List (HloOp τ sig (Elt F))).take 7
abbrev tk3B : List (HloOp τ sig (Elt F)) := ((hostOps3_1 : List (HloOp τ sig (Elt F))).drop 7).take 1
abbrev tk3C : List (HloOp τ sig (Elt F)) := ((hostOps3_1 : List (HloOp τ sig (Elt F))).drop 8).take 10
abbrev tk3D : List (HloOp τ sig (Elt F)) := (hostOps3_1 : List (HloOp τ sig (Elt F))).drop 18

theorem hostOps3_1_split : (hostOps3_1 : List (HloOp τ sig (Elt F))) = tk3A ++ (tk3B ++ (tk3C ++ tk3D)) := rfl

variable (W : Valuation τ sig (Elt F))

/-- The first run leaves the wrapped index and keeps the table. -/
theorem tk3A_v4 : StableHlo.after tk3A W (Proc.devRef .tc main_call3_v4) = wrap (W main_v1 : IVec S320000 32) := by
  simp only [tk3A, hostOps3_1, List.take_succ_cons, List.take_zero]
  after_results
  simp only [StableHlo.TRef.ofBuf, StableHlo.TRef.toBuf, cast_eq]
  rfl
theorem tk3A_v35 : StableHlo.after tk3A W (Proc.devRef .tc main_v35) = W main_v35 := by
  simp only [tk3A, hostOps3_1, List.take_succ_cons, List.take_zero]
  after_results

/-- The second run broadcasts it to the start indices. -/
theorem tk3B_v5 : StableHlo.after tk3B W (Proc.devRef .tc main_call3_v5)
    = broadcastInDim S320000x1 ![0] bcast_S320000_S320000x1_0 (W main_call3_v4 : IVec S320000 32) := by
  simp only [tk3B, hostOps3_1, List.drop_succ_cons, List.drop_zero, List.take_succ_cons, List.take_zero]
  after_results
  simp only [StableHlo.TRef.ofBuf, StableHlo.TRef.toBuf, cast_eq]
theorem tk3B_v35 : StableHlo.after tk3B W (Proc.devRef .tc main_v35) = W main_v35 := by
  simp only [tk3B, hostOps3_1, List.drop_succ_cons, List.drop_zero, List.take_succ_cons, List.take_zero]
  after_results

/-- The third run computes the range mask of the start indices and keeps them and the table. -/
theorem tk3C_v12 : StableHlo.after tk3C W (Proc.devRef .tc main_call3_v12)
    = Host.reduce IntOp.andi
        (andi (cmpi .sge (W main_call3_v5 : IVec S320000x1 32) (broadcastInDim S320000x1 ![] bcast_S_S320000x1 (constantI S_ 32 0#32)))
          (cmpi .sle (W main_call3_v5 : IVec S320000x1 32)
            (broadcastInDim S320000x1 ![0, 1] bcast_S1x1_S320000x1_0_1
              (broadcastInDim S1x1 ![1] bcast_S1_S1x1_1 (constantI S1 32 19999#32)))))
        (constantI S_ 1 1#1) reducesTo_S320000x1_S320000_d1 h_S_ := by
  simp only [tk3C, hostOps3_1, List.drop_succ_cons, List.drop_zero, List.take_succ_cons, List.take_zero]
  after_results
  simp only [StableHlo.TRef.ofBuf, StableHlo.TRef.toBuf, cast_eq]
theorem tk3C_v5 : StableHlo.after tk3C W (Proc.devRef .tc main_call3_v5) = W main_call3_v5 := by
  simp only [tk3C, hostOps3_1, List.drop_succ_cons, List.drop_zero, List.take_succ_cons, List.take_zero]
  after_results
theorem tk3C_v35 : StableHlo.after tk3C W (Proc.devRef .tc main_v35) = W main_v35 := by
  simp only [tk3C, hostOps3_1, List.drop_succ_cons, List.drop_zero, List.take_succ_cons, List.take_zero]
  after_results

/-- The last run gathers the table's rows at the start indices and fills the rows the mask rejects. -/
theorem tk3D_v36 : StableHlo.after tk3D W (Proc.devRef .tc main_v36)
    = select (broadcastInDim S320000x300 ![0] bcast_S320000_S320000x300_0 (W main_call3_v12 : IVec S320000 1))
        (Host.gather gather_S20000x300_S320000x1_S320000x300_1_0_n_n_0_1_1300 (W main_v35 : FVec F S20000x300 .f32)
          (W main_call3_v5 : IVec S320000x1 32))
        (broadcastInDim S320000x300 ![] bcast_S_S320000x300 (constant (F := F) S_ .f32 0x7FC00000#32)) := by
  simp only [tk3D, hostOps3_1, List.drop_succ_cons, List.drop_zero]
  after_results
  simp only [StableHlo.TRef.ofBuf, StableHlo.TRef.toBuf, cast_eq]

end Take3

/-! ## The other host stretches, over any contents of the buffers they read -/

section Stretches

variable (V : Valuation τ sig (Elt F))

/-- The scatter-add of region 2's output onto the target nodes. -/
theorem hostOps3_v35 : StableHlo.after hostOps3 V (Proc.devRef .tc main_v35)
    = segSum (V main_v3) (extf .f32 (V main_v31 : FVec F S320000x300 .bf16) bitsLt_bf16_f32) := by
  after_results
  rfl

/-- Its rows gathered back at the source nodes. -/
theorem hostOps3_1_v36 : StableHlo.after hostOps3_1 V (Proc.devRef .tc main_v36)
    = take300 (V main_v35 : FVec F S20000x300 .f32) (V main_v1 : IVec S320000 32) := by
  rw [hostOps3_1_split, StableHlo.after_append, StableHlo.after_append, StableHlo.after_append, tk3D_v36,
    tk3C_v12, tk3C_v5, tk3C_v35, tk3B_v5, tk3B_v35, tk3A_v4, tk3A_v35]
  rfl

/-- The gathered rows rounded, the third layer's weight matrix and its bias. -/
theorem hostOps3_2_v37 : StableHlo.after hostOps3_2 V (Proc.devRef .tc main_v37)
    = truncf .bf16 (V main_v36 : FVec F S320000x300 .f32) bitsLt_bf16_f32 := by
  after_results

theorem hostOps3_2_v39 : StableHlo.after hostOps3_2 V (Proc.devRef .tc main_v39)
    = shapeCast S300x300 (extractStridedSlice S1x300x300 ![2, 0, 0] (V main_arg6 : FVec F S3x300x300 .f32)
        slices_S3x300x300_S1x300x300_2_0_0) shapeCasts_S1x300x300_S300x300 := by
  after_results
  rfl

theorem hostOps3_2_v41 : StableHlo.after hostOps3_2 V (Proc.devRef .tc main_v41)
    = shapeCast S300 (extractStridedSlice S1x300 ![2, 0] (V main_arg7 : FVec F S3x300 .f32)
        slices_S3x300_S1x300_2_0) shapeCasts_S1x300_S300 := by
  after_results
  rfl

/-- The scatter-add of region 3's output onto the target nodes, and the two row blocks of the node update's weights. -/
theorem hostOps4_v46 : StableHlo.after hostOps4 V (Proc.devRef .tc main_v46)
    = segSum (V main_v3) (extf .f32 (V main_v42 : FVec F S320000x300 .bf16) bitsLt_bf16_f32) := by
  after_results
  rfl

theorem hostOps4_v47 : StableHlo.after hostOps4 V (Proc.devRef .tc main_v47)
    = extractStridedSlice S64x300 ![0, 0] (V main_arg8 : FVec F S364x300 .f32) slices_S364x300_S64x300_0_0 := by
  after_results

theorem hostOps4_v48 : StableHlo.after hostOps4 V (Proc.devRef .tc main_v48)
    = extractStridedSlice S300x300 ![64, 0] (V main_arg8 : FVec F S364x300 .f32) slices_S364x300_S300x300_64_0 := by
  after_results

/-- The read-out: region 4's output pooled per graph, through the last weights, plus the bias. -/
theorem hostOps5_v57 : StableHlo.after hostOps5 V (Proc.devRef .tc main_v57)
    = shapeCast S128
        (addf
          (Host.dotGeneral dot_S128x300_S300x1_S128x1_1_0_0_1_n_n none
            (Host.scatterAdd scatter_S128x300_S20000x1_S20000x300_1_0_0_1
              (broadcastInDim S128x300 ![] bcast_S_S128x300 (constant (F := F) S_ .f32 0x00000000#32))
              (broadcastInDim S20000x1 ![0] bcast_S20000_S20000x1_0 (V main_arg3 : IVec S20000 32))
              (V main_v49 : FVec F S20000x300 .f32))
            (V main_arg10 : FVec F S300x1 .f32))
          (broadcastInDim S128x1 ![0, 1] bcast_S1x1_S128x1_0_1
            (broadcastInDim S1x1 ![1] bcast_S1_S1x1_1 (V main_arg11 : FVec F S1 .f32))))
        shapeCasts_S128x1_S128 := by
  after_results
  rfl

end Stretches

end E34

open E34

/-! ## Region 3's inputs -/

section Region3

variable (c : Dev nD)

theorem e3_0 : E3 m c main_v37
    = truncf .bf16 (take300 (segSum (colOf (m ((c : Thread nD τ).loc main_arg2)))
        (extf .f32 (X2 m c main_v31 : FVec F S320000x300 .bf16) bitsLt_bf16_f32))
        (rowOf (m ((c : Thread nD τ).loc main_arg2)))) bitsLt_bf16_f32 := by
  have h37 : U15 m c main_v37 = truncf .bf16 (U14 m c main_v36 : FVec F S320000x300 .f32) bitsLt_bf16_f32 :=
    hostOps3_2_v37 (U14 m c)
  have h36 : U14 m c main_v36 = take300 (U13 m c main_v35 : FVec F S20000x300 .f32) (U13 m c main_v1 : IVec S320000 32) :=
    hostOps3_1_v36 (U13 m c)
  have h35 : U13 m c main_v35
      = segSum (U12 m c main_v3) (extf .f32 (U12 m c main_v31 : FVec F S320000x300 .bf16) bitsLt_bf16_f32) :=
    hostOps3_v35 (U12 m c)
  show U15 m c main_v37 = _
  rw [h37, h36, h35, U13_kept m c main_v1 (by decide), U12_kept m c main_v3 (by decide), U1_v1, U1_v3]

theorem e3_1 : E3 m c main_v31 = X2 m c main_v31 :=
  U15_of_U12 m c main_v31 (by decide) (by decide) (by decide)

theorem e3_2 : E3 m c main_v9 = X0 m c main_v9 :=
  (U15_of_U12 m c main_v9 (by decide) (by decide) (by decide)).trans <|
  (U12_of_U8 m c main_v9 (by decide) (by decide) (by decide) (by decide)).trans <|
  U8_of_U4 m c main_v9 (by decide) (by decide) (by decide) (by decide)

theorem e3_3 : E3 m c main_v39
    = shapeCast S300x300 (extractStridedSlice S1x300x300 ![2, 0, 0]
        (m ((c : Thread nD τ).loc main_arg6) : FVec F S3x300x300 .f32) slices_S3x300x300_S1x300x300_2_0_0)
        shapeCasts_S1x300x300_S300x300 := by
  have h : U15 m c main_v39 = _ := hostOps3_2_v39 (U14 m c)
  show U15 m c main_v39 = _
  rw [h, U14_kept m c main_arg6 (by decide), U1_arg m c main_arg6 (by decide)]

theorem e3_4 : E3 m c main_v41
    = shapeCast S300 (extractStridedSlice S1x300 ![2, 0]
        (m ((c : Thread nD τ).loc main_arg7) : FVec F S3x300 .f32) slices_S3x300_S1x300_2_0) shapeCasts_S1x300_S300 := by
  have h : U15 m c main_v41 = _ := hostOps3_2_v41 (U14 m c)
  show U15 m c main_v41 = _
  rw [h, U14_kept m c main_arg7 (by decide), U1_arg m c main_arg7 (by decide)]

end Region3

/-! ## Region 4's inputs -/

section Region4

variable (c : Dev nD)

theorem e4_0 : E4 m c main_arg0 = m ((c : Thread nD τ).loc main_arg0) :=
  (U17_kept m c main_arg0 (by decide)).trans (U1_arg m c main_arg0 (by decide))

theorem e4_1 : E4 m c main_v46
    = segSum (colOf (m ((c : Thread nD τ).loc main_arg2)))
        (extf .f32 (X3 m c main_v42 : FVec F S320000x300 .bf16) bitsLt_bf16_f32) := by
  have h : U17 m c main_v46 = _ := hostOps4_v46 (U16 m c)
  show U17 m c main_v46 = _
  rw [h, U16_kept m c main_v3 (by decide), U1_v3]

theorem e4_2 : E4 m c main_v47
    = extractStridedSlice S64x300 ![0, 0] (m ((c : Thread nD τ).loc main_arg8) : FVec F S364x300 .f32)
        slices_S364x300_S64x300_0_0 := by
  have h : U17 m c main_v47 = _ := hostOps4_v47 (U16 m c)
  show U17 m c main_v47 = _
  rw [h, U16_kept m c main_arg8 (by decide), U1_arg m c main_arg8 (by decide)]

theorem e4_3 : E4 m c main_v48
    = extractStridedSlice S300x300 ![64, 0] (m ((c : Thread nD τ).loc main_arg8) : FVec F S364x300 .f32)
        slices_S364x300_S300x300_64_0 := by
  have h : U17 m c main_v48 = _ := hostOps4_v48 (U16 m c)
  show U17 m c main_v48 = _
  rw [h, U16_kept m c main_arg8 (by decide), U1_arg m c main_arg8 (by decide)]

theorem e4_4 : E4 m c main_arg9 = m ((c : Thread nD τ).loc main_arg9) :=
  (U17_kept m c main_arg9 (by decide)).trans (U1_arg m c main_arg9 (by decide))

end Region4

/-! ## The result -/

section Result

variable (c : Dev nD)

theorem e_out : U19 m c (Proc.devRef .tc main_v57)
    = shapeCast S128
        (addf
          (Host.dotGeneral dot_S128x300_S300x1_S128x1_1_0_0_1_n_n none
            (Host.scatterAdd scatter_S128x300_S20000x1_S20000x300_1_0_0_1
              (broadcastInDim S128x300 ![] bcast_S_S128x300 (constant (F := F) S_ .f32 0x00000000#32))
              (broadcastInDim S20000x1 ![0] bcast_S20000_S20000x1_0
                (m ((c : Thread nD τ).loc main_arg3) : IVec S20000 32))
              (X4 m c main_v49 : FVec F S20000x300 .f32))
            (m ((c : Thread nD τ).loc main_arg10) : FVec F S300x1 .f32))
          (broadcastInDim S128x1 ![0, 1] bcast_S1x1_S128x1_0_1
            (broadcastInDim S1x1 ![1] bcast_S1_S1x1_1 (m ((c : Thread nD τ).loc main_arg11) : FVec F S1 .f32))))
        shapeCasts_S128x1_S128 := by
  have h : U19 m c (Proc.devRef .tc main_v57) = _ := hostOps5_v57 (U18 m c)
  rw [h, U18_kept m c main_arg3 (by decide), U1_arg m c main_arg3 (by decide),
    U18_kept m c main_arg10 (by decide), U1_arg m c main_arg10 (by decide),
    U18_kept m c main_arg11 (by decide), U1_arg m c main_arg11 (by decide)]

end Result

end Cert.KernelIdeal.Reg

end
-- ==== Proof.Ref.Stage0.lean ====
/- The reference's edge-initialisation stage and node-update stage, each as the shared specification's row function:
   a rectified affine image of two blocks of features laid side by side. The joined matrix product is read as
   the sum over the first block's columns plus the sum over the second block's columns. -/
import proofs.«428334_j59700045414568_2_alg».proof.Proof.Gen.ReferenceIdeal.Read
import proofs.«428334_j59700045414568_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

open scoped BigOperators

namespace Cert.ReferenceIdeal.Stage

open Cert.ReferenceIdeal Cert.ReferenceIdeal.Gen Cert.ReferenceIdeal.Read Idealize.ShloMosaic Idealize.ShloMosaic.ValueIdx

/-- A sum over m + n positions is the sum over the first m plus the sum over the last n. -/
theorem sum_split {m n N : Nat} (h : m + n = N) (f : Fin N → EReal) :
    ∑ k : Fin N, f k = (∑ k : Fin m, f ⟨k.val, by have := k.isLt; omega⟩) + ∑ k : Fin n, f ⟨m + k.val, by have := k.isLt; omega⟩ := by
  subst h
  rw [Fin.sum_univ_add]
  rfl

/-! ## Edge initialisation -/

/-- The joined edge features at a column of the first block: the gathered node features. -/
theorem v11_left (x0 : (⟨S20000x64, .f32⟩ : BufTy).Contents (Elt Ideal)) (x1 : (⟨S320000x16, .f32⟩ : BufTy).Contents (Elt Ideal))
    (x2 : (⟨S2x320000, .i32⟩ : BufTy).Contents (Elt Ideal)) (r : Fin 320000) (k : Fin 64) :
    val_main_v11 (F := Ideal) x0 x1 x2 (ix2 r (⟨k.val, by have := k.isLt; omega⟩ : Fin 80)) = val_main_v10 (F := Ideal) x0 x2 (ix2 r k) := by
  unfold val_main_v11
  generalize val_main_v10 (F := Ideal) x0 x2 = y
  exact concatenate_pair_apply_left (1 : Fin S320000x80.rank) y x1 concatenates_S320000x64_S320000x16_S320000x80_d1
    (ix2 r (⟨k.val, by have := k.isLt; omega⟩ : Fin 80)) rfl (ix2 r k) (fun b => match b with | ⟨0, _⟩ => rfl | ⟨1, _⟩ => rfl)

/-- The joined edge features at a column of the second block: the edge's own features. -/
theorem v11_right (x0 : (⟨S20000x64, .f32⟩ : BufTy).Contents (Elt Ideal)) (x1 : (⟨S320000x16, .f32⟩ : BufTy).Contents (Elt Ideal))
    (x2 : (⟨S2x320000, .i32⟩ : BufTy).Contents (Elt Ideal)) (r : Fin 320000) (k : Fin 16) :
    val_main_v11 (F := Ideal) x0 x1 x2 (ix2 r (⟨64 + k.val, by have := k.isLt; omega⟩ : Fin 80)) = x1 (ix2 r k) := by
  unfold val_main_v11
  generalize val_main_v10 (F := Ideal) x0 x2 = y
  exact concatenate_pair_apply_right (1 : Fin S320000x80.rank) y x1 concatenates_S320000x64_S320000x16_S320000x80_d1
    (ix2 r (⟨64 + k.val, by have := k.isLt; omega⟩ : Fin 80)) rfl rfl (ix2 r k)
    (fun b hb => match b, hb with | ⟨0, _⟩, _ => rfl | ⟨1, _⟩, hb => absurd rfl hb)
    (by show k.val + 64 = 64 + k.val; omega)

/-- The bias, broadcast over the rows, at an index: the bias at the column. -/
theorem bias16_idx (r : Fin 320000) (c : Fin 300) : idx_main_v13 (idx_main_v14 (ix2 r c)) = ix1 c :=
  funext fun a => Fin.ext (by match a with | ⟨0, _⟩ => rfl)

/-- The product's left operand is read at the row and the contracted position. -/
theorem lidx12 (r : Fin 320000) (c : Fin 300) (k : Fin 80) : lidx_main_v12 (ix2 r c) k = ix2 r k :=
  funext fun a => Fin.ext (by match a with | ⟨0, _⟩ => rfl | ⟨1, _⟩ => rfl)

/-- The product's right operand is read at the contracted position and the column. -/
theorem ridx12 (r : Fin 320000) (c : Fin 300) (k : Fin 80) : ridx_main_v12 (ix2 r c) k = ix2 k c :=
  funext fun a => Fin.ext (by match a with | ⟨0, _⟩ => rfl | ⟨1, _⟩ => rfl)

/-- The edge-initialisation value at a row and a column. -/
theorem h0_at (x0 : (⟨S20000x64, .f32⟩ : BufTy).Contents (Elt Ideal)) (x1 : (⟨S320000x16, .f32⟩ : BufTy).Contents (Elt Ideal))
    (x2 : (⟨S2x320000, .i32⟩ : BufTy).Contents (Elt Ideal)) (x4 : (⟨S80x300, .f32⟩ : BufTy).Contents (Elt Ideal))
    (x5 : (⟨S300, .f32⟩ : BufTy).Contents (Elt Ideal)) (r : Fin 320000) (c : Fin 300) :
    val_main_v16 (F := Ideal) x0 x1 x2 x4 x5 (ix2 r c)
      = max (((∑ k : Fin 64, val_main_v10 (F := Ideal) x0 x2 (ix2 r k) * x4 (ix2 (⟨0 + k.val, by have := k.isLt; omega⟩ : Fin 80) c))
          + (∑ k : Fin 16, x1 (ix2 r k) * x4 (ix2 (⟨64 + k.val, by have := k.isLt; omega⟩ : Fin 80) c)))
          + x5 (ix1 c)) Cert.Spec.zero32 := by
  rw [val_main_v16_apply, val_main_v15_apply, val_main_v12_apply, val_main_v14_apply, val_main_v13_apply,
    val_main_call0_v0_apply, val_main_call0_cst_apply, bias16_idx]
  simp only [Ideal.maximumf_def, Ideal.addf_def, Ideal.ofBits_def]
  rw [sum_split (show 64 + 16 = 80 from rfl)]
  simp only [lidx12, ridx12, v11_left, v11_right, Nat.zero_add]

/-- The reference's edge-initialisation stage is the specification's, on the gathered node features, the edge
    features, the two row blocks of the weight matrix and the bias. -/
theorem h0_eq (x0 : (⟨S20000x64, .f32⟩ : BufTy).Contents (Elt Ideal)) (x1 : (⟨S320000x16, .f32⟩ : BufTy).Contents (Elt Ideal))
    (x2 : (⟨S2x320000, .i32⟩ : BufTy).Contents (Elt Ideal)) (x4 : (⟨S80x300, .f32⟩ : BufTy).Contents (Elt Ideal))
    (x5 : (⟨S300, .f32⟩ : BufTy).Contents (Elt Ideal)) :
    val_main_v16 (F := Ideal) x0 x1 x2 x4 x5
      = Cert.Spec.initRow (val_main_v10 (F := Ideal) x0 x2) x1 (Cert.Spec.rows 64 0 (by decide) x4)
          (Cert.Spec.rows 16 64 (by decide) x4) x5 := by
  funext i
  obtain ⟨r, c, rfl⟩ : ∃ (r : Fin 320000) (c : Fin 300), i = ix2 r c := ⟨i 0, i 1, eq_ix2 i⟩
  rw [h0_at]
  rfl

/-! ## Node update -/

/-- The joined node features at a column of the first block: the node's own features. -/
theorem v92_left (x0 : (⟨S20000x64, .f32⟩ : BufTy).Contents (Elt Ideal)) (x1 : (⟨S320000x16, .f32⟩ : BufTy).Contents (Elt Ideal))
    (x2 : (⟨S2x320000, .i32⟩ : BufTy).Contents (Elt Ideal)) (x4 : (⟨S80x300, .f32⟩ : BufTy).Contents (Elt Ideal))
    (x5 : (⟨S300, .f32⟩ : BufTy).Contents (Elt Ideal)) (x6 : (⟨S3x300x300, .f32⟩ : BufTy).Contents (Elt Ideal))
    (x7 : (⟨S3x300, .f32⟩ : BufTy).Contents (Elt Ideal)) (r : Fin 20000) (k : Fin 64) :
    val_main_v92 (F := Ideal) x0 x1 x2 x4 x5 x6 x7 (ix2 r (⟨k.val, by have := k.isLt; omega⟩ : Fin 364)) = x0 (ix2 r k) := by
  unfold val_main_v92
  generalize val_main_v91 (F := Ideal) x0 x1 x2 x4 x5 x6 x7 = y
  exact concatenate_pair_apply_left (1 : Fin S20000x364.rank) x0 y concatenates_S20000x64_S20000x300_S20000x364_d1
    (ix2 r (⟨k.val, by have := k.isLt; omega⟩ : Fin 364)) rfl (ix2 r k) (fun b => match b with | ⟨0, _⟩ => rfl | ⟨1, _⟩ => rfl)

/-- The joined node features at a column of the second block: the node's aggregated messages. -/
theorem v92_right (x0 : (⟨S20000x64, .f32⟩ : BufTy).Contents (Elt Ideal)) (x1 : (⟨S320000x16, .f32⟩ : BufTy).Contents (Elt Ideal))
    (x2 : (⟨S2x320000, .i32⟩ : BufTy).Contents (Elt Ideal)) (x4 : (⟨S80x300, .f32⟩ : BufTy).Contents (Elt Ideal))
    (x5 : (⟨S300, .f32⟩ : BufTy).Contents (Elt Ideal)) (x6 : (⟨S3x300x300, .f32⟩ : BufTy).Contents (Elt Ideal))
    (x7 : (⟨S3x300, .f32⟩ : BufTy).Contents (Elt Ideal)) (r : Fin 20000) (k : Fin 300) :
    val_main_v92 (F := Ideal) x0 x1 x2 x4 x5 x6 x7 (ix2 r (⟨64 + k.val, by have := k.isLt; omega⟩ : Fin 364))
      = val_main_v91 (F := Ideal) x0 x1 x2 x4 x5 x6 x7 (ix2 r k) := by
  unfold val_main_v92
  generalize val_main_v91 (F := Ideal) x0 x1 x2 x4 x5 x6 x7 = y
  exact concatenate_pair_apply_right (1 : Fin S20000x364.rank) x0 y concatenates_S20000x64_S20000x300_S20000x364_d1
    (ix2 r (⟨64 + k.val, by have := k.isLt; omega⟩ : Fin 364)) rfl rfl (ix2 r k)
    (fun b hb => match b, hb with | ⟨0, _⟩, _ => rfl | ⟨1, _⟩, hb => absurd rfl hb)
    (by show k.val + 64 = 64 + k.val; omega)

/-- The bias, broadcast over the rows, at an index: the bias at the column. -/
theorem bias97_idx (r : Fin 20000) (c : Fin 300) : idx_main_v94 (idx_main_v95 (ix2 r c)) = ix1 c :=
  funext fun a => Fin.ext (by match a with | ⟨0, _⟩ => rfl)

/-- The product's left operand is read at the row and the contracted position. -/
theorem lidx93 (r : Fin 20000) (c : Fin 300) (k : Fin 364) : lidx_main_v93 (ix2 r c) k = ix2 r k :=
  funext fun a => Fin.ext (by match a with | ⟨0, _⟩ => rfl | ⟨1, _⟩ => rfl)

/-- The product's right operand is read at the contracted position and the column. -/
theorem ridx93 (r : Fin 20000) (c : Fin 300) (k : Fin 364) : ridx_main_v93 (ix2 r c) k = ix2 k c :=
  funext fun a => Fin.ext (by match a with | ⟨0, _⟩ => rfl | ⟨1, _⟩ => rfl)

/-- The node-update value at a row and a column. -/
theorem e2n_at (x0 : (⟨S20000x64, .f32⟩ : BufTy).Contents (Elt Ideal)) (x1 : (⟨S320000x16, .f32⟩ : BufTy).Contents (Elt Ideal))
    (x2 : (⟨S2x320000, .i32⟩ : BufTy).Contents (Elt Ideal)) (x4 : (⟨S80x300, .f32⟩ : BufTy).Contents (Elt Ideal))
    (x5 : (⟨S300, .f32⟩ : BufTy).Contents (Elt Ideal)) (x6 : (⟨S3x300x300, .f32⟩ : BufTy).Contents (Elt Ideal))
    (x7 : (⟨S3x300, .f32⟩ : BufTy).Contents (Elt Ideal)) (x8 : (⟨S364x300, .f32⟩ : BufTy).Contents (Elt Ideal))
    (x9 : (⟨S300, .f32⟩ : BufTy).Contents (Elt Ideal)) (r : Fin 20000) (c : Fin 300) :
    val_main_v97 (F := Ideal) x0 x1 x2 x4 x5 x6 x7 x8 x9 (ix2 r c)
      = max (((∑ k : Fin 64, x0 (ix2 r k) * x8 (ix2 (⟨0 + k.val, by have := k.isLt; omega⟩ : Fin 364) c))
          + (∑ k : Fin 300, val_main_v91 (F := Ideal) x0 x1 x2 x4 x5 x6 x7 (ix2 r k)
              * x8 (ix2 (⟨64 + k.val, by have := k.isLt; omega⟩ : Fin 364) c)))
          + x9 (ix1 c)) Cert.Spec.zero32 := by
  rw [val_main_v97_apply, val_main_v96_apply, val_main_v93_apply, val_main_v95_apply, val_main_v94_apply,
    val_main_call4_v0_apply, val_main_call4_cst_apply, bias97_idx]
  simp only [Ideal.maximumf_def, Ideal.addf_def, Ideal.ofBits_def]
  rw [sum_split (show 64 + 300 = 364 from rfl)]
  simp only [lidx93, ridx93, v92_left, v92_right, Nat.zero_add]

/-- The reference's node-update stage is the specification's, on the node features, the aggregated messages, the
    two row blocks of the weight matrix and the bias. -/
theorem e2n_eq (x0 : (⟨S20000x64, .f32⟩ : BufTy).Contents (Elt Ideal)) (x1 : (⟨S320000x16, .f32⟩ : BufTy).Contents (Elt Ideal))
    (x2 : (⟨S2x320000, .i32⟩ : BufTy).Contents (Elt Ideal)) (x4 : (⟨S80x300, .f32⟩ : BufTy).Contents (Elt Ideal))
    (x5 : (⟨S300, .f32⟩ : BufTy).Contents (Elt Ideal)) (x6 : (⟨S3x300x300, .f32⟩ : BufTy).Contents (Elt Ideal))
    (x7 : (⟨S3x300, .f32⟩ : BufTy).Contents (Elt Ideal)) (x8 : (⟨S364x300, .f32⟩ : BufTy).Contents (Elt Ideal))
    (x9 : (⟨S300, .f32⟩ : BufTy).Contents (Elt Ideal)) :
    val_main_v97 (F := Ideal) x0 x1 x2 x4 x5 x6 x7 x8 x9
      = Cert.Spec.e2nRow x0 (val_main_v91 (F := Ideal) x0 x1 x2 x4 x5 x6 x7) (Cert.Spec.rows 64 0 (by decide) x8)
          (Cert.Spec.rows 300 64 (by decide) x8) x9 := by
  funext i
  obtain ⟨r, c, rfl⟩ : ∃ (r : Fin 20000) (c : Fin 300), i = ix2 r c := ⟨i 0, i 1, eq_ix2 i⟩
  rw [e2n_at]
  rfl

end Cert.ReferenceIdeal.Stage

end
-- ==== Proof.Ref.StageConv.lean ====
/- The reference's three message-passing stages, each as the shared specification's message-passing step: the gathered
   aggregate less the partner edge's state, through the layer's weights, plus the bias, plus the skip connection,
   rectified. The aggregate (a scatter-add over the edges followed by a gather) enters only as a given array. -/
import proofs.«428334_j59700045414568_2_alg».proof.Proof.Gen.ReferenceIdeal.Read
import proofs.«428334_j59700045414568_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stage

open Cert.ReferenceIdeal Cert.ReferenceIdeal.Gen Cert.ReferenceIdeal.Read Idealize.ShloMosaic Idealize.ShloMosaic.ValueIdx

/-- Reversal along the middle axis of a three-axis array reads the mirrored middle coordinate. -/
theorem reverse_mid_apply {α : Type} (y : S160000x2x300.Idx → α) (a : Fin 160000) (b : Fin 2) (k : Fin 300) :
    Host.reverse [1] y (ix3 a b k) = y (ix3 a b.rev k) := by
  unfold Host.reverse
  refine congrArg y (funext fun d => ?_)
  match d with
  | ⟨0, _⟩ => rfl
  | ⟨1, _⟩ => rfl
  | ⟨2, _⟩ => rfl

/-- The pair swap: rows regrouped in pairs, each pair mirrored, rows laid out again. Row p of the result is the
    partner row of the operand. -/
theorem swap_apply (h : FVec Ideal S320000x300 .f32) (p : Fin 320000) (k : Fin 300) :
    shapeCast S320000x300 (Host.reverse [1] (shapeCast S160000x2x300 h shapeCasts_S320000x300_S160000x2x300))
        shapeCasts_S160000x2x300_S320000x300 (ix2 p k)
      = h (ix2 (Cert.Spec.partner p) k) := by
  have hp : p.val < 320000 := p.isLt
  have hk : k.val < 300 := k.isLt
  rw [shapeCast_apply _ shapeCasts_S160000x2x300_S320000x300 (ix2 p k)
    (ix3 (⟨p.val / 2, by omega⟩ : Fin 160000) (⟨p.val % 2, by omega⟩ : Fin 2) k)
    (by rewrite [Shape.rowMajor_val_three, Shape.rowMajor_val_two]
        show (p.val / 2 * 2 + p.val % 2) * 300 + k.val = p.val * 300 + k.val; omega)]
  rw [reverse_mid_apply]
  exact shapeCast_apply h shapeCasts_S320000x300_S160000x2x300 _ (ix2 (Cert.Spec.partner p) k)
    (by rewrite [Shape.rowMajor_val_two, Shape.rowMajor_val_three]
        show (Cert.Spec.partner p).val * 300 + k.val = (p.val / 2 * 2 + (Fin.rev (⟨p.val % 2, by omega⟩ : Fin 2)).val) * 300 + k.val
        rw [Fin.val_rev]
        show (if p.val % 2 = 0 then p.val + 1 else p.val - 1) * 300 + k.val = (p.val / 2 * 2 + (2 - (p.val % 2 + 1))) * 300 + k.val
        split <;> omega)

/-- The contraction with a square weight matrix, as a sum over its 300 inner positions. -/
theorem dot_apply (A : FVec Ideal S320000x300 .f32) (W : FVec Ideal S300x300 .f32)
    (p : Fin 320000) (c : Fin 300) :
    Host.dotGeneral dot_S320000x300_S300x300_S320000x300_1_0_0_1_n_n none A W (ix2 p c)
      = ∑ k : Fin 300, A (ix2 p k) * W (ix2 k c) := by
  simp only [Host.dotGeneral]
  rw [Ideal.dotGeneral_apply, ← Equiv.sum_comp (ValueIdx.contrEquiv1 dot_S320000x300_S300x300_S320000x300_1_0_0_1_n_n 300 rfl rfl).symm]
  refine Finset.sum_congr rfl fun k _ => ?_
  have hk := ValueIdx.contrEquiv1_symm_val dot_S320000x300_S300x300_S320000x300_1_0_0_1_n_n 300 rfl rfl k
  have el : dot_S320000x300_S300x300_S320000x300_1_0_0_1_n_n.lhsIdx (ix2 p c) ((ValueIdx.contrEquiv1 dot_S320000x300_S300x300_S320000x300_1_0_0_1_n_n 300 rfl rfl).symm k) = ix2 p k := funext fun a => Fin.ext (by
    match a with
    | ⟨0, _⟩ => exact lhs_main_v33_0 _ _
    | ⟨1, _⟩ => exact (lhs_main_v33_1 _ _).trans hk)
  have er : dot_S320000x300_S300x300_S320000x300_1_0_0_1_n_n.rhsIdx (ix2 p c) ((ValueIdx.contrEquiv1 dot_S320000x300_S300x300_S320000x300_1_0_0_1_n_n 300 rfl rfl).symm k) = ix2 k c := funext fun a => Fin.ext (by
    match a with
    | ⟨0, _⟩ => exact (rhs_main_v33_0 _ _).trans hk
    | ⟨1, _⟩ => exact rhs_main_v33_1 _ _)
  rw [el, er]

/-- A vector laid along the columns of every row. -/
theorem bias_apply (b : FVec Ideal S300 .f32) (p : Fin 320000) (c : Fin 300) :
    broadcastInDim S320000x300 ![0, 1] bcast_S1x300_S320000x300_0_1 (broadcastInDim S1x300 ![1] bcast_S300_S1x300_1 b) (ix2 p c)
      = b (ix1 c) := by
  rw [broadcastInDim_apply _ bcast_S1x300_S320000x300_0_1 _ (ix2 p c) (ix2 (0 : Fin 1) c) (fun a => match a with
    | ⟨0, _⟩ => by show 0 = if (1 : Nat) = 1 then 0 else p.val; rw [if_pos rfl]
    | ⟨1, _⟩ => by show c.val = if (300 : Nat) = 1 then 0 else c.val; rw [if_neg (by decide)])]
  exact broadcastInDim_apply _ bcast_S300_S1x300_1 b (ix2 (0 : Fin 1) c) (ix1 c) (fun a => match a with
    | ⟨0, _⟩ => by show c.val = if (300 : Nat) = 1 then 0 else c.val; rw [if_neg (by decide)])

/-- The rectifier's zero, laid over the whole array. -/
theorem zero_apply (i : S320000x300.Idx) :
    broadcastInDim S320000x300 ![] bcast_S_S320000x300 (constant (F := Ideal) S_ .f32 0x00000000#32) i = Cert.Spec.zero32 :=
  broadcastInDim_apply _ bcast_S_S320000x300 (constant (F := Ideal) S_ .f32 0x00000000#32) i ix0 (fun a => a.elim0)

/-- One message-passing stage of the reference, over any aggregate, edge state, skip state, weights and bias. -/
theorem conv_general (g h h0 : FVec Ideal S320000x300 .f32) (W : FVec Ideal S300x300 .f32)
    (b : FVec Ideal S300 .f32) :
    maximumf (addf (addf (Host.dotGeneral dot_S320000x300_S300x300_S320000x300_1_0_0_1_n_n none
        (subf g (shapeCast S320000x300 (Host.reverse [1] (shapeCast S160000x2x300 h shapeCasts_S320000x300_S160000x2x300))
          shapeCasts_S160000x2x300_S320000x300)) W)
        (broadcastInDim S320000x300 ![0, 1] bcast_S1x300_S320000x300_0_1 (broadcastInDim S1x300 ![1] bcast_S300_S1x300_1 b))) h0)
      (broadcastInDim S320000x300 ![] bcast_S_S320000x300 (constant (F := Ideal) S_ .f32 0x00000000#32))
      = Cert.Spec.convRow g h h0 W b := by
  funext i
  obtain ⟨p, c, rfl⟩ : ∃ (p : Fin 320000) (c : Fin 300), i = ix2 p c := ⟨i 0, i 1, eq_ix2 i⟩
  rw [maximumf_apply, addf_apply, addf_apply, dot_apply, bias_apply, zero_apply]
  show max ((∑ k : Fin 300, _ * W (ix2 k c)) + b (ix1 c) + h0 (ix2 p c)) Cert.Spec.zero32
    = max ((∑ k : Fin 300, (g (ix2 p k) - h (ix2 (Cert.Spec.partner p) k)) * W (ix2 k c)) + b (ix1 c) + h0 (ix2 p c)) Cert.Spec.zero32
  refine congrArg (fun s => max (s + b (ix1 c) + h0 (ix2 p c)) Cert.Spec.zero32) (Finset.sum_congr rfl fun k _ => ?_)
  rw [subf_apply, swap_apply]

/-- Layer 0's weight matrix: the slice of the stack at 0, its unit axis dropped. -/
theorem weight0_eq (x6 : (⟨S3x300x300, .f32⟩ : BufTy).Contents (Elt Ideal)) : val_main_v32 (F := Ideal) x6 = Cert.Spec.layerMat 0 x6 := by
  funext i
  have h0 : (i 0).val < 300 := (i 0).isLt
  have h1 : (i 1).val < 300 := (i 1).isLt
  rw [val_main_v32_apply, val_main_v31_apply]
  exact congrArg x6 (funext fun a => Fin.ext (by
    match a with
    | ⟨0, _⟩ => rfl
    | ⟨1, _⟩ => show ((i 0).val * 300 + (i 1).val) / 300 % 300 = (i 0).val; omega
    | ⟨2, _⟩ => show ((i 0).val * 300 + (i 1).val) % 300 = (i 1).val; omega))

/-- Layer 0's bias: the slice of the stack at 0, its unit axis dropped. -/
theorem bias0_eq (x7 : (⟨S3x300, .f32⟩ : BufTy).Contents (Elt Ideal)) : val_main_v35 (F := Ideal) x7 = Cert.Spec.layerVec 0 x7 := by
  funext i
  have h0 : (i 0).val < 300 := (i 0).isLt
  rw [val_main_v35_apply, val_main_v34_apply]
  exact congrArg x7 (funext fun a => Fin.ext (by
    match a with
    | ⟨0, _⟩ => rfl
    | ⟨1, _⟩ => show ((i 0).val) % 300 = (i 0).val; omega))

/-- Layer 1's weight matrix: the slice of the stack at 1, its unit axis dropped. -/
theorem weight1_eq (x6 : (⟨S3x300x300, .f32⟩ : BufTy).Contents (Elt Ideal)) : val_main_v56 (F := Ideal) x6 = Cert.Spec.layerMat 1 x6 := by
  funext i
  have h0 : (i 0).val < 300 := (i 0).isLt
  have h1 : (i 1).val < 300 := (i 1).isLt
  rw [val_main_v56_apply, val_main_v55_apply]
  exact congrArg x6 (funext fun a => Fin.ext (by
    match a with
    | ⟨0, _⟩ => rfl
    | ⟨1, _⟩ => show ((i 0).val * 300 + (i 1).val) / 300 % 300 = (i 0).val; omega
    | ⟨2, _⟩ => show ((i 0).val * 300 + (i 1).val) % 300 = (i 1).val; omega))

/-- Layer 1's bias: the slice of the stack at 1, its unit axis dropped. -/
theorem bias1_eq (x7 : (⟨S3x300, .f32⟩ : BufTy).Contents (Elt Ideal)) : val_main_v59 (F := Ideal) x7 = Cert.Spec.layerVec 1 x7 := by
  funext i
  have h0 : (i 0).val < 300 := (i 0).isLt
  rw [val_main_v59_apply, val_main_v58_apply]
  exact congrArg x7 (funext fun a => Fin.ext (by
    match a with
    | ⟨0, _⟩ => rfl
    | ⟨1, _⟩ => show ((i 0).val) % 300 = (i 0).val; omega))

/-- Layer 2's weight matrix: the slice of the stack at 2, its unit axis dropped. -/
theorem weight2_eq (x6 : (⟨S3x300x300, .f32⟩ : BufTy).Contents (Elt Ideal)) : val_main_v80 (F := Ideal) x6 = Cert.Spec.layerMat 2 x6 := by
  funext i
  have h0 : (i 0).val < 300 := (i 0).isLt
  have h1 : (i 1).val < 300 := (i 1).isLt
  rw [val_main_v80_apply, val_main_v79_apply]
  exact congrArg x6 (funext fun a => Fin.ext (by
    match a with
    | ⟨0, _⟩ => rfl
    | ⟨1, _⟩ => show ((i 0).val * 300 + (i 1).val) / 300 % 300 = (i 0).val; omega
    | ⟨2, _⟩ => show ((i 0).val * 300 + (i 1).val) % 300 = (i 1).val; omega))

/-- Layer 2's bias: the slice of the stack at 2, its unit axis dropped. -/
theorem bias2_eq (x7 : (⟨S3x300, .f32⟩ : BufTy).Contents (Elt Ideal)) : val_main_v83 (F := Ideal) x7 = Cert.Spec.layerVec 2 x7 := by
  funext i
  have h0 : (i 0).val < 300 := (i 0).isLt
  rw [val_main_v83_apply, val_main_v82_apply]
  exact congrArg x7 (funext fun a => Fin.ext (by
    match a with
    | ⟨0, _⟩ => rfl
    | ⟨1, _⟩ => show ((i 0).val) % 300 = (i 0).val; omega))

/-- Stage 0 of the reference is the specification's message-passing step at layer 0. -/
theorem conv0_eq (x0 : (⟨S20000x64, .f32⟩ : BufTy).Contents (Elt Ideal)) (x1 : (⟨S320000x16, .f32⟩ : BufTy).Contents (Elt Ideal)) (x2 : (⟨S2x320000, .i32⟩ : BufTy).Contents (Elt Ideal)) (x4 : (⟨S80x300, .f32⟩ : BufTy).Contents (Elt Ideal)) (x5 : (⟨S300, .f32⟩ : BufTy).Contents (Elt Ideal)) (x6 : (⟨S3x300x300, .f32⟩ : BufTy).Contents (Elt Ideal)) (x7 : (⟨S3x300, .f32⟩ : BufTy).Contents (Elt Ideal)) :
    val_main_v40 (F := Ideal) x0 x1 x2 x4 x5 x6 x7
      = Cert.Spec.convRow (val_main_v26 (F := Ideal) x0 x1 x2 x4 x5) (val_main_v16 (F := Ideal) x0 x1 x2 x4 x5)
          (val_main_v16 (F := Ideal) x0 x1 x2 x4 x5) (Cert.Spec.layerMat 0 x6) (Cert.Spec.layerVec 0 x7) := by
  unfold val_main_v40 val_main_v39 val_main_v38 val_main_v37 val_main_v36 val_main_v33 val_main_v30
    val_main_v29 val_main_v28 val_main_v27 val_main_call1_v0 val_main_call1_cst
  rw [weight0_eq, bias0_eq]
  exact conv_general _ _ _ _ _

/-- Stage 1 of the reference is the specification's message-passing step at layer 1. -/
theorem conv1_eq (x0 : (⟨S20000x64, .f32⟩ : BufTy).Contents (Elt Ideal)) (x1 : (⟨S320000x16, .f32⟩ : BufTy).Contents (Elt Ideal)) (x2 : (⟨S2x320000, .i32⟩ : BufTy).Contents (Elt Ideal)) (x4 : (⟨S80x300, .f32⟩ : BufTy).Contents (Elt Ideal)) (x5 : (⟨S300, .f32⟩ : BufTy).Contents (Elt Ideal)) (x6 : (⟨S3x300x300, .f32⟩ : BufTy).Contents (Elt Ideal)) (x7 : (⟨S3x300, .f32⟩ : BufTy).Contents (Elt Ideal)) :
    val_main_v64 (F := Ideal) x0 x1 x2 x4 x5 x6 x7
      = Cert.Spec.convRow (val_main_v50 (F := Ideal) x0 x1 x2 x4 x5 x6 x7) (val_main_v40 (F := Ideal) x0 x1 x2 x4 x5 x6 x7)
          (val_main_v16 (F := Ideal) x0 x1 x2 x4 x5) (Cert.Spec.layerMat 1 x6) (Cert.Spec.layerVec 1 x7) := by
  unfold val_main_v64 val_main_v63 val_main_v62 val_main_v61 val_main_v60 val_main_v57 val_main_v54
    val_main_v53 val_main_v52 val_main_v51 val_main_call2_v0 val_main_call2_cst
  rw [weight1_eq, bias1_eq]
  exact conv_general _ _ _ _ _

/-- Stage 2 of the reference is the specification's message-passing step at layer 2. -/
theorem conv2_eq (x0 : (⟨S20000x64, .f32⟩ : BufTy).Contents (Elt Ideal)) (x1 : (⟨S320000x16, .f32⟩ : BufTy).Contents (Elt Ideal)) (x2 : (⟨S2x320000, .i32⟩ : BufTy).Contents (Elt Ideal)) (x4 : (⟨S80x300, .f32⟩ : BufTy).Contents (Elt Ideal)) (x5 : (⟨S300, .f32⟩ : BufTy).Contents (Elt Ideal)) (x6 : (⟨S3x300x300, .f32⟩ : BufTy).Contents (Elt Ideal)) (x7 : (⟨S3x300, .f32⟩ : BufTy).Contents (Elt Ideal)) :
    val_main_v88 (F := Ideal) x0 x1 x2 x4 x5 x6 x7
      = Cert.Spec.convRow (val_main_v74 (F := Ideal) x0 x1 x2 x4 x5 x6 x7) (val_main_v64 (F := Ideal) x0 x1 x2 x4 x5 x6 x7)
          (val_main_v16 (F := Ideal) x0 x1 x2 x4 x5) (Cert.Spec.layerMat 2 x6) (Cert.Spec.layerVec 2 x7) := by
  unfold val_main_v88 val_main_v87 val_main_v86 val_main_v85 val_main_v84 val_main_v81 val_main_v78
    val_main_v77 val_main_v76 val_main_v75 val_main_call3_v0 val_main_call3_cst
  rw [weight2_eq, bias2_eq]
  exact conv_general _ _ _ _ _

end Cert.ReferenceIdeal.Stage

end
-- ==== Proof.Bridge.lean ====
/- The two programs hold the same arrays, stage by stage (at the extended reals, under the precondition's range of
   the source-node indices): the kernel's region outputs, read through the fold of its buffers, are the reference's
   intermediate values. A filled row gather whose mask is everywhere set is the plain gather; a change of float format
   is the identity; row blocks of a weight matrix are its slices; a segment sum is the same operation of equal
   arguments on both sides and is never opened. -/
import proofs.«428334_j59700045414568_2_alg».proof.Proof.KI.Fold
import proofs.«428334_j59700045414568_2_alg».proof.Proof.KI.Val0
import proofs.«428334_j59700045414568_2_alg».proof.Proof.KI.Val1
import proofs.«428334_j59700045414568_2_alg».proof.Proof.KI.Val2
import proofs.«428334_j59700045414568_2_alg».proof.Proof.KI.Val3
import proofs.«428334_j59700045414568_2_alg».proof.Proof.KI.Val4
import proofs.«428334_j59700045414568_2_alg».proof.Proof.KI.Take
import proofs.«428334_j59700045414568_2_alg».proof.Proof.KI.Entries012
import proofs.«428334_j59700045414568_2_alg».proof.Proof.KI.Entries34
import proofs.«428334_j59700045414568_2_alg».proof.Proof.Ref.Stage0
import proofs.«428334_j59700045414568_2_alg».proof.Proof.Ref.StageConv
import Idealize.ShloMosaic.Lib.Pipeline.Value
import Idealize.ShloMosaic.Lib.ValueIdx

set_option maxRecDepth 16384

noncomputable section

namespace Cert.Bridge

open Cert.KernelIdeal Cert.KernelIdeal.Gen Cert.KernelIdeal.Reg Cert.KernelIdeal.Take
open Idealize.ShloMosaic Idealize.ShloMosaic.TcCoe Idealize.ShloMosaic.ValueIdx Idealize.SL.Sem

variable (m : (ℓ : Loc nD τ sig) → Buf (Elt Ideal) ℓ) (c : Dev nD)

/-- The argument arrays on core `c`. -/
abbrev A0 : Buf (Elt Ideal) ((c.tc : Thread nD τ).loc main_arg0) := m ((c.tc : Thread nD τ).loc main_arg0)
abbrev A1 : Buf (Elt Ideal) ((c.tc : Thread nD τ).loc main_arg1) := m ((c.tc : Thread nD τ).loc main_arg1)
abbrev A2 : Buf (Elt Ideal) ((c.tc : Thread nD τ).loc main_arg2) := m ((c.tc : Thread nD τ).loc main_arg2)
abbrev A3 : Buf (Elt Ideal) ((c.tc : Thread nD τ).loc main_arg3) := m ((c.tc : Thread nD τ).loc main_arg3)
abbrev A4 : Buf (Elt Ideal) ((c.tc : Thread nD τ).loc main_arg4) := m ((c.tc : Thread nD τ).loc main_arg4)
abbrev A5 : Buf (Elt Ideal) ((c.tc : Thread nD τ).loc main_arg5) := m ((c.tc : Thread nD τ).loc main_arg5)
abbrev A6 : Buf (Elt Ideal) ((c.tc : Thread nD τ).loc main_arg6) := m ((c.tc : Thread nD τ).loc main_arg6)
abbrev A7 : Buf (Elt Ideal) ((c.tc : Thread nD τ).loc main_arg7) := m ((c.tc : Thread nD τ).loc main_arg7)
abbrev A8 : Buf (Elt Ideal) ((c.tc : Thread nD τ).loc main_arg8) := m ((c.tc : Thread nD τ).loc main_arg8)
abbrev A9 : Buf (Elt Ideal) ((c.tc : Thread nD τ).loc main_arg9) := m ((c.tc : Thread nD τ).loc main_arg9)
abbrev A10 : Buf (Elt Ideal) ((c.tc : Thread nD τ).loc main_arg10) := m ((c.tc : Thread nD τ).loc main_arg10)
abbrev A11 : Buf (Elt Ideal) ((c.tc : Thread nD τ).loc main_arg11) := m ((c.tc : Thread nD τ).loc main_arg11)

/-- The reference's gathered rows are the gather at the wrapped indices (the same operations, spelt in the other program). -/
theorem ref_gather64 (a0 : FVec Ideal S20000x64 .f32) (a2 : IVec S2x320000 32) :
    Cert.ReferenceIdeal.Read.val_main_v10 (F := Ideal) a0 a2
      = Host.gather gather_S20000x64_S320000x1_S320000x64_1_0_n_n_0_1_164 a0 (takeIdx (rowOf a2)) := rfl

/-- Row blocks of the edge-initialisation and node-update weight matrices. -/
theorem rows_init_top (a4 : FVec Ideal S80x300 .f32) :
    (extractStridedSlice S64x300 ![0, 0] a4 slices_S80x300_S64x300_0_0 : S64x300.Idx → EReal) = Cert.Spec.rows 64 0 (by decide) a4 := by
  funext i
  rw [extractStridedSlice_apply ![0, 0] a4 slices_S80x300_S64x300_0_0 i (ix2 ⟨0 + (i 0).val, by have hi : (i 0).val < 64 := (i 0).isLt; omega⟩ (i 1)) (fun a => match a with
    | ⟨0, _⟩ => rfl
    | ⟨1, _⟩ => by show (i 1).val = 0 + (i 1).val; omega)]
  rfl
theorem rows_init_bot (a4 : FVec Ideal S80x300 .f32) :
    (extractStridedSlice S16x300 ![64, 0] a4 slices_S80x300_S16x300_64_0 : S16x300.Idx → EReal) = Cert.Spec.rows 16 64 (by decide) a4 := by
  funext i
  rw [extractStridedSlice_apply ![64, 0] a4 slices_S80x300_S16x300_64_0 i (ix2 ⟨64 + (i 0).val, by have hi : (i 0).val < 16 := (i 0).isLt; omega⟩ (i 1)) (fun a => match a with
    | ⟨0, _⟩ => rfl
    | ⟨1, _⟩ => by show (i 1).val = 0 + (i 1).val; omega)]
  rfl
theorem rows_e2n_top (a8 : FVec Ideal S364x300 .f32) :
    (extractStridedSlice S64x300 ![0, 0] a8 slices_S364x300_S64x300_0_0 : S64x300.Idx → EReal) = Cert.Spec.rows 64 0 (by decide) a8 := by
  funext i
  rw [extractStridedSlice_apply ![0, 0] a8 slices_S364x300_S64x300_0_0 i (ix2 ⟨0 + (i 0).val, by have hi : (i 0).val < 64 := (i 0).isLt; omega⟩ (i 1)) (fun a => match a with
    | ⟨0, _⟩ => rfl
    | ⟨1, _⟩ => by show (i 1).val = 0 + (i 1).val; omega)]
  rfl
theorem rows_e2n_bot (a8 : FVec Ideal S364x300 .f32) :
    (extractStridedSlice S300x300 ![64, 0] a8 slices_S364x300_S300x300_64_0 : S300x300.Idx → EReal) = Cert.Spec.rows 300 64 (by decide) a8 := by
  funext i
  rw [extractStridedSlice_apply ![64, 0] a8 slices_S364x300_S300x300_64_0 i (ix2 ⟨64 + (i 0).val, by have hi : (i 0).val < 300 := (i 0).isLt; omega⟩ (i 1)) (fun a => match a with
    | ⟨0, _⟩ => rfl
    | ⟨1, _⟩ => by show (i 1).val = 0 + (i 1).val; omega)]
  rfl

/-- The source-node indices lie in the table's wrap range. -/
def RowRange : Prop := ∀ e : Fin 320000, -20000 ≤ ((rowOf (A2 m c)) (ix1 e)).toInt ∧ ((rowOf (A2 m c)) (ix1 e)).toInt < 20000

/-- STAGE 0: the initial edge state. -/
theorem stage0 (hrow : RowRange m c) :
    (X0 m c main_v9 : S320000x300.Idx → EReal) = Cert.ReferenceIdeal.Read.val_main_v16 (F := Ideal) (A0 m c) (A1 m c) (A2 m c) (A4 m c) (A5 m c) := by
  rw [X0_out, final0 (E0 m) qq0 c, e0_0, e0_1, e0_2, e0_3, e0_4, take64_eq _ _ hrow, Cert.ReferenceIdeal.Stage.h0_eq, ref_gather64]
  exact congrArg₂ (fun wx we => Cert.Spec.initRow _ _ wx we _) (rows_init_top _) (rows_init_bot _)

/-- STAGE 1: the edge state after message-passing step 1. -/
theorem stage1 (hrow : RowRange m c) :
    (X1 m c main_v20 : S320000x300.Idx → EReal) = Cert.ReferenceIdeal.Read.val_main_v40 (F := Ideal) (A0 m c) (A1 m c) (A2 m c) (A4 m c) (A5 m c) (A6 m c) (A7 m c) := by
  have hf : (X1 m c main_v20 : S320000x300.Idx → EReal)
      = Cert.Spec.convRow (E1 m c main_v15) (E1 m c main_v9) (E1 m c main_v9) (E1 m c main_v17) (E1 m c main_v19) :=
    (X1_out m c).trans (final1 (E1 m) qq1 c)
  have hh : (X0 m c main_v9 : S320000x300.Idx → EReal) = Cert.ReferenceIdeal.Read.val_main_v16 (F := Ideal) (A0 m c) (A1 m c) (A2 m c) (A4 m c) (A5 m c) := stage0 m c hrow
  have h0 : (X0 m c main_v9 : S320000x300.Idx → EReal) = Cert.ReferenceIdeal.Read.val_main_v16 (F := Ideal) (A0 m c) (A1 m c) (A2 m c) (A4 m c) (A5 m c) := stage0 m c hrow
  have hag : (E1 m c main_v15 : S320000x300.Idx → EReal) = Cert.ReferenceIdeal.Read.val_main_v26 (F := Ideal) (A0 m c) (A1 m c) (A2 m c) (A4 m c) (A5 m c) := by
    rw [e1_0, take300_eq _ _ hrow, hh]; rfl
  have hw : (E1 m c main_v17 : S300x300.Idx → EReal) = Cert.Spec.layerMat 0 (A6 m c) := by
    rw [e1_3]; exact Cert.ReferenceIdeal.Stage.weight0_eq _
  have hb : (E1 m c main_v19 : S300.Idx → EReal) = Cert.Spec.layerVec 0 (A7 m c) := by
    rw [e1_4]; exact Cert.ReferenceIdeal.Stage.bias0_eq _
  rw [hf, hag, hw, hb, e1_1, h0, Cert.ReferenceIdeal.Stage.conv0_eq]

/-- STAGE 2: the edge state after message-passing step 2. -/
theorem stage2 (hrow : RowRange m c) :
    (X2 m c main_v31 : S320000x300.Idx → EReal) = Cert.ReferenceIdeal.Read.val_main_v64 (F := Ideal) (A0 m c) (A1 m c) (A2 m c) (A4 m c) (A5 m c) (A6 m c) (A7 m c) := by
  have hf : (X2 m c main_v31 : S320000x300.Idx → EReal)
      = Cert.Spec.convRow (E2 m c main_v26) (E2 m c main_v20) (E2 m c main_v9) (E2 m c main_v28) (E2 m c main_v30) :=
    (X2_out m c).trans (final2 (E2 m) qq2 c)
  have hh : (X1 m c main_v20 : S320000x300.Idx → EReal) = Cert.ReferenceIdeal.Read.val_main_v40 (F := Ideal) (A0 m c) (A1 m c) (A2 m c) (A4 m c) (A5 m c) (A6 m c) (A7 m c) := stage1 m c hrow
  have h0 : (X0 m c main_v9 : S320000x300.Idx → EReal) = Cert.ReferenceIdeal.Read.val_main_v16 (F := Ideal) (A0 m c) (A1 m c) (A2 m c) (A4 m c) (A5 m c) := stage0 m c hrow
  have hag : (E2 m c main_v26 : S320000x300.Idx → EReal) = Cert.ReferenceIdeal.Read.val_main_v50 (F := Ideal) (A0 m c) (A1 m c) (A2 m c) (A4 m c) (A5 m c) (A6 m c) (A7 m c) := by
    rw [e2_0, take300_eq _ _ hrow, hh]; rfl
  have hw : (E2 m c main_v28 : S300x300.Idx → EReal) = Cert.Spec.layerMat 1 (A6 m c) := by
    rw [e2_3]; exact Cert.ReferenceIdeal.Stage.weight1_eq _
  have hb : (E2 m c main_v30 : S300.Idx → EReal) = Cert.Spec.layerVec 1 (A7 m c) := by
    rw [e2_4]; exact Cert.ReferenceIdeal.Stage.bias1_eq _
  rw [hf, hag, hw, hb, e2_1, hh, e2_2, h0, Cert.ReferenceIdeal.Stage.conv1_eq]

/-- STAGE 3: the edge state after message-passing step 3. -/
theorem stage3 (hrow : RowRange m c) :
    (X3 m c main_v42 : S320000x300.Idx → EReal) = Cert.ReferenceIdeal.Read.val_main_v88 (F := Ideal) (A0 m c) (A1 m c) (A2 m c) (A4 m c) (A5 m c) (A6 m c) (A7 m c) := by
  have hf : (X3 m c main_v42 : S320000x300.Idx → EReal)
      = Cert.Spec.convRow (E3 m c main_v37) (E3 m c main_v31) (E3 m c main_v9) (E3 m c main_v39) (E3 m c main_v41) :=
    (X3_out m c).trans (final3 (E3 m) qq3 c)
  have hh : (X2 m c main_v31 : S320000x300.Idx → EReal) = Cert.ReferenceIdeal.Read.val_main_v64 (F := Ideal) (A0 m c) (A1 m c) (A2 m c) (A4 m c) (A5 m c) (A6 m c) (A7 m c) := stage2 m c hrow
  have h0 : (X0 m c main_v9 : S320000x300.Idx → EReal) = Cert.ReferenceIdeal.Read.val_main_v16 (F := Ideal) (A0 m c) (A1 m c) (A2 m c) (A4 m c) (A5 m c) := stage0 m c hrow
  have hag : (E3 m c main_v37 : S320000x300.Idx → EReal) = Cert.ReferenceIdeal.Read.val_main_v74 (F := Ideal) (A0 m c) (A1 m c) (A2 m c) (A4 m c) (A5 m c) (A6 m c) (A7 m c) := by
    rw [e3_0, take300_eq _ _ hrow, hh]; rfl
  have hw : (E3 m c main_v39 : S300x300.Idx → EReal) = Cert.Spec.layerMat 2 (A6 m c) := by
    rw [e3_3]; exact Cert.ReferenceIdeal.Stage.weight2_eq _
  have hb : (E3 m c main_v41 : S300.Idx → EReal) = Cert.Spec.layerVec 2 (A7 m c) := by
    rw [e3_4]; exact Cert.ReferenceIdeal.Stage.bias2_eq _
  rw [hf, hag, hw, hb, e3_1, hh, e3_2, h0, Cert.ReferenceIdeal.Stage.conv2_eq]

/-- STAGE 4: the node state. -/
theorem stage4 (hrow : RowRange m c) :
    (X4 m c main_v49 : S20000x300.Idx → EReal) = Cert.ReferenceIdeal.Read.val_main_v97 (F := Ideal) (A0 m c) (A1 m c) (A2 m c) (A4 m c) (A5 m c) (A6 m c) (A7 m c) (A8 m c) (A9 m c) := by
  have hf : (X4 m c main_v49 : S20000x300.Idx → EReal)
      = Cert.Spec.e2nRow (E4 m c main_arg0) (E4 m c main_v46) (E4 m c main_v47) (E4 m c main_v48) (E4 m c main_arg9) :=
    (X4_out m c).trans (final4 (E4 m) qq4 c)
  have hh : (X3 m c main_v42 : S320000x300.Idx → EReal) = Cert.ReferenceIdeal.Read.val_main_v88 (F := Ideal) (A0 m c) (A1 m c) (A2 m c) (A4 m c) (A5 m c) (A6 m c) (A7 m c) := stage3 m c hrow
  have hs : (E4 m c main_v46 : S20000x300.Idx → EReal) = Cert.ReferenceIdeal.Read.val_main_v91 (F := Ideal) (A0 m c) (A1 m c) (A2 m c) (A4 m c) (A5 m c) (A6 m c) (A7 m c) := by
    rw [e4_1, hh]; rfl
  rw [hf, hs, e4_0, e4_2, e4_3, e4_4, Cert.ReferenceIdeal.Stage.e2n_eq]
  exact congrArg₂ (fun wx ws => Cert.Spec.e2nRow _ _ wx ws _) (rows_e2n_top _) (rows_e2n_bot _)

/-- THE RESULT: the kernel's result buffer at the end is the reference's composed term of the arguments. -/
theorem result_of_range (hrow : RowRange m c) :
    U19 m c main_v57 = Cert.ReferenceIdeal.Read.val_main_v105 (F := Ideal) (A0 m c) (A1 m c) (A2 m c) (A3 m c) (A4 m c) (A5 m c) (A6 m c) (A7 m c) (A8 m c) (A9 m c) (A10 m c) (A11 m c) := by
  rw [e_out, stage4 m c hrow]; rfl

/-- The same from the precondition, which bounds the source-node indices. -/
theorem result_eq [hP : Cert.Pre_finite_inputs.Facts] (h : Cert.Pre_KernelIdeal m) (c : Dev nD) :
    U19 m c main_v57 = Cert.ReferenceIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  result_of_range m c (fun e => row_range m h c e)

end Cert.Bridge

end
-- ==== Proof.lean ====
/- The proof of `Cert.Claim`: the kernel program (a graph network's edge initialisation, three message-passing
   steps and a node update as five pipelined kernel calls among host gathers and segment sums) against its array
   reference, over the extended reals.

   Frames. Each kernel program runs as its nineteen items in order (Proof/KI/Run.lean, and its word-level copy): every
   execution terminates, nothing faults, and no item writes an argument array. The reference is a straight line of
   host operations.

   Values. Under the precondition every source-node index lies in [-20000, 20000), so the kernel's filled row
   gathers are the reference's clamped ones. Then, stage by stage, the two programs hold the same arrays: the edge
   initialisation splits the reference's one product over 80 columns into the products over its 64 node and 16 edge
   columns; a message-passing step is the same sum over 300 columns of (gathered aggregate - partner edge's state)
   against the layer's weights; the node update splits 364 = 64 + 300 likewise; the segment sums, the final pooling
   and the read-out are the same operations applied to equal arrays. A change of float format is the identity on the
   extended reals. -/
import proofs.«428334_j59700045414568_2_alg».proof.Defs
import proofs.«428334_j59700045414568_2_alg».proof.Proof.Gen.Kernel
import proofs.«428334_j59700045414568_2_alg».proof.Proof.Gen.KernelIdeal
import proofs.«428334_j59700045414568_2_alg».proof.Proof.Gen.ReferenceIdeal
import proofs.«428334_j59700045414568_2_alg».proof.Proof.Gen.Pre_finite_inputs
import proofs.«428334_j59700045414568_2_alg».proof.Proof.Gen.ReferenceIdeal.Run
import proofs.«428334_j59700045414568_2_alg».proof.Proof.Gen.ReferenceIdeal.Read
import proofs.«428334_j59700045414568_2_alg».proof.Proof.K.Run
import proofs.«428334_j59700045414568_2_alg».proof.Proof.KI.Run
import proofs.«428334_j59700045414568_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m g _ => Cert.Kernel.Reg.run_frame (F := Bits) m g

theorem frame_ki : Cert.frame_KernelIdeal := fun m g _ => Cert.KernelIdeal.Reg.run_frame (F := Ideal) m g

theorem frame_ri : Cert.frame_ReferenceIdeal := fun m g _ =>
  (θ_run Cert.ReferenceIdeal.defs _ _).mono (fun _ h c => (h c).2) (Cert.ReferenceIdeal.Value.run (F := Ideal) m g)

/-- Both programs end with the same result: the kernel's at the last fold value of its result buffer, the
    reference's at its composed term of the arguments, and the two are equal under the precondition. -/
theorem algebraic : Cert.algebraic_KernelIdeal_ReferenceIdeal := by
  intro m g m' g' hpre hagree
  refine ⟨fun c => Cert.KernelIdeal.Reg.U19 m c (Proc.devRef .tc Cert.KernelIdeal.main_v57), Cert.KernelIdeal.Reg.run_value (F := Ideal) m g, ?_⟩
  refine (θ_run Cert.ReferenceIdeal.defs _ _).mono (fun _ h c => ⟨(h c).1.trans ?_, (h c).2⟩)
    (Cert.ReferenceIdeal.Value.run (F := Ideal) m' g')
  rw [Cert.ReferenceIdeal.Read.val_main_v105_eq]
  obtain ⟨h0, h1, h2, h3, h4, h5, h6, h7, h8, h9, h10, h11⟩ := hagree c
  rw [h0, h1, h2, h3, h4, h5, h6, h7, h8, h9, h10, h11]
  exact (Cert.Bridge.result_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
